-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x26x128x128 : Shape := ⟨4, ![64, 26, 128, 128]⟩
abbrev S64x26x64x64 : Shape := ⟨4, ![64, 26, 64, 64]⟩
abbrev S64x26x32x32 : Shape := ⟨4, ![64, 26, 32, 32]⟩
abbrev S64x26x16x16 : Shape := ⟨4, ![64, 26, 16, 16]⟩
abbrev S64x26 : Shape := ⟨2, ![64, 26]⟩
abbrev S64x8x2 : Shape := ⟨3, ![64, 8, 2]⟩
abbrev S78x39 : Shape := ⟨2, ![78, 39]⟩
abbrev S39 : Shape := ⟨1, ![39]⟩
abbrev S39x26 : Shape := ⟨2, ![39, 26]⟩
abbrev S26 : Shape := ⟨1, ![26]⟩
abbrev S_ : Shape := ⟨0, ![]⟩

class Facts : Prop where
  bcast_S_S64x26x128x128 : S_.BroadcastsInDim S64x26x128x128 (![] : Fin 0 → Fin S64x26x128x128.rank)
  reducesTo_S64x26x128x128_S_d0_1_2_3 : S64x26x128x128.ReducesTo [0, 1, 2, 3] S_
  h_S_ : 0 < S_.numel
  bcast_S_S64x26x64x64 : S_.BroadcastsInDim S64x26x64x64 (![] : Fin 0 → Fin S64x26x64x64.rank)
  reducesTo_S64x26x64x64_S_d0_1_2_3 : S64x26x64x64.ReducesTo [0, 1, 2, 3] S_
  bcast_S_S64x26x32x32 : S_.BroadcastsInDim S64x26x32x32 (![] : Fin 0 → Fin S64x26x32x32.rank)
  reducesTo_S64x26x32x32_S_d0_1_2_3 : S64x26x32x32.ReducesTo [0, 1, 2, 3] S_
  bcast_S_S64x26x16x16 : S_.BroadcastsInDim S64x26x16x16 (![] : Fin 0 → Fin S64x26x16x16.rank)
  reducesTo_S64x26x16x16_S_d0_1_2_3 : S64x26x16x16.ReducesTo [0, 1, 2, 3] S_
  bcast_S_S64x26 : S_.BroadcastsInDim S64x26 (![] : Fin 0 → Fin S64x26.rank)
  reducesTo_S64x26_S_d0_1 : S64x26.ReducesTo [0, 1] S_
  bcast_S_S78x39 : S_.BroadcastsInDim S78x39 (![] : Fin 0 → Fin S78x39.rank)
  reducesTo_S78x39_S_d0_1 : S78x39.ReducesTo [0, 1] S_
  bcast_S_S39 : S_.BroadcastsInDim S39 (![] : Fin 0 → Fin S39.rank)
  reducesTo_S39_S_d0 : S39.ReducesTo [0] S_
  bcast_S_S39x26 : S_.BroadcastsInDim S39x26 (![] : Fin 0 → Fin S39x26.rank)
  reducesTo_S39x26_S_d0_1 : S39x26.ReducesTo [0, 1] S_
  bcast_S_S26 : S_.BroadcastsInDim S26 (![] : Fin 0 → Fin S26.rank)
  reducesTo_S26_S_d0 : S26.ReducesTo [0] S_
  bcast_S_S64x8x2 : S_.BroadcastsInDim S64x8x2 (![] : Fin 0 → Fin S64x8x2.rank)
  reducesTo_S64x8x2_S_d0_1_2 : S64x8x2.ReducesTo [0, 1, 2] S_

variable [Facts]

def fn_part4 {F : FTy → Type} [FloatOps F] (main_arg9 : IVec S64x8x2 32) (main_v62 : IVec S_ 1) (main_v67 : IVec S64x8x2 1) : IVec S_ 1 :=
  let main_c_26 : IVec S_ 1 := constantI S_ 1 1#1
  let main_v68 : IVec S_ 1 := (fun x v => Host.reduce IntOp.andi x v reducesTo_S64x8x2_S_d0_1_2 h_S_) main_v67 main_c_26
  let main_v69 : IVec S_ 1 := andi main_v62 main_v68
  let main_c_27 : IVec S_ 32 := constantI S_ 32 0#32
  let main_v70 : IVec S64x8x2 32 := broadcastInDim S64x8x2 ![] bcast_S_S64x8x2 main_c_27
  let main_v71 : IVec S64x8x2 1 := cmpi .sge main_arg9 main_v70
  let main_c_28 : IVec S_ 32 := constantI S_ 32 16#32
  let main_v72 : IVec S64x8x2 32 := broadcastInDim S64x8x2 ![] bcast_S_S64x8x2 main_c_28
  let main_v73 : IVec S64x8x2 1 := cmpi .slt main_arg9 main_v72
  let main_v74 : IVec S64x8x2 1 := andi main_v71 main_v73
  let main_c_29 : IVec S_ 1 := constantI S_ 1 1#1
  let main_v75 : IVec S_ 1 := (fun x v => Host.reduce IntOp.andi x v reducesTo_S64x8x2_S_d0_1_2 h_S_) main_v74 main_c_29
  let main_v76 : IVec S_ 1 := andi main_v69 main_v75
  main_v76

def fn_part3 {F : FTy → Type} [FloatOps F] (main_arg6 : IVec S64x8x2 32) (main_arg7 : IVec S64x8x2 32) (main_arg8 : IVec S64x8x2 32) (main_arg9 : IVec S64x8x2 32) (main_v48 : IVec S_ 1) (main_v50 : IVec S64x8x2 1) : IVec S_ 1 :=
  let main_c_19 : IVec S_ 32 := constantI S_ 32 128#32
  let main_v51 : IVec S64x8x2 32 := broadcastInDim S64x8x2 ![] bcast_S_S64x8x2 main_c_19
  let main_v52 : IVec S64x8x2 1 := cmpi .slt main_arg6 main_v51
  let main_v53 : IVec S64x8x2 1 := andi main_v50 main_v52
  let main_c_20 : IVec S_ 1 := constantI S_ 1 1#1
  let main_v54 : IVec S_ 1 := (fun x v => Host.reduce IntOp.andi x v reducesTo_S64x8x2_S_d0_1_2 h_S_) main_v53 main_c_20
  let main_v55 : IVec S_ 1 := andi main_v48 main_v54
  let main_c_21 : IVec S_ 32 := constantI S_ 32 0#32
  let main_v56 : IVec S64x8x2 32 := broadcastInDim S64x8x2 ![] bcast_S_S64x8x2 main_c_21
  let main_v57 : IVec S64x8x2 1 := cmpi .sge main_arg7 main_v56
  let main_c_22 : IVec S_ 32 := constantI S_ 32 64#32
  let main_v58 : IVec S64x8x2 32 := broadcastInDim S64x8x2 ![] bcast_S_S64x8x2 main_c_22
  let main_v59 : IVec S64x8x2 1 := cmpi .slt main_arg7 main_v58
  let main_v60 : IVec S64x8x2 1 := andi main_v57 main_v59
  let main_c_23 : IVec S_ 1 := constantI S_ 1 1#1
  let main_v61 : IVec S_ 1 := (fun x v => Host.reduce IntOp.andi x v reducesTo_S64x8x2_S_d0_1_2 h_S_) main_v60 main_c_23
  let main_v62 : IVec S_ 1 := andi main_v55 main_v61
  let main_c_24 : IVec S_ 32 := constantI S_ 32 0#32
  let main_v63 : IVec S64x8x2 32 := broadcastInDim S64x8x2 ![] bcast_S_S64x8x2 main_c_24
  let main_v64 : IVec S64x8x2 1 := cmpi .sge main_arg8 main_v63
  let main_c_25 : IVec S_ 32 := constantI S_ 32 32#32
  let main_v65 : IVec S64x8x2 32 := broadcastInDim S64x8x2 ![] bcast_S_S64x8x2 main_c_25
  let main_v66 : IVec S64x8x2 1 := cmpi .slt main_arg8 main_v65
  let main_v67 : IVec S64x8x2 1 := andi main_v64 main_v66
  fn_part4 (F := F) main_arg9 main_v62 main_v67

def fn_part2 {F : FTy → Type} [FloatOps F] (main_arg6 : IVec S64x8x2 32) (main_arg7 : IVec S64x8x2 32) (main_arg8 : IVec S64x8x2 32) (main_arg9 : IVec S64x8x2 32) (main_arg11 : FVec F S39 .f32) (main_arg12 : FVec F S39x26 .f32) (main_arg13 : FVec F S26 .f32) (main_v33 : IVec S_ 1) : IVec S_ 1 :=
  let main_v34 : FVec F S39 .f32 := Host.absf main_arg11
  let main_cst_12 : FVec F S_ .f32 := constant S_ .f32 0x7F800000#32
  let main_v35 : FVec F S39 .f32 := broadcastInDim S39 ![] bcast_S_S39 main_cst_12
  let main_v36 : IVec S39 1 := cmpf .olt main_v34 main_v35
  let main_c_13 : IVec S_ 1 := constantI S_ 1 1#1
  let main_v37 : IVec S_ 1 := (fun x v => Host.reduce IntOp.andi x v reducesTo_S39_S_d0 h_S_) main_v36 main_c_13
  let main_v38 : IVec S_ 1 := andi main_v33 main_v37
  let main_v39 : FVec F S39x26 .f32 := Host.absf main_arg12
  let main_cst_14 : FVec F S_ .f32 := constant S_ .f32 0x7F800000#32
  let main_v40 : FVec F S39x26 .f32 := broadcastInDim S39x26 ![] bcast_S_S39x26 main_cst_14
  let main_v41 : IVec S39x26 1 := cmpf .olt main_v39 main_v40
  let main_c_15 : IVec S_ 1 := constantI S_ 1 1#1
  let main_v42 : IVec S_ 1 := (fun x v => Host.reduce IntOp.andi x v reducesTo_S39x26_S_d0_1 h_S_) main_v41 main_c_15
  let main_v43 : IVec S_ 1 := andi main_v38 main_v42
  let main_v44 : FVec F S26 .f32 := Host.absf main_arg13
  let main_cst_16 : FVec F S_ .f32 := constant S_ .f32 0x7F800000#32
  let main_v45 : FVec F S26 .f32 := broadcastInDim S26 ![] bcast_S_S26 main_cst_16
  let main_v46 : IVec S26 1 := cmpf .olt main_v44 main_v45
  let main_c_17 : IVec S_ 1 := constantI S_ 1 1#1
  let main_v47 : IVec S_ 1 := (fun x v => Host.reduce IntOp.andi x v reducesTo_S26_S_d0 h_S_) main_v46 main_c_17
  let main_v48 : IVec S_ 1 := andi main_v43 main_v47
  let main_c_18 : IVec S_ 32 := constantI S_ 32 0#32
  let main_v49 : IVec S64x8x2 32 := broadcastInDim S64x8x2 ![] bcast_S_S64x8x2 main_c_18
  let main_v50 : IVec S64x8x2 1 := cmpi .sge main_arg6 main_v49
  fn_part3 (F := F) main_arg6 main_arg7 main_arg8 main_arg9 main_v48 main_v50

def fn_part1 {F : FTy → Type} [FloatOps F] (main_arg4 : FVec F S64x26 .f32) (main_arg5 : FVec F S64x26 .f32) (main_arg6 : IVec S64x8x2 32) (main_arg7 : IVec S64x8x2 32) (main_arg8 : IVec S64x8x2 32) (main_arg9 : IVec S64x8x2 32) (main_arg10 : FVec F S78x39 .f32) (main_arg11 : FVec F S39 .f32) (main_arg12 : FVec F S39x26 .f32) (main_arg13 : FVec F S26 .f32) (main_v13 : IVec S_ 1) (main_v16 : IVec S64x26x16x16 1) : IVec S_ 1 :=
  let main_c_5 : IVec S_ 1 := constantI S_ 1 1#1
  let main_v17 : IVec S_ 1 := (fun x v => Host.reduce IntOp.andi x v reducesTo_S64x26x16x16_S_d0_1_2_3 h_S_) main_v16 main_c_5
  let main_v18 : IVec S_ 1 := andi main_v13 main_v17
  let main_v19 : FVec F S64x26 .f32 := Host.absf main_arg4
  let main_cst_6 : FVec F S_ .f32 := constant S_ .f32 0x7F800000#32
  let main_v20 : FVec F S64x26 .f32 := broadcastInDim S64x26 ![] bcast_S_S64x26 main_cst_6
  let main_v21 : IVec S64x26 1 := cmpf .olt main_v19 main_v20
  let main_c_7 : IVec S_ 1 := constantI S_ 1 1#1
  let main_v22 : IVec S_ 1 := (fun x v => Host.reduce IntOp.andi x v reducesTo_S64x26_S_d0_1 h_S_) main_v21 main_c_7
  let main_v23 : IVec S_ 1 := andi main_v18 main_v22
  let main_v24 : FVec F S64x26 .f32 := Host.absf main_arg5
  let main_cst_8 : FVec F S_ .f32 := constant S_ .f32 0x7F800000#32
  let main_v25 : FVec F S64x26 .f32 := broadcastInDim S64x26 ![] bcast_S_S64x26 main_cst_8
  let main_v26 : IVec S64x26 1 := cmpf .olt main_v24 main_v25
  let main_c_9 : IVec S_ 1 := constantI S_ 1 1#1
  let main_v27 : IVec S_ 1 := (fun x v => Host.reduce IntOp.andi x v reducesTo_S64x26_S_d0_1 h_S_) main_v26 main_c_9
  let main_v28 : IVec S_ 1 := andi main_v23 main_v27
  let main_v29 : FVec F S78x39 .f32 := Host.absf main_arg10
  let main_cst_10 : FVec F S_ .f32 := constant S_ .f32 0x7F800000#32
  let main_v30 : FVec F S78x39 .f32 := broadcastInDim S78x39 ![] bcast_S_S78x39 main_cst_10
  let main_v31 : IVec S78x39 1 := cmpf .olt main_v29 main_v30
  let main_c_11 : IVec S_ 1 := constantI S_ 1 1#1
  let main_v32 : IVec S_ 1 := (fun x v => Host.reduce IntOp.andi x v reducesTo_S78x39_S_d0_1 h_S_) main_v31 main_c_11
  let main_v33 : IVec S_ 1 := andi main_v28 main_v32
  fn_part2 (F := F) main_arg6 main_arg7 main_arg8 main_arg9 main_arg11 main_arg12 main_arg13 main_v33

def fn {F : FTy → Type} [FloatOps F] (main_arg0 : FVec F S64x26x128x128 .f32) (main_arg1 : FVec F S64x26x64x64 .f32) (main_arg2 : FVec F S64x26x32x32 .f32) (main_arg3 : FVec F S64x26x16x16 .f32) (main_arg4 : FVec F S64x26 .f32) (main_arg5 : FVec F S64x26 .f32) (main_arg6 : IVec S64x8x2 32) (main_arg7 : IVec S64x8x2 32) (main_arg8 : IVec S64x8x2 32) (main_arg9 : IVec S64x8x2 32) (main_arg10 : FVec F S78x39 .f32) (main_arg11 : FVec F S39 .f32) (main_arg12 : FVec F S39x26 .f32) (main_arg13 : FVec F S26 .f32) : IVec S_ 1 :=
  let main_v0 : FVec F S64x26x128x128 .f32 := Host.absf main_arg0
  let main_cst : FVec F S_ .f32 := constant S_ .f32 0x7F800000#32
  let main_v1 : FVec F S64x26x128x128 .f32 := broadcastInDim S64x26x128x128 ![] bcast_S_S64x26x128x128 main_cst
  let main_v2 : IVec S64x26x128x128 1 := cmpf .olt main_v0 main_v1
  let main_c : IVec S_ 1 := constantI S_ 1 1#1
  let main_v3 : IVec S_ 1 := (fun x v => Host.reduce IntOp.andi x v reducesTo_S64x26x128x128_S_d0_1_2_3 h_S_) main_v2 main_c
  let main_v4 : FVec F S64x26x64x64 .f32 := Host.absf main_arg1
  let main_cst_0 : FVec F S_ .f32 := constant S_ .f32 0x7F800000#32
  let main_v5 : FVec F S64x26x64x64 .f32 := broadcastInDim S64x26x64x64 ![] bcast_S_S64x26x64x64 main_cst_0
  let main_v6 : IVec S64x26x64x64 1 := cmpf .olt main_v4 main_v5
  let main_c_1 : IVec S_ 1 := constantI S_ 1 1#1
  let main_v7 : IVec S_ 1 := (fun x v => Host.reduce IntOp.andi x v reducesTo_S64x26x64x64_S_d0_1_2_3 h_S_) main_v6 main_c_1
  let main_v8 : IVec S_ 1 := andi main_v3 main_v7
  let main_v9 : FVec F S64x26x32x32 .f32 := Host.absf main_arg2
  let main_cst_2 : FVec F S_ .f32 := constant S_ .f32 0x7F800000#32
  let main_v10 : FVec F S64x26x32x32 .f32 := broadcastInDim S64x26x32x32 ![] bcast_S_S64x26x32x32 main_cst_2
  let main_v11 : IVec S64x26x32x32 1 := cmpf .olt main_v9 main_v10
  let main_c_3 : IVec S_ 1 := constantI S_ 1 1#1
  let main_v12 : IVec S_ 1 := (fun x v => Host.reduce IntOp.andi x v reducesTo_S64x26x32x32_S_d0_1_2_3 h_S_) main_v11 main_c_3
  let main_v13 : IVec S_ 1 := andi main_v8 main_v12
  let main_v14 : FVec F S64x26x16x16 .f32 := Host.absf main_arg3
  let main_cst_4 : FVec F S_ .f32 := constant S_ .f32 0x7F800000#32
  let main_v15 : FVec F S64x26x16x16 .f32 := broadcastInDim S64x26x16x16 ![] bcast_S_S64x26x16x16 main_cst_4
  let main_v16 : IVec S64x26x16x16 1 := cmpf .olt main_v14 main_v15
  fn_part1 (F := F) main_arg4 main_arg5 main_arg6 main_arg7 main_arg8 main_arg9 main_arg10 main_arg11 main_arg12 main_arg13 main_v13 main_v16
-- ==== Kernel.lean ====
abbrev S64x26x128x128 : Shape := ⟨4, ![64, 26, 128, 128]⟩
abbrev S64x26x64x64 : Shape := ⟨4, ![64, 26, 64, 64]⟩
abbrev S64x26x32x32 : Shape := ⟨4, ![64, 26, 32, 32]⟩
abbrev S64x26x16x16 : Shape := ⟨4, ![64, 26, 16, 16]⟩
abbrev S64x26 : Shape := ⟨2, ![64, 26]⟩
abbrev S64x8x2 : Shape := ⟨3, ![64, 8, 2]⟩
abbrev S78x39 : Shape := ⟨2, ![78, 39]⟩
abbrev S39 : Shape := ⟨1, ![39]⟩
abbrev S39x26 : Shape := ⟨2, ![39, 26]⟩
abbrev S26 : Shape := ⟨1, ![26]⟩
abbrev S64x1x26 : Shape := ⟨3, ![64, 1, 26]⟩
abbrev S1024 : Shape := ⟨1, ![1024]⟩
abbrev S64x128 : Shape := ⟨2, ![64, 128]⟩
abbrev S8x26x128x128 : Shape := ⟨4, ![8, 26, 128, 128]⟩
abbrev S8x26x64x64 : Shape := ⟨4, ![8, 26, 64, 64]⟩
abbrev S8x26x32x32 : Shape := ⟨4, ![8, 26, 32, 32]⟩
abbrev S8x26x16x16 : Shape := ⟨4, ![8, 26, 16, 16]⟩
abbrev S8x1x26 : Shape := ⟨3, ![8, 1, 26]⟩
abbrev S8x128 : Shape := ⟨2, ![8, 128]⟩
abbrev S1x26x128x128 : Shape := ⟨4, ![1, 26, 128, 128]⟩
abbrev S26x128x128 : Shape := ⟨3, ![26, 128, 128]⟩
abbrev S128x128 : Shape := ⟨2, ![128, 128]⟩
abbrev S1 : Shape := ⟨1, ![1]⟩
abbrev S1x128x128 : Shape := ⟨3, ![1, 128, 128]⟩
abbrev S26x128 : Shape := ⟨2, ![26, 128]⟩
abbrev S1x26x64x64 : Shape := ⟨4, ![1, 26, 64, 64]⟩
abbrev S26x64x64 : Shape := ⟨3, ![26, 64, 64]⟩
abbrev S64x64 : Shape := ⟨2, ![64, 64]⟩
abbrev S1x64x64 : Shape := ⟨3, ![1, 64, 64]⟩
abbrev S26x64 : Shape := ⟨2, ![26, 64]⟩
abbrev S1x26x32x32 : Shape := ⟨4, ![1, 26, 32, 32]⟩
abbrev S26x32x32 : Shape := ⟨3, ![26, 32, 32]⟩
abbrev S32x32 : Shape := ⟨2, ![32, 32]⟩
abbrev S1x32x32 : Shape := ⟨3, ![1, 32, 32]⟩
abbrev S26x32 : Shape := ⟨2, ![26, 32]⟩
abbrev S1x26x16x16 : Shape := ⟨4, ![1, 26, 16, 16]⟩
abbrev S26x16x16 : Shape := ⟨3, ![26, 16, 16]⟩
abbrev S16x16 : Shape := ⟨2, ![16, 16]⟩
abbrev S1x16x16 : Shape := ⟨3, ![1, 16, 16]⟩
abbrev S26x16 : Shape := ⟨2, ![26, 16]⟩
abbrev S1x1x26 : Shape := ⟨3, ![1, 1, 26]⟩
abbrev S50 : Shape := ⟨1, ![50]⟩
abbrev S128 : Shape := ⟨1, ![128]⟩
abbrev S1x128 : Shape := ⟨2, ![1, 128]⟩
abbrev S8x78 : Shape := ⟨2, ![8, 78]⟩
abbrev S8x39 : Shape := ⟨2, ![8, 39]⟩
abbrev S1x39 : Shape := ⟨2, ![1, 39]⟩
abbrev S8x26 : Shape := ⟨2, ![8, 26]⟩
abbrev S1x26 : Shape := ⟨2, ![1, 26]⟩
abbrev S8x102 : Shape := ⟨2, ![8, 102]⟩

abbrev nBuf : Space → Nat
  | .hbm => 18
  | .vmem => 19
  | .smem => 4
  | _ => 0

abbrev bufTy : (tb : Table) → Fin (tcTables nBuf tb) → BufTy
  | .hbm, ⟨0, _⟩ => ⟨S64x26x128x128, .f32⟩
  | .hbm, ⟨1, _⟩ => ⟨S64x26x64x64, .f32⟩
  | .hbm, ⟨2, _⟩ => ⟨S64x26x32x32, .f32⟩
  | .hbm, ⟨3, _⟩ => ⟨S64x26x16x16, .f32⟩
  | .hbm, ⟨4, _⟩ => ⟨S64x26, .f32⟩
  | .hbm, ⟨5, _⟩ => ⟨S64x26, .f32⟩
  | .hbm, ⟨6, _⟩ => ⟨S64x8x2, .i32⟩
  | .hbm, ⟨7, _⟩ => ⟨S64x8x2, .i32⟩
  | .hbm, ⟨8, _⟩ => ⟨S64x8x2, .i32⟩
  | .hbm, ⟨9, _⟩ => ⟨S64x8x2, .i32⟩
  | .hbm, ⟨10, _⟩ => ⟨S78x39, .f32⟩
  | .hbm, ⟨11, _⟩ => ⟨S39, .f32⟩
  | .hbm, ⟨12, _⟩ => ⟨S39x26, .f32⟩
  | .hbm, ⟨13, _⟩ => ⟨S26, .f32⟩
  | .hbm, ⟨14, _⟩ => ⟨S64x1x26, .f32⟩
  | .hbm, ⟨15, _⟩ => ⟨S64x1x26, .f32⟩
  | .hbm, ⟨16, _⟩ => ⟨S64x128, .f32⟩
  | .hbm, ⟨17, _⟩ => ⟨S64x26, .f32⟩
  | .local _ .vmem, ⟨0, _⟩ => ⟨S8x26x128x128, .f32⟩
  | .local _ .vmem, ⟨1, _⟩ => ⟨S8x26x128x128, .f32⟩
  | .local _ .vmem, ⟨2, _⟩ => ⟨S8x26x64x64, .f32⟩
  | .local _ .vmem, ⟨3, _⟩ => ⟨S8x26x64x64, .f32⟩
  | .local _ .vmem, ⟨4, _⟩ => ⟨S8x26x32x32, .f32⟩
  | .local _ .vmem, ⟨5, _⟩ => ⟨S8x26x32x32, .f32⟩
  | .local _ .vmem, ⟨6, _⟩ => ⟨S8x26x16x16, .f32⟩
  | .local _ .vmem, ⟨7, _⟩ => ⟨S8x26x16x16, .f32⟩
  | .local _ .vmem, ⟨8, _⟩ => ⟨S8x1x26, .f32⟩
  | .local _ .vmem, ⟨9, _⟩ => ⟨S8x1x26, .f32⟩
  | .local _ .vmem, ⟨10, _⟩ => ⟨S8x1x26, .f32⟩
  | .local _ .vmem, ⟨11, _⟩ => ⟨S8x1x26, .f32⟩
  | .local _ .vmem, ⟨12, _⟩ => ⟨S78x39, .f32⟩
  | .local _ .vmem, ⟨13, _⟩ => ⟨S39, .f32⟩
  | .local _ .vmem, ⟨14, _⟩ => ⟨S39x26, .f32⟩
  | .local _ .vmem, ⟨15, _⟩ => ⟨S26, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .smem, ⟨0, _⟩ => ⟨S1024, .i32⟩
  | .local _ .smem, ⟨1, _⟩ => ⟨S1024, .i32⟩
  | .local _ .smem, ⟨2, _⟩ => ⟨S1024, .i32⟩
  | .local _ .smem, ⟨3, _⟩ => ⟨S1024, .i32⟩
  | _, _ => ⟨S64x26x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v6 : Ref sig .tc := ⟨.hbm, 16, rfl⟩
abbrev main_v7 : Ref sig .tc := ⟨.hbm, 17, rfl⟩
abbrev main_v2 : Ref sig .tc := ⟨.smem, 0, rfl⟩
abbrev main_v3 : Ref sig .tc := ⟨.smem, 1, rfl⟩
abbrev main_v4 : Ref sig .tc := ⟨.smem, 2, rfl⟩
abbrev main_v5 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨4, ![main_v2.idx, main_v3.idx, main_v4.idx, main_v5.idx], fun | 0 => main_v2.names | 1 => main_v3.names | 2 => main_v4.names | 3 => main_v5.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_off1 (k0_t1 : Fin k0_t1_loop.trips) : Fin 4 → Nat :=
  let c0_i32 : BitVec 32 := 0#32
  let c1_i32 : BitVec 32 := 1#32
  let arg17 : BitVec 32 := Scf.iv c0_i32 c1_i32 k0_t1
  let v27 : Index := Scalar.indexCast arg17
  let c0_15 : Index := 0#32
  let c0_16 : Index := 0#32
  let c0_17 : Index := 0#32
  ![v27.toNat, 0, 0, 0]
def k0_off2 (i : grid0.Coords) (k0_t1 : Fin k0_t1_loop.trips) (c0_i32_19 : BitVec 32) (c0_i32_20 : BitVec 32) : Fin 1 → Nat :=
  let arg0 : BitVec 32 := BitVec.ofNat 32 (i 0).val
  let c8_i32_13 : BitVec 32 := 8#32
  let v24 : BitVec 32 := Scalar.muli arg0 c8_i32_13
  let c0_i32 : BitVec 32 := 0#32
  let c1_i32 : BitVec 32 := 1#32
  let arg17 : BitVec 32 := Scf.iv c0_i32 c1_i32 k0_t1
  let v25 : BitVec 32 := Scalar.addi v24 arg17
  let c16_i32 : BitVec 32 := 16#32
  let v33 : BitVec 32 := Scalar.muli v25 c16_i32
  let v34 : BitVec 32 := Scalar.addi v33 c0_i32_19
  let v35 : BitVec 32 := Scalar.addi v34 c0_i32_20
  let v36 : Index := Scalar.indexCast v35
  ![v36.toNat]
def k0_off3 (k0_t1 : Fin k0_t1_loop.trips) : Fin 4 → Nat :=
  let c0_i32 : BitVec 32 := 0#32
  let c1_i32 : BitVec 32 := 1#32
  let arg17 : BitVec 32 := Scf.iv c0_i32 c1_i32 k0_t1
  let v169 : Index := Scalar.indexCast arg17
  let c0_47 : Index := 0#32
  let c0_48 : Index := 0#32
  let c0_49 : Index := 0#32
  ![v169.toNat, 0, 0, 0]
def k0_off4 (k0_t1 : Fin k0_t1_loop.trips) : Fin 4 → Nat :=
  let c0_i32 : BitVec 32 := 0#32
  let c1_i32 : BitVec 32 := 1#32
  let arg17 : BitVec 32 := Scf.iv c0_i32 c1_i32 k0_t1
  let v311 : Index := Scalar.indexCast arg17
  let c0_86 : Index := 0#32
  let c0_87 : Index := 0#32
  let c0_88 : Index := 0#32
  ![v311.toNat, 0, 0, 0]
def k0_off5 (k0_t1 : Fin k0_t1_loop.trips) : Fin 4 → Nat :=
  let c0_i32 : BitVec 32 := 0#32
  let c1_i32 : BitVec 32 := 1#32
  let arg17 : BitVec 32 := Scf.iv c0_i32 c1_i32 k0_t1
  let v453 : Index := Scalar.indexCast arg17
  let c0_125 : Index := 0#32
  let c0_126 : Index := 0#32
  let c0_127 : Index := 0#32
  ![v453.toNat, 0, 0, 0]
def k0_off6 (k0_t1 : Fin k0_t1_loop.trips) : Fin 3 → Nat :=
  let c0_i32 : BitVec 32 := 0#32
  let c1_i32 : BitVec 32 := 1#32
  let arg17 : BitVec 32 := Scf.iv c0_i32 c1_i32 k0_t1
  let v597 : Index := Scalar.indexCast arg17
  let c0_165 : Index := 0#32
  let c0_166 : Index := 0#32
  ![v597.toNat, 0, 0]
def k0_off7 (k0_t1 : Fin k0_t1_loop.trips) : Fin 2 → Nat :=
  let c0_i32 : BitVec 32 := 0#32
  let c1_i32 : BitVec 32 := 1#32
  let arg17 : BitVec 32 := Scf.iv c0_i32 c1_i32 k0_t1
  let v605 : Index := Scalar.indexCast arg17
  let c0_170 : Index := 0#32
  ![v605.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x26x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x26x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x26x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x26x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x26 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x26 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S78x39 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S39 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S39x26 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S26 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S64x26_S64x1x26 : S64x26.ShapeCasts S64x1x26
  shapeCasts_S64x8x2_S1024 : S64x8x2.ShapeCasts S1024
  inb_S78x39_S78x39_0_0 : ∀ a, (![0, 0] : Fin 2 → Nat) a + S78x39.size a ≤ S78x39.size a
  h_S78x39 : 0 < S78x39.numel
  bitsLt_bf16_f32 : FTy.bits .bf16 < FTy.bits .f32
  inb_S39x26_S39x26_0_0 : ∀ a, (![0, 0] : Fin 2 → Nat) a + S39x26.size a ≤ S39x26.size a
  h_S39x26 : 0 < S39x26.numel
  inb_S39_S39_0 : ∀ a, (![0] : Fin 1 → Nat) a + S39.size a ≤ S39.size a
  h_S39 : 0 < S39.numel
  inb_S26_S26_0 : ∀ a, (![0] : Fin 1 → Nat) a + S26.size a ≤ S26.size a
  h_S26 : 0 < S26.numel
  h_S1x26x128x128 : 0 < S1x26x128x128.numel
  shapeCasts_S1x26x128x128_S26x128x128 : S1x26x128x128.ShapeCasts S26x128x128
  iota_S128x128_d0_w32 : S128x128.Iotas .tc 32 [0]
  iota_S128x128_d1_w32 : S128x128.Iotas .tc 32 [1]
  numel1_S1 : S1.numel = 1
  natLt_1_32 : 1 < 32
  shapeCasts_S128x128_S1x128x128 : S128x128.ShapeCasts S1x128x128
  broadcasts_S1x128x128_S26x128x128 : S1x128x128.Broadcasts S26x128x128
  reduces_S26x128x128_S26x128 : S26x128x128.Reduces [2] S26x128
  reduces_S26x128_S26 : S26x128.Reduces [1] S26
  h_S1x26x64x64 : 0 < S1x26x64x64.numel
  shapeCasts_S1x26x64x64_S26x64x64 : S1x26x64x64.ShapeCasts S26x64x64
  iota_S64x64_d0_w32 : S64x64.Iotas .tc 32 [0]
  iota_S64x64_d1_w32 : S64x64.Iotas .tc 32 [1]
  shapeCasts_S64x64_S1x64x64 : S64x64.ShapeCasts S1x64x64
  broadcasts_S1x64x64_S26x64x64 : S1x64x64.Broadcasts S26x64x64
  reduces_S26x64x64_S26x64 : S26x64x64.Reduces [2] S26x64
  reduces_S26x64_S26 : S26x64.Reduces [1] S26
  h_S1x26x32x32 : 0 < S1x26x32x32.numel
  shapeCasts_S1x26x32x32_S26x32x32 : S1x26x32x32.ShapeCasts S26x32x32
  iota_S32x32_d0_w32 : S32x32.Iotas .tc 32 [0]
  iota_S32x32_d1_w32 : S32x32.Iotas .tc 32 [1]
  shapeCasts_S32x32_S1x32x32 : S32x32.ShapeCasts S1x32x32
  broadcasts_S1x32x32_S26x32x32 : S1x32x32.Broadcasts S26x32x32
  reduces_S26x32x32_S26x32 : S26x32x32.Reduces [2] S26x32
  reduces_S26x32_S26 : S26x32.Reduces [1] S26
  h_S1x26x16x16 : 0 < S1x26x16x16.numel
  shapeCasts_S1x26x16x16_S26x16x16 : S1x26x16x16.ShapeCasts S26x16x16
  iota_S16x16_d0_w32 : S16x16.Iotas .tc 32 [0]
  iota_S16x16_d1_w32 : S16x16.Iotas .tc 32 [1]
  shapeCasts_S16x16_S1x16x16 : S16x16.ShapeCasts S1x16x16
  broadcasts_S1x16x16_S26x16x16 : S1x16x16.Broadcasts S26x16x16
  reduces_S26x16x16_S26x16 : S26x16x16.Reduces [2] S26x16
  reduces_S26x16_S26 : S26x16.Reduces [1] S26
  h_S1x1x26 : 0 < S1x1x26.numel
  shapeCasts_S1x1x26_S26 : S1x1x26.ShapeCasts S26
  concatenates_S26_S26_S26_S50_S128_d0 : Shape.Concatenates [S26, S26, S26, S50] S128 0
  h_S1x128 : 0 < S1x128.numel
  shapeCasts_S1x128_S128 : S1x128.ShapeCasts S128
  shapeCasts_S128_S1x128 : S128.ShapeCasts S1x128
  inb_S8x128_S8x128_0_0 : ∀ a, (![0, 0] : Fin 2 → Nat) a + S8x128.size a ≤ S8x128.size a
  h_S8x128 : 0 < S8x128.numel
  slices_S8x128_o0_0_S8x78 : S8x128.Slices ![0, 0] S8x78
  shapeCasts_S39_S1x39 : S39.ShapeCasts S1x39
  broadcasts_S1x39_S8x39 : S1x39.Broadcasts S8x39
  shapeCasts_S26_S1x26 : S26.ShapeCasts S1x26
  broadcasts_S1x26_S8x26 : S1x26.Broadcasts S8x26
  concatenates_S8x26_S8x102_S8x128_d1 : Shape.Concatenates [S8x26, S8x102] S8x128 1
  slices_S64x128_S64x26_0_0 : S64x128.Slices ![0, 0] S64x26
  dot_S8x78_S78x39_S8x39_1_0_0_1_n_n_wf : DotDims.WF S8x78 S78x39 S8x39 [1] [0] [0] [1] [] []
  dot_S8x39_S39x26_S8x26_1_0_0_1_n_n_wf : DotDims.WF S8x39 S39x26 S8x26 [1] [0] [0] [1] [] []
  hrank0 : 0 < grid0.rank
  k0_t1_ok : k0_t1_loop.OK
  k0_off1_inb : ∀ k0_t1 : Fin k0_t1_loop.trips, ∀ a, (k0_off1 k0_t1) a + S1x26x128x128.size a ≤ S8x26x128x128.size a
  k0_off2_inb : ∀ (i : grid0.Coords) (k0_t1 : Fin k0_t1_loop.trips), ∀ (r₁ : Fin 8) (r₂ : Fin 2), ∀ a, (k0_off2 i k0_t1 (BitVec.ofNat 32 (2 * r₁.val)) (BitVec.ofNat 32 r₂.val)) a + S1.size a ≤ S1024.size a
  k0_off3_inb : ∀ k0_t1 : Fin k0_t1_loop.trips, ∀ a, (k0_off3 k0_t1) a + S1x26x64x64.size a ≤ S8x26x64x64.size a
  k0_off4_inb : ∀ k0_t1 : Fin k0_t1_loop.trips, ∀ a, (k0_off4 k0_t1) a + S1x26x32x32.size a ≤ S8x26x32x32.size a
  k0_off5_inb : ∀ k0_t1 : Fin k0_t1_loop.trips, ∀ a, (k0_off5 k0_t1) a + S1x26x16x16.size a ≤ S8x26x16x16.size a
  k0_off6_inb : ∀ k0_t1 : Fin k0_t1_loop.trips, ∀ a, (k0_off6 k0_t1) a + S1x1x26.size a ≤ S8x1x26.size a
  k0_off7_inb : ∀ k0_t1 : Fin k0_t1_loop.trips, ∀ a, (k0_off7 k0_t1) a + S1x128.size a ≤ S8x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x26x128x128.size a ≤ S64x26x128x128.size a
  hwx0_0 : ∀ i : grid0.Coords, EltTy.bits .f32 = 32 ∨ (Rect.block (s := S64x26x128x128) S8x26x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x26x64x64.size a ≤ S64x26x64x64.size a
  hwx0_1 : ∀ i : grid0.Coords, EltTy.bits .f32 = 32 ∨ (Rect.block (s := S64x26x64x64) S8x26x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x26x32x32.size a ≤ S64x26x32x32.size a
  hwx0_2 : ∀ i : grid0.Coords, EltTy.bits .f32 = 32 ∨ (Rect.block (s := S64x26x32x32) S8x26x32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x26x16x16.size a ≤ S64x26x16x16.size a
  hwx0_3 : ∀ i : grid0.Coords, EltTy.bits .f32 = 32 ∨ (Rect.block (s := S64x26x16x16) S8x26x16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x26.size a ≤ S64x1x26.size a
  hwx0_4 : ∀ i : grid0.Coords, EltTy.bits .f32 = 32 ∨ (Rect.block (s := S64x1x26) S8x1x26.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1x26.size a ≤ S64x1x26.size a
  hwx0_5 : ∀ i : grid0.Coords, EltTy.bits .f32 = 32 ∨ (Rect.block (s := S64x1x26) S8x1x26.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S78x39.size a ≤ S78x39.size a
  hwx0_6 : ∀ i : grid0.Coords, EltTy.bits .f32 = 32 ∨ (Rect.block (s := S78x39) S78x39.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S39.size a ≤ S39.size a
  hwx0_7 : ∀ i : grid0.Coords, EltTy.bits .f32 = 32 ∨ (Rect.block (s := S39) S39.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S39x26.size a ≤ S39x26.size a
  hwx0_8 : ∀ i : grid0.Coords, EltTy.bits .f32 = 32 ∨ (Rect.block (s := S39x26) S39x26.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S26.size a ≤ S26.size a
  hwx0_9 : ∀ i : grid0.Coords, EltTy.bits .f32 = 32 ∨ (Rect.block (s := S26) S26.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S64x128.size a
  hwx0_10 : ∀ i : grid0.Coords, EltTy.bits .f32 = 32 ∨ (Rect.block (s := S64x128) S8x128.size (cc0_transform_10 i) (hinb0_10 i)).WholeWords (EltTy.packing .f32)

variable [Facts₀]

def dot_S8x78_S78x39_S8x39_1_0_0_1_n_n : DotDims S8x78 S78x39 S8x39 where
  lhsContracting := [1]
  rhsContracting := [0]
  lhsNonContracting := [0]
  rhsNonContracting := [1]
  lhsBatch := []
  rhsBatch := []
  wf := dot_S8x78_S78x39_S8x39_1_0_0_1_n_n_wf
def dot_S8x39_S39x26_S8x26_1_0_0_1_n_n : DotDims S8x39 S39x26 S8x26 where
  lhsContracting := [1]
  rhsContracting := [0]
  lhsNonContracting := [0]
  rhsNonContracting := [1]
  lhsBatch := []
  rhsBatch := []
  wf := dot_S8x39_S39x26_S8x26_1_0_0_1_n_n_wf

abbrev spec0_0 : Pipeline.WinSpec sig grid0.rank :=
  Pipeline.WinSpec.ofSpec (Memref.whole main_arg0) S8x26x128x128.size reads0_0 false false 2 stage0_0 sem0_0 nbuf0_0 hstage0_0

abbrev spec0_1 : Pipeline.WinSpec sig grid0.rank :=
  Pipeline.WinSpec.ofSpec (Memref.whole main_arg1) S8x26x64x64.size reads0_1 false false 2 stage0_1 sem0_1 nbuf0_1 hstage0_1

abbrev spec0_2 : Pipeline.WinSpec sig grid0.rank :=
  Pipeline.WinSpec.ofSpec (Memref.whole main_arg2) S8x26x32x32.size reads0_2 false false 2 stage0_2 sem0_2 nbuf0_2 hstage0_2

abbrev spec0_3 : Pipeline.WinSpec sig grid0.rank :=
  Pipeline.WinSpec.ofSpec (Memref.whole main_arg3) S8x26x16x16.size reads0_3 false false 2 stage0_3 sem0_3 nbuf0_3 hstage0_3

abbrev spec0_4 : Pipeline.WinSpec sig grid0.rank :=
  Pipeline.WinSpec.ofSpec (Memref.whole main_v0) S8x1x26.size reads0_4 false false 2 stage0_4 sem0_4 nbuf0_4 hstage0_4

abbrev spec0_5 : Pipeline.WinSpec sig grid0.rank :=
  Pipeline.WinSpec.ofSpec (Memref.whole main_v1) S8x1x26.size reads0_5 false false 2 stage0_5 sem0_5 nbuf0_5 hstage0_5

abbrev spec0_6 : Pipeline.WinSpec sig grid0.rank :=
  Pipeline.WinSpec.ofSpec (Memref.whole main_arg10) S78x39.size reads0_6 false true 1 stage0_6 sem0_6 nbuf0_6 hstage0_6

abbrev spec0_7 : Pipeline.WinSpec sig grid0.rank :=
  Pipeline.WinSpec.ofSpec (Memref.whole main_arg11) S39.size reads0_7 false true 1 stage0_7 sem0_7 nbuf0_7 hstage0_7

abbrev spec0_8 : Pipeline.WinSpec sig grid0.rank :=
  Pipeline.WinSpec.ofSpec (Memref.whole main_arg12) S39x26.size reads0_8 false true 1 stage0_8 sem0_8 nbuf0_8 hstage0_8

abbrev spec0_9 : Pipeline.WinSpec sig grid0.rank :=
  Pipeline.WinSpec.ofSpec (Memref.whole main_arg13) S26.size reads0_9 false true 1 stage0_9 sem0_9 nbuf0_9 hstage0_9

abbrev spec0_10 : Pipeline.WinSpec sig grid0.rank :=
  Pipeline.WinSpec.ofSpec (Memref.whole main_v6) S8x128.size reads0_10 true false 2 stage0_10 sem0_10 nbuf0_10 hstage0_10

abbrev spec0 : Fin 11 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | ⟨_ + 11, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | ⟨_ + 11, h⟩ => absurd h (Nat.not_lt.2 (Nat.le_add_left _ _))
abbrev ix0 (pf : pre0.Contents (Elt F)) : (w : Fin 11) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | 10 => cc0_transform_10 | ⟨_ + 11, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | ⟨_ + 11, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | ⟨_ + 11, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | ⟨_ + 11, h⟩ => absurd h (Nat.not_lt.2 (Nat.le_add_left _ _))

class Facts : Prop extends Facts₀ where
  harr0 : ∀ w, (spec0 w).arr.IsWhole

variable [Facts]
-- ==== ReferenceIdeal.lean ====
abbrev S64x26x128x128 : Shape := ⟨4, ![64, 26, 128, 128]⟩
abbrev S64x26x64x64 : Shape := ⟨4, ![64, 26, 64, 64]⟩
abbrev S64x26x32x32 : Shape := ⟨4, ![64, 26, 32, 32]⟩
abbrev S64x26x16x16 : Shape := ⟨4, ![64, 26, 16, 16]⟩
abbrev S64x26 : Shape := ⟨2, ![64, 26]⟩
abbrev S64x8x2 : Shape := ⟨3, ![64, 8, 2]⟩
abbrev S78x39 : Shape := ⟨2, ![78, 39]⟩
abbrev S39 : Shape := ⟨1, ![39]⟩
abbrev S39x26 : Shape := ⟨2, ![39, 26]⟩
abbrev S26 : Shape := ⟨1, ![26]⟩
abbrev S64x128x128x26 : Shape := ⟨4, ![64, 128, 128, 26]⟩
abbrev S64x8x1 : Shape := ⟨3, ![64, 8, 1]⟩
abbrev S64x8 : Shape := ⟨2, ![64, 8]⟩
abbrev S64 : Shape := ⟨1, ![64]⟩
abbrev S64x1 : Shape := ⟨2, ![64, 1]⟩
abbrev S_ : Shape := ⟨0, ![]⟩
abbrev S64x8x3 : Shape := ⟨3, ![64, 8, 3]⟩
abbrev S64x8x26 : Shape := ⟨3, ![64, 8, 26]⟩
abbrev S64x64x64x26 : Shape := ⟨4, ![64, 64, 64, 26]⟩
abbrev S64x32x32x26 : Shape := ⟨4, ![64, 32, 32, 26]⟩
abbrev S64x16x16x26 : Shape := ⟨4, ![64, 16, 16, 26]⟩
abbrev S64x78 : Shape := ⟨2, ![64, 78]⟩
abbrev S64x39 : Shape := ⟨2, ![64, 39]⟩
abbrev S1x39 : Shape := ⟨2, ![1, 39]⟩
abbrev S1x26 : Shape := ⟨2, ![1, 26]⟩

abbrev nBuf : Space → Nat
  | .hbm => 191
  | .vmem => 0
  | .smem => 0
  | _ => 0

abbrev hbmTy0_0 (i : Nat) : BufTy := match i % 128 with
  | 0 => ⟨S64x26x128x128, .f32⟩
  | 1 => ⟨S64x26x64x64, .f32⟩
  | 2 => ⟨S64x26x32x32, .f32⟩
  | 3 => ⟨S64x26x16x16, .f32⟩
  | 4 => ⟨S64x26, .f32⟩
  | 5 => ⟨S64x26, .f32⟩
  | 6 => ⟨S64x8x2, .i32⟩
  | 7 => ⟨S64x8x2, .i32⟩
  | 8 => ⟨S64x8x2, .i32⟩
  | 9 => ⟨S64x8x2, .i32⟩
  | 10 => ⟨S78x39, .f32⟩
  | 11 => ⟨S39, .f32⟩
  | 12 => ⟨S39x26, .f32⟩
  | 13 => ⟨S26, .f32⟩
  | 14 => ⟨S64x128x128x26, .f32⟩
  | 15 => ⟨S64x8x1, .i32⟩
  | 16 => ⟨S64x8, .i32⟩
  | 17 => ⟨S64x8x1, .i32⟩
  | 18 => ⟨S64x8, .i32⟩
  | 19 => ⟨S64, .i32⟩
  | 20 => ⟨S64x1, .i32⟩
  | 21 => ⟨S_, .i32⟩
  | 22 => ⟨S64x1, .i32⟩
  | 23 => ⟨S64x1, .i1⟩
  | 24 => ⟨S_, .i32⟩
  | 25 => ⟨S64x1, .i32⟩
  | 26 => ⟨S64x1, .i32⟩
  | 27 => ⟨S64x1, .i32⟩
  | 28 => ⟨S_, .i32⟩
  | 29 => ⟨S64x8, .i32⟩
  | 30 => ⟨S64x8, .i1⟩
  | 31 => ⟨S_, .i32⟩
  | 32 => ⟨S64x8, .i32⟩
  | 33 => ⟨S64x8, .i32⟩
  | 34 => ⟨S64x8, .i32⟩
  | 35 => ⟨S_, .i32⟩
  | 36 => ⟨S64x8, .i32⟩
  | 37 => ⟨S64x8, .i1⟩
  | 38 => ⟨S_, .i32⟩
  | 39 => ⟨S64x8, .i32⟩
  | 40 => ⟨S64x8, .i32⟩
  | 41 => ⟨S64x8, .i32⟩
  | 42 => ⟨S64x8, .i32⟩
  | 43 => ⟨S64x8x1, .i32⟩
  | 44 => ⟨S64x8x1, .i32⟩
  | 45 => ⟨S64x8x1, .i32⟩
  | 46 => ⟨S64x8x3, .i32⟩
  | 47 => ⟨S64x8x26, .f32⟩
  | 48 => ⟨S_, .f32⟩
  | 49 => ⟨S64x26, .f32⟩
  | 50 => ⟨S_, .f32⟩
  | 51 => ⟨S64x26, .f32⟩
  | 52 => ⟨S64x26, .f32⟩
  | 53 => ⟨S_, .f32⟩
  | 54 => ⟨S64x26, .f32⟩
  | 55 => ⟨S64x26, .f32⟩
  | 56 => ⟨S64x64x64x26, .f32⟩
  | 57 => ⟨S64x8x1, .i32⟩
  | 58 => ⟨S64x8, .i32⟩
  | 59 => ⟨S64x8x1, .i32⟩
  | 60 => ⟨S64x8, .i32⟩
  | 61 => ⟨S64, .i32⟩
  | 62 => ⟨S64x1, .i32⟩
  | 63 => ⟨S_, .i32⟩
  | 64 => ⟨S64x1, .i32⟩
  | 65 => ⟨S64x1, .i1⟩
  | 66 => ⟨S_, .i32⟩
  | 67 => ⟨S64x1, .i32⟩
  | 68 => ⟨S64x1, .i32⟩
  | 69 => ⟨S64x1, .i32⟩
  | 70 => ⟨S_, .i32⟩
  | 71 => ⟨S64x8, .i32⟩
  | 72 => ⟨S64x8, .i1⟩
  | 73 => ⟨S_, .i32⟩
  | 74 => ⟨S64x8, .i32⟩
  | 75 => ⟨S64x8, .i32⟩
  | 76 => ⟨S64x8, .i32⟩
  | 77 => ⟨S_, .i32⟩
  | 78 => ⟨S64x8, .i32⟩
  | 79 => ⟨S64x8, .i1⟩
  | 80 => ⟨S_, .i32⟩
  | 81 => ⟨S64x8, .i32⟩
  | 82 => ⟨S64x8, .i32⟩
  | 83 => ⟨S64x8, .i32⟩
  | 84 => ⟨S64x8, .i32⟩
  | 85 => ⟨S64x8x1, .i32⟩
  | 86 => ⟨S64x8x1, .i32⟩
  | 87 => ⟨S64x8x1, .i32⟩
  | 88 => ⟨S64x8x3, .i32⟩
  | 89 => ⟨S64x8x26, .f32⟩
  | 90 => ⟨S_, .f32⟩
  | 91 => ⟨S64x26, .f32⟩
  | 92 => ⟨S_, .f32⟩
  | 93 => ⟨S64x26, .f32⟩
  | 94 => ⟨S64x26, .f32⟩
  | 95 => ⟨S64x26, .f32⟩
  | 96 => ⟨S64x32x32x26, .f32⟩
  | 97 => ⟨S64x8x1, .i32⟩
  | 98 => ⟨S64x8, .i32⟩
  | 99 => ⟨S64x8x1, .i32⟩
  | 100 => ⟨S64x8, .i32⟩
  | 101 => ⟨S64, .i32⟩
  | 102 => ⟨S64x1, .i32⟩
  | 103 => ⟨S_, .i32⟩
  | 104 => ⟨S64x1, .i32⟩
  | 105 => ⟨S64x1, .i1⟩
  | 106 => ⟨S_, .i32⟩
  | 107 => ⟨S64x1, .i32⟩
  | 108 => ⟨S64x1, .i32⟩
  | 109 => ⟨S64x1, .i32⟩
  | 110 => ⟨S_, .i32⟩
  | 111 => ⟨S64x8, .i32⟩
  | 112 => ⟨S64x8, .i1⟩
  | 113 => ⟨S_, .i32⟩
  | 114 => ⟨S64x8, .i32⟩
  | 115 => ⟨S64x8, .i32⟩
  | 116 => ⟨S64x8, .i32⟩
  | 117 => ⟨S_, .i32⟩
  | 118 => ⟨S64x8, .i32⟩
  | 119 => ⟨S64x8, .i1⟩
  | 120 => ⟨S_, .i32⟩
  | 121 => ⟨S64x8, .i32⟩
  | 122 => ⟨S64x8, .i32⟩
  | 123 => ⟨S64x8, .i32⟩
  | 124 => ⟨S64x8, .i32⟩
  | 125 => ⟨S64x8x1, .i32⟩
  | 126 => ⟨S64x8x1, .i32⟩
  | 127 => ⟨S64x8x1, .i32⟩
  | _ => ⟨S64x26x128x128, .f32⟩

abbrev hbmTy0_1 (i : Nat) : BufTy := match i % 128 with
  | 0 => ⟨S64x8x3, .i32⟩
  | 1 => ⟨S64x8x26, .f32⟩
  | 2 => ⟨S_, .f32⟩
  | 3 => ⟨S64x26, .f32⟩
  | 4 => ⟨S_, .f32⟩
  | 5 => ⟨S64x26, .f32⟩
  | 6 => ⟨S64x26, .f32⟩
  | 7 => ⟨S64x26, .f32⟩
  | 8 => ⟨S64x16x16x26, .f32⟩
  | 9 => ⟨S64x8x1, .i32⟩
  | 10 => ⟨S64x8, .i32⟩
  | 11 => ⟨S64x8x1, .i32⟩
  | 12 => ⟨S64x8, .i32⟩
  | 13 => ⟨S64, .i32⟩
  | 14 => ⟨S64x1, .i32⟩
  | 15 => ⟨S_, .i32⟩
  | 16 => ⟨S64x1, .i32⟩
  | 17 => ⟨S64x1, .i1⟩
  | 18 => ⟨S_, .i32⟩
  | 19 => ⟨S64x1, .i32⟩
  | 20 => ⟨S64x1, .i32⟩
  | 21 => ⟨S64x1, .i32⟩
  | 22 => ⟨S_, .i32⟩
  | 23 => ⟨S64x8, .i32⟩
  | 24 => ⟨S64x8, .i1⟩
  | 25 => ⟨S_, .i32⟩
  | 26 => ⟨S64x8, .i32⟩
  | 27 => ⟨S64x8, .i32⟩
  | 28 => ⟨S64x8, .i32⟩
  | 29 => ⟨S_, .i32⟩
  | 30 => ⟨S64x8, .i32⟩
  | 31 => ⟨S64x8, .i1⟩
  | 32 => ⟨S_, .i32⟩
  | 33 => ⟨S64x8, .i32⟩
  | 34 => ⟨S64x8, .i32⟩
  | 35 => ⟨S64x8, .i32⟩
  | 36 => ⟨S64x8, .i32⟩
  | 37 => ⟨S64x8x1, .i32⟩
  | 38 => ⟨S64x8x1, .i32⟩
  | 39 => ⟨S64x8x1, .i32⟩
  | 40 => ⟨S64x8x3, .i32⟩
  | 41 => ⟨S64x8x26, .f32⟩
  | 42 => ⟨S_, .f32⟩
  | 43 => ⟨S64x26, .f32⟩
  | 44 => ⟨S_, .f32⟩
  | 45 => ⟨S64x26, .f32⟩
  | 46 => ⟨S64x26, .f32⟩
  | 47 => ⟨S64x26, .f32⟩
  | 48 => ⟨S_, .f32⟩
  | 49 => ⟨S64x26, .f32⟩
  | 50 => ⟨S64x26, .f32⟩
  | 51 => ⟨S64x78, .f32⟩
  | 52 => ⟨S64x39, .f32⟩
  | 53 => ⟨S1x39, .f32⟩
  | 54 => ⟨S64x39, .f32⟩
  | 55 => ⟨S64x39, .f32⟩
  | 56 => ⟨S_, .f32⟩
  | 57 => ⟨S64x39, .f32⟩
  | 58 => ⟨S64x39, .f32⟩
  | 59 => ⟨S64x26, .f32⟩
  | 60 => ⟨S1x26, .f32⟩
  | 61 => ⟨S64x26, .f32⟩
  | 62 => ⟨S64x26, .f32⟩
  | _ => ⟨S64x26x128x128, .f32⟩

abbrev hbmTy (i : Nat) : BufTy := match i / 128 with
  | 0 => hbmTy0_0 i
  | 1 => hbmTy0_1 i
  | _ => ⟨S64x26x128x128, .f32⟩

abbrev bufTy : (tb : Table) → Fin (tcTables nBuf tb) → BufTy
  | .hbm, ⟨i, _⟩ => hbmTy i
  | _, _ => ⟨S64x26x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_19 : Ref sig .tc := ⟨.hbm, 117, rfl⟩
abbrev main_v82 : Ref sig .tc := ⟨.hbm, 118, rfl⟩
abbrev main_v83 : Ref sig .tc := ⟨.hbm, 119, rfl⟩
abbrev main_c_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_cst_22 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_23 : Ref sig .tc := ⟨.hbm, 143, rfl⟩
abbrev main_v104 : Ref sig .tc := ⟨.hbm, 144, rfl⟩
abbrev main_v105 : Ref sig .tc := ⟨.hbm, 145, rfl⟩
abbrev main_c_24 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_25 : Ref sig .tc := ⟨.hbm, 150, rfl⟩
abbrev main_v109 : Ref sig .tc := ⟨.hbm, 151, rfl⟩
abbrev main_v110 : Ref sig .tc := ⟨.hbm, 152, rfl⟩
abbrev main_c_26 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_c_27 : Ref sig .tc := ⟨.hbm, 157, rfl⟩
abbrev main_v114 : Ref sig .tc := ⟨.hbm, 158, rfl⟩
abbrev main_v115 : Ref sig .tc := ⟨.hbm, 159, rfl⟩
abbrev main_c_28 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_29 : Ref sig .tc := ⟨.hbm, 170, rfl⟩
abbrev main_v125 : Ref sig .tc := ⟨.hbm, 171, rfl⟩
abbrev main_cst_30 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_31 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_call0_cst : Ref sig .tc := ⟨.hbm, 184, rfl⟩
abbrev main_call0_v0 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩

abbrev nD : Nat := 1
abbrev τ : Topo := Topo.v7x

variable {F : FTy → Type} [FloatOps F]

class Facts₀ : Prop where
  transposes_S64x26x128x128_S64x128x128x26_0_2_3_1 : S64x26x128x128.Transposes [0, 2, 3, 1] S64x128x128x26
  slices_S64x8x2_S64x8x1_0_0_0 : S64x8x2.Slices ![0, 0, 0] S64x8x1
  shapeCasts_S64x8x1_S64x8 : S64x8x1.ShapeCasts S64x8
  slices_S64x8x2_S64x8x1_0_0_1 : S64x8x2.Slices ![0, 0, 1] S64x8x1
  bcast_S64_S64x1_0 : S64.BroadcastsInDim S64x1 (![0] : Fin 1 → Fin S64x1.rank)
  bcast_S_S64x1 : S_.BroadcastsInDim S64x1 (![] : Fin 0 → Fin S64x1.rank)
  bcast_S_S64x8 : S_.BroadcastsInDim S64x8 (![] : Fin 0 → Fin S64x8.rank)
  bcast_S64x1_S64x8_0_1 : S64x1.BroadcastsInDim S64x8 (![0, 1] : Fin 2 → Fin S64x8.rank)
  bcast_S64x8_S64x8x1_0_1 : S64x8.BroadcastsInDim S64x8x1 (![0, 1] : Fin 2 → Fin S64x8x1.rank)
  concatenates_S64x8x1_S64x8x1_S64x8x1_S64x8x3_d2 : Shape.Concatenates [S64x8x1, S64x8x1, S64x8x1] S64x8x3 2
  reducesTo_S64x8x26_S64x26_d1 : S64x8x26.ReducesTo [1] S64x26
  h_S_ : 0 < S_.numel
  bcast_S_S64x26 : S_.BroadcastsInDim S64x26 (![] : Fin 0 → Fin S64x26.rank)
  transposes_S64x26x64x64_S64x64x64x26_0_2_3_1 : S64x26x64x64.Transposes [0, 2, 3, 1] S64x64x64x26
  transposes_S64x26x32x32_S64x32x32x26_0_2_3_1 : S64x26x32x32.Transposes [0, 2, 3, 1] S64x32x32x26
  transposes_S64x26x16x16_S64x16x16x26_0_2_3_1 : S64x26x16x16.Transposes [0, 2, 3, 1] S64x16x16x26
  concatenates_S64x26_S64x26_S64x26_S64x78_d1 : Shape.Concatenates [S64x26, S64x26, S64x26] S64x78 1
  bcast_S39_S1x39_1 : S39.BroadcastsInDim S1x39 (![1] : Fin 1 → Fin S1x39.rank)
  bcast_S1x39_S64x39_0_1 : S1x39.BroadcastsInDim S64x39 (![0, 1] : Fin 2 → Fin S64x39.rank)
  bcast_S_S64x39 : S_.BroadcastsInDim S64x39 (![] : Fin 0 → Fin S64x39.rank)
  bcast_S26_S1x26_1 : S26.BroadcastsInDim S1x26 (![1] : Fin 1 → Fin S1x26.rank)
  bcast_S1x26_S64x26_0_1 : S1x26.BroadcastsInDim S64x26 (![0, 1] : Fin 2 → Fin S64x26.rank)
  gather_S64x128x128x26_S64x8x3_S64x8x26_2_012_n_n_012_2_11126_wf : GatherDims.WF S64x128x128x26 S64x8x3 S64x8x26 [2] [0, 1, 2] [] [0, 1, 2] [] 2 ![1, 1, 1, 26]
  gather_S64x64x64x26_S64x8x3_S64x8x26_2_012_n_n_012_2_11126_wf : GatherDims.WF S64x64x64x26 S64x8x3 S64x8x26 [2] [0, 1, 2] [] [0, 1, 2] [] 2 ![1, 1, 1, 26]
  gather_S64x32x32x26_S64x8x3_S64x8x26_2_012_n_n_012_2_11126_wf : GatherDims.WF S64x32x32x26 S64x8x3 S64x8x26 [2] [0, 1, 2] [] [0, 1, 2] [] 2 ![1, 1, 1, 26]
  gather_S64x16x16x26_S64x8x3_S64x8x26_2_012_n_n_012_2_11126_wf : GatherDims.WF S64x16x16x26 S64x8x3 S64x8x26 [2] [0, 1, 2] [] [0, 1, 2] [] 2 ![1, 1, 1, 26]
  dot_S64x78_S78x39_S64x39_1_0_0_1_n_n_wf : DotDims.WF S64x78 S78x39 S64x39 [1] [0] [0] [1] [] []
  dot_S64x39_S39x26_S64x26_1_0_0_1_n_n_wf : DotDims.WF S64x39 S39x26 S64x26 [1] [0] [0] [1] [] []

variable [Facts₀]

def gather_S64x128x128x26_S64x8x3_S64x8x26_2_012_n_n_012_2_11126 : GatherDims S64x128x128x26 S64x8x3 S64x8x26 where
  offsetDims := [2]
  collapsedSliceDims := [0, 1, 2]
  operandBatchingDims := []
  startIndicesBatchingDims := []
  startIndexMap := [0, 1, 2]
  indexVectorDim := 2
  sliceSizes := ![1, 1, 1, 26]
  wf := gather_S64x128x128x26_S64x8x3_S64x8x26_2_012_n_n_012_2_11126_wf
def gather_S64x64x64x26_S64x8x3_S64x8x26_2_012_n_n_012_2_11126 : GatherDims S64x64x64x26 S64x8x3 S64x8x26 where
  offsetDims := [2]
  collapsedSliceDims := [0, 1, 2]
  operandBatchingDims := []
  startIndicesBatchingDims := []
  startIndexMap := [0, 1, 2]
  indexVectorDim := 2
  sliceSizes := ![1, 1, 1, 26]
  wf := gather_S64x64x64x26_S64x8x3_S64x8x26_2_012_n_n_012_2_11126_wf
def gather_S64x32x32x26_S64x8x3_S64x8x26_2_012_n_n_012_2_11126 : GatherDims S64x32x32x26 S64x8x3 S64x8x26 where
  offsetDims := [2]
  collapsedSliceDims := [0, 1, 2]
  operandBatchingDims := []
  startIndicesBatchingDims := []
  startIndexMap := [0, 1, 2]
  indexVectorDim := 2
  sliceSizes := ![1, 1, 1, 26]
  wf := gather_S64x32x32x26_S64x8x3_S64x8x26_2_012_n_n_012_2_11126_wf
def gather_S64x16x16x26_S64x8x3_S64x8x26_2_012_n_n_012_2_11126 : GatherDims S64x16x16x26 S64x8x3 S64x8x26 where
  offsetDims := [2]
  collapsedSliceDims := [0, 1, 2]
  operandBatchingDims := []
  startIndicesBatchingDims := []
  startIndexMap := [0, 1, 2]
  indexVectorDim := 2
  sliceSizes := ![1, 1, 1, 26]
  wf := gather_S64x16x16x26_S64x8x3_S64x8x26_2_012_n_n_012_2_11126_wf
def dot_S64x78_S78x39_S64x39_1_0_0_1_n_n : DotDims S64x78 S78x39 S64x39 where
  lhsContracting := [1]
  rhsContracting := [0]
  lhsNonContracting := [0]
  rhsNonContracting := [1]
  lhsBatch := []
  rhsBatch := []
  wf := dot_S64x78_S78x39_S64x39_1_0_0_1_n_n_wf
def dot_S64x39_S39x26_S64x26_1_0_0_1_n_n : DotDims S64x39 S39x26 S64x26 where
  lhsContracting := [1]
  rhsContracting := [0]
  lhsNonContracting := [0]
  rhsNonContracting := [1]
  lhsBatch := []
  rhsBatch := []
  wf := dot_S64x39_S39x26_S64x26_1_0_0_1_n_n_wf

class Facts : Prop extends Facts₀ where

variable [Facts]
-- ==== Proof.BLoop.lean ====
/-
  The kernel's loop over the eight batch rows of a block, by its invariant.

  Trip `k` reads, for each of the four feature maps, the block's slab `k` and the sixteen words of that row's
  centres in the map's table, and stores ONE 128-lane row — the pooled channels, the row's two 26-vectors, zeros —
  into row `k` of the scratch.  Nothing else is written.  So the invariant is: every buffer the trips read holds what it
  held, and the scratch holds the rows of the trips so far written over its contents at entry.  The tables are held at
  half the full share (the launch keeps the other half), which is all a load needs.
-/
import proofs.«414461_j46188078301471_3_alg».proof.Proof.Gen.Kernel.Skeleton
import Idealize.ShloMosaic.Lib.Exec
import Idealize.ShloMosaic.Lib.Tactic
import Idealize.ShloMosaic.Lib.Pipeline.Kit

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The class of invariants of the kernel's counted loop over the eight batch rows of a block, at a general resource algebra. -/
abbrev LoopInvTyH (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0)

/-- What one trip needs: the four tables of centres and the six staged input blocks at their contents (the tables at the half share the body is handed), and the scratch at any contents. -/
abbrev TripH (c : Dev nD) (arg1 : Memref sig .tc .smem S1024 .i32) (arg2 : Memref sig .tc .smem S1024 .i32) (arg3 : Memref sig .tc .smem S1024 .i32) (arg4 : Memref sig .tc .smem S1024 .i32) (arg5 : Memref sig .tc .vmem S8x26x128x128 .f32) (arg6 : Memref sig .tc .vmem S8x26x64x64 .f32) (arg7 : Memref sig .tc .vmem S8x26x32x32 .f32) (arg8 : Memref sig .tc .vmem S8x26x16x16 .f32) (arg9 : Memref sig .tc .vmem S8x1x26 .f32) (arg10 : Memref sig .tc .vmem S8x1x26 .f32) (arg16 : Memref sig .tc .vmem S8x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (f_arg16 : BufTy.Contents (Elt F) arg16.view.ty) : sProp 𝕄G :=
  iprop((arg1.view.loc (c : Thread nD τ) ↦[arg1.view.set]{fullShare.right} X_arg1) ∗ (arg2.view.loc (c : Thread nD τ) ↦[arg2.view.set]{fullShare.right} X_arg2) ∗ (arg3.view.loc (c : Thread nD τ) ↦[arg3.view.set]{fullShare.right} X_arg3) ∗ (arg4.view.loc (c : Thread nD τ) ↦[arg4.view.set]{fullShare.right} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg16.view.loc (c : Thread nD τ) ↦[arg16.view.set]{fullShare} f_arg16))

/-- One trip at a symbolic row `k`: it reads the tables and the blocks and stores one piece into the scratch; the piece list is the run's own, with the buffers handed back unchanged otherwise. -/
@[irreducible] def tripH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) :
    { L_arg16 : List (View.Piece (Elt F) S8x128 .f32) // ∀ (E : Set ℕ) (f_arg16 : BufTy.Contents (Elt F) arg16.view.ty),
      TripH (F := F) c arg1 arg2 arg3 arg4 arg5 arg6 arg7 arg8 arg9 arg10 arg16 X_arg1 X_arg2 X_arg3 X_arg4 X_arg5 X_arg6 X_arg7 X_arg8 X_arg9 X_arg10 f_arg16
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k PUnit.unit)
          (fun _ => TripH (F := F) c arg1 arg2 arg3 arg4 arg5 arg6 arg7 arg8 arg9 arg10 arg16 X_arg1 X_arg2 X_arg3 X_arg4 X_arg5 X_arg6 X_arg7 X_arg8 X_arg9 X_arg10 (arg16.view.writes (Elt F) f_arg16 L_arg16)) } := by
  have hk : k.val < 8 := Nat.lt_of_lt_of_le k.isLt k0_t1_abs.2.1
  refine ⟨?_, fun E f_arg16 => ?run⟩
  case run =>
    unfold k0_t1_body
    iintro ⟨HR_arg1, HR_arg2, HR_arg3, HR_arg4, HR_arg5, HR_arg6, HR_arg7, HR_arg8, HR_arg9, HR_arg10, HW_arg16⟩
    sl_exec
    sl_step
    sl_close

/-- The trip's piece list. -/
abbrev tripLH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) : List (View.Piece (Elt F) S8x128 .f32) :=
  (tripH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k).1

/-- Trip `k`'s pieces put in front of those of the trips before it; past the last trip nothing is added. -/
@[irreducible] def pbStepH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : ℕ) (prev : List (View.Piece (Elt F) S8x128 .f32)) : List (View.Piece (Elt F) S8x128 .f32) :=
  if h : k < k0_t1_loop.trips then
    (tripLH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 ⟨k, h⟩) ++ prev
  else prev

/-- The pieces of the trips before `k`, last first. -/
def pbH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) : ℕ → List (View.Piece (Elt F) S8x128 .f32)
  | 0 => []
  | k + 1 => pbStepH 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k (pbH 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k)

/-- One more trip puts its pieces in front. -/
theorem pbH_succ (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) :
    pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 (k.val + 1)
      = (tripLH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k) ++ (pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k.val) := by
  rw [pbH.eq_2]; unfold pbStepH; exact dif_pos k.isLt

/-- The invariant before trip `k`: the tables and the blocks at their contents, the scratch holding the pieces of the trips before `k` written over what it held at the loop's entry. -/
abbrev invH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (G_arg16 : BufTy.Contents (Elt F) arg16.view.ty) (k : ℕ) (_u : PUnit) : sProp 𝕄G :=
  iprop((arg1.view.loc (c : Thread nD τ) ↦[arg1.view.set]{fullShare.right} X_arg1) ∗ (arg2.view.loc (c : Thread nD τ) ↦[arg2.view.set]{fullShare.right} X_arg2) ∗ (arg3.view.loc (c : Thread nD τ) ↦[arg3.view.set]{fullShare.right} X_arg3) ∗ (arg4.view.loc (c : Thread nD τ) ↦[arg4.view.set]{fullShare.right} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (∃ f, (arg16.view.loc (c : Thread nD τ) ↦[arg16.view.set]{fullShare} f) ∗ ⌜f = arg16.view.writes (Elt F) G_arg16 (pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k)⌝))

set_option warn.classDefReducibility false in
/-- The loop by its invariant: a trip takes the invariant at `k` to the invariant at `k + 1`, its pieces appended to the list. -/
@[sl_loop] def loopInvH (𝒱 : Variants) (c : Dev nD) (bd : Option 𝒱.V) (E : Set ℕ) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (G_arg16 : BufTy.Contents (Elt F) arg16.view.ty) :
    LoopInvTyH (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 where
  inv := invH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 G_arg16
  step k acc := by
    iintro ⟨HR_arg1, HR_arg2, HR_arg3, HR_arg4, HR_arg5, HR_arg6, HR_arg7, HR_arg8, HR_arg9, HR_arg10, ⟨%f_arg16, HW_arg16, %h_arg16⟩⟩
    iapply (wp_wand_r Idealize.ShloMosaic.frame (wpE (defs₀ (F := F)) 𝒱 (c : Thread nD τ) bd) E)
    isplitl [HR_arg1 HR_arg2 HR_arg3 HR_arg4 HR_arg5 HR_arg6 HR_arg7 HR_arg8 HR_arg9 HR_arg10 HW_arg16]
    · iapply ((tripH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k).2 E f_arg16)
      isplitl [HR_arg1]; · iexact HR_arg1
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HR_arg10]; · iexact HR_arg10
      iexact HW_arg16
    · iintro %_ ⟨HR_arg1, HR_arg2, HR_arg3, HR_arg4, HR_arg5, HR_arg6, HR_arg7, HR_arg8, HR_arg9, HR_arg10, HW_arg16⟩
      isplitl [HR_arg1]; · iexact HR_arg1
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HR_arg10]; · iexact HR_arg10
      rw [pbH_succ]
      iexists _; isplitl [HW_arg16]; · iexact HW_arg16
      ipureintro; rw [h_arg16, ← View.writes_append]

end Cert.Kernel.Hand

end
-- ==== Proof.BBody.lean ====
import proofs.«414461_j46188078301471_3_alg».proof.Proof.BLoop
import proofs.«414461_j46188078301471_3_alg».proof.Proof.Gen.Kernel.Launch
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## One trip's row, and the scratch after the eight trips

Trip `k` of the loop stores ONE piece into the scratch: its row `k`, a 128-lane vector (`rowPay`). After the eight
trips every row has been stored once, so the scratch holds `scrG`, row `p` being trip `p`'s vector, whatever it
held before. -/

/-- The 128-lane row trip `k` stores, from the contents of the tables and of the staged blocks. -/
def rowPay (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) : FVec F S1x128 .f32 :=
  k0_pay1 (tripH.sl.r_66 i arg1 arg2 arg3 arg5 arg6 arg7 X_arg1 X_arg2 X_arg3 X_arg5 X_arg6 X_arg7 k)
    (tripH.sl.r_67 arg8 X_arg8 k) (tripH.sl.r_82 i arg4 X_arg4 k) tripH.sl.cst_161
    (View.readAt (Elt F) arg9.view (Rect.unit (s := S8x1x26) (k0_off6 k) S1x1x26.size (k0_off6_inb k)).toLoadRect X_arg9)
    (View.readAt (Elt F) arg10.view (Rect.unit (s := S8x1x26) (k0_off6 k) S1x1x26.size (k0_off6_inb k)).toLoadRect X_arg10)

/-- The trip's piece list is that one piece. -/
theorem tripL_eq (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) :
    tripLH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k
      = [⟨Rect.unit (s := S8x128) (k0_off7 k) S1x128.size (k0_off7_inb k), rowPay (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k⟩] := by
  unfold tripLH tripH rowPay
  rfl

/-- The loop makes eight trips. -/
theorem trips_eq : k0_t1_loop.trips = 8 := by decide

/-- The scratch once every row has been stored: row `p` is trip `p`'s vector. -/
def scrG (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) : Vec F S8x128 .f32 := fun y =>
  rowPay (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 ⟨(y 0).val, by rw [trips_eq]; exact (y 0).isLt⟩ (ix2 0 (y 1))

/-- Every piece of the first `n` trips agrees with `scrG` on its row. -/
theorem pb_agree (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) :
    ∀ n, n ≤ k0_t1_loop.trips → ∀ p ∈ pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 n,
      ∀ x : p.1.shape.Idx, p.2 x = scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 (p.1.emb x)
  | 0, _, p, hp, _ => by rw [pbH.eq_1] at hp; exact absurd hp List.not_mem_nil
  | n + 1, hn, p, hp, x => by
    have hk : n < k0_t1_loop.trips := hn
    rw [show n + 1 = (⟨n, hk⟩ : Fin k0_t1_loop.trips).val + 1 from rfl, pbH_succ, tripL_eq] at hp
    rcases List.mem_append.mp hp with h | h
    · obtain rfl := List.mem_singleton.mp h
      -- the piece is row `n`: its own index `x = (0, l)` sits at `(n, l)` of the scratch
      have h70 : k0_off7 (⟨n, hk⟩ : Fin k0_t1_loop.trips) 0 = n := by rw [k0_off7_eq]; rfl
      have h71 : k0_off7 (⟨n, hk⟩ : Fin k0_t1_loop.trips) 1 = 0 := by rw [k0_off7_eq]; rfl
      have h0 : ((x 0 : Fin _) : Nat) < 1 := (x 0).isLt
      have e0 : ((Rect.unit (s := S8x128) (k0_off7 ⟨n, hk⟩) S1x128.size (k0_off7_inb ⟨n, hk⟩)).emb x 0 : Nat) = n := by
        rw [Rect.emb_apply, Rect.off_unit, Rect.stride_unit]
        omega
      have e1 : ((Rect.unit (s := S8x128) (k0_off7 ⟨n, hk⟩) S1x128.size (k0_off7_inb ⟨n, hk⟩)).emb x 1 : Nat) = ((x 1 : Fin _) : Nat) := by
        rw [Rect.emb_apply, Rect.off_unit, Rect.stride_unit]
        omega
      show rowPay (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 ⟨n, hk⟩ x = scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 _
      unfold scrG
      refine congrArg₂ (fun (k' : Fin k0_t1_loop.trips) (z : S1x128.Idx) => rowPay (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k' z) (Fin.ext e0.symm) ?_
      funext a
      match a with
      | ⟨0, _⟩ => exact Fin.ext (by show ((x 0 : Fin _) : Nat) = 0; omega)
      | ⟨1, _⟩ => exact Fin.ext e1.symm
    · exact pb_agree 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 n (Nat.le_of_succ_le hn) p h x

/-- The pieces of the first `n` trips cover the rows below `n`. -/
theorem pb_cover (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) :
    ∀ n, n ≤ k0_t1_loop.trips → ∀ y : S8x128.Idx, (y 0).val < n →
      ∃ p ∈ pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 n, y ∈ p.1.set
  | 0, _, y, h => absurd h (Nat.not_lt_zero _)
  | n + 1, hn, y, h => by
    have hk : n < k0_t1_loop.trips := hn
    rw [show n + 1 = (⟨n, hk⟩ : Fin k0_t1_loop.trips).val + 1 from rfl, pbH_succ, tripL_eq]
    by_cases e : (y 0).val = n
    · refine ⟨_, List.mem_append_left _ (List.mem_singleton.mpr rfl), ?_⟩
      -- row `n` is the piece's rectangle: offsets `(n, 0)`, sizes `(1, 128)`
      show y ∈ (Rect.unit (s := S8x128) (k0_off7 ⟨n, hk⟩) S1x128.size (k0_off7_inb ⟨n, hk⟩)).set
      rw [Rect.mem_set_unit, k0_off7_eq]
      intro a
      match a with
      | ⟨0, _⟩ => exact ⟨by show n ≤ ((y 0 : Fin _) : Nat); omega, by show ((y 0 : Fin _) : Nat) < n + 1; omega⟩
      | ⟨1, _⟩ => exact ⟨Nat.zero_le _, by have h1 : ((y 1 : Fin _) : Nat) < 128 := (y 1).isLt; show ((y 1 : Fin _) : Nat) < 0 + 128; omega⟩
    · obtain ⟨p, hp, hy⟩ := pb_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 n (Nat.le_of_succ_le hn) y (by omega)
      exact ⟨p, List.mem_append_right _ hp, hy⟩

/-- After the eight trips the scratch reads `scrG`, whatever it held at the loop's entry. -/
theorem scr_read (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (f16 : BufTy.Contents (Elt F) arg16.view.ty) :
    arg16.view.read (Elt F) (arg16.view.writes (Elt F) f16 (pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k0_t1_loop.trips))
      = scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 :=
  funext fun y => View.read_writes_apply_of_pieces arg16.view f16 (scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10) _
    (pb_agree 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 _ le_rfl) y
    (pb_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 _ le_rfl y (by rw [trips_eq]; exact (y 0).isLt))

/-! ## The kernel function's run

The function loads the two weight matrices and the two biases whole, runs the loop (which fills the scratch row by
row), loads the scratch whole, and stores the two-layer perceptron of its rows, padded to 128 lanes, over the whole
output block. -/

abbrev rW1 : Rect S78x39 := Rect.unit (s := S78x39) ![0, 0] S78x39.size inb_S78x39_S78x39_0_0
abbrev rW2 : Rect S39x26 := Rect.unit (s := S39x26) ![0, 0] S39x26.size inb_S39x26_S39x26_0_0
abbrev rB1 : Rect S39 := Rect.unit (s := S39) ![0] S39.size inb_S39_S39_0
abbrev rB2 : Rect S26 := Rect.unit (s := S26) ![0] S26.size inb_S26_S26_0
abbrev rS : Rect S8x128 := Rect.unit (s := S8x128) ![0, 0] S8x128.size inb_S8x128_S8x128_0_0

/-- The scratch after the loop, from what the tables and the staged blocks READ (a whole memref's contents are
    determined by what it reads). -/
def scrX (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (T1 T2 T3 T4 : Vec F S1024 .i32) (x5 : Vec F S8x26x128x128 .f32) (x6 : Vec F S8x26x64x64 .f32) (x7 : Vec F S8x26x32x32 .f32) (x8 : Vec F S8x26x16x16 .f32) (x9 x10 : Vec F S8x1x26 .f32) : Vec F S8x128 .f32 :=
  scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Memref.IsWhole.unread harg1 T1) (Memref.IsWhole.unread harg2 T2) (Memref.IsWhole.unread harg3 T3) (Memref.IsWhole.unread harg4 T4) (Memref.IsWhole.unread harg5 x5) (Memref.IsWhole.unread harg6 x6) (Memref.IsWhole.unread harg7 x7) (Memref.IsWhole.unread harg8 x8) (Memref.IsWhole.unread harg9 x9) (Memref.IsWhole.unread harg10 x10)

/-- The output block after the body. -/
def outBlk (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (T1 T2 T3 T4 : Vec F S1024 .i32) (x5 : Vec F S8x26x128x128 .f32) (x6 : Vec F S8x26x64x64 .f32) (x7 : Vec F S8x26x32x32 .f32) (x8 : Vec F S8x26x16x16 .f32) (x9 x10 : Vec F S8x1x26 .f32) (x11 : Vec F S78x39 .f32) (x12 : Vec F S39 .f32) (x13 : Vec F S39x26 .f32) (x14 : Vec F S26 .f32) : Vec F S8x128 .f32 :=
  View.canon [⟨rS, k0_pay2 (View.ld x11 rW1) (View.ld x13 rW2) (View.ld x12 rB1) (View.ld x14 rB2)
    (View.ld (scrX (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 T1 T2 T3 T4 x5 x6 x7 x8 x9 x10) rS)⟩]

theorem cover_out (p0 : Vec F S8x128 .f32) (y : S8x128.Idx) :
    ∃ pc ∈ ([⟨rS, p0⟩] : List (View.Piece (Elt F) S8x128 .f32)), y ∈ pc.1.set :=
  View.cover_of_tiled [⟨rS, p0⟩] S8x128.size (by rfl) y

set_option maxHeartbeats 4000000 in
/-- The kernel function on whole memrefs — the four tables and the ten input blocks at what they read, the output
    block and the scratch at anything — runs to the continuation holding the inputs as they were, the output block at
    `outBlk` and the scratch at something. -/
theorem sound_kernel (c : Dev nD) (E : Set ℕ) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (T1 T2 T3 T4 : Vec F S1024 .i32) (x5 : Vec F S8x26x128x128 .f32) (x6 : Vec F S8x26x64x64 .f32) (x7 : Vec F S8x26x32x32 .f32) (x8 : Vec F S8x26x16x16 .f32) (x9 x10 : Vec F S8x1x26 .f32) (x11 : Vec F S78x39 .f32) (x12 : Vec F S39 .f32) (x13 : Vec F S39x26 .f32) (x14 : Vec F S26 .f32) (K : PUnit → sProp 𝕄) :
    iprop(owns (c : Thread nD τ) arg1 fullShare.right T1
        ∗ owns (c : Thread nD τ) arg2 fullShare.right T2
        ∗ owns (c : Thread nD τ) arg3 fullShare.right T3
        ∗ owns (c : Thread nD τ) arg4 fullShare.right T4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ (∃ d, owns (c : Thread nD τ) arg15 fullShare d) ∗ (∃ d, owns (c : Thread nD τ) arg16 fullShare d)
        ∗ (iprop(owns (c : Thread nD τ) arg1 fullShare.right T1
        ∗ owns (c : Thread nD τ) arg2 fullShare.right T2
        ∗ owns (c : Thread nD τ) arg3 fullShare.right T3
        ∗ owns (c : Thread nD τ) arg4 fullShare.right T4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
            ∗ owns (c : Thread nD τ) arg15 fullShare (outBlk (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 T1 T2 T3 T4 x5 x6 x7 x8 x9 x10 x11 x12 x13 x14)
            ∗ (∃ d, owns (c : Thread nD τ) arg16 fullShare d)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__pool_kernel_eq_skeleton]; unfold cc0__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  obtain rfl := Memref.IsWhole.eq_unread harg1 hf1
  obtain rfl := Memref.IsWhole.eq_unread harg2 hf2
  obtain rfl := Memref.IsWhole.eq_unread harg3 hf3
  obtain rfl := Memref.IsWhole.eq_unread harg4 hf4
  obtain rfl := Memref.IsWhole.eq_unread harg5 hf5
  obtain rfl := Memref.IsWhole.eq_unread harg6 hf6
  obtain rfl := Memref.IsWhole.eq_unread harg7 hf7
  obtain rfl := Memref.IsWhole.eq_unread harg8 hf8
  obtain rfl := Memref.IsWhole.eq_unread harg9 hf9
  obtain rfl := Memref.IsWhole.eq_unread harg10 hf10
  obtain rfl := Memref.IsWhole.eq_unread harg11 hf11
  obtain rfl := Memref.IsWhole.eq_unread harg12 hf12
  obtain rfl := Memref.IsWhole.eq_unread harg13 hf13
  obtain rfl := Memref.IsWhole.eq_unread harg14 hf14
  sl_exec
  sl_step
  iapply Hk
  isplitl [H1]
  · iexists _; isplitr; swap; · iexact H1
    ipureintro; exact Memref.IsWhole.read_unread harg1 _
  isplitl [H2]
  · iexists _; isplitr; swap; · iexact H2
    ipureintro; exact Memref.IsWhole.read_unread harg2 _
  isplitl [H3]
  · iexists _; isplitr; swap; · iexact H3
    ipureintro; exact Memref.IsWhole.read_unread harg3 _
  isplitl [H4]
  · iexists _; isplitr; swap; · iexact H4
    ipureintro; exact Memref.IsWhole.read_unread harg4 _
  isplitl [H5]
  · iexists _; isplitr; swap; · iexact H5
    ipureintro; exact Memref.IsWhole.read_unread harg5 _
  isplitl [H6]
  · iexists _; isplitr; swap; · iexact H6
    ipureintro; exact Memref.IsWhole.read_unread harg6 _
  isplitl [H7]
  · iexists _; isplitr; swap; · iexact H7
    ipureintro; exact Memref.IsWhole.read_unread harg7 _
  isplitl [H8]
  · iexists _; isplitr; swap; · iexact H8
    ipureintro; exact Memref.IsWhole.read_unread harg8 _
  isplitl [H9]
  · iexists _; isplitr; swap; · iexact H9
    ipureintro; exact Memref.IsWhole.read_unread harg9 _
  isplitl [H10]
  · iexists _; isplitr; swap; · iexact H10
    ipureintro; exact Memref.IsWhole.read_unread harg10 _
  isplitl [H11]
  · iexists _; isplitr; swap; · iexact H11
    ipureintro; exact Memref.IsWhole.read_unread harg11 _
  isplitl [H12]
  · iexists _; isplitr; swap; · iexact H12
    ipureintro; exact Memref.IsWhole.read_unread harg12 _
  isplitl [H13]
  · iexists _; isplitr; swap; · iexact H13
    ipureintro; exact Memref.IsWhole.read_unread harg13 _
  isplitl [H14]
  · iexists _; isplitr; swap; · iexact H14
    ipureintro; exact Memref.IsWhole.read_unread harg14 _
  isplitl [H15]
  · iexists _; isplitr; swap; · iexact H15
    ipureintro
    -- the one store covers the block; its payload is the perceptron of the weight blocks and of the scratch after the loop
    rw [View.read_writes_eq_canon _ _ _ (cover_out _)]
    unfold outBlk scrX
    sl_unfold_words
    simp only [View.readAt_eq_ld, Memref.IsWhole.read_unread]
    exact congrArg (fun z : Vec F S8x128 .f32 => View.canon ([⟨rS, k0_pay2 (View.ld x11 rW1) (View.ld x13 rW2) (View.ld x12 rB1) (View.ld x14 rB2) (View.ld z rS)⟩] : List (View.Piece (Elt F) S8x128 .f32)))
      (scr_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Memref.IsWhole.unread harg1 T1) (Memref.IsWhole.unread harg2 T2) (Memref.IsWhole.unread harg3 T3) (Memref.IsWhole.unread harg4 T4) (Memref.IsWhole.unread harg5 x5) (Memref.IsWhole.unread harg6 x6) (Memref.IsWhole.unread harg7 x7) (Memref.IsWhole.unread harg8 x8) (Memref.IsWhole.unread harg9 x9) (Memref.IsWhole.unread harg10 x10) f16)
  · iexists _, _; isplitr; swap; · iexact H16
    ipureintro; rfl

end Cert.Kernel.Hand

end
-- ==== Proof.BRun.lean ====
/-
  The launch: @main is six reshapes, the pooling kernel's region over a grid of eight blocks of eight batch rows, and
  one slice of its result.

  The four tables of centres are prefetched: the region holds them fixed, at what the reshapes of the four centre
  arrays wrote.  Ten windows are inputs (the four feature maps and the two 26-vectors by blocks of eight rows; the two
  weight matrices and the two biases whole), the last is the output, a block of eight 128-lane rows per point.  At a
  point the body leaves every input block as it found it and the output block at `outBlk` of the tables and the input
  blocks; between points it keeps nothing (the scratch is rewritten row by row before it is read).
-/
import proofs.«414461_j46188078301471_3_alg».proof.Proof.BBody
import proofs.«414461_j46188078301471_3_alg».proof.Proof.Gen.Kernel.Launch
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: after the six reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshapes, the region, the slice: it reduces to the region continued by the slice, at the contents
    after the reshapes. -/
theorem hmain (𝒱₀ : Variants) : Pipeline.HMainPK (Ix := Unit) (Name := ℕ) (U := UR sig nD τ) (Lvl := ℕ) (pcfgs (F := F)) 0 defs₀ 𝒱₀ m (main (F := F)) (V m)
      (fun _ => Pipeline.chain [StableHlo.seq hostOps1]) :=
  Pipeline.hmainP_around (pcfgs (F := F)) 0 defs₀ 𝒱₀ m main [hostOps0] [hostOps1] hostOps0_sub hostOps0_fresh
    (fun c => (main_chain c).trans rfl)

/-- The tables' contents when the region is entered: what the reshapes of the centre arrays wrote (there is one
    device). -/
def adm : (p : Fin 1) → (pcfgs (F := F) p).Adm :=
  fun _ => ⟨fun k => V0 m (0 : Dev nD) (Proc.devRef .tc (pre0.ref k)), trivial⟩

theorem hpf (c : Dev nD) (k : Fin pre0.K) : V0 m c (Proc.devRef .tc (pre0.ref k)) = (adm (F := F) m 0).1 k := by
  obtain rfl : c = 0 := Subsingleton.elim _ _
  rfl

/-- The slice after the region touches the region's result and its own result only: no table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro k
  fin_cases k <;> simp only [StableHlo.unary_bufs, Finset.mem_insert, Finset.mem_singleton, not_or] <;>
    exact ⟨StableHlo.devRef_ne_of_ne (by decide), StableHlo.devRef_ne_of_ne (by decide)⟩
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the pipeline (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.unary_writes, Finset.mem_singleton] <;> exact StableHlo.devRef_ne_of_ne (by decide)

/-! ## The windows' blocks, the tables, the body at a point -/

/-- Window `w`'s block at point `t`, read off its array as the region finds it. -/
def iblk (c : Dev nD) (w : Fin 11) (t : Fin (cfg0 (adm (F := F) m 0)).N) :
    (((cfg0 (adm (F := F) m 0)).win w).xblock ((cfg0 (adm (F := F) m 0)).grid.coords t)).Idx → Elt F ((cfg0 (adm (F := F) m 0)).win w).elt :=
  (((cfg0 (adm (F := F) m 0)).win w).blk t).view.read (Elt F) (V m c (Pipeline.arrRef spec0 w))

/-- The four tables as the region holds them. -/
abbrev tbl0 : Vec F S1024 .i32 := (adm (F := F) m 0).1 (0 : Fin 4)
abbrev tbl1 : Vec F S1024 .i32 := (adm (F := F) m 0).1 (1 : Fin 4)
abbrev tbl2 : Vec F S1024 .i32 := (adm (F := F) m 0).1 (2 : Fin 4)
abbrev tbl3 : Vec F S1024 .i32 := (adm (F := F) m 0).1 (3 : Fin 4)

/-- The kernel body at point `t`, on what the pipeline calls it with. -/
abbrev bodyAt (t : Fin (cfg0 (adm (F := F) m 0)).N) : Prog (TpuEff nD τ sig (Elt F) Λ₀ .tc) PUnit :=
  cc0__pool_kernel (grid0.coords t) (Memref.whole main_v2) (Memref.isWhole_whole _) (Memref.whole main_v3) (Memref.isWhole_whole _) (Memref.whole main_v4) (Memref.isWhole_whole _) (Memref.whole main_v5) (Memref.isWhole_whole _) (spec0_0.stage ((cfg0 (adm (F := F) m 0)).slots t 0)) (hstage0_0 (((cfg0 (adm (F := F) m 0)).slots t 0).cast nbuf0_0)) (spec0_1.stage ((cfg0 (adm (F := F) m 0)).slots t 1)) (hstage0_1 (((cfg0 (adm (F := F) m 0)).slots t 1).cast nbuf0_1)) (spec0_2.stage ((cfg0 (adm (F := F) m 0)).slots t 2)) (hstage0_2 (((cfg0 (adm (F := F) m 0)).slots t 2).cast nbuf0_2)) (spec0_3.stage ((cfg0 (adm (F := F) m 0)).slots t 3)) (hstage0_3 (((cfg0 (adm (F := F) m 0)).slots t 3).cast nbuf0_3)) (spec0_4.stage ((cfg0 (adm (F := F) m 0)).slots t 4)) (hstage0_4 (((cfg0 (adm (F := F) m 0)).slots t 4).cast nbuf0_4)) (spec0_5.stage ((cfg0 (adm (F := F) m 0)).slots t 5)) (hstage0_5 (((cfg0 (adm (F := F) m 0)).slots t 5).cast nbuf0_5)) (spec0_6.stage ((cfg0 (adm (F := F) m 0)).slots t 6)) (hstage0_6 (((cfg0 (adm (F := F) m 0)).slots t 6).cast nbuf0_6)) (spec0_7.stage ((cfg0 (adm (F := F) m 0)).slots t 7)) (hstage0_7 (((cfg0 (adm (F := F) m 0)).slots t 7).cast nbuf0_7)) (spec0_8.stage ((cfg0 (adm (F := F) m 0)).slots t 8)) (hstage0_8 (((cfg0 (adm (F := F) m 0)).slots t 8).cast nbuf0_8)) (spec0_9.stage ((cfg0 (adm (F := F) m 0)).slots t 9)) (hstage0_9 (((cfg0 (adm (F := F) m 0)).slots t 9).cast nbuf0_9)) (spec0_10.stage ((cfg0 (adm (F := F) m 0)).slots t 10)) (hstage0_10 (((cfg0 (adm (F := F) m 0)).slots t 10).cast nbuf0_10)) (Memref.whole cc0_scratch0) (Memref.isWhole_whole _)

/-- What the body leaves in the output block at point `t`. -/
def outAt (c : Dev nD) (t : Fin (cfg0 (adm (F := F) m 0)).N) : Vec F S8x128 .f32 :=
  outBlk (F := F) (grid0.coords t) (Memref.whole main_v2) (Memref.isWhole_whole _) (Memref.whole main_v3) (Memref.isWhole_whole _) (Memref.whole main_v4) (Memref.isWhole_whole _) (Memref.whole main_v5) (Memref.isWhole_whole _) (spec0_0.stage ((cfg0 (adm (F := F) m 0)).slots t 0)) (hstage0_0 (((cfg0 (adm (F := F) m 0)).slots t 0).cast nbuf0_0)) (spec0_1.stage ((cfg0 (adm (F := F) m 0)).slots t 1)) (hstage0_1 (((cfg0 (adm (F := F) m 0)).slots t 1).cast nbuf0_1)) (spec0_2.stage ((cfg0 (adm (F := F) m 0)).slots t 2)) (hstage0_2 (((cfg0 (adm (F := F) m 0)).slots t 2).cast nbuf0_2)) (spec0_3.stage ((cfg0 (adm (F := F) m 0)).slots t 3)) (hstage0_3 (((cfg0 (adm (F := F) m 0)).slots t 3).cast nbuf0_3)) (spec0_4.stage ((cfg0 (adm (F := F) m 0)).slots t 4)) (hstage0_4 (((cfg0 (adm (F := F) m 0)).slots t 4).cast nbuf0_4)) (spec0_5.stage ((cfg0 (adm (F := F) m 0)).slots t 5)) (hstage0_5 (((cfg0 (adm (F := F) m 0)).slots t 5).cast nbuf0_5)) (spec0_6.stage ((cfg0 (adm (F := F) m 0)).slots t 6)) (hstage0_6 (((cfg0 (adm (F := F) m 0)).slots t 6).cast nbuf0_6)) (spec0_7.stage ((cfg0 (adm (F := F) m 0)).slots t 7)) (hstage0_7 (((cfg0 (adm (F := F) m 0)).slots t 7).cast nbuf0_7)) (spec0_8.stage ((cfg0 (adm (F := F) m 0)).slots t 8)) (hstage0_8 (((cfg0 (adm (F := F) m 0)).slots t 8).cast nbuf0_8)) (spec0_9.stage ((cfg0 (adm (F := F) m 0)).slots t 9)) (hstage0_9 (((cfg0 (adm (F := F) m 0)).slots t 9).cast nbuf0_9)) (spec0_10.stage ((cfg0 (adm (F := F) m 0)).slots t 10)) (hstage0_10 (((cfg0 (adm (F := F) m 0)).slots t 10).cast nbuf0_10)) (Memref.whole cc0_scratch0) (Memref.isWhole_whole _) (tbl0 (F := F) m) (tbl1 (F := F) m) (tbl2 (F := F) m) (tbl3 (F := F) m) (iblk (F := F) m c 0 t) (iblk (F := F) m c 1 t) (iblk (F := F) m c 2 t) (iblk (F := F) m c 3 t) (iblk (F := F) m c 4 t) (iblk (F := F) m c 5 t) (iblk (F := F) m c 6 t) (iblk (F := F) m c 7 t) (iblk (F := F) m c 8 t) (iblk (F := F) m c 9 t)

/-! ## The pipeline's proof data -/

/-- The proof data: the arrays as the region finds them; after the body each input's buffer at its block, the output's at
    `outAt`; the invariant the scoped scratch at anything, the generator register, and the tables at their half share;
    nothing owed; full shares. -/
def dats (_ : Fin 1) (c : Dev nD) : Dat τ (Elt F) Unit ℕ (UR sig nD τ) ℕ (cfg0 (adm (F := F) m 0)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := iprop(Pipeline.ΦA spec0 c ∗ Pipeline.ΦT pre0 (adm (F := F) m 0).1 c)
  q _ := fullShare
  owed _ := 0

theorem A_eq (c : Dev nD) (w : Fin 11) : (dats m 0 c).A w = V m c (Pipeline.arrRef spec0 w) := by
  dsimp only [dats]

theorem after_0 (c : Dev nD) (t) : (dats m 0 c).after 0 t = iblk m c 0 t := by dsimp only [dats]; rfl
theorem after_1 (c : Dev nD) (t) : (dats m 0 c).after 1 t = iblk m c 1 t := by dsimp only [dats]; rfl
theorem after_2 (c : Dev nD) (t) : (dats m 0 c).after 2 t = iblk m c 2 t := by dsimp only [dats]; rfl
theorem after_3 (c : Dev nD) (t) : (dats m 0 c).after 3 t = iblk m c 3 t := by dsimp only [dats]; rfl
theorem after_4 (c : Dev nD) (t) : (dats m 0 c).after 4 t = iblk m c 4 t := by dsimp only [dats]; rfl
theorem after_5 (c : Dev nD) (t) : (dats m 0 c).after 5 t = iblk m c 5 t := by dsimp only [dats]; rfl
theorem after_6 (c : Dev nD) (t) : (dats m 0 c).after 6 t = iblk m c 6 t := by dsimp only [dats]; rfl
theorem after_7 (c : Dev nD) (t) : (dats m 0 c).after 7 t = iblk m c 7 t := by dsimp only [dats]; rfl
theorem after_8 (c : Dev nD) (t) : (dats m 0 c).after 8 t = iblk m c 8 t := by dsimp only [dats]; rfl
theorem after_9 (c : Dev nD) (t) : (dats m 0 c).after 9 t = iblk m c 9 t := by dsimp only [dats]; rfl
theorem after_10 (c : Dev nD) (t) : (dats m 0 c).after 10 t = outAt m c t := by dsimp only [dats]; rfl

/-- Each input's current staging buffer holds its block at every point, fetched there or not. -/
theorem before_0 (c : Dev nD) (t) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)

/-! ## The body obligation, at a generic point -/

/-- Window `w`'s current staging memref at point `t`. -/
abbrev st (w : Fin 11) (t : Fin (cfg0 (adm (F := F) m 0)).N) := ((cfg0 (adm (F := F) m 0)).win w).stage ((cfg0 (adm (F := F) m 0)).slots t w)

/-- A whole buffer held at a share is owned at its contents, and back. -/
theorem owns_in (c : Dev nD) (b : Ref sig .tc) (q : PosShare TreeShare) (f : b.ty.Contents (Elt F)) :
    ((((c : Thread nD τ).loc b) ↦{q} f : sProp 𝕄)) ⊢ owns (c : Thread nD τ) (Memref.whole b) q f := by
  rw [owns_whole]
theorem owns_out (c : Dev nD) (b : Ref sig .tc) (q : PosShare TreeShare) (f : b.ty.Contents (Elt F)) :
    (owns (c : Thread nD τ) (Memref.whole b) q f : sProp 𝕄) ⊢ (((c : Thread nD τ).loc b) ↦{q} f) := by
  rw [owns_whole]

theorem bigSep_T {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- What the body is called with at point `t`, the windows one by one, -/
def bodyPre (c : Dev nD) (t : Fin (cfg0 (adm (F := F) m 0)).N) : sProp 𝕄 :=
  iprop((dats m 0 c).Φ t.castSucc ∗ (dats m 0 c).owesAt () t.castSucc
    ∗ (∃ d, owns (c : Thread nD τ) (st (F := F) m 0 t) fullShare ((dats m 0 c).before 0 t d))
    ∗ (∃ d, owns (c : Thread nD τ) (st (F := F) m 1 t) fullShare ((dats m 0 c).before 1 t d))
    ∗ (∃ d, owns (c : Thread nD τ) (st (F := F) m 2 t) fullShare ((dats m 0 c).before 2 t d))
    ∗ (∃ d, owns (c : Thread nD τ) (st (F := F) m 3 t) fullShare ((dats m 0 c).before 3 t d))
    ∗ (∃ d, owns (c : Thread nD τ) (st (F := F) m 4 t) fullShare ((dats m 0 c).before 4 t d))
    ∗ (∃ d, owns (c : Thread nD τ) (st (F := F) m 5 t) fullShare ((dats m 0 c).before 5 t d))
    ∗ (∃ d, owns (c : Thread nD τ) (st (F := F) m 6 t) fullShare ((dats m 0 c).before 6 t d))
    ∗ (∃ d, owns (c : Thread nD τ) (st (F := F) m 7 t) fullShare ((dats m 0 c).before 7 t d))
    ∗ (∃ d, owns (c : Thread nD τ) (st (F := F) m 8 t) fullShare ((dats m 0 c).before 8 t d))
    ∗ (∃ d, owns (c : Thread nD τ) (st (F := F) m 9 t) fullShare ((dats m 0 c).before 9 t d))
    ∗ (∃ d, owns (c : Thread nD τ) (st (F := F) m 10 t) fullShare ((dats m 0 c).before 10 t d)))

/-- and what it returns. -/
def bodyPost (c : Dev nD) (t : Fin (cfg0 (adm (F := F) m 0)).N) : sProp 𝕄 :=
  iprop((dats m 0 c).Φ t.succ ∗ (dats m 0 c).owesAt () t.succ
    ∗ owns (c : Thread nD τ) (st (F := F) m 0 t) fullShare ((dats m 0 c).after 0 t)
    ∗ owns (c : Thread nD τ) (st (F := F) m 1 t) fullShare ((dats m 0 c).after 1 t)
    ∗ owns (c : Thread nD τ) (st (F := F) m 2 t) fullShare ((dats m 0 c).after 2 t)
    ∗ owns (c : Thread nD τ) (st (F := F) m 3 t) fullShare ((dats m 0 c).after 3 t)
    ∗ owns (c : Thread nD τ) (st (F := F) m 4 t) fullShare ((dats m 0 c).after 4 t)
    ∗ owns (c : Thread nD τ) (st (F := F) m 5 t) fullShare ((dats m 0 c).after 5 t)
    ∗ owns (c : Thread nD τ) (st (F := F) m 6 t) fullShare ((dats m 0 c).after 6 t)
    ∗ owns (c : Thread nD τ) (st (F := F) m 7 t) fullShare ((dats m 0 c).after 7 t)
    ∗ owns (c : Thread nD τ) (st (F := F) m 8 t) fullShare ((dats m 0 c).after 8 t)
    ∗ owns (c : Thread nD τ) (st (F := F) m 9 t) fullShare ((dats m 0 c).after 9 t)
    ∗ owns (c : Thread nD τ) (st (F := F) m 10 t) fullShare ((dats m 0 c).after 10 t))

set_option maxHeartbeats 2000000 in
/-- The body at any point: the inputs' memrefs hold their blocks, the invariant gives the scratch and the tables, so the
    kernel function's run applies; the generator register and the core's `owes` pass through unread. -/
theorem sound_body (c : Dev nD) (t : Fin (cfg0 (adm (F := F) m 0)).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10,
    show (dats m 0 c).Φ t.castSucc = iprop(Pipeline.ΦA spec0 c ∗ Pipeline.ΦT pre0 (adm (F := F) m 0).1 c) from rfl]
  unfold Pipeline.ΦA Pipeline.ΦT Pipeline.prefHeld
  rw [scopedRest0_eq, bigSep_T]
  iintro ⟨⟨⟨⟨%fs, Hs⟩, Hg⟩, ⟨Ht0, Ht1, Ht2, Ht3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) (Memref.whole main_v2) (Memref.isWhole_whole _) (Memref.whole main_v3) (Memref.isWhole_whole _) (Memref.whole main_v4) (Memref.isWhole_whole _) (Memref.whole main_v5) (Memref.isWhole_whole _) (spec0_0.stage ((cfg0 (adm (F := F) m 0)).slots t 0)) (hstage0_0 (((cfg0 (adm (F := F) m 0)).slots t 0).cast nbuf0_0)) (spec0_1.stage ((cfg0 (adm (F := F) m 0)).slots t 1)) (hstage0_1 (((cfg0 (adm (F := F) m 0)).slots t 1).cast nbuf0_1)) (spec0_2.stage ((cfg0 (adm (F := F) m 0)).slots t 2)) (hstage0_2 (((cfg0 (adm (F := F) m 0)).slots t 2).cast nbuf0_2)) (spec0_3.stage ((cfg0 (adm (F := F) m 0)).slots t 3)) (hstage0_3 (((cfg0 (adm (F := F) m 0)).slots t 3).cast nbuf0_3)) (spec0_4.stage ((cfg0 (adm (F := F) m 0)).slots t 4)) (hstage0_4 (((cfg0 (adm (F := F) m 0)).slots t 4).cast nbuf0_4)) (spec0_5.stage ((cfg0 (adm (F := F) m 0)).slots t 5)) (hstage0_5 (((cfg0 (adm (F := F) m 0)).slots t 5).cast nbuf0_5)) (spec0_6.stage ((cfg0 (adm (F := F) m 0)).slots t 6)) (hstage0_6 (((cfg0 (adm (F := F) m 0)).slots t 6).cast nbuf0_6)) (spec0_7.stage ((cfg0 (adm (F := F) m 0)).slots t 7)) (hstage0_7 (((cfg0 (adm (F := F) m 0)).slots t 7).cast nbuf0_7)) (spec0_8.stage ((cfg0 (adm (F := F) m 0)).slots t 8)) (hstage0_8 (((cfg0 (adm (F := F) m 0)).slots t 8).cast nbuf0_8)) (spec0_9.stage ((cfg0 (adm (F := F) m 0)).slots t 9)) (hstage0_9 (((cfg0 (adm (F := F) m 0)).slots t 9).cast nbuf0_9)) (spec0_10.stage ((cfg0 (adm (F := F) m 0)).slots t 10)) (hstage0_10 (((cfg0 (adm (F := F) m 0)).slots t 10).cast nbuf0_10)) (Memref.whole cc0_scratch0) (Memref.isWhole_whole _) (tbl0 (F := F) m) (tbl1 (F := F) m) (tbl2 (F := F) m) (tbl3 (F := F) m) (iblk (F := F) m c 0 t) (iblk (F := F) m c 1 t) (iblk (F := F) m c 2 t) (iblk (F := F) m c 3 t) (iblk (F := F) m c 4 t) (iblk (F := F) m c 5 t) (iblk (F := F) m c 6 t) (iblk (F := F) m c 7 t) (iblk (F := F) m c 8 t) (iblk (F := F) m c 9 t) _)
  isplitl [Ht0]; · iapply (owns_in (F := F) c main_v2 fullShare.right (tbl0 (F := F) m)); iexact Ht0
  isplitl [Ht1]; · iapply (owns_in (F := F) c main_v3 fullShare.right (tbl1 (F := F) m)); iexact Ht1
  isplitl [Ht2]; · iapply (owns_in (F := F) c main_v4 fullShare.right (tbl2 (F := F) m)); iexact Ht2
  isplitl [Ht3]; · iapply (owns_in (F := F) c main_v5 fullShare.right (tbl3 (F := F) m)); iexact Ht3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [Hs]; · iexists fs; iapply (owns_in (F := F) c cc0_scratch0 fullShare fs); iexact Hs
  iintro ⟨Ht0, Ht1, Ht2, Ht3, H0, H1, H2, H3, H4, H5, H6, H7, H8, H9, H10, ⟨%ds, Hs⟩⟩
  isplitl [Hs Hg Ht0 Ht1 Ht2 Ht3]
  · isplitl [Hs Hg]
    · isplitl [Hs]
      · iexists ds; iapply (owns_out (F := F) c cc0_scratch0 fullShare ds); iexact Hs
      · iexact Hg
    · isplitl [Ht0]; · iapply (owns_out (F := F) c main_v2 fullShare.right (tbl0 (F := F) m)); iexact Ht0
      isplitl [Ht1]; · iapply (owns_out (F := F) c main_v3 fullShare.right (tbl1 (F := F) m)); iexact Ht1
      isplitl [Ht2]; · iapply (owns_out (F := F) c main_v4 fullShare.right (tbl2 (F := F) m)); iexact Ht2
      iapply (owns_out (F := F) c main_v5 fullShare.right (tbl3 (F := F) m)); iexact Ht3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : iprop(Pipeline.ΦA spec0 c ∗ Pipeline.ΦT pre0 (adm (F := F) m 0).1 c) ⊢ (dats m 0 c).Φ 0 :=
  (Idealize.SL.BI.Entails.refl _)

/-- and after the last point the invariant gives the scoped scratch and the register back. -/
theorem hout (c : Dev nD) : (dats m 0 c).Φ (Fin.last (cfg0 (adm (F := F) m 0)).N) ⊢ Pipeline.ΦA spec0 c := by
  rw [show (dats m 0 c).Φ (Fin.last (cfg0 (adm (F := F) m 0)).N) = iprop(Pipeline.ΦA spec0 c ∗ Pipeline.ΦT pre0 (adm (F := F) m 0).1 c) from rfl]
  iintro ⟨H, -⟩
  iexact H

/-! ## The run -/

set_option backward.isDefEq.respectTransparency.types false in
/-- At the compiled mesh, from any memory with zero counters: every weakly fair execution of @main terminates, and every
    final state has every array of the pipeline at what the library computes from the proof data and every other
    unscoped buffer as the slice after the region leaves it. -/
theorem run_main : θ_run defs (onTc (τ := τ) (main (F := F))) (s₀ m ρ)
    (Pipeline.FramePost (Pipeline.pin (pcfgs (F := F)) (adm m)) (dats m) 0 (Pipeline.afterTail (pcfgs (F := F)) (adm m) (dats m) 0 (V0 m) [hostOps1])) :=
  Pipeline.θ_run_frameP_around_track (pcfgs (F := F)) (adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := hpf m) (hin := hin m) (hout := hout m)

end Cert.Kernel.Hand

end
-- ==== Proof.BArgs.lean ====
/-
  The fourteen argument arrays when the region is entered.

  Before the region @main runs six reshapes: each reads one argument array (`out_pc`'s and `out_context`'s rows, the
  four tables of centres) and writes a fresh array of the same elements in another shape.  No reshape writes an
  argument array, so each of the fourteen is, when the region is entered, as the launch found it.
-/
import proofs.«414461_j46188078301471_3_alg».proof.Proof.BRun
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## No reshape writes an argument array -/

/-- The side-128 feature map. -/
theorem V_main_arg0 (c : Dev nD) : V m c main_arg0 = m ((c : Thread nD τ).loc main_arg0) := by
  dsimp only [V, V0]
  simp only [hostOps0, List.flatten_cons, List.flatten_nil, List.append_nil]
  after_results

/-- The side-64 feature map. -/
theorem V_main_arg1 (c : Dev nD) : V m c main_arg1 = m ((c : Thread nD τ).loc main_arg1) := by
  dsimp only [V, V0]
  simp only [hostOps0, List.flatten_cons, List.flatten_nil, List.append_nil]
  after_results

/-- The side-32 feature map. -/
theorem V_main_arg2 (c : Dev nD) : V m c main_arg2 = m ((c : Thread nD τ).loc main_arg2) := by
  dsimp only [V, V0]
  simp only [hostOps0, List.flatten_cons, List.flatten_nil, List.append_nil]
  after_results

/-- The side-16 feature map. -/
theorem V_main_arg3 (c : Dev nD) : V m c main_arg3 = m ((c : Thread nD τ).loc main_arg3) := by
  dsimp only [V, V0]
  simp only [hostOps0, List.flatten_cons, List.flatten_nil, List.append_nil]
  after_results

/-- The first row array: a reshape reads it and writes another array. -/
theorem V_main_arg4 (c : Dev nD) : V m c main_arg4 = m ((c : Thread nD τ).loc main_arg4) := by
  dsimp only [V, V0]
  simp only [hostOps0, List.flatten_cons, List.flatten_nil, List.append_nil]
  after_results

/-- The second row array, likewise. -/
theorem V_main_arg5 (c : Dev nD) : V m c main_arg5 = m ((c : Thread nD τ).loc main_arg5) := by
  dsimp only [V, V0]
  simp only [hostOps0, List.flatten_cons, List.flatten_nil, List.append_nil]
  after_results

/-- The side-128 map's table of centres, likewise. -/
theorem V_main_arg6 (c : Dev nD) : V m c main_arg6 = m ((c : Thread nD τ).loc main_arg6) := by
  dsimp only [V, V0]
  simp only [hostOps0, List.flatten_cons, List.flatten_nil, List.append_nil]
  after_results

/-- The side-64 map's table of centres. -/
theorem V_main_arg7 (c : Dev nD) : V m c main_arg7 = m ((c : Thread nD τ).loc main_arg7) := by
  dsimp only [V, V0]
  simp only [hostOps0, List.flatten_cons, List.flatten_nil, List.append_nil]
  after_results

/-- The side-32 map's table of centres. -/
theorem V_main_arg8 (c : Dev nD) : V m c main_arg8 = m ((c : Thread nD τ).loc main_arg8) := by
  dsimp only [V, V0]
  simp only [hostOps0, List.flatten_cons, List.flatten_nil, List.append_nil]
  after_results

/-- The side-16 map's table of centres. -/
theorem V_main_arg9 (c : Dev nD) : V m c main_arg9 = m ((c : Thread nD τ).loc main_arg9) := by
  dsimp only [V, V0]
  simp only [hostOps0, List.flatten_cons, List.flatten_nil, List.append_nil]
  after_results

/-- The first dense layer's weights. -/
theorem V_main_arg10 (c : Dev nD) : V m c main_arg10 = m ((c : Thread nD τ).loc main_arg10) := by
  dsimp only [V, V0]
  simp only [hostOps0, List.flatten_cons, List.flatten_nil, List.append_nil]
  after_results

/-- The first dense layer's bias. -/
theorem V_main_arg11 (c : Dev nD) : V m c main_arg11 = m ((c : Thread nD τ).loc main_arg11) := by
  dsimp only [V, V0]
  simp only [hostOps0, List.flatten_cons, List.flatten_nil, List.append_nil]
  after_results

/-- The second dense layer's weights. -/
theorem V_main_arg12 (c : Dev nD) : V m c main_arg12 = m ((c : Thread nD τ).loc main_arg12) := by
  dsimp only [V, V0]
  simp only [hostOps0, List.flatten_cons, List.flatten_nil, List.append_nil]
  after_results

/-- The second dense layer's bias. -/
theorem V_main_arg13 (c : Dev nD) : V m c main_arg13 = m ((c : Thread nD τ).loc main_arg13) := by
  dsimp only [V, V0]
  simp only [hostOps0, List.flatten_cons, List.flatten_nil, List.append_nil]
  after_results

end Cert.Kernel.Hand

end
-- ==== Proof.BFrame.lean ====
/-
  The frame: @main runs to the end, nothing faults, and its fourteen argument arrays end as they were launched.

  Eight of them are arrays the region's windows stage as inputs: the pipeline's account of an input array gives them
  back at their entry contents, which are the launch contents because the six reshapes before the region write none of
  them.  The other six (the two 26-vectors and the four centre arrays) are only read by the reshapes and bypass the
  region; the slice after the region writes its own result and nothing else.
-/
import proofs.«414461_j46188078301471_3_alg».proof.Proof.BArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer that is no array of the pipeline and is not the slice's result holds, after the slice, what it held when the
    region was entered. -/
theorem tail_keep (c : Dev nD) (b : Ref sig .tc) (hb : b ≠ main_v7) (ha : ∀ w, Pipeline.arrRef spec0 w ≠ b) :
    Pipeline.afterTail (pcfgs (F := F)) (adm m) (dats m) 0 (V0 m) [hostOps1] c b = V m c b := by
  unfold Pipeline.afterTail
  rw [StableHlo.after_of_forall_not_mem _ _ (fun op hop => ?_), Pipeline.withArrays_of_ne _ c _ _ b ha]
  simp only [List.flatten_cons, List.flatten_nil, List.append_nil, hostOps1, List.mem_cons, List.mem_nil_iff, or_false] at hop
  rcases hop with rfl
  simp only [StableHlo.unary_writes, Finset.mem_singleton]
  exact StableHlo.devRef_ne_of_ne hb

/-- None of the six bypassing arguments is a window's array (decided over the windows' specifications, which do not
    mention the tables' contents). -/
theorem rest_ne_4 : ∀ w : Fin 11, (spec0 w).arr.view.ref ≠ main_arg4 := by decide
theorem rest_ne_5 : ∀ w : Fin 11, (spec0 w).arr.view.ref ≠ main_arg5 := by decide
theorem rest_ne_6 : ∀ w : Fin 11, (spec0 w).arr.view.ref ≠ main_arg6 := by decide
theorem rest_ne_7 : ∀ w : Fin 11, (spec0 w).arr.view.ref ≠ main_arg7 := by decide
theorem rest_ne_8 : ∀ w : Fin 11, (spec0 w).arr.view.ref ≠ main_arg8 := by decide
theorem rest_ne_9 : ∀ w : Fin 11, (spec0 w).arr.view.ref ≠ main_arg9 := by decide

/-- In any final state the launch's post describes, the fourteen arguments are as launched. -/
theorem args_kept (r : PUnit × MemSt nD τ sig (Elt F))
    (h : Pipeline.FramePost (Pipeline.pin (pcfgs (F := F)) (adm m)) (dats m) 0 (Pipeline.afterTail (pcfgs (F := F)) (adm m) (dats m) 0 (V0 m) [hostOps1]) r)
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).2 main_arg4 (Pipeline.mem_restRefs_of main_arg4 rfl rest_ne_4)).trans ((tail_keep m c main_arg4 (by decide) (by decide)).trans (V_main_arg4 m c)),
     ((h c).2 main_arg5 (Pipeline.mem_restRefs_of main_arg5 rfl rest_ne_5)).trans ((tail_keep m c main_arg5 (by decide) (by decide)).trans (V_main_arg5 m c)),
     ((h c).2 main_arg6 (Pipeline.mem_restRefs_of main_arg6 rfl rest_ne_6)).trans ((tail_keep m c main_arg6 (by decide) (by decide)).trans (V_main_arg6 m c)),
     ((h c).2 main_arg7 (Pipeline.mem_restRefs_of main_arg7 rfl rest_ne_7)).trans ((tail_keep m c main_arg7 (by decide) (by decide)).trans (V_main_arg7 m c)),
     ((h c).2 main_arg8 (Pipeline.mem_restRefs_of main_arg8 rfl rest_ne_8)).trans ((tail_keep m c main_arg8 (by decide) (by decide)).trans (V_main_arg8 m c)),
     ((h c).2 main_arg9 (Pipeline.mem_restRefs_of main_arg9 rfl rest_ne_9)).trans ((tail_keep m c main_arg9 (by decide) (by decide)).trans (V_main_arg9 m c)),
     ((h c).1 6).trans (((dats m 0 c).arrAt_in 6 rfl _).trans ((A_eq m c 6).trans (V_main_arg10 m c))),
     ((h c).1 7).trans (((dats m 0 c).arrAt_in 7 rfl _).trans ((A_eq m c 7).trans (V_main_arg11 m c))),
     ((h c).1 8).trans (((dats m 0 c).arrAt_in 8 rfl _).trans ((A_eq m c 8).trans (V_main_arg12 m c))),
     ((h c).1 9).trans (((dats m 0 c).arrAt_in 9 rfl _).trans ((A_eq m c 9).trans (V_main_arg13 m c)))⟩

/-- THE FRAME, at any float family. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m r h c) (run_main m ρ)

end Cert.Kernel.Hand

end
-- ==== Proof.KLoop.lean ====
/-
  The kernel's loop over the eight batch rows of a block, by its invariant.

  Trip `k` reads, for each of the four feature maps, the block's slab `k` and the sixteen words of that row's
  centres in the map's table, and stores ONE 128-lane row — the pooled channels, the row's two 26-vectors, zeros —
  into row `k` of the scratch.  Nothing else is written.  So the invariant is: every buffer the trips read holds what it
  held, and the scratch holds the rows of the trips so far written over its contents at entry.  The tables are held at
  half the full share (the launch keeps the other half), which is all a load needs.
-/
import proofs.«414461_j46188078301471_3_alg».proof.Proof.Gen.KernelIdeal.Skeleton
import Idealize.ShloMosaic.Lib.Exec
import Idealize.ShloMosaic.Lib.Tactic
import Idealize.ShloMosaic.Lib.Pipeline.Kit

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The class of invariants of the kernel's counted loop over the eight batch rows of a block, at a general resource algebra. -/
abbrev LoopInvTyH (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0)

/-- What one trip needs: the four tables of centres and the six staged input blocks at their contents (the tables at the half share the body is handed), and the scratch at any contents. -/
abbrev TripH (c : Dev nD) (arg1 : Memref sig .tc .smem S1024 .i32) (arg2 : Memref sig .tc .smem S1024 .i32) (arg3 : Memref sig .tc .smem S1024 .i32) (arg4 : Memref sig .tc .smem S1024 .i32) (arg5 : Memref sig .tc .vmem S8x26x128x128 .f32) (arg6 : Memref sig .tc .vmem S8x26x64x64 .f32) (arg7 : Memref sig .tc .vmem S8x26x32x32 .f32) (arg8 : Memref sig .tc .vmem S8x26x16x16 .f32) (arg9 : Memref sig .tc .vmem S8x1x26 .f32) (arg10 : Memref sig .tc .vmem S8x1x26 .f32) (arg16 : Memref sig .tc .vmem S8x128 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (f_arg16 : BufTy.Contents (Elt F) arg16.view.ty) : sProp 𝕄G :=
  iprop((arg1.view.loc (c : Thread nD τ) ↦[arg1.view.set]{fullShare.right} X_arg1) ∗ (arg2.view.loc (c : Thread nD τ) ↦[arg2.view.set]{fullShare.right} X_arg2) ∗ (arg3.view.loc (c : Thread nD τ) ↦[arg3.view.set]{fullShare.right} X_arg3) ∗ (arg4.view.loc (c : Thread nD τ) ↦[arg4.view.set]{fullShare.right} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg16.view.loc (c : Thread nD τ) ↦[arg16.view.set]{fullShare} f_arg16))

/-- One trip at a symbolic row `k`: it reads the tables and the blocks and stores one piece into the scratch; the piece list is the run's own, with the buffers handed back unchanged otherwise. -/
@[irreducible] def tripH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) :
    { L_arg16 : List (View.Piece (Elt F) S8x128 .f32) // ∀ (E : Set ℕ) (f_arg16 : BufTy.Contents (Elt F) arg16.view.ty),
      TripH (F := F) c arg1 arg2 arg3 arg4 arg5 arg6 arg7 arg8 arg9 arg10 arg16 X_arg1 X_arg2 X_arg3 X_arg4 X_arg5 X_arg6 X_arg7 X_arg8 X_arg9 X_arg10 f_arg16
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k PUnit.unit)
          (fun _ => TripH (F := F) c arg1 arg2 arg3 arg4 arg5 arg6 arg7 arg8 arg9 arg10 arg16 X_arg1 X_arg2 X_arg3 X_arg4 X_arg5 X_arg6 X_arg7 X_arg8 X_arg9 X_arg10 (arg16.view.writes (Elt F) f_arg16 L_arg16)) } := by
  have hk : k.val < 8 := Nat.lt_of_lt_of_le k.isLt k0_t1_abs.2.1
  refine ⟨?_, fun E f_arg16 => ?run⟩
  case run =>
    unfold k0_t1_body
    iintro ⟨HR_arg1, HR_arg2, HR_arg3, HR_arg4, HR_arg5, HR_arg6, HR_arg7, HR_arg8, HR_arg9, HR_arg10, HW_arg16⟩
    sl_exec
    sl_step
    sl_close

/-- The trip's piece list. -/
abbrev tripLH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) : List (View.Piece (Elt F) S8x128 .f32) :=
  (tripH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k).1

/-- Trip `k`'s pieces put in front of those of the trips before it; past the last trip nothing is added. -/
@[irreducible] def pbStepH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : ℕ) (prev : List (View.Piece (Elt F) S8x128 .f32)) : List (View.Piece (Elt F) S8x128 .f32) :=
  if h : k < k0_t1_loop.trips then
    (tripLH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 ⟨k, h⟩) ++ prev
  else prev

/-- The pieces of the trips before `k`, last first. -/
def pbH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) : ℕ → List (View.Piece (Elt F) S8x128 .f32)
  | 0 => []
  | k + 1 => pbStepH 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k (pbH 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k)

/-- One more trip puts its pieces in front. -/
theorem pbH_succ (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) :
    pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 (k.val + 1)
      = (tripLH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k) ++ (pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k.val) := by
  rw [pbH.eq_2]; unfold pbStepH; exact dif_pos k.isLt

/-- The invariant before trip `k`: the tables and the blocks at their contents, the scratch holding the pieces of the trips before `k` written over what it held at the loop's entry. -/
abbrev invH (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (G_arg16 : BufTy.Contents (Elt F) arg16.view.ty) (k : ℕ) (_u : PUnit) : sProp 𝕄G :=
  iprop((arg1.view.loc (c : Thread nD τ) ↦[arg1.view.set]{fullShare.right} X_arg1) ∗ (arg2.view.loc (c : Thread nD τ) ↦[arg2.view.set]{fullShare.right} X_arg2) ∗ (arg3.view.loc (c : Thread nD τ) ↦[arg3.view.set]{fullShare.right} X_arg3) ∗ (arg4.view.loc (c : Thread nD τ) ↦[arg4.view.set]{fullShare.right} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (∃ f, (arg16.view.loc (c : Thread nD τ) ↦[arg16.view.set]{fullShare} f) ∗ ⌜f = arg16.view.writes (Elt F) G_arg16 (pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k)⌝))

set_option warn.classDefReducibility false in
/-- The loop by its invariant: a trip takes the invariant at `k` to the invariant at `k + 1`, its pieces appended to the list. -/
@[sl_loop] def loopInvH (𝒱 : Variants) (c : Dev nD) (bd : Option 𝒱.V) (E : Set ℕ) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (G_arg16 : BufTy.Contents (Elt F) arg16.view.ty) :
    LoopInvTyH (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 where
  inv := invH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 G_arg16
  step k acc := by
    iintro ⟨HR_arg1, HR_arg2, HR_arg3, HR_arg4, HR_arg5, HR_arg6, HR_arg7, HR_arg8, HR_arg9, HR_arg10, ⟨%f_arg16, HW_arg16, %h_arg16⟩⟩
    iapply (wp_wand_r Idealize.ShloMosaic.frame (wpE (defs₀ (F := F)) 𝒱 (c : Thread nD τ) bd) E)
    isplitl [HR_arg1 HR_arg2 HR_arg3 HR_arg4 HR_arg5 HR_arg6 HR_arg7 HR_arg8 HR_arg9 HR_arg10 HW_arg16]
    · iapply ((tripH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k).2 E f_arg16)
      isplitl [HR_arg1]; · iexact HR_arg1
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HR_arg10]; · iexact HR_arg10
      iexact HW_arg16
    · iintro %_ ⟨HR_arg1, HR_arg2, HR_arg3, HR_arg4, HR_arg5, HR_arg6, HR_arg7, HR_arg8, HR_arg9, HR_arg10, HW_arg16⟩
      isplitl [HR_arg1]; · iexact HR_arg1
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HR_arg10]; · iexact HR_arg10
      rw [pbH_succ]
      iexists _; isplitl [HW_arg16]; · iexact HW_arg16
      ipureintro; rw [h_arg16, ← View.writes_append]

end Cert.KernelIdeal.Hand

end
-- ==== Proof.KBody.lean ====
import proofs.«414461_j46188078301471_3_alg».proof.Proof.KLoop
import proofs.«414461_j46188078301471_3_alg».proof.Proof.Gen.KernelIdeal.Launch
import Idealize.ShloMosaic.Lib.ValueIdx
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## One trip's row, and the scratch after the eight trips

Trip `k` of the loop stores ONE piece into the scratch: its row `k`, a 128-lane vector (`rowPay`). After the eight
trips every row has been stored once, so the scratch holds `scrG`, row `p` being trip `p`'s vector, whatever it
held before. -/

/-- The 128-lane row trip `k` stores, from the contents of the tables and of the staged blocks. -/
def rowPay (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) : FVec F S1x128 .f32 :=
  k0_pay1 (tripH.sl.r_66 i arg1 arg2 arg3 arg5 arg6 arg7 X_arg1 X_arg2 X_arg3 X_arg5 X_arg6 X_arg7 k)
    (tripH.sl.r_67 arg8 X_arg8 k) (tripH.sl.r_82 i arg4 X_arg4 k) tripH.sl.cst_161
    (View.readAt (Elt F) arg9.view (Rect.unit (s := S8x1x26) (k0_off6 k) S1x1x26.size (k0_off6_inb k)).toLoadRect X_arg9)
    (View.readAt (Elt F) arg10.view (Rect.unit (s := S8x1x26) (k0_off6 k) S1x1x26.size (k0_off6_inb k)).toLoadRect X_arg10)

/-- The trip's piece list is that one piece. -/
theorem tripL_eq (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (k : Fin k0_t1_loop.trips) :
    tripLH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k
      = [⟨Rect.unit (s := S8x128) (k0_off7 k) S1x128.size (k0_off7_inb k), rowPay (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k⟩] := by
  unfold tripLH tripH rowPay
  rfl

/-- The loop makes eight trips. -/
theorem trips_eq : k0_t1_loop.trips = 8 := by decide

/-- The scratch once every row has been stored: row `p` is trip `p`'s vector. -/
def scrG (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) : Vec F S8x128 .f32 := fun y =>
  rowPay (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 ⟨(y 0).val, by rw [trips_eq]; exact (y 0).isLt⟩ (ix2 0 (y 1))

/-- Every piece of the first `n` trips agrees with `scrG` on its row. -/
theorem pb_agree (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) :
    ∀ n, n ≤ k0_t1_loop.trips → ∀ p ∈ pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 n,
      ∀ x : p.1.shape.Idx, p.2 x = scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 (p.1.emb x)
  | 0, _, p, hp, _ => by rw [pbH.eq_1] at hp; exact absurd hp List.not_mem_nil
  | n + 1, hn, p, hp, x => by
    have hk : n < k0_t1_loop.trips := hn
    rw [show n + 1 = (⟨n, hk⟩ : Fin k0_t1_loop.trips).val + 1 from rfl, pbH_succ, tripL_eq] at hp
    rcases List.mem_append.mp hp with h | h
    · obtain rfl := List.mem_singleton.mp h
      -- the piece is row `n`: its own index `x = (0, l)` sits at `(n, l)` of the scratch
      have h70 : k0_off7 (⟨n, hk⟩ : Fin k0_t1_loop.trips) 0 = n := by rw [k0_off7_eq]; rfl
      have h71 : k0_off7 (⟨n, hk⟩ : Fin k0_t1_loop.trips) 1 = 0 := by rw [k0_off7_eq]; rfl
      have h0 : ((x 0 : Fin _) : Nat) < 1 := (x 0).isLt
      have e0 : ((Rect.unit (s := S8x128) (k0_off7 ⟨n, hk⟩) S1x128.size (k0_off7_inb ⟨n, hk⟩)).emb x 0 : Nat) = n := by
        rw [Rect.emb_apply, Rect.off_unit, Rect.stride_unit]
        omega
      have e1 : ((Rect.unit (s := S8x128) (k0_off7 ⟨n, hk⟩) S1x128.size (k0_off7_inb ⟨n, hk⟩)).emb x 1 : Nat) = ((x 1 : Fin _) : Nat) := by
        rw [Rect.emb_apply, Rect.off_unit, Rect.stride_unit]
        omega
      show rowPay (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 ⟨n, hk⟩ x = scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 _
      unfold scrG
      refine congrArg₂ (fun (k' : Fin k0_t1_loop.trips) (z : S1x128.Idx) => rowPay (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k' z) (Fin.ext e0.symm) ?_
      funext a
      match a with
      | ⟨0, _⟩ => exact Fin.ext (by show ((x 0 : Fin _) : Nat) = 0; omega)
      | ⟨1, _⟩ => exact Fin.ext e1.symm
    · exact pb_agree 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 n (Nat.le_of_succ_le hn) p h x

/-- The pieces of the first `n` trips cover the rows below `n`. -/
theorem pb_cover (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) :
    ∀ n, n ≤ k0_t1_loop.trips → ∀ y : S8x128.Idx, (y 0).val < n →
      ∃ p ∈ pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 n, y ∈ p.1.set
  | 0, _, y, h => absurd h (Nat.not_lt_zero _)
  | n + 1, hn, y, h => by
    have hk : n < k0_t1_loop.trips := hn
    rw [show n + 1 = (⟨n, hk⟩ : Fin k0_t1_loop.trips).val + 1 from rfl, pbH_succ, tripL_eq]
    by_cases e : (y 0).val = n
    · refine ⟨_, List.mem_append_left _ (List.mem_singleton.mpr rfl), ?_⟩
      -- row `n` is the piece's rectangle: offsets `(n, 0)`, sizes `(1, 128)`
      show y ∈ (Rect.unit (s := S8x128) (k0_off7 ⟨n, hk⟩) S1x128.size (k0_off7_inb ⟨n, hk⟩)).set
      rw [Rect.mem_set_unit, k0_off7_eq]
      intro a
      match a with
      | ⟨0, _⟩ => exact ⟨by show n ≤ ((y 0 : Fin _) : Nat); omega, by show ((y 0 : Fin _) : Nat) < n + 1; omega⟩
      | ⟨1, _⟩ => exact ⟨Nat.zero_le _, by have h1 : ((y 1 : Fin _) : Nat) < 128 := (y 1).isLt; show ((y 1 : Fin _) : Nat) < 0 + 128; omega⟩
    · obtain ⟨p, hp, hy⟩ := pb_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 n (Nat.le_of_succ_le hn) y (by omega)
      exact ⟨p, List.mem_append_right _ hp, hy⟩

/-- After the eight trips the scratch reads `scrG`, whatever it held at the loop's entry. -/
theorem scr_read (𝒱 : Variants) (c : Dev nD) (bd : Option 𝒱.V) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (f16 : BufTy.Contents (Elt F) arg16.view.ty) :
    arg16.view.read (Elt F) (arg16.view.writes (Elt F) f16 (pbH (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 k0_t1_loop.trips))
      = scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 :=
  funext fun y => View.read_writes_apply_of_pieces arg16.view f16 (scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10) _
    (pb_agree 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 _ le_rfl) y
    (pb_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X_arg1 X_arg2 X_arg3 X_arg4 X_arg5 X_arg6 X_arg7 X_arg8 X_arg9 X_arg10 _ le_rfl y (by rw [trips_eq]; exact (y 0).isLt))

/-! ## The kernel function's run

The function loads the two weight matrices and the two biases whole, runs the loop (which fills the scratch row by
row), loads the scratch whole, and stores the two-layer perceptron of its rows, padded to 128 lanes, over the whole
output block. -/

abbrev rW1 : Rect S78x39 := Rect.unit (s := S78x39) ![0, 0] S78x39.size inb_S78x39_S78x39_0_0
abbrev rW2 : Rect S39x26 := Rect.unit (s := S39x26) ![0, 0] S39x26.size inb_S39x26_S39x26_0_0
abbrev rB1 : Rect S39 := Rect.unit (s := S39) ![0] S39.size inb_S39_S39_0
abbrev rB2 : Rect S26 := Rect.unit (s := S26) ![0] S26.size inb_S26_S26_0
abbrev rS : Rect S8x128 := Rect.unit (s := S8x128) ![0, 0] S8x128.size inb_S8x128_S8x128_0_0

/-- The scratch after the loop, from what the tables and the staged blocks READ (a whole memref's contents are
    determined by what it reads). -/
def scrX (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (T1 T2 T3 T4 : Vec F S1024 .i32) (x5 : Vec F S8x26x128x128 .f32) (x6 : Vec F S8x26x64x64 .f32) (x7 : Vec F S8x26x32x32 .f32) (x8 : Vec F S8x26x16x16 .f32) (x9 x10 : Vec F S8x1x26 .f32) : Vec F S8x128 .f32 :=
  scrG (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Memref.IsWhole.unread harg1 T1) (Memref.IsWhole.unread harg2 T2) (Memref.IsWhole.unread harg3 T3) (Memref.IsWhole.unread harg4 T4) (Memref.IsWhole.unread harg5 x5) (Memref.IsWhole.unread harg6 x6) (Memref.IsWhole.unread harg7 x7) (Memref.IsWhole.unread harg8 x8) (Memref.IsWhole.unread harg9 x9) (Memref.IsWhole.unread harg10 x10)

/-- The output block after the body. -/
def outBlk (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (T1 T2 T3 T4 : Vec F S1024 .i32) (x5 : Vec F S8x26x128x128 .f32) (x6 : Vec F S8x26x64x64 .f32) (x7 : Vec F S8x26x32x32 .f32) (x8 : Vec F S8x26x16x16 .f32) (x9 x10 : Vec F S8x1x26 .f32) (x11 : Vec F S78x39 .f32) (x12 : Vec F S39 .f32) (x13 : Vec F S39x26 .f32) (x14 : Vec F S26 .f32) : Vec F S8x128 .f32 :=
  View.canon [⟨rS, k0_pay2 (View.ld x11 rW1) (View.ld x13 rW2) (View.ld x12 rB1) (View.ld x14 rB2)
    (View.ld (scrX (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 T1 T2 T3 T4 x5 x6 x7 x8 x9 x10) rS)⟩]

theorem cover_out (p0 : Vec F S8x128 .f32) (y : S8x128.Idx) :
    ∃ pc ∈ ([⟨rS, p0⟩] : List (View.Piece (Elt F) S8x128 .f32)), y ∈ pc.1.set :=
  View.cover_of_tiled [⟨rS, p0⟩] S8x128.size (by rfl) y

set_option maxHeartbeats 4000000 in
/-- The kernel function on whole memrefs — the four tables and the ten input blocks at what they read, the output
    block and the scratch at anything — runs to the continuation holding the inputs as they were, the output block at
    `outBlk` and the scratch at something. -/
theorem sound_kernel (c : Dev nD) (E : Set ℕ) (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (T1 T2 T3 T4 : Vec F S1024 .i32) (x5 : Vec F S8x26x128x128 .f32) (x6 : Vec F S8x26x64x64 .f32) (x7 : Vec F S8x26x32x32 .f32) (x8 : Vec F S8x26x16x16 .f32) (x9 x10 : Vec F S8x1x26 .f32) (x11 : Vec F S78x39 .f32) (x12 : Vec F S39 .f32) (x13 : Vec F S39x26 .f32) (x14 : Vec F S26 .f32) (K : PUnit → sProp 𝕄) :
    iprop(owns (c : Thread nD τ) arg1 fullShare.right T1
        ∗ owns (c : Thread nD τ) arg2 fullShare.right T2
        ∗ owns (c : Thread nD τ) arg3 fullShare.right T3
        ∗ owns (c : Thread nD τ) arg4 fullShare.right T4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ (∃ d, owns (c : Thread nD τ) arg15 fullShare d) ∗ (∃ d, owns (c : Thread nD τ) arg16 fullShare d)
        ∗ (iprop(owns (c : Thread nD τ) arg1 fullShare.right T1
        ∗ owns (c : Thread nD τ) arg2 fullShare.right T2
        ∗ owns (c : Thread nD τ) arg3 fullShare.right T3
        ∗ owns (c : Thread nD τ) arg4 fullShare.right T4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
            ∗ owns (c : Thread nD τ) arg15 fullShare (outBlk (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 T1 T2 T3 T4 x5 x6 x7 x8 x9 x10 x11 x12 x13 x14)
            ∗ (∃ d, owns (c : Thread nD τ) arg16 fullShare d)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__pool_kernel_eq_skeleton]; unfold cc0__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  obtain rfl := Memref.IsWhole.eq_unread harg1 hf1
  obtain rfl := Memref.IsWhole.eq_unread harg2 hf2
  obtain rfl := Memref.IsWhole.eq_unread harg3 hf3
  obtain rfl := Memref.IsWhole.eq_unread harg4 hf4
  obtain rfl := Memref.IsWhole.eq_unread harg5 hf5
  obtain rfl := Memref.IsWhole.eq_unread harg6 hf6
  obtain rfl := Memref.IsWhole.eq_unread harg7 hf7
  obtain rfl := Memref.IsWhole.eq_unread harg8 hf8
  obtain rfl := Memref.IsWhole.eq_unread harg9 hf9
  obtain rfl := Memref.IsWhole.eq_unread harg10 hf10
  obtain rfl := Memref.IsWhole.eq_unread harg11 hf11
  obtain rfl := Memref.IsWhole.eq_unread harg12 hf12
  obtain rfl := Memref.IsWhole.eq_unread harg13 hf13
  obtain rfl := Memref.IsWhole.eq_unread harg14 hf14
  sl_exec
  sl_step
  iapply Hk
  isplitl [H1]
  · iexists _; isplitr; swap; · iexact H1
    ipureintro; exact Memref.IsWhole.read_unread harg1 _
  isplitl [H2]
  · iexists _; isplitr; swap; · iexact H2
    ipureintro; exact Memref.IsWhole.read_unread harg2 _
  isplitl [H3]
  · iexists _; isplitr; swap; · iexact H3
    ipureintro; exact Memref.IsWhole.read_unread harg3 _
  isplitl [H4]
  · iexists _; isplitr; swap; · iexact H4
    ipureintro; exact Memref.IsWhole.read_unread harg4 _
  isplitl [H5]
  · iexists _; isplitr; swap; · iexact H5
    ipureintro; exact Memref.IsWhole.read_unread harg5 _
  isplitl [H6]
  · iexists _; isplitr; swap; · iexact H6
    ipureintro; exact Memref.IsWhole.read_unread harg6 _
  isplitl [H7]
  · iexists _; isplitr; swap; · iexact H7
    ipureintro; exact Memref.IsWhole.read_unread harg7 _
  isplitl [H8]
  · iexists _; isplitr; swap; · iexact H8
    ipureintro; exact Memref.IsWhole.read_unread harg8 _
  isplitl [H9]
  · iexists _; isplitr; swap; · iexact H9
    ipureintro; exact Memref.IsWhole.read_unread harg9 _
  isplitl [H10]
  · iexists _; isplitr; swap; · iexact H10
    ipureintro; exact Memref.IsWhole.read_unread harg10 _
  isplitl [H11]
  · iexists _; isplitr; swap; · iexact H11
    ipureintro; exact Memref.IsWhole.read_unread harg11 _
  isplitl [H12]
  · iexists _; isplitr; swap; · iexact H12
    ipureintro; exact Memref.IsWhole.read_unread harg12 _
  isplitl [H13]
  · iexists _; isplitr; swap; · iexact H13
    ipureintro; exact Memref.IsWhole.read_unread harg13 _
  isplitl [H14]
  · iexists _; isplitr; swap; · iexact H14
    ipureintro; exact Memref.IsWhole.read_unread harg14 _
  isplitl [H15]
  · iexists _; isplitr; swap; · iexact H15
    ipureintro
    -- the one store covers the block; its payload is the perceptron of the weight blocks and of the scratch after the loop
    rw [View.read_writes_eq_canon _ _ _ (cover_out _)]
    unfold outBlk scrX
    sl_unfold_words
    simp only [View.readAt_eq_ld, Memref.IsWhole.read_unread]
    exact congrArg (fun z : Vec F S8x128 .f32 => View.canon ([⟨rS, k0_pay2 (View.ld x11 rW1) (View.ld x13 rW2) (View.ld x12 rB1) (View.ld x14 rB2) (View.ld z rS)⟩] : List (View.Piece (Elt F) S8x128 .f32)))
      (scr_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Memref.IsWhole.unread harg1 T1) (Memref.IsWhole.unread harg2 T2) (Memref.IsWhole.unread harg3 T3) (Memref.IsWhole.unread harg4 T4) (Memref.IsWhole.unread harg5 x5) (Memref.IsWhole.unread harg6 x6) (Memref.IsWhole.unread harg7 x7) (Memref.IsWhole.unread harg8 x8) (Memref.IsWhole.unread harg9 x9) (Memref.IsWhole.unread harg10 x10) f16)
  · iexists _, _; isplitr; swap; · iexact H16
    ipureintro; rfl

end Cert.KernelIdeal.Hand

end
-- ==== Proof.KRun.lean ====
/-
  The launch: @main is six reshapes, the pooling kernel's region over a grid of eight blocks of eight batch rows, and
  one slice of its result.

  The four tables of centres are prefetched: the region holds them fixed, at what the reshapes of the four centre
  arrays wrote.  Ten windows are inputs (the four feature maps and the two 26-vectors by blocks of eight rows; the two
  weight matrices and the two biases whole), the last is the output, a block of eight 128-lane rows per point.  At a
  point the body leaves every input block as it found it and the output block at `outBlk` of the tables and the input
  blocks; between points it keeps nothing (the scratch is rewritten row by row before it is read).
-/
import proofs.«414461_j46188078301471_3_alg».proof.Proof.KBody
import proofs.«414461_j46188078301471_3_alg».proof.Proof.Gen.KernelIdeal.Launch
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: after the six reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshapes, the region, the slice: it reduces to the region continued by the slice, at the contents
    after the reshapes. -/
theorem hmain (𝒱₀ : Variants) : Pipeline.HMainPK (Ix := Unit) (Name := ℕ) (U := UR sig nD τ) (Lvl := ℕ) (pcfgs (F := F)) 0 defs₀ 𝒱₀ m (main (F := F)) (V m)
      (fun _ => Pipeline.chain [StableHlo.seq hostOps1]) :=
  Pipeline.hmainP_around (pcfgs (F := F)) 0 defs₀ 𝒱₀ m main [hostOps0] [hostOps1] hostOps0_sub hostOps0_fresh
    (fun c => (main_chain c).trans rfl)

/-- The tables' contents when the region is entered: what the reshapes of the centre arrays wrote (there is one
    device). -/
def adm : (p : Fin 1) → (pcfgs (F := F) p).Adm :=
  fun _ => ⟨fun k => V0 m (0 : Dev nD) (Proc.devRef .tc (pre0.ref k)), trivial⟩

theorem hpf (c : Dev nD) (k : Fin pre0.K) : V0 m c (Proc.devRef .tc (pre0.ref k)) = (adm (F := F) m 0).1 k := by
  obtain rfl : c = 0 := Subsingleton.elim _ _
  rfl

/-- The slice after the region touches the region's result and its own result only: no table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro k
  fin_cases k <;> simp only [StableHlo.unary_bufs, Finset.mem_insert, Finset.mem_singleton, not_or] <;>
    exact ⟨StableHlo.devRef_ne_of_ne (by decide), StableHlo.devRef_ne_of_ne (by decide)⟩
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the pipeline (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.unary_writes, Finset.mem_singleton] <;> exact StableHlo.devRef_ne_of_ne (by decide)

/-! ## The windows' blocks, the tables, the body at a point -/

/-- Window `w`'s block at point `t`, read off its array as the region finds it. -/
def iblk (c : Dev nD) (w : Fin 11) (t : Fin (cfg0 (adm (F := F) m 0)).N) :
    (((cfg0 (adm (F := F) m 0)).win w).xblock ((cfg0 (adm (F := F) m 0)).grid.coords t)).Idx → Elt F ((cfg0 (adm (F := F) m 0)).win w).elt :=
  (((cfg0 (adm (F := F) m 0)).win w).blk t).view.read (Elt F) (V m c (Pipeline.arrRef spec0 w))

/-- The four tables as the region holds them. -/
abbrev tbl0 : Vec F S1024 .i32 := (adm (F := F) m 0).1 (0 : Fin 4)
abbrev tbl1 : Vec F S1024 .i32 := (adm (F := F) m 0).1 (1 : Fin 4)
abbrev tbl2 : Vec F S1024 .i32 := (adm (F := F) m 0).1 (2 : Fin 4)
abbrev tbl3 : Vec F S1024 .i32 := (adm (F := F) m 0).1 (3 : Fin 4)

/-- The kernel body at point `t`, on what the pipeline calls it with. -/
abbrev bodyAt (t : Fin (cfg0 (adm (F := F) m 0)).N) : Prog (TpuEff nD τ sig (Elt F) Λ₀ .tc) PUnit :=
  cc0__pool_kernel (grid0.coords t) (Memref.whole main_v2) (Memref.isWhole_whole _) (Memref.whole main_v3) (Memref.isWhole_whole _) (Memref.whole main_v4) (Memref.isWhole_whole _) (Memref.whole main_v5) (Memref.isWhole_whole _) (spec0_0.stage ((cfg0 (adm (F := F) m 0)).slots t 0)) (hstage0_0 (((cfg0 (adm (F := F) m 0)).slots t 0).cast nbuf0_0)) (spec0_1.stage ((cfg0 (adm (F := F) m 0)).slots t 1)) (hstage0_1 (((cfg0 (adm (F := F) m 0)).slots t 1).cast nbuf0_1)) (spec0_2.stage ((cfg0 (adm (F := F) m 0)).slots t 2)) (hstage0_2 (((cfg0 (adm (F := F) m 0)).slots t 2).cast nbuf0_2)) (spec0_3.stage ((cfg0 (adm (F := F) m 0)).slots t 3)) (hstage0_3 (((cfg0 (adm (F := F) m 0)).slots t 3).cast nbuf0_3)) (spec0_4.stage ((cfg0 (adm (F := F) m 0)).slots t 4)) (hstage0_4 (((cfg0 (adm (F := F) m 0)).slots t 4).cast nbuf0_4)) (spec0_5.stage ((cfg0 (adm (F := F) m 0)).slots t 5)) (hstage0_5 (((cfg0 (adm (F := F) m 0)).slots t 5).cast nbuf0_5)) (spec0_6.stage ((cfg0 (adm (F := F) m 0)).slots t 6)) (hstage0_6 (((cfg0 (adm (F := F) m 0)).slots t 6).cast nbuf0_6)) (spec0_7.stage ((cfg0 (adm (F := F) m 0)).slots t 7)) (hstage0_7 (((cfg0 (adm (F := F) m 0)).slots t 7).cast nbuf0_7)) (spec0_8.stage ((cfg0 (adm (F := F) m 0)).slots t 8)) (hstage0_8 (((cfg0 (adm (F := F) m 0)).slots t 8).cast nbuf0_8)) (spec0_9.stage ((cfg0 (adm (F := F) m 0)).slots t 9)) (hstage0_9 (((cfg0 (adm (F := F) m 0)).slots t 9).cast nbuf0_9)) (spec0_10.stage ((cfg0 (adm (F := F) m 0)).slots t 10)) (hstage0_10 (((cfg0 (adm (F := F) m 0)).slots t 10).cast nbuf0_10)) (Memref.whole cc0_scratch0) (Memref.isWhole_whole _)

/-- What the body leaves in the output block at point `t`. -/
def outAt (c : Dev nD) (t : Fin (cfg0 (adm (F := F) m 0)).N) : Vec F S8x128 .f32 :=
  outBlk (F := F) (grid0.coords t) (Memref.whole main_v2) (Memref.isWhole_whole _) (Memref.whole main_v3) (Memref.isWhole_whole _) (Memref.whole main_v4) (Memref.isWhole_whole _) (Memref.whole main_v5) (Memref.isWhole_whole _) (spec0_0.stage ((cfg0 (adm (F := F) m 0)).slots t 0)) (hstage0_0 (((cfg0 (adm (F := F) m 0)).slots t 0).cast nbuf0_0)) (spec0_1.stage ((cfg0 (adm (F := F) m 0)).slots t 1)) (hstage0_1 (((cfg0 (adm (F := F) m 0)).slots t 1).cast nbuf0_1)) (spec0_2.stage ((cfg0 (adm (F := F) m 0)).slots t 2)) (hstage0_2 (((cfg0 (adm (F := F) m 0)).slots t 2).cast nbuf0_2)) (spec0_3.stage ((cfg0 (adm (F := F) m 0)).slots t 3)) (hstage0_3 (((cfg0 (adm (F := F) m 0)).slots t 3).cast nbuf0_3)) (spec0_4.stage ((cfg0 (adm (F := F) m 0)).slots t 4)) (hstage0_4 (((cfg0 (adm (F := F) m 0)).slots t 4).cast nbuf0_4)) (spec0_5.stage ((cfg0 (adm (F := F) m 0)).slots t 5)) (hstage0_5 (((cfg0 (adm (F := F) m 0)).slots t 5).cast nbuf0_5)) (spec0_6.stage ((cfg0 (adm (F := F) m 0)).slots t 6)) (hstage0_6 (((cfg0 (adm (F := F) m 0)).slots t 6).cast nbuf0_6)) (spec0_7.stage ((cfg0 (adm (F := F) m 0)).slots t 7)) (hstage0_7 (((cfg0 (adm (F := F) m 0)).slots t 7).cast nbuf0_7)) (spec0_8.stage ((cfg0 (adm (F := F) m 0)).slots t 8)) (hstage0_8 (((cfg0 (adm (F := F) m 0)).slots t 8).cast nbuf0_8)) (spec0_9.stage ((cfg0 (adm (F := F) m 0)).slots t 9)) (hstage0_9 (((cfg0 (adm (F := F) m 0)).slots t 9).cast nbuf0_9)) (spec0_10.stage ((cfg0 (adm (F := F) m 0)).slots t 10)) (hstage0_10 (((cfg0 (adm (F := F) m 0)).slots t 10).cast nbuf0_10)) (Memref.whole cc0_scratch0) (Memref.isWhole_whole _) (tbl0 (F := F) m) (tbl1 (F := F) m) (tbl2 (F := F) m) (tbl3 (F := F) m) (iblk (F := F) m c 0 t) (iblk (F := F) m c 1 t) (iblk (F := F) m c 2 t) (iblk (F := F) m c 3 t) (iblk (F := F) m c 4 t) (iblk (F := F) m c 5 t) (iblk (F := F) m c 6 t) (iblk (F := F) m c 7 t) (iblk (F := F) m c 8 t) (iblk (F := F) m c 9 t)

/-! ## The pipeline's proof data -/

/-- The proof data: the arrays as the region finds them; after the body each input's buffer at its block, the output's at
    `outAt`; the invariant the scoped scratch at anything, the generator register, and the tables at their half share;
    nothing owed; full shares. -/
def dats (_ : Fin 1) (c : Dev nD) : Dat τ (Elt F) Unit ℕ (UR sig nD τ) ℕ (cfg0 (adm (F := F) m 0)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := iprop(Pipeline.ΦA spec0 c ∗ Pipeline.ΦT pre0 (adm (F := F) m 0).1 c)
  q _ := fullShare
  owed _ := 0

theorem A_eq (c : Dev nD) (w : Fin 11) : (dats m 0 c).A w = V m c (Pipeline.arrRef spec0 w) := by
  dsimp only [dats]

theorem after_0 (c : Dev nD) (t) : (dats m 0 c).after 0 t = iblk m c 0 t := by dsimp only [dats]; rfl
theorem after_1 (c : Dev nD) (t) : (dats m 0 c).after 1 t = iblk m c 1 t := by dsimp only [dats]; rfl
theorem after_2 (c : Dev nD) (t) : (dats m 0 c).after 2 t = iblk m c 2 t := by dsimp only [dats]; rfl
theorem after_3 (c : Dev nD) (t) : (dats m 0 c).after 3 t = iblk m c 3 t := by dsimp only [dats]; rfl
theorem after_4 (c : Dev nD) (t) : (dats m 0 c).after 4 t = iblk m c 4 t := by dsimp only [dats]; rfl
theorem after_5 (c : Dev nD) (t) : (dats m 0 c).after 5 t = iblk m c 5 t := by dsimp only [dats]; rfl
theorem after_6 (c : Dev nD) (t) : (dats m 0 c).after 6 t = iblk m c 6 t := by dsimp only [dats]; rfl
theorem after_7 (c : Dev nD) (t) : (dats m 0 c).after 7 t = iblk m c 7 t := by dsimp only [dats]; rfl
theorem after_8 (c : Dev nD) (t) : (dats m 0 c).after 8 t = iblk m c 8 t := by dsimp only [dats]; rfl
theorem after_9 (c : Dev nD) (t) : (dats m 0 c).after 9 t = iblk m c 9 t := by dsimp only [dats]; rfl
theorem after_10 (c : Dev nD) (t) : (dats m 0 c).after 10 t = outAt m c t := by dsimp only [dats]; rfl

/-- Each input's current staging buffer holds its block at every point, fetched there or not. -/
theorem before_0 (c : Dev nD) (t) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)

/-! ## The body obligation, at a generic point -/

/-- Window `w`'s current staging memref at point `t`. -/
abbrev st (w : Fin 11) (t : Fin (cfg0 (adm (F := F) m 0)).N) := ((cfg0 (adm (F := F) m 0)).win w).stage ((cfg0 (adm (F := F) m 0)).slots t w)

/-- A whole buffer held at a share is owned at its contents, and back. -/
theorem owns_in (c : Dev nD) (b : Ref sig .tc) (q : PosShare TreeShare) (f : b.ty.Contents (Elt F)) :
    ((((c : Thread nD τ).loc b) ↦{q} f : sProp 𝕄)) ⊢ owns (c : Thread nD τ) (Memref.whole b) q f := by
  rw [owns_whole]
theorem owns_out (c : Dev nD) (b : Ref sig .tc) (q : PosShare TreeShare) (f : b.ty.Contents (Elt F)) :
    (owns (c : Thread nD τ) (Memref.whole b) q f : sProp 𝕄) ⊢ (((c : Thread nD τ).loc b) ↦{q} f) := by
  rw [owns_whole]

theorem bigSep_T {M : Type} [URA M] (Φ : Fin 4 → sProp M) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ

/-- What the body is called with at point `t`, the windows one by one, -/
def bodyPre (c : Dev nD) (t : Fin (cfg0 (adm (F := F) m 0)).N) : sProp 𝕄 :=
  iprop((dats m 0 c).Φ t.castSucc ∗ (dats m 0 c).owesAt () t.castSucc
    ∗ (∃ d, owns (c : Thread nD τ) (st (F := F) m 0 t) fullShare ((dats m 0 c).before 0 t d))
    ∗ (∃ d, owns (c : Thread nD τ) (st (F := F) m 1 t) fullShare ((dats m 0 c).before 1 t d))
    ∗ (∃ d, owns (c : Thread nD τ) (st (F := F) m 2 t) fullShare ((dats m 0 c).before 2 t d))
    ∗ (∃ d, owns (c : Thread nD τ) (st (F := F) m 3 t) fullShare ((dats m 0 c).before 3 t d))
    ∗ (∃ d, owns (c : Thread nD τ) (st (F := F) m 4 t) fullShare ((dats m 0 c).before 4 t d))
    ∗ (∃ d, owns (c : Thread nD τ) (st (F := F) m 5 t) fullShare ((dats m 0 c).before 5 t d))
    ∗ (∃ d, owns (c : Thread nD τ) (st (F := F) m 6 t) fullShare ((dats m 0 c).before 6 t d))
    ∗ (∃ d, owns (c : Thread nD τ) (st (F := F) m 7 t) fullShare ((dats m 0 c).before 7 t d))
    ∗ (∃ d, owns (c : Thread nD τ) (st (F := F) m 8 t) fullShare ((dats m 0 c).before 8 t d))
    ∗ (∃ d, owns (c : Thread nD τ) (st (F := F) m 9 t) fullShare ((dats m 0 c).before 9 t d))
    ∗ (∃ d, owns (c : Thread nD τ) (st (F := F) m 10 t) fullShare ((dats m 0 c).before 10 t d)))

/-- and what it returns. -/
def bodyPost (c : Dev nD) (t : Fin (cfg0 (adm (F := F) m 0)).N) : sProp 𝕄 :=
  iprop((dats m 0 c).Φ t.succ ∗ (dats m 0 c).owesAt () t.succ
    ∗ owns (c : Thread nD τ) (st (F := F) m 0 t) fullShare ((dats m 0 c).after 0 t)
    ∗ owns (c : Thread nD τ) (st (F := F) m 1 t) fullShare ((dats m 0 c).after 1 t)
    ∗ owns (c : Thread nD τ) (st (F := F) m 2 t) fullShare ((dats m 0 c).after 2 t)
    ∗ owns (c : Thread nD τ) (st (F := F) m 3 t) fullShare ((dats m 0 c).after 3 t)
    ∗ owns (c : Thread nD τ) (st (F := F) m 4 t) fullShare ((dats m 0 c).after 4 t)
    ∗ owns (c : Thread nD τ) (st (F := F) m 5 t) fullShare ((dats m 0 c).after 5 t)
    ∗ owns (c : Thread nD τ) (st (F := F) m 6 t) fullShare ((dats m 0 c).after 6 t)
    ∗ owns (c : Thread nD τ) (st (F := F) m 7 t) fullShare ((dats m 0 c).after 7 t)
    ∗ owns (c : Thread nD τ) (st (F := F) m 8 t) fullShare ((dats m 0 c).after 8 t)
    ∗ owns (c : Thread nD τ) (st (F := F) m 9 t) fullShare ((dats m 0 c).after 9 t)
    ∗ owns (c : Thread nD τ) (st (F := F) m 10 t) fullShare ((dats m 0 c).after 10 t))

set_option maxHeartbeats 2000000 in
/-- The body at any point: the inputs' memrefs hold their blocks, the invariant gives the scratch and the tables, so the
    kernel function's run applies; the generator register and the core's `owes` pass through unread. -/
theorem sound_body (c : Dev nD) (t : Fin (cfg0 (adm (F := F) m 0)).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10,
    show (dats m 0 c).Φ t.castSucc = iprop(Pipeline.ΦA spec0 c ∗ Pipeline.ΦT pre0 (adm (F := F) m 0).1 c) from rfl]
  unfold Pipeline.ΦA Pipeline.ΦT Pipeline.prefHeld
  rw [scopedRest0_eq, bigSep_T]
  iintro ⟨⟨⟨⟨%fs, Hs⟩, Hg⟩, ⟨Ht0, Ht1, Ht2, Ht3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) (Memref.whole main_v2) (Memref.isWhole_whole _) (Memref.whole main_v3) (Memref.isWhole_whole _) (Memref.whole main_v4) (Memref.isWhole_whole _) (Memref.whole main_v5) (Memref.isWhole_whole _) (spec0_0.stage ((cfg0 (adm (F := F) m 0)).slots t 0)) (hstage0_0 (((cfg0 (adm (F := F) m 0)).slots t 0).cast nbuf0_0)) (spec0_1.stage ((cfg0 (adm (F := F) m 0)).slots t 1)) (hstage0_1 (((cfg0 (adm (F := F) m 0)).slots t 1).cast nbuf0_1)) (spec0_2.stage ((cfg0 (adm (F := F) m 0)).slots t 2)) (hstage0_2 (((cfg0 (adm (F := F) m 0)).slots t 2).cast nbuf0_2)) (spec0_3.stage ((cfg0 (adm (F := F) m 0)).slots t 3)) (hstage0_3 (((cfg0 (adm (F := F) m 0)).slots t 3).cast nbuf0_3)) (spec0_4.stage ((cfg0 (adm (F := F) m 0)).slots t 4)) (hstage0_4 (((cfg0 (adm (F := F) m 0)).slots t 4).cast nbuf0_4)) (spec0_5.stage ((cfg0 (adm (F := F) m 0)).slots t 5)) (hstage0_5 (((cfg0 (adm (F := F) m 0)).slots t 5).cast nbuf0_5)) (spec0_6.stage ((cfg0 (adm (F := F) m 0)).slots t 6)) (hstage0_6 (((cfg0 (adm (F := F) m 0)).slots t 6).cast nbuf0_6)) (spec0_7.stage ((cfg0 (adm (F := F) m 0)).slots t 7)) (hstage0_7 (((cfg0 (adm (F := F) m 0)).slots t 7).cast nbuf0_7)) (spec0_8.stage ((cfg0 (adm (F := F) m 0)).slots t 8)) (hstage0_8 (((cfg0 (adm (F := F) m 0)).slots t 8).cast nbuf0_8)) (spec0_9.stage ((cfg0 (adm (F := F) m 0)).slots t 9)) (hstage0_9 (((cfg0 (adm (F := F) m 0)).slots t 9).cast nbuf0_9)) (spec0_10.stage ((cfg0 (adm (F := F) m 0)).slots t 10)) (hstage0_10 (((cfg0 (adm (F := F) m 0)).slots t 10).cast nbuf0_10)) (Memref.whole cc0_scratch0) (Memref.isWhole_whole _) (tbl0 (F := F) m) (tbl1 (F := F) m) (tbl2 (F := F) m) (tbl3 (F := F) m) (iblk (F := F) m c 0 t) (iblk (F := F) m c 1 t) (iblk (F := F) m c 2 t) (iblk (F := F) m c 3 t) (iblk (F := F) m c 4 t) (iblk (F := F) m c 5 t) (iblk (F := F) m c 6 t) (iblk (F := F) m c 7 t) (iblk (F := F) m c 8 t) (iblk (F := F) m c 9 t) _)
  isplitl [Ht0]; · iapply (owns_in (F := F) c main_v2 fullShare.right (tbl0 (F := F) m)); iexact Ht0
  isplitl [Ht1]; · iapply (owns_in (F := F) c main_v3 fullShare.right (tbl1 (F := F) m)); iexact Ht1
  isplitl [Ht2]; · iapply (owns_in (F := F) c main_v4 fullShare.right (tbl2 (F := F) m)); iexact Ht2
  isplitl [Ht3]; · iapply (owns_in (F := F) c main_v5 fullShare.right (tbl3 (F := F) m)); iexact Ht3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [Hs]; · iexists fs; iapply (owns_in (F := F) c cc0_scratch0 fullShare fs); iexact Hs
  iintro ⟨Ht0, Ht1, Ht2, Ht3, H0, H1, H2, H3, H4, H5, H6, H7, H8, H9, H10, ⟨%ds, Hs⟩⟩
  isplitl [Hs Hg Ht0 Ht1 Ht2 Ht3]
  · isplitl [Hs Hg]
    · isplitl [Hs]
      · iexists ds; iapply (owns_out (F := F) c cc0_scratch0 fullShare ds); iexact Hs
      · iexact Hg
    · isplitl [Ht0]; · iapply (owns_out (F := F) c main_v2 fullShare.right (tbl0 (F := F) m)); iexact Ht0
      isplitl [Ht1]; · iapply (owns_out (F := F) c main_v3 fullShare.right (tbl1 (F := F) m)); iexact Ht1
      isplitl [Ht2]; · iapply (owns_out (F := F) c main_v4 fullShare.right (tbl2 (F := F) m)); iexact Ht2
      iapply (owns_out (F := F) c main_v5 fullShare.right (tbl3 (F := F) m)); iexact Ht3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : iprop(Pipeline.ΦA spec0 c ∗ Pipeline.ΦT pre0 (adm (F := F) m 0).1 c) ⊢ (dats m 0 c).Φ 0 :=
  (Idealize.SL.BI.Entails.refl _)

/-- and after the last point the invariant gives the scoped scratch and the register back. -/
theorem hout (c : Dev nD) : (dats m 0 c).Φ (Fin.last (cfg0 (adm (F := F) m 0)).N) ⊢ Pipeline.ΦA spec0 c := by
  rw [show (dats m 0 c).Φ (Fin.last (cfg0 (adm (F := F) m 0)).N) = iprop(Pipeline.ΦA spec0 c ∗ Pipeline.ΦT pre0 (adm (F := F) m 0).1 c) from rfl]
  iintro ⟨H, -⟩
  iexact H

/-! ## The run -/

set_option backward.isDefEq.respectTransparency.types false in
/-- At the compiled mesh, from any memory with zero counters: every weakly fair execution of @main terminates, and every
    final state has every array of the pipeline at what the library computes from the proof data and every other
    unscoped buffer as the slice after the region leaves it. -/
theorem run_main : θ_run defs (onTc (τ := τ) (main (F := F))) (s₀ m ρ)
    (Pipeline.FramePost (Pipeline.pin (pcfgs (F := F)) (adm m)) (dats m) 0 (Pipeline.afterTail (pcfgs (F := F)) (adm m) (dats m) 0 (V0 m) [hostOps1])) :=
  Pipeline.θ_run_frameP_around_track (pcfgs (F := F)) (adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := hpf m) (hin := hin m) (hout := hout m)

end Cert.KernelIdeal.Hand

end
-- ==== Proof.KArgs.lean ====
/-
  The fourteen argument arrays when the region is entered.

  Before the region @main runs six reshapes: each reads one argument array (`out_pc`'s and `out_context`'s rows, the
  four tables of centres) and writes a fresh array of the same elements in another shape.  No reshape writes an
  argument array, so each of the fourteen is, when the region is entered, as the launch found it.
-/
import proofs.«414461_j46188078301471_3_alg».proof.Proof.KRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## No reshape writes an argument array -/

/-- The side-128 feature map. -/
theorem V_main_arg0 (c : Dev nD) : V m c main_arg0 = m ((c : Thread nD τ).loc main_arg0) := by
  dsimp only [V, V0]
  simp only [hostOps0, List.flatten_cons, List.flatten_nil, List.append_nil]
  after_results

/-- The side-64 feature map. -/
theorem V_main_arg1 (c : Dev nD) : V m c main_arg1 = m ((c : Thread nD τ).loc main_arg1) := by
  dsimp only [V, V0]
  simp only [hostOps0, List.flatten_cons, List.flatten_nil, List.append_nil]
  after_results

/-- The side-32 feature map. -/
theorem V_main_arg2 (c : Dev nD) : V m c main_arg2 = m ((c : Thread nD τ).loc main_arg2) := by
  dsimp only [V, V0]
  simp only [hostOps0, List.flatten_cons, List.flatten_nil, List.append_nil]
  after_results

/-- The side-16 feature map. -/
theorem V_main_arg3 (c : Dev nD) : V m c main_arg3 = m ((c : Thread nD τ).loc main_arg3) := by
  dsimp only [V, V0]
  simp only [hostOps0, List.flatten_cons, List.flatten_nil, List.append_nil]
  after_results

/-- The first row array: a reshape reads it and writes another array. -/
theorem V_main_arg4 (c : Dev nD) : V m c main_arg4 = m ((c : Thread nD τ).loc main_arg4) := by
  dsimp only [V, V0]
  simp only [hostOps0, List.flatten_cons, List.flatten_nil, List.append_nil]
  after_results

/-- The second row array, likewise. -/
theorem V_main_arg5 (c : Dev nD) : V m c main_arg5 = m ((c : Thread nD τ).loc main_arg5) := by
  dsimp only [V, V0]
  simp only [hostOps0, List.flatten_cons, List.flatten_nil, List.append_nil]
  after_results

/-- The side-128 map's table of centres, likewise. -/
theorem V_main_arg6 (c : Dev nD) : V m c main_arg6 = m ((c : Thread nD τ).loc main_arg6) := by
  dsimp only [V, V0]
  simp only [hostOps0, List.flatten_cons, List.flatten_nil, List.append_nil]
  after_results

/-- The side-64 map's table of centres. -/
theorem V_main_arg7 (c : Dev nD) : V m c main_arg7 = m ((c : Thread nD τ).loc main_arg7) := by
  dsimp only [V, V0]
  simp only [hostOps0, List.flatten_cons, List.flatten_nil, List.append_nil]
  after_results

/-- The side-32 map's table of centres. -/
theorem V_main_arg8 (c : Dev nD) : V m c main_arg8 = m ((c : Thread nD τ).loc main_arg8) := by
  dsimp only [V, V0]
  simp only [hostOps0, List.flatten_cons, List.flatten_nil, List.append_nil]
  after_results

/-- The side-16 map's table of centres. -/
theorem V_main_arg9 (c : Dev nD) : V m c main_arg9 = m ((c : Thread nD τ).loc main_arg9) := by
  dsimp only [V, V0]
  simp only [hostOps0, List.flatten_cons, List.flatten_nil, List.append_nil]
  after_results

/-- The first dense layer's weights. -/
theorem V_main_arg10 (c : Dev nD) : V m c main_arg10 = m ((c : Thread nD τ).loc main_arg10) := by
  dsimp only [V, V0]
  simp only [hostOps0, List.flatten_cons, List.flatten_nil, List.append_nil]
  after_results

/-- The first dense layer's bias. -/
theorem V_main_arg11 (c : Dev nD) : V m c main_arg11 = m ((c : Thread nD τ).loc main_arg11) := by
  dsimp only [V, V0]
  simp only [hostOps0, List.flatten_cons, List.flatten_nil, List.append_nil]
  after_results

/-- The second dense layer's weights. -/
theorem V_main_arg12 (c : Dev nD) : V m c main_arg12 = m ((c : Thread nD τ).loc main_arg12) := by
  dsimp only [V, V0]
  simp only [hostOps0, List.flatten_cons, List.flatten_nil, List.append_nil]
  after_results

/-- The second dense layer's bias. -/
theorem V_main_arg13 (c : Dev nD) : V m c main_arg13 = m ((c : Thread nD τ).loc main_arg13) := by
  dsimp only [V, V0]
  simp only [hostOps0, List.flatten_cons, List.flatten_nil, List.append_nil]
  after_results

end Cert.KernelIdeal.Hand

end
-- ==== Proof.KFrame.lean ====
/-
  The frame: @main runs to the end, nothing faults, and its fourteen argument arrays end as they were launched.

  Eight of them are arrays the region's windows stage as inputs: the pipeline's account of an input array gives them
  back at their entry contents, which are the launch contents because the six reshapes before the region write none of
  them.  The other six (the two 26-vectors and the four centre arrays) are only read by the reshapes and bypass the
  region; the slice after the region writes its own result and nothing else.
-/
import proofs.«414461_j46188078301471_3_alg».proof.Proof.KArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer that is no array of the pipeline and is not the slice's result holds, after the slice, what it held when the
    region was entered. -/
theorem tail_keep (c : Dev nD) (b : Ref sig .tc) (hb : b ≠ main_v7) (ha : ∀ w, Pipeline.arrRef spec0 w ≠ b) :
    Pipeline.afterTail (pcfgs (F := F)) (adm m) (dats m) 0 (V0 m) [hostOps1] c b = V m c b := by
  unfold Pipeline.afterTail
  rw [StableHlo.after_of_forall_not_mem _ _ (fun op hop => ?_), Pipeline.withArrays_of_ne _ c _ _ b ha]
  simp only [List.flatten_cons, List.flatten_nil, List.append_nil, hostOps1, List.mem_cons, List.mem_nil_iff, or_false] at hop
  rcases hop with rfl
  simp only [StableHlo.unary_writes, Finset.mem_singleton]
  exact StableHlo.devRef_ne_of_ne hb

/-- None of the six bypassing arguments is a window's array (decided over the windows' specifications, which do not
    mention the tables' contents). -/
theorem rest_ne_4 : ∀ w : Fin 11, (spec0 w).arr.view.ref ≠ main_arg4 := by decide
theorem rest_ne_5 : ∀ w : Fin 11, (spec0 w).arr.view.ref ≠ main_arg5 := by decide
theorem rest_ne_6 : ∀ w : Fin 11, (spec0 w).arr.view.ref ≠ main_arg6 := by decide
theorem rest_ne_7 : ∀ w : Fin 11, (spec0 w).arr.view.ref ≠ main_arg7 := by decide
theorem rest_ne_8 : ∀ w : Fin 11, (spec0 w).arr.view.ref ≠ main_arg8 := by decide
theorem rest_ne_9 : ∀ w : Fin 11, (spec0 w).arr.view.ref ≠ main_arg9 := by decide

/-- In any final state the launch's post describes, the fourteen arguments are as launched. -/
theorem args_kept (r : PUnit × MemSt nD τ sig (Elt F))
    (h : Pipeline.FramePost (Pipeline.pin (pcfgs (F := F)) (adm m)) (dats m) 0 (Pipeline.afterTail (pcfgs (F := F)) (adm m) (dats m) 0 (V0 m) [hostOps1]) r)
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).2 main_arg4 (Pipeline.mem_restRefs_of main_arg4 rfl rest_ne_4)).trans ((tail_keep m c main_arg4 (by decide) (by decide)).trans (V_main_arg4 m c)),
     ((h c).2 main_arg5 (Pipeline.mem_restRefs_of main_arg5 rfl rest_ne_5)).trans ((tail_keep m c main_arg5 (by decide) (by decide)).trans (V_main_arg5 m c)),
     ((h c).2 main_arg6 (Pipeline.mem_restRefs_of main_arg6 rfl rest_ne_6)).trans ((tail_keep m c main_arg6 (by decide) (by decide)).trans (V_main_arg6 m c)),
     ((h c).2 main_arg7 (Pipeline.mem_restRefs_of main_arg7 rfl rest_ne_7)).trans ((tail_keep m c main_arg7 (by decide) (by decide)).trans (V_main_arg7 m c)),
     ((h c).2 main_arg8 (Pipeline.mem_restRefs_of main_arg8 rfl rest_ne_8)).trans ((tail_keep m c main_arg8 (by decide) (by decide)).trans (V_main_arg8 m c)),
     ((h c).2 main_arg9 (Pipeline.mem_restRefs_of main_arg9 rfl rest_ne_9)).trans ((tail_keep m c main_arg9 (by decide) (by decide)).trans (V_main_arg9 m c)),
     ((h c).1 6).trans (((dats m 0 c).arrAt_in 6 rfl _).trans ((A_eq m c 6).trans (V_main_arg10 m c))),
     ((h c).1 7).trans (((dats m 0 c).arrAt_in 7 rfl _).trans ((A_eq m c 7).trans (V_main_arg11 m c))),
     ((h c).1 8).trans (((dats m 0 c).arrAt_in 8 rfl _).trans ((A_eq m c 8).trans (V_main_arg12 m c))),
     ((h c).1 9).trans (((dats m 0 c).arrAt_in 9 rfl _).trans ((A_eq m c 9).trans (V_main_arg13 m c)))⟩

/-- THE FRAME, at any float family. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m r h c) (run_main m ρ)

end Cert.KernelIdeal.Hand

end
-- ==== Proof.KBlocks.lean ====
/-
  The launch's blocks, read.

  The region runs over a grid of eight points; point `t` works on batch rows `8 t … 8 t + 7`.  Ten windows are inputs.
  The four feature maps `[64, 26, r, r]` (`r` = 128, 64, 32, 16) and the two row arrays `[64, 1, 26]` come by blocks of
  eight batch rows, block index `(t, 0, …)`: a block's element sits in its array, on each axis, at the block index times
  the block's size plus its own coordinate.  The two weight matrices and the two biases come whole at every point.  The
  output `[64, 128]` goes by blocks of eight rows, written back at every point, and the eight blocks cover it: row `r` is
  in point `r / 8`'s.

  Before the region six reshapes run.  Two give the row arrays their unit axis, `(b, j) ↦ (b, 0, j)`; four lay the
  tables of centres `[64, 8, 2]` flat, `(b, s, e) ↦ 16 b + 2 s + e`, and the region holds those fixed.  Each reshape keeps
  row-major order, so the new array at an index is the argument at the index of the same row-major position.
-/
import proofs.«414461_j46188078301471_3_alg».proof.Proof.KArgs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The grid and the index maps -/

/-- A point of the grid is below 8. -/
theorem pt_lt (t : Fin (cfg0 (adm (F := F) m 0)).N) : t.val < 8 := t.isLt.trans_eq N_0

/-- The side-128 feature map's index map sends point `t` to block `(t, 0, 0, 0)`. -/
theorem tr0_facts : ∀ t : Fin grid0.N, cc0_transform_0 (grid0.coords t) (0 : Fin 4) = t.val
    ∧ cc0_transform_0 (grid0.coords t) (1 : Fin 4) = 0 ∧ cc0_transform_0 (grid0.coords t) (2 : Fin 4) = 0
    ∧ cc0_transform_0 (grid0.coords t) (3 : Fin 4) = 0 := by decide +kernel
/-- So does the side-64 map's. -/
theorem tr1_facts : ∀ t : Fin grid0.N, cc0_transform_1 (grid0.coords t) (0 : Fin 4) = t.val
    ∧ cc0_transform_1 (grid0.coords t) (1 : Fin 4) = 0 ∧ cc0_transform_1 (grid0.coords t) (2 : Fin 4) = 0
    ∧ cc0_transform_1 (grid0.coords t) (3 : Fin 4) = 0 := by decide +kernel
/-- So does the side-32 map's. -/
theorem tr2_facts : ∀ t : Fin grid0.N, cc0_transform_2 (grid0.coords t) (0 : Fin 4) = t.val
    ∧ cc0_transform_2 (grid0.coords t) (1 : Fin 4) = 0 ∧ cc0_transform_2 (grid0.coords t) (2 : Fin 4) = 0
    ∧ cc0_transform_2 (grid0.coords t) (3 : Fin 4) = 0 := by decide +kernel
/-- So does the side-16 map's. -/
theorem tr3_facts : ∀ t : Fin grid0.N, cc0_transform_3 (grid0.coords t) (0 : Fin 4) = t.val
    ∧ cc0_transform_3 (grid0.coords t) (1 : Fin 4) = 0 ∧ cc0_transform_3 (grid0.coords t) (2 : Fin 4) = 0
    ∧ cc0_transform_3 (grid0.coords t) (3 : Fin 4) = 0 := by decide +kernel
/-- The two row arrays' index maps send point `t` to block `(t, 0, 0)`. -/
theorem tr4_facts : ∀ t : Fin grid0.N, cc0_transform_4 (grid0.coords t) (0 : Fin 3) = t.val
    ∧ cc0_transform_4 (grid0.coords t) (1 : Fin 3) = 0 ∧ cc0_transform_4 (grid0.coords t) (2 : Fin 3) = 0 := by
  decide +kernel
theorem tr5_facts : ∀ t : Fin grid0.N, cc0_transform_5 (grid0.coords t) (0 : Fin 3) = t.val
    ∧ cc0_transform_5 (grid0.coords t) (1 : Fin 3) = 0 ∧ cc0_transform_5 (grid0.coords t) (2 : Fin 3) = 0 := by
  decide +kernel
/-- The weights' and biases' index maps are constantly the zero block. -/
theorem tr6_facts : ∀ t : Fin grid0.N, cc0_transform_6 (grid0.coords t) (0 : Fin 2) = 0
    ∧ cc0_transform_6 (grid0.coords t) (1 : Fin 2) = 0 := by decide +kernel
theorem tr7_facts : ∀ t : Fin grid0.N, cc0_transform_7 (grid0.coords t) (0 : Fin 1) = 0 := by decide +kernel
theorem tr8_facts : ∀ t : Fin grid0.N, cc0_transform_8 (grid0.coords t) (0 : Fin 2) = 0
    ∧ cc0_transform_8 (grid0.coords t) (1 : Fin 2) = 0 := by decide +kernel
theorem tr9_facts : ∀ t : Fin grid0.N, cc0_transform_9 (grid0.coords t) (0 : Fin 1) = 0 := by decide +kernel

/-! ## The feature maps' blocks: point `t` holds batch rows `8 t … 8 t + 7`

A block's element sits in the array, on each axis, at the block index times the block's size plus its own coordinate;
here the block index is `t` on the batch axis and `0` on the others. -/

/-- The side-128 feature map. -/
theorem iblk0_apply (c : Dev nD) (t : Fin (cfg0 (adm (F := F) m 0)).N) (k : Fin 8) (ch : Fin 26) (h w : Fin 128) :
    (iblk m c 0 t : S8x26x128x128.Idx → Elt F .f32) (ix4 k ch h w)
      = (V m c main_arg0 : S64x26x128x128.Idx → Elt F .f32)
          (ix4 ⟨8 * t.val + k.val, by have := pt_lt m t; have := k.isLt; omega⟩ ch h w) := by
  obtain ⟨e0, e1, e2, e3⟩ := tr0_facts t
  unfold iblk
  rw [View.read_apply]
  show V m c main_arg0 _ = V m c main_arg0 _
  congr 1
  funext a
  apply Fin.ext
  match a with
  | ⟨0, _⟩ => show cc0_transform_0 (grid0.coords t) (0 : Fin 4) * 8 + 1 * k.val = 8 * t.val + k.val; omega
  | ⟨1, _⟩ => show cc0_transform_0 (grid0.coords t) (1 : Fin 4) * 26 + 1 * ch.val = ch.val; omega
  | ⟨2, _⟩ => show cc0_transform_0 (grid0.coords t) (2 : Fin 4) * 128 + 1 * h.val = h.val; omega
  | ⟨3, _⟩ => show cc0_transform_0 (grid0.coords t) (3 : Fin 4) * 128 + 1 * w.val = w.val; omega

/-- The side-64 feature map. -/
theorem iblk1_apply (c : Dev nD) (t : Fin (cfg0 (adm (F := F) m 0)).N) (k : Fin 8) (ch : Fin 26) (h w : Fin 64) :
    (iblk m c 1 t : S8x26x64x64.Idx → Elt F .f32) (ix4 k ch h w)
      = (V m c main_arg1 : S64x26x64x64.Idx → Elt F .f32)
          (ix4 ⟨8 * t.val + k.val, by have := pt_lt m t; have := k.isLt; omega⟩ ch h w) := by
  obtain ⟨e0, e1, e2, e3⟩ := tr1_facts t
  unfold iblk
  rw [View.read_apply]
  show V m c main_arg1 _ = V m c main_arg1 _
  congr 1
  funext a
  apply Fin.ext
  match a with
  | ⟨0, _⟩ => show cc0_transform_1 (grid0.coords t) (0 : Fin 4) * 8 + 1 * k.val = 8 * t.val + k.val; omega
  | ⟨1, _⟩ => show cc0_transform_1 (grid0.coords t) (1 : Fin 4) * 26 + 1 * ch.val = ch.val; omega
  | ⟨2, _⟩ => show cc0_transform_1 (grid0.coords t) (2 : Fin 4) * 64 + 1 * h.val = h.val; omega
  | ⟨3, _⟩ => show cc0_transform_1 (grid0.coords t) (3 : Fin 4) * 64 + 1 * w.val = w.val; omega

/-- The side-32 feature map. -/
theorem iblk2_apply (c : Dev nD) (t : Fin (cfg0 (adm (F := F) m 0)).N) (k : Fin 8) (ch : Fin 26) (h w : Fin 32) :
    (iblk m c 2 t : S8x26x32x32.Idx → Elt F .f32) (ix4 k ch h w)
      = (V m c main_arg2 : S64x26x32x32.Idx → Elt F .f32)
          (ix4 ⟨8 * t.val + k.val, by have := pt_lt m t; have := k.isLt; omega⟩ ch h w) := by
  obtain ⟨e0, e1, e2, e3⟩ := tr2_facts t
  unfold iblk
  rw [View.read_apply]
  show V m c main_arg2 _ = V m c main_arg2 _
  congr 1
  funext a
  apply Fin.ext
  match a with
  | ⟨0, _⟩ => show cc0_transform_2 (grid0.coords t) (0 : Fin 4) * 8 + 1 * k.val = 8 * t.val + k.val; omega
  | ⟨1, _⟩ => show cc0_transform_2 (grid0.coords t) (1 : Fin 4) * 26 + 1 * ch.val = ch.val; omega
  | ⟨2, _⟩ => show cc0_transform_2 (grid0.coords t) (2 : Fin 4) * 32 + 1 * h.val = h.val; omega
  | ⟨3, _⟩ => show cc0_transform_2 (grid0.coords t) (3 : Fin 4) * 32 + 1 * w.val = w.val; omega

/-- The side-16 feature map. -/
theorem iblk3_apply (c : Dev nD) (t : Fin (cfg0 (adm (F := F) m 0)).N) (k : Fin 8) (ch : Fin 26) (h w : Fin 16) :
    (iblk m c 3 t : S8x26x16x16.Idx → Elt F .f32) (ix4 k ch h w)
      = (V m c main_arg3 : S64x26x16x16.Idx → Elt F .f32)
          (ix4 ⟨8 * t.val + k.val, by have := pt_lt m t; have := k.isLt; omega⟩ ch h w) := by
  obtain ⟨e0, e1, e2, e3⟩ := tr3_facts t
  unfold iblk
  rw [View.read_apply]
  show V m c main_arg3 _ = V m c main_arg3 _
  congr 1
  funext a
  apply Fin.ext
  match a with
  | ⟨0, _⟩ => show cc0_transform_3 (grid0.coords t) (0 : Fin 4) * 8 + 1 * k.val = 8 * t.val + k.val; omega
  | ⟨1, _⟩ => show cc0_transform_3 (grid0.coords t) (1 : Fin 4) * 26 + 1 * ch.val = ch.val; omega
  | ⟨2, _⟩ => show cc0_transform_3 (grid0.coords t) (2 : Fin 4) * 16 + 1 * h.val = h.val; omega
  | ⟨3, _⟩ => show cc0_transform_3 (grid0.coords t) (3 : Fin 4) * 16 + 1 * w.val = w.val; omega

/-! ## The two row arrays' blocks: eight rows of `[1, 26]` per point -/

theorem iblk4_apply (c : Dev nD) (t : Fin (cfg0 (adm (F := F) m 0)).N) (k : Fin 8) (j : Fin 26) :
    (iblk m c 4 t : S8x1x26.Idx → Elt F .f32) (ix3 k (0 : Fin 1) j)
      = (V m c main_v0 : S64x1x26.Idx → Elt F .f32)
          (ix3 ⟨8 * t.val + k.val, by have := pt_lt m t; have := k.isLt; omega⟩ (0 : Fin 1) j) := by
  obtain ⟨e0, e1, e2⟩ := tr4_facts t
  unfold iblk
  rw [View.read_apply]
  show V m c main_v0 _ = V m c main_v0 _
  congr 1
  funext a
  apply Fin.ext
  match a with
  | ⟨0, _⟩ => show cc0_transform_4 (grid0.coords t) (0 : Fin 3) * 8 + 1 * k.val = 8 * t.val + k.val; omega
  | ⟨1, _⟩ => show cc0_transform_4 (grid0.coords t) (1 : Fin 3) * 1 + 1 * 0 = 0; omega
  | ⟨2, _⟩ => show cc0_transform_4 (grid0.coords t) (2 : Fin 3) * 26 + 1 * j.val = j.val; omega

theorem iblk5_apply (c : Dev nD) (t : Fin (cfg0 (adm (F := F) m 0)).N) (k : Fin 8) (j : Fin 26) :
    (iblk m c 5 t : S8x1x26.Idx → Elt F .f32) (ix3 k (0 : Fin 1) j)
      = (V m c main_v1 : S64x1x26.Idx → Elt F .f32)
          (ix3 ⟨8 * t.val + k.val, by have := pt_lt m t; have := k.isLt; omega⟩ (0 : Fin 1) j) := by
  obtain ⟨e0, e1, e2⟩ := tr5_facts t
  unfold iblk
  rw [View.read_apply]
  show V m c main_v1 _ = V m c main_v1 _
  congr 1
  funext a
  apply Fin.ext
  match a with
  | ⟨0, _⟩ => show cc0_transform_5 (grid0.coords t) (0 : Fin 3) * 8 + 1 * k.val = 8 * t.val + k.val; omega
  | ⟨1, _⟩ => show cc0_transform_5 (grid0.coords t) (1 : Fin 3) * 1 + 1 * 0 = 0; omega
  | ⟨2, _⟩ => show cc0_transform_5 (grid0.coords t) (2 : Fin 3) * 26 + 1 * j.val = j.val; omega

/-! ## The weights and biases: each point's block is the whole array -/

theorem iblk6_eq (c : Dev nD) (t : Fin (cfg0 (adm (F := F) m 0)).N) :
    (iblk m c 6 t : S78x39.Idx → Elt F .f32) = (V m c main_arg10 : S78x39.Idx → Elt F .f32) := by
  obtain ⟨e0, e1⟩ := tr6_facts t
  funext y
  unfold iblk
  rw [View.read_apply]
  show V m c main_arg10 _ = V m c main_arg10 y
  congr 1
  funext a
  apply Fin.ext
  match a with
  | ⟨0, _⟩ => show cc0_transform_6 (grid0.coords t) (0 : Fin 2) * 78 + 1 * (y 0).val = (y 0).val; omega
  | ⟨1, _⟩ => show cc0_transform_6 (grid0.coords t) (1 : Fin 2) * 39 + 1 * (y 1).val = (y 1).val; omega

theorem iblk7_eq (c : Dev nD) (t : Fin (cfg0 (adm (F := F) m 0)).N) :
    (iblk m c 7 t : S39.Idx → Elt F .f32) = (V m c main_arg11 : S39.Idx → Elt F .f32) := by
  have e0 := tr7_facts t
  funext y
  unfold iblk
  rw [View.read_apply]
  show V m c main_arg11 _ = V m c main_arg11 y
  congr 1
  funext a
  apply Fin.ext
  match a with
  | ⟨0, _⟩ => show cc0_transform_7 (grid0.coords t) (0 : Fin 1) * 39 + 1 * (y 0).val = (y 0).val; omega

theorem iblk8_eq (c : Dev nD) (t : Fin (cfg0 (adm (F := F) m 0)).N) :
    (iblk m c 8 t : S39x26.Idx → Elt F .f32) = (V m c main_arg12 : S39x26.Idx → Elt F .f32) := by
  obtain ⟨e0, e1⟩ := tr8_facts t
  funext y
  unfold iblk
  rw [View.read_apply]
  show V m c main_arg12 _ = V m c main_arg12 y
  congr 1
  funext a
  apply Fin.ext
  match a with
  | ⟨0, _⟩ => show cc0_transform_8 (grid0.coords t) (0 : Fin 2) * 39 + 1 * (y 0).val = (y 0).val; omega
  | ⟨1, _⟩ => show cc0_transform_8 (grid0.coords t) (1 : Fin 2) * 26 + 1 * (y 1).val = (y 1).val; omega

theorem iblk9_eq (c : Dev nD) (t : Fin (cfg0 (adm (F := F) m 0)).N) :
    (iblk m c 9 t : S26.Idx → Elt F .f32) = (V m c main_arg13 : S26.Idx → Elt F .f32) := by
  have e0 := tr9_facts t
  funext y
  unfold iblk
  rw [View.read_apply]
  show V m c main_arg13 _ = V m c main_arg13 y
  congr 1
  funext a
  apply Fin.ext
  match a with
  | ⟨0, _⟩ => show cc0_transform_9 (grid0.coords t) (0 : Fin 1) * 26 + 1 * (y 0).val = (y 0).val; omega

/-! ## What the six reshapes wrote

Each reshape writes the array of the same elements in row-major order under another shape: a row array gains a unit
axis in the middle, a table of centres `[64, 8, 2]` is laid flat, entry `(b, s, e)` at `16 b + 2 s + e`. -/

/-- The first row array reshaped, as a whole. -/
theorem V_main_v0_eq (c : Dev nD) : (V m c main_v0 : S64x1x26.Idx → Elt F .f32)
    = shapeCast S64x1x26 (m ((c : Thread nD τ).loc main_arg4) : S64x26.Idx → Elt F .f32) shapeCasts_S64x26_S64x1x26 := by
  dsimp only [V, V0]
  simp only [hostOps0, List.flatten_cons, List.flatten_nil, List.append_nil]
  after_results
  rfl

/-- The second row array reshaped, as a whole. -/
theorem V_main_v1_eq (c : Dev nD) : (V m c main_v1 : S64x1x26.Idx → Elt F .f32)
    = shapeCast S64x1x26 (m ((c : Thread nD τ).loc main_arg5) : S64x26.Idx → Elt F .f32) shapeCasts_S64x26_S64x1x26 := by
  dsimp only [V, V0]
  simp only [hostOps0, List.flatten_cons, List.flatten_nil, List.append_nil]
  after_results
  rfl

/-- Row-major positions: `(b, j)` of `[64, 26]` and `(b, 0, j)` of `[64, 1, 26]` are the same element. -/
theorem rowMajor_row (b : Fin 64) (j : Fin 26) :
    ((⟨2, ![64, 26]⟩ : Shape).rowMajor (ix2 b j)).val = ((⟨3, ![64, 1, 26]⟩ : Shape).rowMajor (ix3 b (0 : Fin 1) j)).val := by
  rw [Shape.rowMajor_val_two, Shape.rowMajor_val_three]
  show b.val * 26 + j.val = (b.val * 1 + 0) * 26 + j.val
  omega

/-- The first row array reshaped, at `(b, 0, j)`: the argument at `(b, j)`. -/
theorem V_main_v0_apply (c : Dev nD) (b : Fin 64) (j : Fin 26) :
    (V m c main_v0 : S64x1x26.Idx → Elt F .f32) (ix3 b (0 : Fin 1) j)
      = (m ((c : Thread nD τ).loc main_arg4) : S64x26.Idx → Elt F .f32) (ix2 b j) := by
  rw [V_main_v0_eq]
  exact shapeCast_apply _ _ _ _ (rowMajor_row b j)

/-- The second row array reshaped, at `(b, 0, j)`. -/
theorem V_main_v1_apply (c : Dev nD) (b : Fin 64) (j : Fin 26) :
    (V m c main_v1 : S64x1x26.Idx → Elt F .f32) (ix3 b (0 : Fin 1) j)
      = (m ((c : Thread nD τ).loc main_arg5) : S64x26.Idx → Elt F .f32) (ix2 b j) := by
  rw [V_main_v1_eq]
  exact shapeCast_apply _ _ _ _ (rowMajor_row b j)

/-! ## The four tables of centres, as the region holds them -/

/-- Row-major positions: `(b, s, e)` of `[64, 8, 2]` is element `16 b + 2 s + e` of `[1024]`. -/
theorem rowMajor_tab (b : Fin 64) (s : Fin 8) (e : Fin 2) (hlt : 16 * b.val + 2 * s.val + e.val < 1024) :
    ((⟨3, ![64, 8, 2]⟩ : Shape).rowMajor (ix3 b s e)).val
      = ((⟨1, ![1024]⟩ : Shape).rowMajor (ix1 (⟨16 * b.val + 2 * s.val + e.val, hlt⟩ : Fin 1024))).val := by
  rw [Shape.rowMajor_val_three, Shape.rowMajor_val_one]
  show (b.val * 8 + s.val) * 2 + e.val = 16 * b.val + 2 * s.val + e.val
  omega

/-- The side-128 map's table is its array of centres laid flat. -/
theorem tbl0_eq : tbl0 m
    = shapeCast S1024 (m (((0 : Dev nD) : Thread nD τ).loc main_arg6) : S64x8x2.Idx → Elt F .i32) shapeCasts_S64x8x2_S1024 := by
  show StableHlo.after (List.flatten [hostOps0]) (fun b => m ((0 : Dev nD), b)) (Proc.devRef .tc main_v2) = _
  simp only [hostOps0, List.flatten_cons, List.flatten_nil, List.append_nil]
  after_results
  rfl
/-- The side-64 map's. -/
theorem tbl1_eq : tbl1 m
    = shapeCast S1024 (m (((0 : Dev nD) : Thread nD τ).loc main_arg7) : S64x8x2.Idx → Elt F .i32) shapeCasts_S64x8x2_S1024 := by
  show StableHlo.after (List.flatten [hostOps0]) (fun b => m ((0 : Dev nD), b)) (Proc.devRef .tc main_v3) = _
  simp only [hostOps0, List.flatten_cons, List.flatten_nil, List.append_nil]
  after_results
  rfl
/-- The side-32 map's. -/
theorem tbl2_eq : tbl2 m
    = shapeCast S1024 (m (((0 : Dev nD) : Thread nD τ).loc main_arg8) : S64x8x2.Idx → Elt F .i32) shapeCasts_S64x8x2_S1024 := by
  show StableHlo.after (List.flatten [hostOps0]) (fun b => m ((0 : Dev nD), b)) (Proc.devRef .tc main_v4) = _
  simp only [hostOps0, List.flatten_cons, List.flatten_nil, List.append_nil]
  after_results
  rfl
/-- The side-16 map's. -/
theorem tbl3_eq : tbl3 m
    = shapeCast S1024 (m (((0 : Dev nD) : Thread nD τ).loc main_arg9) : S64x8x2.Idx → Elt F .i32) shapeCasts_S64x8x2_S1024 := by
  show StableHlo.after (List.flatten [hostOps0]) (fun b => m ((0 : Dev nD), b)) (Proc.devRef .tc main_v5) = _
  simp only [hostOps0, List.flatten_cons, List.flatten_nil, List.append_nil]
  after_results
  rfl

/-- Entry `16 b + 2 s + e` of the side-128 map's table is centre `s` of batch row `b`, coordinate `e`. -/
theorem tbl0_apply (b : Fin 64) (s : Fin 8) (e : Fin 2) :
    tbl0 m (ix1 ⟨16 * b.val + 2 * s.val + e.val, by have := b.isLt; have := s.isLt; have := e.isLt; omega⟩)
      = (m (((0 : Dev nD) : Thread nD τ).loc main_arg6) : S64x8x2.Idx → Elt F .i32) (ix3 b s e) := by
  rw [tbl0_eq]
  exact shapeCast_apply _ _ _ _ (rowMajor_tab b s e _)
theorem tbl1_apply (b : Fin 64) (s : Fin 8) (e : Fin 2) :
    tbl1 m (ix1 ⟨16 * b.val + 2 * s.val + e.val, by have := b.isLt; have := s.isLt; have := e.isLt; omega⟩)
      = (m (((0 : Dev nD) : Thread nD τ).loc main_arg7) : S64x8x2.Idx → Elt F .i32) (ix3 b s e) := by
  rw [tbl1_eq]
  exact shapeCast_apply _ _ _ _ (rowMajor_tab b s e _)
theorem tbl2_apply (b : Fin 64) (s : Fin 8) (e : Fin 2) :
    tbl2 m (ix1 ⟨16 * b.val + 2 * s.val + e.val, by have := b.isLt; have := s.isLt; have := e.isLt; omega⟩)
      = (m (((0 : Dev nD) : Thread nD τ).loc main_arg8) : S64x8x2.Idx → Elt F .i32) (ix3 b s e) := by
  rw [tbl2_eq]
  exact shapeCast_apply _ _ _ _ (rowMajor_tab b s e _)
theorem tbl3_apply (b : Fin 64) (s : Fin 8) (e : Fin 2) :
    tbl3 m (ix1 ⟨16 * b.val + 2 * s.val + e.val, by have := b.isLt; have := s.isLt; have := e.isLt; omega⟩)
      = (m (((0 : Dev nD) : Thread nD τ).loc main_arg9) : S64x8x2.Idx → Elt F .i32) (ix3 b s e) := by
  rw [tbl3_eq]
  exact shapeCast_apply _ _ _ _ (rowMajor_tab b s e _)

/-! ## The output window: eight 128-lane rows per point, written back at every point -/

/-- The output's index map sends point `t` to block `(t, 0)`. -/
theorem tr10_facts : ∀ t : Fin grid0.N, cc0_transform_10 (grid0.coords t) (0 : Fin 2) = t.val
    ∧ cc0_transform_10 (grid0.coords t) (1 : Fin 2) = 0 := by decide +kernel

/-- Any contents of the output array read through point `t`'s block: rows `8 t … 8 t + 7`. -/
theorem blk10_read (c : Dev nD) (t : Fin (cfg0 (adm (F := F) m 0)).N) (Gf : Buf (Elt F) ((c : Thread nD τ).loc main_v6))
    (p : Fin 8) (n : Fin 128) :
    (((cfg0 (adm (F := F) m 0)).win 10).blk t).view.read (Elt F) Gf (ix2 p n)
      = Gf (ix2 ⟨8 * t.val + p.val, by have := pt_lt m t; have := p.isLt; omega⟩ n) := by
  obtain ⟨e0, e1⟩ := tr10_facts t
  show (Gf : S64x128.Idx → Elt F .f32) _ = (Gf : S64x128.Idx → Elt F .f32) _
  congr 1
  funext a
  apply Fin.ext
  match a with
  | ⟨0, _⟩ => show cc0_transform_10 (grid0.coords t) (0 : Fin 2) * 8 + 1 * p.val = 8 * t.val + p.val; omega
  | ⟨1, _⟩ => show cc0_transform_10 (grid0.coords t) (1 : Fin 2) * 128 + 1 * n.val = n.val; omega

/-- The output is written back at every point: its block index differs from the next point's. -/
theorem flush10 (t : Fin (cfg0 (adm (F := F) m 0)).N) : ((cfg0 (adm (F := F) m 0)).win 10).flush t = true := by
  unfold Window.flush
  rw [Bool.and_eq_true]
  refine ⟨rfl, ?_⟩
  rw [Bool.or_eq_true, decide_eq_true_eq, decide_eq_true_eq]
  by_cases h : t.val + 1 = grid0.N
  · exact Or.inl h
  · have hlt : t.val + 1 < grid0.N := by have h8 := pt_lt m t; have hN := N_0; omega
    refine Or.inr ⟨hlt, fun e => ?_⟩
    have e' : cc0_transform_10 (grid0.coords ⟨t.val + 1, hlt⟩) (0 : Fin 2) = cc0_transform_10 (grid0.coords t) (0 : Fin 2) :=
      congrFun e (0 : Fin 2)
    rw [(tr10_facts ⟨t.val + 1, hlt⟩).1, (tr10_facts t).1] at e'
    exact absurd e' (Nat.succ_ne_self _)

/-- An index of the output array is in point `t`'s block iff each coordinate is in the block's range on its axis. -/
theorem mem_blk10 (t : Fin (cfg0 (adm (F := F) m 0)).N) (i : S64x128.Idx) :
    i ∈ (((cfg0 (adm (F := F) m 0)).win 10).blk t).view.set
      ↔ ∀ a : Fin 2, cc0_transform_10 (grid0.coords t) a * S8x128.size a ≤ (i a).val
          ∧ (i a).val < cc0_transform_10 (grid0.coords t) a * S8x128.size a + S8x128.size a :=
  (Finset.ext_iff.mp (View.set_slice_whole main_v6 (((cfg0 (adm (F := F) m 0)).win 10).rect t)) i).trans Rect.mem_set_unit

/-- Every index of the output array is in the block of a point that writes back: row `r` in point `r / 8`'s. -/
theorem cover10 (c : Dev nD) (i : S64x128.Idx) :
    ∃ t : Fin (cfg0 (adm (F := F) m 0)).N, ((cfg0 (adm (F := F) m 0)).win 10).flush t = true
      ∧ i ∈ (((cfg0 (adm (F := F) m 0)).win 10).blk t).view.set := by
  have hi0 : (i 0).val < 64 := idx2_lt0 i
  have hi1 : (i 1).val < 128 := idx2_lt1 i
  obtain ⟨t, ht⟩ : ∃ t : Fin (cfg0 (adm (F := F) m 0)).N, t.val = (i 0).val / 8 :=
    ⟨⟨(i 0).val / 8, by rw [show (cfg0 (adm (F := F) m 0)).N = 8 from N_0]; omega⟩, rfl⟩
  obtain ⟨e0, e1⟩ := tr10_facts t
  refine ⟨t, flush10 m t, ?_⟩
  rw [mem_blk10]
  intro a
  match a with
  | ⟨0, _⟩ =>
    show cc0_transform_10 (grid0.coords t) (0 : Fin 2) * 8 ≤ (i 0).val
      ∧ (i 0).val < cc0_transform_10 (grid0.coords t) (0 : Fin 2) * 8 + 8
    omega
  | ⟨1, _⟩ =>
    show cc0_transform_10 (grid0.coords t) (1 : Fin 2) * 128 ≤ (i 1).val
      ∧ (i 1).val < cc0_transform_10 (grid0.coords t) (1 : Fin 2) * 128 + 128
    omega

end Cert.KernelIdeal.Hand

end
-- ==== Proof.LibMaskPool.lean ====
/-
  General lemmas for pooling by a mask: a gather of a few points of a square map, written as the sum over
  the whole map of the map times a count of hits.

  * `ind_apply`: the indicator of one point `(yv, xv)` — the conjunction of "row index equals `yv`" and "column
    index equals `xv`", widened to a word and converted to a float — read at an index: `1` on the point, `0` off it.
  * `mask_sum`: for a real-valued `f` on a square of side `r` and eight points `(y s, x s)`,
    `∑ h w, f h w · (#{s | (h, w) = (y s, x s)} · 1/8) = (∑ s, f (y s) (x s)) · 1/8`: each point's indicator picks one
    term of the double sum, and the factor moves across the finite sum because every term is a real number.
  * the three literals the pooling uses, as extended reals.
-/
import Idealize.ShloMosaic.PureOps.Ideal
import Idealize.ShloMosaic.PureOps.Ideal.Laws
import Idealize.ShloMosaic.Lib.ValueIdx

noncomputable section

namespace Cert.LibMaskPool

open Idealize.ShloMosaic Idealize.ShloMosaic.ValueIdx

/-- One point's indicator, read at an index. -/
theorem ind_apply {s : Shape} (ih iw : IVec s 32) (yv xv : BitVec 32) (h132 : 1 < 32) (j : s.Idx) :
    (sitofp (F := Ideal) .f32 (extui 32 (andi (cmpi .eq ih (broadcast s yv)) (cmpi .eq iw (broadcast s xv))) h132) : FVec Ideal s .f32) j
      = if ih j = yv ∧ iw j = xv then (1 : EReal) else 0 := by
  -- at an index every operation acts on the element; the conversion reads the word as a signed integer
  show ((((IntOp.andi (IntOp.cmpi .eq (ih j) yv) (IntOp.cmpi .eq (iw j) xv)).setWidth 32).toInt : ℝ) : EReal) = _
  -- four cases: each compare is the 1-bit word 1 or 0, their conjunction widens to the word 1 or 0
  by_cases h1 : ih j = yv <;> by_cases h2 : iw j = xv
  · simp [IntOp.cmpi, IntOp.andi, h1, h2]
  · have b2 : (iw j == xv) = false := beq_eq_false_iff_ne.mpr h2
    simp [IntOp.cmpi, IntOp.andi, h1, h2, b2]
  · have b1 : (ih j == yv) = false := beq_eq_false_iff_ne.mpr h1
    simp [IntOp.cmpi, IntOp.andi, h1, h2, b1]
  · have b1 : (ih j == yv) = false := beq_eq_false_iff_ne.mpr h1
    simp [IntOp.cmpi, IntOp.andi, h1, h2, b1]

/-- The coercion of a finite sum of reals is the sum of the coercions. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The mask-and-reduce form of a mean over eight points of a square map. -/
theorem mask_sum (r : Nat) (f : Fin r → Fin r → EReal) (hf : ∀ h w, ∃ x : ℝ, f h w = (x : EReal)) (y x : Fin 8 → Fin r) :
    (∑ h : Fin r, ∑ w : Fin r, f h w * ((∑ s : Fin 8, if h = y s ∧ w = x s then (1 : EReal) else 0) * ((1 / 8 : ℝ) : EReal)))
      = (∑ s : Fin 8, f (y s) (x s)) * ((1 / 8 : ℝ) : EReal) := by
  classical
  choose g hg using hf
  -- the count of hits is a real number
  have hind : ∀ h w, (∑ s : Fin 8, if h = y s ∧ w = x s then (1 : EReal) else 0)
      = ((∑ s : Fin 8, if h = y s ∧ w = x s then (1 : ℝ) else 0 : ℝ) : EReal) := by
    intro h w
    rw [coe_sum]
    refine Finset.sum_congr rfl fun s _ => ?_
    split_ifs <;> simp
  -- one point's indicator picks one term of the double sum
  have key : ∀ s : Fin 8, (∑ h : Fin r, ∑ w : Fin r, g h w * (if h = y s ∧ w = x s then (1 : ℝ) else 0)) = g (y s) (x s) := by
    intro s
    rw [Finset.sum_eq_single (y s)]
    · rw [Finset.sum_eq_single (x s)]
      · simp
      · intro w _ hw; simp [hw]
      · simp
    · intro h _ hh; simp [hh]
    · simp
  have real : (∑ h : Fin r, ∑ w : Fin r, g h w * ((∑ s : Fin 8, if h = y s ∧ w = x s then (1 : ℝ) else 0) * (1 / 8 : ℝ)))
      = (∑ s : Fin 8, g (y s) (x s)) * (1 / 8 : ℝ) := by
    calc (∑ h : Fin r, ∑ w : Fin r, g h w * ((∑ s : Fin 8, if h = y s ∧ w = x s then (1 : ℝ) else 0) * (1 / 8 : ℝ)))
        = ∑ h : Fin r, ∑ w : Fin r, (∑ s : Fin 8, g h w * (if h = y s ∧ w = x s then (1 : ℝ) else 0)) * (1 / 8 : ℝ) := by
          refine Finset.sum_congr rfl fun h _ => Finset.sum_congr rfl fun w _ => ?_
          rw [← mul_assoc, Finset.mul_sum]
      _ = (∑ h : Fin r, ∑ w : Fin r, ∑ s : Fin 8, g h w * (if h = y s ∧ w = x s then (1 : ℝ) else 0)) * (1 / 8 : ℝ) := by
          simp only [Finset.sum_mul]
      _ = (∑ s : Fin 8, ∑ h : Fin r, ∑ w : Fin r, g h w * (if h = y s ∧ w = x s then (1 : ℝ) else 0)) * (1 / 8 : ℝ) := by
          congr 1
          rw [Finset.sum_congr rfl fun h _ => Finset.sum_comm, Finset.sum_comm]
      _ = (∑ s : Fin 8, g (y s) (x s)) * (1 / 8 : ℝ) := by
          simp only [key]
  simp only [hg, hind, ← EReal.coe_mul, ← coe_sum]
  exact congrArg _ real

/-- `0.125`, `0.25` and `0` as extended reals. -/
theorem ofBits_eighth : Ideal.ofBits .f32 0x3E000000#32 = ((1 / 8 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

end Cert.LibMaskPool

end
-- ==== Proof.PayPool128.lean ====
/-
  One trip's pooling of the side-128 feature map, read at a channel.

  Inside one trip of the kernel's loop the body builds, for the map of side 128, a count mask
  `cnt (h, w) = ((((0 + i_0) + i_1) + … + i_7)) · 0.125`, where `i_s` is the indicator of the point (row `y_s`, column
  `x_s`): the conjunction of "row index = `y_s`" and "column index = `x_s`" over the row-index vector (iota along axis 0)
  and the column-index vector (iota along axis 1). It broadcasts the mask over the 26 channels, multiplies the block by
  it, sums over `w` and then over `h`, and adds the result to the running 26-vector.

  With every block entry a real number and every coordinate word below 128 this is the running vector plus
  `(∑ s, blk[c, y_s, x_s]) · 1/8`: an index vector's entry is the word of its coordinate, and a coordinate below 128 has
  that word equal to `y_s` exactly when it is `y_s`'s number (nothing wraps below `2 ^ 32`), so each indicator is `1` on
  its point and `0` off it; the mask-and-reduce law of a mean over eight points does the rest.

  The count is built in three chunks (points 0–1, 2–4, 5–7); each chunk, the block's cast, the mask's broadcast and the
  two lane sums are read at an index in a lemma of their own, and `pool128_apply` joins them.
-/
import proofs.«414461_j46188078301471_3_alg».proof.Proof.Gen.KernelIdeal.Skeleton
import proofs.«414461_j46188078301471_3_alg».proof.Proof.LibMaskPool
import Idealize.ShloMosaic.Lib.ValueIdx
import Idealize.ShloMosaic.Lib.Pipeline.Value
import Idealize.ShloMosaic.Lib.ValueLayout
import Idealize.ShloMosaic.PureOps.Ideal.Laws

noncomputable section

namespace Cert.PayPool128

open Cert.KernelIdeal Cert.KernelIdeal.Gen Idealize.ShloMosaic Idealize.ShloMosaic.ValueIdx

/-! ## The two index vectors -/

/-- The row-index vector: its entry at `(h, w)` is the word of `h`. -/
theorem iotaH_apply : ∀ j : S128x128.Idx,
    iota .tc S128x128 32 [0] iota_S128x128_d0_w32 j = BitVec.ofNat 32 (j 0).val := fun j => by
  show BitVec.ofNat 32 (0 * _ + (j 0).val) = _
  rw [Nat.zero_mul, Nat.zero_add]

/-- The column-index vector: its entry at `(h, w)` is the word of `w`. -/
theorem iotaW_apply : ∀ j : S128x128.Idx,
    iota .tc S128x128 32 [1] iota_S128x128_d1_w32 j = BitVec.ofNat 32 (j 1).val := fun j => by
  show BitVec.ofNat 32 (0 * _ + (j 1).val) = _
  rw [Nat.zero_mul, Nat.zero_add]

/-! ## One point's indicator -/

/-- The indicator vector of the point (row `yv`, column `xv`): "row index equals `yv`" and "column index equals
    `xv`", widened to a word and converted to a float. -/
def ind (ih iw : IVec S128x128 32) (yv xv : BitVec 32) : FVec Ideal S128x128 .f32 :=
  sitofp .f32 (extui 32 (andi (cmpi .eq ih (broadcast S128x128 yv)) (cmpi .eq iw (broadcast S128x128 xv))) natLt_1_32)

/-- The word of a coordinate below 128 equals a word below 128 exactly when the coordinate is that word's number:
    both numbers are below `2 ^ 32`, so nothing wraps. -/
theorem word_eq_iff (n : Fin 128) (v : BitVec 32) (hv : v.toNat < 128) :
    BitVec.ofNat 32 n.val = v ↔ n = ⟨v.toNat, hv⟩ := by
  constructor
  · intro h
    have e := congrArg BitVec.toNat h
    rw [BitVec.toNat_ofNat] at e
    have hn := n.isLt
    exact Fin.ext (by show n.val = v.toNat; omega)
  · intro h
    apply BitVec.eq_of_toNat_eq
    rw [BitVec.toNat_ofNat, h]
    show v.toNat % 2 ^ 32 = v.toNat
    omega

/-- The indicator read at `(h, w)`, over index vectors that hold their own coordinates: `1` on the point, `0` off it. -/
theorem ind_at (ih iw : IVec S128x128 32)
    (hih : ∀ j, ih j = BitVec.ofNat 32 (j 0).val) (hiw : ∀ j, iw j = BitVec.ofNat 32 (j 1).val)
    (yv xv : BitVec 32) (hy : yv.toNat < 128) (hx : xv.toNat < 128) (h w : Fin 128) :
    ind ih iw yv xv (ix2 h w) = if h = ⟨yv.toNat, hy⟩ ∧ w = ⟨xv.toNat, hx⟩ then (1 : EReal) else 0 := by
  refine (LibMaskPool.ind_apply ih iw yv xv natLt_1_32 (ix2 h w)).trans ?_
  rw [hih, hiw]
  exact if_congr (and_congr (word_eq_iff h yv hy) (word_eq_iff w xv hx)) rfl rfl

/-! ## The chunks of the count, each read at an index -/

/-- The first chunk: zero plus the indicators of points 0 and 1 (it builds the two index vectors itself). -/
theorem pay5_apply (x0 y0 x1 y1 : BitVec 32) (j : S128x128.Idx) :
    k0_pay5 (F := Ideal) x0 y0 x1 y1 j
      = (Ideal.ofBits .f32 0x00000000#32
          + ind (iota .tc S128x128 32 [0] iota_S128x128_d0_w32) (iota .tc S128x128 32 [1] iota_S128x128_d1_w32) y0 x0 j)
        + ind (iota .tc S128x128 32 [0] iota_S128x128_d0_w32) (iota .tc S128x128 32 [1] iota_S128x128_d1_w32) y1 x1 j := rfl

/-- The second chunk adds the indicators of points 2, 3 and 4. -/
theorem pay6_apply (ih iw : IVec S128x128 32) (a : FVec Ideal S128x128 .f32) (x2 y2 x3 y3 x4 y4 : BitVec 32)
    (j : S128x128.Idx) :
    k0_pay6 (F := Ideal) ih iw a x2 y2 x3 y3 x4 y4 j
      = ((a j + ind ih iw y2 x2 j) + ind ih iw y3 x3 j) + ind ih iw y4 x4 j := rfl

/-- The third chunk adds the indicators of points 5, 6 and 7, scales by the literal `0.125`, and gains a leading
    unit axis: read at `(u, h, w)` it is the scaled count at `(h, w)`. -/
theorem pay7_apply (ih iw : IVec S128x128 32) (a : FVec Ideal S128x128 .f32) (x5 y5 x6 y6 x7 y7 : BitVec 32)
    (u : Fin 1) (h w : Fin 128) :
    k0_pay7 (F := Ideal) ih iw a x5 y5 x6 y6 x7 y7 (ix3 u h w)
      = (((a (ix2 h w) + ind ih iw y5 x5 (ix2 h w)) + ind ih iw y6 x6 (ix2 h w)) + ind ih iw y7 x7 (ix2 h w))
          * Ideal.ofBits .f32 0x3E000000#32 := by
  unfold k0_pay7
  refine (shapeCast_ab_1ab_apply _ shapeCasts_S128x128_S1x128x128 u h w).trans ?_
  rfl

/-! ## The block, the broadcast of the mask, and the two lane sums -/

/-- The block with its leading unit axis dropped: `(c, h, w)` reads `(0, c, h, w)`. -/
theorem pay4_apply (blk : Vec Ideal S1x26x128x128 .f32) (c : Fin 26) (h w : Fin 128) :
    k0_pay4 (F := Ideal) blk (ix3 c h w) = blk (ix4 (0 : Fin 1) c h w) := by
  unfold k0_pay4
  exact shapeCast_1abc_abc_apply blk shapeCasts_S1x26x128x128_S26x128x128 c h w

/-- The mask broadcast over the 26 channels reads, at `(c, h, w)`, the mask at `(0, h, w)`. -/
theorem maskBroadcast_apply (m : FVec Ideal S1x128x128 .f32) (c : Fin 26) (h w : Fin 128) :
    broadcastTo S26x128x128 m broadcasts_S1x128x128_S26x128x128 (ix3 c h w) = m (ix3 (0 : Fin 1) h w) := by
  refine broadcastTo_apply m _ (ix3 c h w) (ix3 (0 : Fin 1) h w) fun ax => ?_
  match ax with
  | ⟨0, _⟩ => rfl
  | ⟨1, _⟩ => rfl
  | ⟨2, _⟩ => rfl

/-- A channel's index with a row inserted on the dropped axis. -/
theorem lift_row (c : Fin 26) (h : Fin 128) : reduces_S26x128_S26.lift (ix1 c) h = ix2 c h := by
  funext a
  match a with
  | ⟨0, _⟩ => exact Fin.ext rfl
  | ⟨1, _⟩ => exact Fin.ext rfl

/-- A (channel, row) index with a column inserted on the dropped axis. -/
theorem lift_col (c : Fin 26) (h w : Fin 128) : reduces_S26x128x128_S26x128.lift (ix2 c h) w = ix3 c h w := by
  funext a
  match a with
  | ⟨0, _⟩ => exact Fin.ext rfl
  | ⟨1, _⟩ => exact Fin.ext rfl
  | ⟨2, _⟩ => exact Fin.ext rfl

/-- The pooling step at a channel: the running vector plus the sum over rows and columns of the block times the mask. -/
theorem pay8_apply (v26 : FVec Ideal S26 .f32) (a : FVec Ideal S26x128x128 .f32) (m : FVec Ideal S1x128x128 .f32)
    (c : Fin 26) :
    k0_pay8 v26 a m (ix1 c)
      = v26 (ix1 c) + ∑ h : Fin 128, ∑ w : Fin 128, a (ix3 c h w) * m (ix3 (0 : Fin 1) h w) := by
  unfold k0_pay8
  refine congrArg (v26 (ix1 c) + ·) ?_
  refine (Ideal.multiReduction_add_single _ _ reduces_S26x128_S26 _ _ (ix1 c)).trans ?_
  refine Finset.sum_congr rfl fun h _ => ?_
  rw [lift_row c h]
  refine (Ideal.multiReduction_add_single _ _ reduces_S26x128x128_S26x128 _ _ (ix2 c h)).trans ?_
  refine Finset.sum_congr rfl fun w _ => ?_
  rw [lift_col c h w]
  exact congrArg (a (ix3 c h w) * ·) (maskBroadcast_apply m c h w)

/-! ## The whole step -/

/-- ONE TRIP'S POOLING OF THE SIDE-128 MAP AT A CHANNEL. With every block entry a real number and every centre
    coordinate below 128, the count mask is the sum of the eight points' indicators times `1/8`; the double lane sum of
    block times mask then picks the block's entries at the eight points, so the running vector gains their mean. -/
theorem pool128_apply (v26 : FVec Ideal S26 .f32) (blk : Vec Ideal S1x26x128x128 .f32) (ih iw : IVec S128x128 32)
    (hih : ∀ j, ih j = BitVec.ofNat 32 (j 0).val) (hiw : ∀ j, iw j = BitVec.ofNat 32 (j 1).val)
    (x y : Fin 8 → BitVec 32) (hx : ∀ s, (x s).toNat < 128) (hy : ∀ s, (y s).toNat < 128)
    (hb : ∀ i, ∃ t : ℝ, blk i = (t : EReal)) (c : Fin 26) :
    k0_pay8 v26 (k0_pay4 blk)
        (k0_pay7 ih iw
          (k0_pay6 ih iw (k0_pay5 (x 0) (y 0) (x 1) (y 1)) (x 2) (y 2) (x 3) (y 3) (x 4) (y 4))
          (x 5) (y 5) (x 6) (y 6) (x 7) (y 7)) (ix1 c)
      = v26 (ix1 c)
        + (∑ s : Fin 8, blk (ix4 0 c ⟨(y s).toNat, hy s⟩ ⟨(x s).toNat, hx s⟩)) * ((1 / 8 : ℝ) : EReal) := by
  refine (pay8_apply v26 _ _ c).trans ?_
  refine congrArg (v26 (ix1 c) + ·) ?_
  refine Eq.trans ?_ (LibMaskPool.mask_sum 128 (fun h w => blk (ix4 (0 : Fin 1) c h w)) (fun h w => hb _)
    (fun s => ⟨(y s).toNat, hy s⟩) (fun s => ⟨(x s).toNat, hx s⟩))
  refine Finset.sum_congr rfl fun h _ => Finset.sum_congr rfl fun w _ => ?_
  refine congrArg₂ (· * ·) (pay4_apply blk c h w) ?_
  refine (pay7_apply ih iw _ (x 5) (y 5) (x 6) (y 6) (x 7) (y 7) 0 h w).trans ?_
  rw [pay6_apply, pay5_apply,
    ind_at _ _ iotaH_apply iotaW_apply (y 0) (x 0) (hy 0) (hx 0) h w,
    ind_at _ _ iotaH_apply iotaW_apply (y 1) (x 1) (hy 1) (hx 1) h w,
    ind_at ih iw hih hiw (y 2) (x 2) (hy 2) (hx 2) h w,
    ind_at ih iw hih hiw (y 3) (x 3) (hy 3) (hx 3) h w,
    ind_at ih iw hih hiw (y 4) (x 4) (hy 4) (hx 4) h w,
    ind_at ih iw hih hiw (y 5) (x 5) (hy 5) (hx 5) h w,
    ind_at ih iw hih hiw (y 6) (x 6) (hy 6) (hx 6) h w,
    ind_at ih iw hih hiw (y 7) (x 7) (hy 7) (hx 7) h w,
    LibMaskPool.ofBits_eighth, Ideal.ofBits_zero_f32, zero_add, Fin.sum_univ_eight]

end Cert.PayPool128

end
-- ==== Proof.PayPool64.lean ====
/-
  One trip's pooling of the feature map of side 64, read at a channel.

  Inside one trip of the kernel's loop the body builds a count mask over the square of side 64,
  `cnt (h, w) = ((((0 + i_0) + i_1) + … + i_7)) · 1/8`, where `i_s` is the indicator of the point (row `y_s`,
  column `x_s`): the conjunction of "row index equals `y_s`" and "column index equals `x_s`", widened and converted
  to a float. The mask is given a leading unit axis, broadcast over the 26 channels, multiplied into the block,
  summed over the columns and then over the rows, and the result is added to the running 26-vector.

  With every block entry a real number and every coordinate word below 64, the value at channel `c` is the running
  value plus `(∑ s, blk[c, y_s, x_s]) · 1/8`:

  * `iotaH_apply`, `iotaW_apply`: the two index vectors read the row and the column number;
  * `ind_at`: an indicator at `(h, w)` is `1` exactly when `(h, w)` is the point, as an equation of coordinates
    (a number below 64 and a word below 64 agree as words exactly when they agree as numbers);
  * `pay10_eq`, `pay11_eq`, `pay12_eq`: each chunk adds two or three indicators, the last one scales by `1/8`;
  * `cnt_apply`: the composed mask at `(h, w)`, the left-nested chain of eight additions from `0` being the sum over
    the eight points;
  * `pay13_apply`: the two lane sums are the double sum over rows and columns, the broadcast mask does not depend on
    the channel;
  * `pool64_apply`: the sum over the square of block times mask is the mean of the block at the eight points.
-/
import proofs.«414461_j46188078301471_3_alg».proof.Proof.Gen.KernelIdeal.Skeleton
import proofs.«414461_j46188078301471_3_alg».proof.Proof.LibMaskPool
import Idealize.ShloMosaic.Lib.ValueIdx
import Idealize.ShloMosaic.Lib.Pipeline.Value
import Idealize.ShloMosaic.Lib.ValueLayout
import Idealize.ShloMosaic.PureOps.Ideal.Laws

noncomputable section

namespace Cert.PayPool64

open Cert.KernelIdeal Cert.KernelIdeal.Gen Idealize.ShloMosaic Idealize.ShloMosaic.ValueIdx

/-- The row-index vector of the square of side 64: entry `(h, w)` is the word `h`. -/
theorem iotaH_apply (j : S64x64.Idx) : iota .tc S64x64 32 [0] iota_S64x64_d0_w32 j = BitVec.ofNat 32 (j 0).val :=
  iota_single_apply .tc S64x64 32 0 iota_S64x64_d0_w32 j

/-- The column-index vector: entry `(h, w)` is the word `w`. -/
theorem iotaW_apply (j : S64x64.Idx) : iota .tc S64x64 32 [1] iota_S64x64_d1_w32 j = BitVec.ofNat 32 (j 1).val :=
  iota_single_apply .tc S64x64 32 1 iota_S64x64_d1_w32 j

/-- A number below 64 and a word below 64 are equal as words exactly when they are equal as numbers. -/
theorem ofNat_eq_iff (n : Nat) (hn : n < 64) (v : BitVec 32) (hv : v.toNat < 64) :
    BitVec.ofNat 32 n = v ↔ n = v.toNat := by
  constructor
  · intro e
    rw [← e, BitVec.toNat_ofNat]
    omega
  · intro e
    apply BitVec.eq_of_toNat_eq
    rw [BitVec.toNat_ofNat, e]
    omega

/-- One point's indicator over the square of side 64: the point is (row `yv`, column `xv`). -/
def ind (ih iw : IVec S64x64 32) (xv yv : BitVec 32) : FVec Ideal S64x64 .f32 :=
  sitofp (F := Ideal) .f32 (extui 32 (andi (cmpi .eq ih (broadcast S64x64 yv)) (cmpi .eq iw (broadcast S64x64 xv))) natLt_1_32)

/-- The indicator read at `(h, w)`, the two index vectors being the row and column numbers. -/
theorem ind_at (ih iw : IVec S64x64 32)
    (hih : ∀ j, ih j = BitVec.ofNat 32 (j 0).val) (hiw : ∀ j, iw j = BitVec.ofNat 32 (j 1).val)
    (xv yv : BitVec 32) (hx : xv.toNat < 64) (hy : yv.toNat < 64) (h w : Fin 64) :
    ind ih iw xv yv (ix2 h w) = if h = ⟨yv.toNat, hy⟩ ∧ w = ⟨xv.toNat, hx⟩ then (1 : EReal) else 0 := by
  unfold ind
  refine (Cert.LibMaskPool.ind_apply ih iw yv xv natLt_1_32 (ix2 h w)).trans ?_
  rw [hih, hiw]
  have e1 : (BitVec.ofNat 32 h.val = yv) ↔ h = ⟨yv.toNat, hy⟩ :=
    (ofNat_eq_iff h.val h.isLt yv hy).trans ⟨fun e => Fin.ext e, fun e => congrArg Fin.val e⟩
  have e2 : (BitVec.ofNat 32 w.val = xv) ↔ w = ⟨xv.toNat, hx⟩ :=
    (ofNat_eq_iff w.val w.isLt xv hx).trans ⟨fun e => Fin.ext e, fun e => congrArg Fin.val e⟩
  exact if_congr (and_congr e1 e2) rfl rfl

theorem pay10_eq (x0 y0 x1 y1 : BitVec 32) :
    k0_pay10 (F := Ideal) x0 y0 x1 y1
      = addf (addf (broadcast S64x64 (Ideal.ofBits .f32 0x00000000#32))
          (ind (iota .tc S64x64 32 [0] iota_S64x64_d0_w32) (iota .tc S64x64 32 [1] iota_S64x64_d1_w32) x0 y0))
          (ind (iota .tc S64x64 32 [0] iota_S64x64_d0_w32) (iota .tc S64x64 32 [1] iota_S64x64_d1_w32) x1 y1) := rfl

theorem pay11_eq (ih iw : IVec S64x64 32) (a : FVec Ideal S64x64 .f32) (x2 y2 x3 y3 x4 y4 : BitVec 32) :
    k0_pay11 (F := Ideal) ih iw a x2 y2 x3 y3 x4 y4
      = addf (addf (addf a (ind ih iw x2 y2)) (ind ih iw x3 y3)) (ind ih iw x4 y4) := rfl

theorem pay12_eq (ih iw : IVec S64x64 32) (a : FVec Ideal S64x64 .f32) (x5 y5 x6 y6 x7 y7 : BitVec 32) :
    k0_pay12 (F := Ideal) ih iw a x5 y5 x6 y6 x7 y7
      = mulf (addf (addf (addf a (ind ih iw x5 y5)) (ind ih iw x6 y6)) (ind ih iw x7 y7))
          (broadcast S64x64 (Ideal.ofBits .f32 0x3E000000#32)) := rfl

/-- The count mask of one trip: the three chunk payloads composed. -/
def cnt (ih iw : IVec S64x64 32) (x y : Fin 8 → BitVec 32) : FVec Ideal S64x64 .f32 :=
  k0_pay12 (F := Ideal) ih iw
    (k0_pay11 (F := Ideal) ih iw (k0_pay10 (F := Ideal) (x 0) (y 0) (x 1) (y 1)) (x 2) (y 2) (x 3) (y 3) (x 4) (y 4))
    (x 5) (y 5) (x 6) (y 6) (x 7) (y 7)

/-- The count mask at `(h, w)`: the number of the eight points that are `(h, w)`, times one eighth. -/
theorem cnt_apply (ih iw : IVec S64x64 32)
    (hih : ∀ j, ih j = BitVec.ofNat 32 (j 0).val) (hiw : ∀ j, iw j = BitVec.ofNat 32 (j 1).val)
    (x y : Fin 8 → BitVec 32) (hx : ∀ s, (x s).toNat < 64) (hy : ∀ s, (y s).toNat < 64) (h w : Fin 64) :
    cnt ih iw x y (ix2 h w)
      = (∑ s : Fin 8, if h = ⟨(y s).toNat, hy s⟩ ∧ w = ⟨(x s).toNat, hx s⟩ then (1 : EReal) else 0)
          * ((1 / 8 : ℝ) : EReal) := by
  unfold cnt
  rw [pay12_eq, pay11_eq, pay10_eq]
  simp only [mulf_apply, addf_apply, broadcast_apply]
  rw [ind_at _ _ iotaH_apply iotaW_apply _ _ (hx 0) (hy 0), ind_at _ _ iotaH_apply iotaW_apply _ _ (hx 1) (hy 1),
    ind_at _ _ hih hiw _ _ (hx 2) (hy 2), ind_at _ _ hih hiw _ _ (hx 3) (hy 3), ind_at _ _ hih hiw _ _ (hx 4) (hy 4),
    ind_at _ _ hih hiw _ _ (hx 5) (hy 5), ind_at _ _ hih hiw _ _ (hx 6) (hy 6), ind_at _ _ hih hiw _ _ (hx 7) (hy 7),
    Ideal.ofBits_zero_f32, zero_add, Cert.LibMaskPool.ofBits_eighth, Fin.sum_univ_eight]

/-- The index the two lane sums read: channel `c`, row `h`, column `w`. -/
theorem lift_lift (c : Fin 26) (h w : Fin 64) :
    reduces_S26x64x64_S26x64.lift (reduces_S26x64_S26.lift (ix1 c) h) w = ix3 c h w := by
  funext a
  match a with
  | ⟨0, _⟩ => exact Fin.ext rfl
  | ⟨1, _⟩ => exact Fin.ext rfl
  | ⟨2, _⟩ => exact Fin.ext rfl

/-- The last payload at channel `c`: the running value plus the sum over the square of block times mask. -/
theorem pay13_apply (v168 : FVec Ideal S26 .f32) (B : FVec Ideal S26x64x64 .f32) (m : FVec Ideal S64x64 .f32) (c : Fin 26) :
    k0_pay13 (F := Ideal) v168 B m (ix1 c)
      = v168 (ix1 c) + ∑ h : Fin 64, ∑ w : Fin 64, B (ix3 c h w) * m (ix2 h w) := by
  unfold k0_pay13
  refine congrArg (fun z => v168 (ix1 c) + z) ?_
  refine (Ideal.multiReduction_add_single _ _ reduces_S26x64_S26 _ _ (ix1 c)).trans ?_
  refine Finset.sum_congr rfl fun h _ => ?_
  refine (Ideal.multiReduction_add_single _ _ reduces_S26x64x64_S26x64 _ _ _).trans ?_
  refine Finset.sum_congr rfl fun w _ => ?_
  rw [lift_lift c h w]
  refine congrArg (fun z => B (ix3 c h w) * z) ?_
  refine (broadcastTo_apply _ broadcasts_S1x64x64_S26x64x64 (ix3 c h w) (ix3 (0 : Fin 1) h w) ?_).trans ?_
  · intro a
    match a with
    | ⟨0, _⟩ => rfl
    | ⟨1, _⟩ => rfl
    | ⟨2, _⟩ => rfl
  · exact shapeCast_ab_1ab_apply m shapeCasts_S64x64_S1x64x64 0 h w

/-- The block with its leading unit axis dropped. -/
theorem pay9_apply (blk : Vec Ideal S1x26x64x64 .f32) (c : Fin 26) (h w : Fin 64) :
    k0_pay9 (F := Ideal) blk (ix3 c h w) = blk (ix4 (0 : Fin 1) c h w) := by
  unfold k0_pay9
  exact shapeCast_1abc_abc_apply blk shapeCasts_S1x26x64x64_S26x64x64 c h w

/-- ONE TRIP'S POOLING OF THE MAP OF SIDE 64: the running vector plus the mean of the block at the eight points. -/
theorem pool64_apply (v168 : FVec Ideal S26 .f32) (blk : Vec Ideal S1x26x64x64 .f32) (ih iw : IVec S64x64 32)
    (hih : ∀ j, ih j = BitVec.ofNat 32 (j 0).val) (hiw : ∀ j, iw j = BitVec.ofNat 32 (j 1).val)
    (x y : Fin 8 → BitVec 32) (hx : ∀ s, (x s).toNat < 64) (hy : ∀ s, (y s).toNat < 64)
    (hb : ∀ i, ∃ t : ℝ, blk i = (t : EReal)) (c : Fin 26) :
    k0_pay13 (F := Ideal) v168 (k0_pay9 (F := Ideal) blk)
        (k0_pay12 (F := Ideal) ih iw
          (k0_pay11 (F := Ideal) ih iw (k0_pay10 (F := Ideal) (x 0) (y 0) (x 1) (y 1)) (x 2) (y 2) (x 3) (y 3) (x 4) (y 4))
          (x 5) (y 5) (x 6) (y 6) (x 7) (y 7)) (ix1 c)
      = v168 (ix1 c) + (∑ s : Fin 8, blk (ix4 0 c ⟨(y s).toNat, hy s⟩ ⟨(x s).toNat, hx s⟩)) * ((1 / 8 : ℝ) : EReal) := by
  refine (pay13_apply v168 _ (cnt ih iw x y) c).trans ?_
  refine congrArg (fun z => v168 (ix1 c) + z) ?_
  have e : ∀ h w : Fin 64, k0_pay9 (F := Ideal) blk (ix3 c h w) * cnt ih iw x y (ix2 h w)
      = blk (ix4 (0 : Fin 1) c h w)
          * ((∑ s : Fin 8, if h = (⟨(y s).toNat, hy s⟩ : Fin 64) ∧ w = (⟨(x s).toNat, hx s⟩ : Fin 64) then (1 : EReal) else 0)
              * ((1 / 8 : ℝ) : EReal)) := fun h w => by
    rw [pay9_apply, cnt_apply ih iw hih hiw x y hx hy]
  simp only [e]
  exact Cert.LibMaskPool.mask_sum 64 (fun h w => blk (ix4 (0 : Fin 1) c h w)) (fun h w => hb _)
    (fun s => ⟨(y s).toNat, hy s⟩) (fun s => ⟨(x s).toNat, hx s⟩)

end Cert.PayPool64

end
-- ==== Proof.PayPool32.lean ====
/-
  The feature map of side 32, one trip of the kernel's loop, read at a channel.

  The body builds a count mask on the 32 × 32 square: starting from zero it adds, for each of the eight
  centres, the indicator of the centre's point — "the row index equals the centre's row word and the column
  index equals the centre's column word", widened to a word and converted to a float.  The count is multiplied
  by 0.125, broadcast over the 26 channels, multiplied into the block, summed over the columns and then over
  the rows, and added to the running 26-vector.

  Read at channel `c`, with every block entry a real number and every centre word below 32, that is the
  running value plus `(∑ s, blk[c, y_s, x_s]) · 1/8`:
  * each chunk of the body read at an index is the count so far plus two or three indicators
    (`pay15_apply`, `pay16_apply`, `pay17_apply`);
  * the row-index vector at (h, w) is the word of `h`, the column-index vector the word of `w`, and a word
    below 32 equals the word of a coordinate exactly when the coordinate is its value (`word_eq_iff`), so
    an indicator at (h, w) is the indicator of "(h, w) is the centre" (`ind_pt`), and the count there is the
    sum of the eight (`cnt_apply`);
  * the last chunk is the running value plus the double sum over (h, w) of block times count times factor
    (`pay19_apply`: the two reductions as plain sums, the cast and the broadcast read at coordinates);
  * the double sum against the count is the sum over the eight centres (`LibMaskPool.mask_sum`).
-/
import proofs.«414461_j46188078301471_3_alg».proof.Proof.Gen.KernelIdeal.Skeleton
import proofs.«414461_j46188078301471_3_alg».proof.Proof.LibMaskPool
import Idealize.ShloMosaic.Lib.ValueIdx
import Idealize.ShloMosaic.Lib.Pipeline.Value
import Idealize.ShloMosaic.Lib.ValueLayout
import Idealize.ShloMosaic.PureOps.Ideal.Laws

noncomputable section

namespace Cert.PayPool32

open Cert.KernelIdeal Cert.KernelIdeal.Gen Idealize.ShloMosaic Idealize.ShloMosaic.ValueIdx

/-- The row-index vector built inside the first chunk: at an index, the word of the row coordinate. -/
theorem iotaH_apply (j : S32x32.Idx) :
    iota .tc S32x32 32 [0] iota_S32x32_d0_w32 j = BitVec.ofNat 32 (j 0).val :=
  iota_single_apply .tc S32x32 32 0 iota_S32x32_d0_w32 j

/-- The column-index vector built inside the first chunk: at an index, the word of the column coordinate. -/
theorem iotaW_apply (j : S32x32.Idx) :
    iota .tc S32x32 32 [1] iota_S32x32_d1_w32 j = BitVec.ofNat 32 (j 1).val :=
  iota_single_apply .tc S32x32 32 1 iota_S32x32_d1_w32 j

/-- The sum over the rows: a [26, 32] vector reduced along axis 1, read at channel c. -/
theorem red_h (src : FVec Ideal S26x32 .f32) (c : Fin 26) :
    multiReduction (F := Ideal) .add [1] S26 src 0x00000000#32 reduces_S26x32_S26 (.inl rfl) rfl (ix1 c)
      = ∑ h : Fin 32, src (ix2 c h) := by
  refine (Ideal.multiReduction_add_single src 0x00000000#32 reduces_S26x32_S26 (.inl rfl) rfl (ix1 c)).trans ?_
  refine Finset.sum_congr rfl fun h _ => congrArg src (funext fun a => ?_)
  match a with
  | ⟨0, _⟩ => rfl
  | ⟨1, _⟩ => rfl

/-- The sum over the columns: a [26, 32, 32] vector reduced along axis 2, read at (c, h). -/
theorem red_w (src : FVec Ideal S26x32x32 .f32) (c : Fin 26) (h : Fin 32) :
    multiReduction (F := Ideal) .add [2] S26x32 src 0x00000000#32 reduces_S26x32x32_S26x32 (.inl rfl) rfl (ix2 c h)
      = ∑ w : Fin 32, src (ix3 c h w) := by
  refine (Ideal.multiReduction_add_single src 0x00000000#32 reduces_S26x32x32_S26x32 (.inl rfl) rfl (ix2 c h)).trans ?_
  refine Finset.sum_congr rfl fun w _ => congrArg src (funext fun a => ?_)
  match a with
  | ⟨0, _⟩ => rfl
  | ⟨1, _⟩ => rfl
  | ⟨2, _⟩ => rfl

/-- A [32, 32] mask cast to [1, 32, 32] and broadcast over the 26 channels, read at (c, h, w). -/
theorem bcast_apply (m : FVec Ideal S32x32 .f32) (c : Fin 26) (h w : Fin 32) :
    broadcastTo S26x32x32 (shapeCast S1x32x32 m shapeCasts_S32x32_S1x32x32) broadcasts_S1x32x32_S26x32x32 (ix3 c h w)
      = m (ix2 h w) := by
  refine (broadcastTo_apply _ broadcasts_S1x32x32_S26x32x32 (ix3 c h w) (ix3 (0 : Fin 1) h w) fun ax => ?_).trans ?_
  · match ax with
    | ⟨0, _⟩ => rfl
    | ⟨1, _⟩ => rfl
    | ⟨2, _⟩ => rfl
  · exact shapeCast_ab_1ab_apply m shapeCasts_S32x32_S1x32x32 0 h w

/-- The block with its leading unit axis dropped, read at (c, h, w). -/
theorem pay14_apply (blk : Vec Ideal S1x26x32x32 .f32) (c : Fin 26) (h w : Fin 32) :
    k0_pay14 (F := Ideal) blk (ix3 c h w) = blk (ix4 (0 : Fin 1) c h w) := by
  unfold k0_pay14
  exact shapeCast_1abc_abc_apply blk shapeCasts_S1x26x32x32_S26x32x32 c h w

/-- The last chunk: the running vector plus the double sum of block times (count times factor). -/
theorem pay19_apply (v310 : FVec Ideal S26 .f32) (v313 : FVec Ideal S26x32x32 .f32) (cnt k : FVec Ideal S32x32 .f32)
    (c : Fin 26) :
    k0_pay19 v310 v313 cnt k (ix1 c)
      = v310 (ix1 c) + ∑ h : Fin 32, ∑ w : Fin 32, v313 (ix3 c h w) * (cnt (ix2 h w) * k (ix2 h w)) := by
  unfold k0_pay19
  refine congrArg (v310 (ix1 c) + ·) ?_
  refine (red_h _ c).trans ?_
  refine Finset.sum_congr rfl fun h _ => ?_
  refine (red_w _ c h).trans ?_
  refine Finset.sum_congr rfl fun w _ => ?_
  exact congrArg (v313 (ix3 c h w) * ·) (bcast_apply _ c h w)

/-- The factor: 0.125 at every index. -/
theorem pay18_apply (j : S32x32.Idx) : k0_pay18 (F := Ideal) j = Ideal.ofBits .f32 0x3E000000#32 := rfl

/-- A word below 32 equals the word of a coordinate exactly when the coordinate is the word's value. -/
theorem word_eq_iff (h : Fin 32) (v : BitVec 32) (hv : v.toNat < 32) :
    BitVec.ofNat 32 h.val = v ↔ h = ⟨v.toNat, hv⟩ := by
  constructor
  · intro e
    apply Fin.ext
    have e2 := congrArg BitVec.toNat e
    rw [BitVec.toNat_ofNat] at e2
    have := h.isLt
    show h.val = v.toNat
    omega
  · intro e
    subst e
    apply BitVec.eq_of_toNat_eq
    rw [BitVec.toNat_ofNat]
    show v.toNat % 2 ^ 32 = v.toNat
    omega

/-- The indicator of the point (row word yv, column word xv), at an index. -/
def ind (ih iw : IVec S32x32 32) (yv xv : BitVec 32) (j : S32x32.Idx) : EReal :=
  if ih j = yv ∧ iw j = xv then 1 else 0

/-- The first chunk: zero plus the indicators of the first two points (over the two index vectors it builds). -/
theorem pay15_apply (x0 y0 x1 y1 : BitVec 32) (j : S32x32.Idx) :
    k0_pay15 (F := Ideal) x0 y0 x1 y1 j
      = (0 + ind (iota .tc S32x32 32 [0] iota_S32x32_d0_w32) (iota .tc S32x32 32 [1] iota_S32x32_d1_w32) y0 x0 j)
          + ind (iota .tc S32x32 32 [0] iota_S32x32_d0_w32) (iota .tc S32x32 32 [1] iota_S32x32_d1_w32) y1 x1 j := by
  unfold k0_pay15
  exact congrArg₂ (· + ·)
    (congrArg₂ (· + ·) Ideal.ofBits_zero_f32 (LibMaskPool.ind_apply _ _ y0 x0 natLt_1_32 j))
    (LibMaskPool.ind_apply _ _ y1 x1 natLt_1_32 j)

/-- The second chunk: three more indicators added to the count so far. -/
theorem pay16_apply (ih iw : IVec S32x32 32) (acc : FVec Ideal S32x32 .f32) (x2 y2 x3 y3 x4 y4 : BitVec 32) (j : S32x32.Idx) :
    k0_pay16 ih iw acc x2 y2 x3 y3 x4 y4 j
      = ((acc j + ind ih iw y2 x2 j) + ind ih iw y3 x3 j) + ind ih iw y4 x4 j := by
  unfold k0_pay16
  exact congrArg₂ (· + ·)
    (congrArg₂ (· + ·)
      (congrArg (acc j + ·) (LibMaskPool.ind_apply ih iw y2 x2 natLt_1_32 j))
      (LibMaskPool.ind_apply ih iw y3 x3 natLt_1_32 j))
    (LibMaskPool.ind_apply ih iw y4 x4 natLt_1_32 j)

/-- The third chunk: the last three indicators. -/
theorem pay17_apply (ih iw : IVec S32x32 32) (acc : FVec Ideal S32x32 .f32) (x5 y5 x6 y6 x7 y7 : BitVec 32) (j : S32x32.Idx) :
    k0_pay17 ih iw acc x5 y5 x6 y6 x7 y7 j
      = ((acc j + ind ih iw y5 x5 j) + ind ih iw y6 x6 j) + ind ih iw y7 x7 j := by
  unfold k0_pay17
  exact congrArg₂ (· + ·)
    (congrArg₂ (· + ·)
      (congrArg (acc j + ·) (LibMaskPool.ind_apply ih iw y5 x5 natLt_1_32 j))
      (LibMaskPool.ind_apply ih iw y6 x6 natLt_1_32 j))
    (LibMaskPool.ind_apply ih iw y7 x7 natLt_1_32 j)

/-- With the index vectors the coordinates' words and the point's words below 32, the indicator at (h, w) is
    the indicator of "h is the row and w is the column". -/
theorem ind_pt (ih iw : IVec S32x32 32)
    (hih : ∀ j, ih j = BitVec.ofNat 32 (j 0).val) (hiw : ∀ j, iw j = BitVec.ofNat 32 (j 1).val)
    (yv xv : BitVec 32) (hy : yv.toNat < 32) (hx : xv.toNat < 32) (h w : Fin 32) :
    ind ih iw yv xv (ix2 h w) = if h = ⟨yv.toNat, hy⟩ ∧ w = ⟨xv.toNat, hx⟩ then (1 : EReal) else 0 := by
  unfold ind
  rw [hih, hiw]
  exact if_congr (and_congr (word_eq_iff h yv hy) (word_eq_iff w xv hx)) rfl rfl

/-- The count of hits at (h, w): the sum over the eight points of the point's indicator. -/
theorem cnt_apply (ih iw : IVec S32x32 32)
    (hih : ∀ j, ih j = BitVec.ofNat 32 (j 0).val) (hiw : ∀ j, iw j = BitVec.ofNat 32 (j 1).val)
    (x y : Fin 8 → BitVec 32) (hx : ∀ s, (x s).toNat < 32) (hy : ∀ s, (y s).toNat < 32) (h w : Fin 32) :
    k0_pay17 ih iw
        (k0_pay16 ih iw (k0_pay15 (F := Ideal) (x 0) (y 0) (x 1) (y 1)) (x 2) (y 2) (x 3) (y 3) (x 4) (y 4))
        (x 5) (y 5) (x 6) (y 6) (x 7) (y 7) (ix2 h w)
      = ∑ s : Fin 8, if h = ⟨(y s).toNat, hy s⟩ ∧ w = ⟨(x s).toNat, hx s⟩ then (1 : EReal) else 0 := by
  rw [Fin.sum_univ_eight]
  refine (pay17_apply ih iw _ _ _ _ _ _ _ (ix2 h w)).trans ?_
  refine congrArg₂ (· + ·) (congrArg₂ (· + ·) (congrArg₂ (· + ·) ?_
    (ind_pt ih iw hih hiw _ _ (hy 5) (hx 5) h w)) (ind_pt ih iw hih hiw _ _ (hy 6) (hx 6) h w))
    (ind_pt ih iw hih hiw _ _ (hy 7) (hx 7) h w)
  refine (pay16_apply ih iw _ _ _ _ _ _ _ (ix2 h w)).trans ?_
  refine congrArg₂ (· + ·) (congrArg₂ (· + ·) (congrArg₂ (· + ·) ?_
    (ind_pt ih iw hih hiw _ _ (hy 2) (hx 2) h w)) (ind_pt ih iw hih hiw _ _ (hy 3) (hx 3) h w))
    (ind_pt ih iw hih hiw _ _ (hy 4) (hx 4) h w)
  refine (pay15_apply _ _ _ _ (ix2 h w)).trans ?_
  exact congrArg₂ (· + ·)
    ((zero_add _).trans (ind_pt _ _ iotaH_apply iotaW_apply _ _ (hy 0) (hx 0) h w))
    (ind_pt _ _ iotaH_apply iotaW_apply _ _ (hy 1) (hx 1) h w)

/-- One trip's work for the map of side 32: the running vector plus the mean of the block over the eight points. -/
theorem pool32_apply (v310 : FVec Ideal S26 .f32) (blk : Vec Ideal S1x26x32x32 .f32) (ih iw : IVec S32x32 32)
    (hih : ∀ j, ih j = BitVec.ofNat 32 (j 0).val) (hiw : ∀ j, iw j = BitVec.ofNat 32 (j 1).val)
    (x y : Fin 8 → BitVec 32) (hx : ∀ s, (x s).toNat < 32) (hy : ∀ s, (y s).toNat < 32)
    (hb : ∀ i, ∃ t : ℝ, blk i = (t : EReal)) (c : Fin 26) :
    k0_pay19 v310 (k0_pay14 blk)
        (k0_pay17 ih iw
          (k0_pay16 ih iw (k0_pay15 (F := Ideal) (x 0) (y 0) (x 1) (y 1)) (x 2) (y 2) (x 3) (y 3) (x 4) (y 4))
          (x 5) (y 5) (x 6) (y 6) (x 7) (y 7))
        (k0_pay18 (F := Ideal)) (ix1 c)
      = v310 (ix1 c)
          + (∑ s : Fin 8, blk (ix4 0 c ⟨(y s).toNat, hy s⟩ ⟨(x s).toNat, hx s⟩)) * ((1 / 8 : ℝ) : EReal) := by
  refine (pay19_apply v310 (k0_pay14 blk) _ _ c).trans ?_
  refine congrArg (v310 (ix1 c) + ·) ?_
  refine Eq.trans ?_ (LibMaskPool.mask_sum 32 (fun h w => blk (ix4 0 c h w)) (fun h w => hb _)
    (fun s => ⟨(y s).toNat, hy s⟩) (fun s => ⟨(x s).toNat, hx s⟩))
  refine Finset.sum_congr rfl fun h _ => Finset.sum_congr rfl fun w _ => ?_
  refine congrArg₂ (· * ·) (pay14_apply blk c h w) ?_
  exact congrArg₂ (· * ·) (cnt_apply ih iw hih hiw x y hx hy h w) LibMaskPool.ofBits_eighth

end Cert.PayPool32

end
-- ==== Proof.PayPool16.lean ====
/-
  The side-16 feature map's trip of the pooling loop, as a function of the values it reads.

  One trip builds, on the 16 × 16 square, the count of hits
    cnt (h, w) = ((((0 + i_0) + i_1) + …) + i_7) (h, w),
  where i_s is the indicator of the point (row y_s, column x_s); multiplies it by 1/8; lays it over the 26
  channels; multiplies the block by it; sums over the columns and then over the rows; adds the running
  26-vector; multiplies by 1/4; and lays the result, two further 26-vectors and 50 zeros end to end in a
  row of 128 lanes.  Each step is read here at an index, and the double sum of "block times count" is
  the mean of the block over the eight points.
-/
import proofs.«414461_j46188078301471_3_alg».proof.Proof.Gen.KernelIdeal.Skeleton
import proofs.«414461_j46188078301471_3_alg».proof.Proof.LibMaskPool
import Idealize.ShloMosaic.Lib.ValueIdx
import Idealize.ShloMosaic.Lib.Pipeline.Value
import Idealize.ShloMosaic.Lib.ValueLayout
import Idealize.ShloMosaic.PureOps.Ideal.Laws

noncomputable section

namespace Cert.PayPool16

open Cert.KernelIdeal Cert.KernelIdeal.Gen Idealize.ShloMosaic Idealize.ShloMosaic.ValueIdx

/-! ## The two index vectors -/

/-- The row-index vector reads the row coordinate. -/
theorem iotaH_apply (j : S16x16.Idx) :
    iota .tc S16x16 32 [0] iota_S16x16_d0_w32 j = BitVec.ofNat 32 (j 0).val :=
  iota_single_apply .tc S16x16 32 0 iota_S16x16_d0_w32 j

/-- The column-index vector reads the column coordinate. -/
theorem iotaW_apply (j : S16x16.Idx) :
    iota .tc S16x16 32 [1] iota_S16x16_d1_w32 j = BitVec.ofNat 32 (j 1).val :=
  iota_single_apply .tc S16x16 32 1 iota_S16x16_d1_w32 j

/-! ## Layout steps read at an index -/

theorem cast128_apply (v : FVec Ideal S128 .f32) (hc : S128.ShapeCasts S1x128) (n : Fin 128) :
    shapeCast S1x128 v hc (ix2 (0 : Fin 1) n) = v (ix1 n) :=
  shapeCast_a_1a_apply v hc 0 n

theorem cast26_apply (v : Vec Ideal S1x1x26 .f32) (hc : S1x1x26.ShapeCasts S26) (c : Fin 26) :
    shapeCast S26 v hc (ix1 c) = v (ix3 (0 : Fin 1) (0 : Fin 1) c) :=
  shapeCast_apply v hc _ _ (by
    rw [Shape.rowMajor_val_three, Shape.rowMajor_val_one]
    show (0 * 1 + 0) * 26 + c.val = c.val
    omega)

theorem blk_apply (blk : Vec Ideal S1x26x16x16 .f32) (c : Fin 26) (h w : Fin 16) :
    k0_pay20 (F := Ideal) blk (ix3 c h w) = blk (ix4 (0 : Fin 1) c h w) := by
  unfold k0_pay20
  exact shapeCast_1abc_abc_apply blk _ c h w

theorem cast1_apply (v : FVec Ideal S16x16 .f32) (hc : S16x16.ShapeCasts S1x16x16) (u : Fin 1) (h w : Fin 16) :
    shapeCast S1x16x16 v hc (ix3 u h w) = v (ix2 h w) :=
  shapeCast_ab_1ab_apply v hc u h w

theorem bcast_apply (v : FVec Ideal S1x16x16 .f32) (hb : S1x16x16.Broadcasts S26x16x16) (c : Fin 26) (h w : Fin 16) :
    broadcastTo S26x16x16 v hb (ix3 c h w) = v (ix3 (0 : Fin 1) h w) := by
  refine broadcastTo_apply v hb (ix3 c h w) (ix3 (0 : Fin 1) h w) fun ax => ?_
  match ax with
  | ⟨0, _⟩ => rfl
  | ⟨1, _⟩ => rfl
  | ⟨2, _⟩ => rfl

/-! ## The two lane sums -/

theorem sumW_apply (v : FVec Ideal S26x16x16 .f32) (hr : S26x16x16.Reduces [2] S26x16) (hφ : FKind.Formats .f32)
    (hacc : (0x00000000#32 : BitVec 32) = FKind.add.neutral .f32 hφ) (c : Fin 26) (h : Fin 16) :
    multiReduction (F := Ideal) .add [2] S26x16 v 0x00000000#32 hr hφ hacc (ix2 c h) = ∑ w : Fin 16, v (ix3 c h w) := by
  refine (Ideal.multiReduction_add_single v _ hr hφ hacc (ix2 c h)).trans ?_
  refine Finset.sum_congr rfl fun w _ => congrArg v ?_
  funext ax
  match ax with
  | ⟨0, _⟩ => rfl
  | ⟨1, _⟩ => rfl
  | ⟨2, _⟩ => rfl

theorem sumH_apply (v : FVec Ideal S26x16 .f32) (hr : S26x16.Reduces [1] S26) (hφ : FKind.Formats .f32)
    (hacc : (0x00000000#32 : BitVec 32) = FKind.add.neutral .f32 hφ) (c : Fin 26) :
    multiReduction (F := Ideal) .add [1] S26 v 0x00000000#32 hr hφ hacc (ix1 c) = ∑ h : Fin 16, v (ix2 c h) := by
  refine (Ideal.multiReduction_add_single v _ hr hφ hacc (ix1 c)).trans ?_
  refine Finset.sum_congr rfl fun h _ => congrArg v ?_
  funext ax
  match ax with
  | ⟨0, _⟩ => rfl
  | ⟨1, _⟩ => rfl

/-! ## Four pieces laid end to end -/

theorem cat4_apply (a b c : FVec Ideal S26 .f32) (d : FVec Ideal S50 .f32)
    (hcat : Shape.Concatenates [S26, S26, S26, S50] S128 0) (n : Fin 128) :
    concatenate S128 0 [⟨S26, a⟩, ⟨S26, b⟩, ⟨S26, c⟩, ⟨S50, d⟩] hcat (ix1 n)
      = if h : n.val < 26 then a (ix1 ⟨n.val, h⟩)
        else if h2 : n.val < 52 then b (ix1 ⟨n.val - 26, by omega⟩)
        else if h3 : n.val < 78 then c (ix1 ⟨n.val - 52, by omega⟩)
        else d (ix1 ⟨n.val - 78, by have := n.isLt; omega⟩) := by
  have hoff : ∀ (s₁ : Shape) (hr : s₁.rank = S128.rank) (hr1 : s₁.rank = 1) (i : s₁.Idx) (b : Fin s₁.rank),
      b.cast hr ≠ (0 : Fin S128.rank) → (i b).val = ((ix1 n : S128.Idx) (b.cast hr)).val := by
    intro s₁ hr hr1 i b hb
    exact (hb (Fin.ext (by have := b.isLt; show b.val = 0; omega))).elim
  by_cases h : n.val < 26
  · rw [dif_pos h]
    exact concatenate_apply_piece (t := S128) 0 [⟨S26, a⟩, ⟨S26, b⟩, ⟨S26, c⟩, ⟨S50, d⟩] hcat (ix1 n) 0 (by show 0 < 4; omega) S26 a rfl rfl 0 rfl (ix1 ⟨n.val, h⟩)
      (hoff S26 rfl rfl _) (by show 0 + n.val = n.val; omega)
  · rw [dif_neg h]
    by_cases h2 : n.val < 52
    · rw [dif_pos h2]
      exact concatenate_apply_piece (t := S128) 0 [⟨S26, a⟩, ⟨S26, b⟩, ⟨S26, c⟩, ⟨S50, d⟩] hcat (ix1 n) 1 (by show 1 < 4; omega) S26 b rfl rfl 26 rfl (ix1 ⟨n.val - 26, by omega⟩)
        (hoff S26 rfl rfl _) (by show 26 + (n.val - 26) = n.val; omega)
    · rw [dif_neg h2]
      by_cases h3 : n.val < 78
      · rw [dif_pos h3]
        exact concatenate_apply_piece (t := S128) 0 [⟨S26, a⟩, ⟨S26, b⟩, ⟨S26, c⟩, ⟨S50, d⟩] hcat (ix1 n) 2 (by show 2 < 4; omega) S26 c rfl rfl 52 rfl (ix1 ⟨n.val - 52, by omega⟩)
          (hoff S26 rfl rfl _) (by show 52 + (n.val - 52) = n.val; omega)
      · rw [dif_neg h3]
        exact concatenate_apply_piece (t := S128) 0 [⟨S26, a⟩, ⟨S26, b⟩, ⟨S26, c⟩, ⟨S50, d⟩] hcat (ix1 n) 3 (by show 3 < 4; omega) S50 d rfl rfl 78 rfl
          (ix1 ⟨n.val - 78, by have := n.isLt; omega⟩)
          (hoff S50 rfl rfl _) (by show 78 + (n.val - 78) = n.val; omega)

/-! ## One point's indicator on the square, by coordinates -/

/-- A coordinate below 16, as a word, equals a word below 16 exactly when it is that number. -/
theorem word_eq_iff (h : Fin 16) (v : BitVec 32) (hv : v.toNat < 16) :
    BitVec.ofNat 32 h.val = v ↔ h = ⟨v.toNat, hv⟩ := by
  constructor
  · intro e
    apply Fin.ext
    show h.val = v.toNat
    rw [← e, BitVec.toNat_ofNat]
    exact (Nat.mod_eq_of_lt (by have := h.isLt; omega)).symm
  · intro e
    rw [e]
    apply BitVec.eq_of_toNat_eq
    rw [BitVec.toNat_ofNat]
    exact Nat.mod_eq_of_lt (by show v.toNat < 2 ^ 32; omega)

/-- The indicator of the point (row `yv`, column `xv`) at `(h, w)`. -/
theorem ind16_apply (ih iw : IVec S16x16 32)
    (hih : ∀ j, ih j = BitVec.ofNat 32 (j 0).val) (hiw : ∀ j, iw j = BitVec.ofNat 32 (j 1).val)
    (yv xv : BitVec 32) (hy : yv.toNat < 16) (hx : xv.toNat < 16) (h132 : 1 < 32) (h w : Fin 16) :
    (sitofp (F := Ideal) .f32 (extui 32 (andi (cmpi .eq ih (broadcast S16x16 yv)) (cmpi .eq iw (broadcast S16x16 xv))) h132)
        : FVec Ideal S16x16 .f32) (ix2 h w)
      = if h = ⟨yv.toNat, hy⟩ ∧ w = ⟨xv.toNat, hx⟩ then (1 : EReal) else 0 := by
  refine (LibMaskPool.ind_apply ih iw yv xv h132 (ix2 h w)).trans ?_
  rw [hih, hiw]
  have e1 : (BitVec.ofNat 32 h.val = yv) ↔ h = ⟨yv.toNat, hy⟩ := word_eq_iff h yv hy
  have e2 : (BitVec.ofNat 32 w.val = xv) ↔ w = ⟨xv.toNat, hx⟩ := word_eq_iff w xv hx
  show (if BitVec.ofNat 32 h.val = yv ∧ BitVec.ofNat 32 w.val = xv then (1 : EReal) else 0) = _
  simp only [e1, e2]

/-! ## The three chunks of the count -/

section Chunks
variable (ih iw : IVec S16x16 32)
  (hih : ∀ j, ih j = BitVec.ofNat 32 (j 0).val) (hiw : ∀ j, iw j = BitVec.ofNat 32 (j 1).val)

/-- The indicator of a point given by two words below 16, as a plain function of the coordinates. -/
def hit (yv xv : BitVec 32) (hy : yv.toNat < 16) (hx : xv.toNat < 16) (h w : Fin 16) : EReal :=
  if h = ⟨yv.toNat, hy⟩ ∧ w = ⟨xv.toNat, hx⟩ then 1 else 0

theorem pay21_apply (x0 y0 x1 y1 : BitVec 32) (hx0 : x0.toNat < 16) (hy0 : y0.toNat < 16) (hx1 : x1.toNat < 16)
    (hy1 : y1.toNat < 16) (h w : Fin 16) :
    k0_pay21 (F := Ideal) x0 y0 x1 y1 (ix2 h w) = (0 + hit y0 x0 hy0 hx0 h w) + hit y1 x1 hy1 hx1 h w := by
  unfold k0_pay21
  refine congrArg₂ (· + ·) (congrArg₂ (· + ·) ?_ ?_) ?_
  · exact Ideal.ofBits_zero_f32
  · exact ind16_apply _ _ iotaH_apply iotaW_apply y0 x0 hy0 hx0 _ h w
  · exact ind16_apply _ _ iotaH_apply iotaW_apply y1 x1 hy1 hx1 _ h w

include hih hiw in
theorem pay22_apply (v : FVec Ideal S16x16 .f32) (x2 y2 x3 y3 x4 y4 : BitVec 32)
    (hx2 : x2.toNat < 16) (hy2 : y2.toNat < 16) (hx3 : x3.toNat < 16) (hy3 : y3.toNat < 16)
    (hx4 : x4.toNat < 16) (hy4 : y4.toNat < 16) (h w : Fin 16) :
    k0_pay22 (F := Ideal) ih iw v x2 y2 x3 y3 x4 y4 (ix2 h w)
      = ((v (ix2 h w) + hit y2 x2 hy2 hx2 h w) + hit y3 x3 hy3 hx3 h w) + hit y4 x4 hy4 hx4 h w := by
  unfold k0_pay22
  refine congrArg₂ (· + ·) (congrArg₂ (· + ·) (congrArg₂ (· + ·) rfl ?_) ?_) ?_
  · exact ind16_apply ih iw hih hiw y2 x2 hy2 hx2 _ h w
  · exact ind16_apply ih iw hih hiw y3 x3 hy3 hx3 _ h w
  · exact ind16_apply ih iw hih hiw y4 x4 hy4 hx4 _ h w

include hih hiw in
theorem pay23_apply (v : FVec Ideal S16x16 .f32) (x5 y5 x6 y6 x7 y7 : BitVec 32)
    (hx5 : x5.toNat < 16) (hy5 : y5.toNat < 16) (hx6 : x6.toNat < 16) (hy6 : y6.toNat < 16)
    (hx7 : x7.toNat < 16) (hy7 : y7.toNat < 16) (h w : Fin 16) :
    k0_pay23 (F := Ideal) ih iw v x5 y5 x6 y6 x7 y7 (ix2 h w)
      = ((v (ix2 h w) + hit y5 x5 hy5 hx5 h w) + hit y6 x6 hy6 hx6 h w) + hit y7 x7 hy7 hx7 h w := by
  unfold k0_pay23
  refine congrArg₂ (· + ·) (congrArg₂ (· + ·) (congrArg₂ (· + ·) rfl ?_) ?_) ?_
  · exact ind16_apply ih iw hih hiw y5 x5 hy5 hx5 _ h w
  · exact ind16_apply ih iw hih hiw y6 x6 hy6 hx6 _ h w
  · exact ind16_apply ih iw hih hiw y7 x7 hy7 hx7 _ h w

end Chunks

/-! ## The count, the pooled 26-vector, the row -/

section Main
variable (ih iw : IVec S16x16 32)
  (hih : ∀ j, ih j = BitVec.ofNat 32 (j 0).val) (hiw : ∀ j, iw j = BitVec.ofNat 32 (j 1).val)
  (x y : Fin 8 → BitVec 32) (hx : ∀ s, (x s).toNat < 16) (hy : ∀ s, (y s).toNat < 16)

include hih hiw in
/-- The count of hits at `(h, w)`: the left-nested chain of eight indicators is their sum. -/
theorem cnt_apply (h w : Fin 16) :
    k0_pay23 (F := Ideal) ih iw (k0_pay22 ih iw (k0_pay21 (x 0) (y 0) (x 1) (y 1)) (x 2) (y 2) (x 3) (y 3) (x 4) (y 4))
        (x 5) (y 5) (x 6) (y 6) (x 7) (y 7) (ix2 h w)
      = ∑ s : Fin 8, if h = ⟨(y s).toNat, hy s⟩ ∧ w = ⟨(x s).toNat, hx s⟩ then (1 : EReal) else 0 := by
  rw [pay23_apply ih iw hih hiw _ _ _ _ _ _ _ (hx 5) (hy 5) (hx 6) (hy 6) (hx 7) (hy 7),
    pay22_apply ih iw hih hiw _ _ _ _ _ _ _ (hx 2) (hy 2) (hx 3) (hy 3) (hx 4) (hy 4),
    pay21_apply _ _ _ _ (hx 0) (hy 0) (hx 1) (hy 1), Fin.sum_univ_eight, zero_add]
  rfl

end Main

/-- Block times scaled count, summed over the columns and then the rows, added to the running vector:
    the running vector plus the mean of the block over the eight points. -/
theorem pooled_apply (v452 : FVec Ideal S26 .f32) (blk : Vec Ideal S1x26x16x16 .f32) (cnt : FVec Ideal S16x16 .f32)
    (Y X : Fin 8 → Fin 16)
    (hcnt : ∀ h w, cnt (ix2 h w) = ∑ s : Fin 8, if h = Y s ∧ w = X s then (1 : EReal) else 0)
    (hb : ∀ i, ∃ t : ℝ, blk i = (t : EReal)) (cst : Ideal .f32) (hc : cst = ((1 / 8 : ℝ) : EReal))
    (hc1 : S16x16.ShapeCasts S1x16x16) (hb1 : S1x16x16.Broadcasts S26x16x16)
    (hr2 : S26x16x16.Reduces [2] S26x16) (hr1 : S26x16.Reduces [1] S26) (hφ : FKind.Formats .f32)
    (hacc : (0x00000000#32 : BitVec 32) = FKind.add.neutral .f32 hφ) (c : Fin 26) :
    (addf v452 (multiReduction (F := Ideal) .add [1] S26
        (multiReduction (F := Ideal) .add [2] S26x16
          (mulf (k0_pay20 (F := Ideal) blk)
            (broadcastTo S26x16x16 (shapeCast S1x16x16 (mulf cnt (broadcast S16x16 cst)) hc1) hb1))
          0x00000000#32 hr2 hφ hacc)
        0x00000000#32 hr1 hφ hacc) : FVec Ideal S26 .f32) (ix1 c)
      = v452 (ix1 c) + (∑ s : Fin 8, blk (ix4 (0 : Fin 1) c (Y s) (X s))) * ((1 / 8 : ℝ) : EReal) := by
  refine congrArg (v452 (ix1 c) + ·) ?_
  refine (sumH_apply _ hr1 hφ hacc c).trans ?_
  refine (Finset.sum_congr rfl fun h _ => sumW_apply _ hr2 hφ hacc c h).trans ?_
  refine Eq.trans ?_ (LibMaskPool.mask_sum 16 (fun h w => blk (ix4 (0 : Fin 1) c h w)) (fun h w => hb _) Y X)
  refine Finset.sum_congr rfl fun h _ => Finset.sum_congr rfl fun w _ => ?_
  refine congrArg₂ (· * ·) (blk_apply blk c h w) ?_
  refine (bcast_apply _ hb1 c h w).trans ?_
  refine (cast1_apply _ hc1 0 h w).trans ?_
  show cnt (ix2 h w) * cst = _
  rw [hcnt, hc]

/-- **The row the trip stores**, lane by lane. -/
theorem row16_apply (v452 : FVec Ideal S26 .f32) (blk : Vec Ideal S1x26x16x16 .f32) (ih iw : IVec S16x16 32)
    (hih : ∀ j, ih j = BitVec.ofNat 32 (j 0).val) (hiw : ∀ j, iw j = BitVec.ofNat 32 (j 1).val)
    (x y : Fin 8 → BitVec 32) (hx : ∀ s, (x s).toNat < 16) (hy : ∀ s, (y s).toNat < 16)
    (hb : ∀ i, ∃ t : ℝ, blk i = (t : EReal)) (cst : Ideal .f32) (hc : cst = ((1 / 8 : ℝ) : EReal))
    (v598 v601 : Vec Ideal S1x1x26 .f32) (n : Fin 128) :
    k0_pay1 (F := Ideal) v452 (k0_pay20 blk)
        (k0_pay23 ih iw (k0_pay22 ih iw (k0_pay21 (x 0) (y 0) (x 1) (y 1)) (x 2) (y 2) (x 3) (y 3) (x 4) (y 4))
          (x 5) (y 5) (x 6) (y 6) (x 7) (y 7))
        cst v598 v601 (ix2 (0 : Fin 1) n)
      = if h : n.val < 26 then
          (v452 (ix1 ⟨n.val, h⟩)
            + (∑ s : Fin 8, blk (ix4 (0 : Fin 1) ⟨n.val, h⟩ ⟨(y s).toNat, hy s⟩ ⟨(x s).toNat, hx s⟩)) * ((1 / 8 : ℝ) : EReal))
            * ((1 / 4 : ℝ) : EReal)
        else if h2 : n.val < 52 then v598 (ix3 (0 : Fin 1) (0 : Fin 1) ⟨n.val - 26, by omega⟩)
        else if h3 : n.val < 78 then v601 (ix3 (0 : Fin 1) (0 : Fin 1) ⟨n.val - 52, by omega⟩)
        else 0 := by
  unfold k0_pay1
  refine (cast128_apply _ _ n).trans ?_
  refine (cat4_apply _ _ _ _ _ n).trans ?_
  by_cases h : n.val < 26
  · rw [dif_pos h, dif_pos h]
    refine congrArg₂ (· * ·) ?_ LibMaskPool.ofBits_quarter
    exact pooled_apply v452 blk _ (fun s => ⟨(y s).toNat, hy s⟩) (fun s => ⟨(x s).toNat, hx s⟩)
      (cnt_apply ih iw hih hiw x y hx hy) hb cst hc _ _ _ _ _ _ ⟨n.val, h⟩
  · rw [dif_neg h, dif_neg h]
    by_cases h2 : n.val < 52
    · rw [dif_pos h2, dif_pos h2]
      exact cast26_apply v598 _ _
    · rw [dif_neg h2, dif_neg h2]
      by_cases h3 : n.val < 78
      · rw [dif_pos h3, dif_pos h3]
        exact cast26_apply v601 _ _
      · rw [dif_neg h3, dif_neg h3]
        exact Ideal.ofBits_zero_f32

end Cert.PayPool16

end
-- ==== Proof.PayMlp.lean ====
/-
  The two-layer perceptron of the kernel's second payload, read at an index.

  The payload takes the eight rows of a scratch array of 128 lanes, keeps the first 78 lanes of each row as the
  feature row `x`, and computes `max (x · W1 + b1) 0 · W2 + b2` (39 hidden units, 26 outputs), then pads each row
  with 102 zero lanes.  At the extended reals a change of float format is the identity and a matrix product into a
  zero accumulator is the plain sum over the contracted axis, so lane `n` of row `p` is, for `n < 26`,
  `∑ k, max (∑ j, x p j * W1 j k + b1 k) 0 * W2 k n + b2 n`, and `0` for the other lanes.
-/
import proofs.«414461_j46188078301471_3_alg».proof.Proof.Gen.KernelIdeal.Skeleton
import proofs.«414461_j46188078301471_3_alg».proof.Proof.LibMaskPool
import Idealize.ShloMosaic.Lib.ValueIdx
import Idealize.ShloMosaic.Lib.Pipeline.Value
import Idealize.ShloMosaic.Lib.ValueLayout
import Idealize.ShloMosaic.PureOps.Ideal.Laws

noncomputable section

namespace Cert.PayMlp

open Cert.KernelIdeal Cert.KernelIdeal.Gen Idealize.ShloMosaic Idealize.ShloMosaic.ValueIdx

/-! ## The first matrix product: `[8, 78] · [78, 39]`, contracted over the axis of extent 78 -/

/-- The left operand's row coordinate is the result's row. -/
theorem lhs_first_0 (i : S8x39.Idx) (q : dot_S8x78_S78x39_S8x39_1_0_0_1_n_n.contr.Idx) :
    (dot_S8x78_S78x39_S8x39_1_0_0_1_n_n.lhsIdx i q 0).val = (i 0).val := by
  unfold DotDims.lhsIdx
  rw [dif_neg (show ¬(0 : Fin S8x78.rank) ∈ dot_S8x78_S78x39_S8x39_1_0_0_1_n_n.lhsBatch by decide), dif_pos (show (0 : Fin S8x78.rank) ∈ dot_S8x78_S78x39_S8x39_1_0_0_1_n_n.lhsNonContracting by decide)]
  rfl
/-- The left operand's column coordinate is the contracted one. -/
theorem lhs_first_1 (i : S8x39.Idx) (q : dot_S8x78_S78x39_S8x39_1_0_0_1_n_n.contr.Idx) :
    (dot_S8x78_S78x39_S8x39_1_0_0_1_n_n.lhsIdx i q 1).val = (q ⟨0, by decide⟩).val :=
  dot_S8x78_S78x39_S8x39_1_0_0_1_n_n.lhsIdx_val_of_single rfl i q
/-- The right operand's row coordinate is the contracted one. -/
theorem rhs_first_0 (i : S8x39.Idx) (q : dot_S8x78_S78x39_S8x39_1_0_0_1_n_n.contr.Idx) :
    (dot_S8x78_S78x39_S8x39_1_0_0_1_n_n.rhsIdx i q 0).val = (q ⟨0, by decide⟩).val :=
  dot_S8x78_S78x39_S8x39_1_0_0_1_n_n.rhsIdx_val_of_single rfl i q
/-- The right operand's column coordinate is the result's column. -/
theorem rhs_first_1 (i : S8x39.Idx) (q : dot_S8x78_S78x39_S8x39_1_0_0_1_n_n.contr.Idx) :
    (dot_S8x78_S78x39_S8x39_1_0_0_1_n_n.rhsIdx i q 1).val = (i 1).val := by
  unfold DotDims.rhsIdx
  rw [dif_neg (show ¬(1 : Fin S78x39.rank) ∈ dot_S8x78_S78x39_S8x39_1_0_0_1_n_n.rhsBatch by decide), dif_pos (show (1 : Fin S78x39.rank) ∈ dot_S8x78_S78x39_S8x39_1_0_0_1_n_n.rhsNonContracting by decide)]
  rfl

/-- Into a zero accumulator the product's entry `(p, c)` is `∑ j, x p j * w j c`. -/
theorem matmul_first_apply {φ₁ φ₂ : FTy} (x : FVec Ideal S8x78 φ₁) (w : FVec Ideal S78x39 φ₂) (p : Fin 8) (c : Fin 39) :
    matmul dot_S8x78_S78x39_S8x39_1_0_0_1_n_n none x w (constant (F := Ideal) S8x39 .f32 0x00000000#32) (ix2 p c)
      = ∑ j : Fin 78, x (ix2 p j) * w (ix2 j c) := by
  simp only [matmul]
  rw [Ideal.matmul_constant_zero_apply, ← Equiv.sum_comp (contrEquiv1 dot_S8x78_S78x39_S8x39_1_0_0_1_n_n 78 rfl rfl).symm]
  refine Finset.sum_congr rfl fun j _ => ?_
  have hj := contrEquiv1_symm_val dot_S8x78_S78x39_S8x39_1_0_0_1_n_n 78 rfl rfl j
  have el : dot_S8x78_S78x39_S8x39_1_0_0_1_n_n.lhsIdx (ix2 p c) ((contrEquiv1 dot_S8x78_S78x39_S8x39_1_0_0_1_n_n 78 rfl rfl).symm j) = ix2 p j := funext fun a => Fin.ext (by
    match a with
    | ⟨0, _⟩ => exact lhs_first_0 _ _
    | ⟨1, _⟩ => exact (lhs_first_1 _ _).trans hj)
  have er : dot_S8x78_S78x39_S8x39_1_0_0_1_n_n.rhsIdx (ix2 p c) ((contrEquiv1 dot_S8x78_S78x39_S8x39_1_0_0_1_n_n 78 rfl rfl).symm j) = ix2 j c := funext fun a => Fin.ext (by
    match a with
    | ⟨0, _⟩ => exact (rhs_first_0 _ _).trans hj
    | ⟨1, _⟩ => exact rhs_first_1 _ _)
  rw [el, er]

/-! ## The second matrix product: `[8, 39] · [39, 26]`, contracted over the axis of extent 39 -/

/-- The left operand's row coordinate is the result's row. -/
theorem lhs_second_0 (i : S8x26.Idx) (q : dot_S8x39_S39x26_S8x26_1_0_0_1_n_n.contr.Idx) :
    (dot_S8x39_S39x26_S8x26_1_0_0_1_n_n.lhsIdx i q 0).val = (i 0).val := by
  unfold DotDims.lhsIdx
  rw [dif_neg (show ¬(0 : Fin S8x39.rank) ∈ dot_S8x39_S39x26_S8x26_1_0_0_1_n_n.lhsBatch by decide), dif_pos (show (0 : Fin S8x39.rank) ∈ dot_S8x39_S39x26_S8x26_1_0_0_1_n_n.lhsNonContracting by decide)]
  rfl
/-- The left operand's column coordinate is the contracted one. -/
theorem lhs_second_1 (i : S8x26.Idx) (q : dot_S8x39_S39x26_S8x26_1_0_0_1_n_n.contr.Idx) :
    (dot_S8x39_S39x26_S8x26_1_0_0_1_n_n.lhsIdx i q 1).val = (q ⟨0, by decide⟩).val :=
  dot_S8x39_S39x26_S8x26_1_0_0_1_n_n.lhsIdx_val_of_single rfl i q
/-- The right operand's row coordinate is the contracted one. -/
theorem rhs_second_0 (i : S8x26.Idx) (q : dot_S8x39_S39x26_S8x26_1_0_0_1_n_n.contr.Idx) :
    (dot_S8x39_S39x26_S8x26_1_0_0_1_n_n.rhsIdx i q 0).val = (q ⟨0, by decide⟩).val :=
  dot_S8x39_S39x26_S8x26_1_0_0_1_n_n.rhsIdx_val_of_single rfl i q
/-- The right operand's column coordinate is the result's column. -/
theorem rhs_second_1 (i : S8x26.Idx) (q : dot_S8x39_S39x26_S8x26_1_0_0_1_n_n.contr.Idx) :
    (dot_S8x39_S39x26_S8x26_1_0_0_1_n_n.rhsIdx i q 1).val = (i 1).val := by
  unfold DotDims.rhsIdx
  rw [dif_neg (show ¬(1 : Fin S39x26.rank) ∈ dot_S8x39_S39x26_S8x26_1_0_0_1_n_n.rhsBatch by decide), dif_pos (show (1 : Fin S39x26.rank) ∈ dot_S8x39_S39x26_S8x26_1_0_0_1_n_n.rhsNonContracting by decide)]
  rfl

/-- Into a zero accumulator the product's entry `(p, c)` is `∑ j, x p j * w j c`. -/
theorem matmul_second_apply {φ₁ φ₂ : FTy} (x : FVec Ideal S8x39 φ₁) (w : FVec Ideal S39x26 φ₂) (p : Fin 8) (c : Fin 26) :
    matmul dot_S8x39_S39x26_S8x26_1_0_0_1_n_n none x w (constant (F := Ideal) S8x26 .f32 0x00000000#32) (ix2 p c)
      = ∑ j : Fin 39, x (ix2 p j) * w (ix2 j c) := by
  simp only [matmul]
  rw [Ideal.matmul_constant_zero_apply, ← Equiv.sum_comp (contrEquiv1 dot_S8x39_S39x26_S8x26_1_0_0_1_n_n 39 rfl rfl).symm]
  refine Finset.sum_congr rfl fun j _ => ?_
  have hj := contrEquiv1_symm_val dot_S8x39_S39x26_S8x26_1_0_0_1_n_n 39 rfl rfl j
  have el : dot_S8x39_S39x26_S8x26_1_0_0_1_n_n.lhsIdx (ix2 p c) ((contrEquiv1 dot_S8x39_S39x26_S8x26_1_0_0_1_n_n 39 rfl rfl).symm j) = ix2 p j := funext fun a => Fin.ext (by
    match a with
    | ⟨0, _⟩ => exact lhs_second_0 _ _
    | ⟨1, _⟩ => exact (lhs_second_1 _ _).trans hj)
  have er : dot_S8x39_S39x26_S8x26_1_0_0_1_n_n.rhsIdx (ix2 p c) ((contrEquiv1 dot_S8x39_S39x26_S8x26_1_0_0_1_n_n 39 rfl rfl).symm j) = ix2 j c := funext fun a => Fin.ext (by
    match a with
    | ⟨0, _⟩ => exact (rhs_second_0 _ _).trans hj
    | ⟨1, _⟩ => exact rhs_second_1 _ _)
  rw [el, er]

/-! ## The layout steps -/

/-- The first 78 lanes of a row of 128: lane `j` of the cut is lane `j` of the row. -/
theorem features_apply (v7 : Vec Ideal S8x128 .f32) (p : Fin 8) (j : Fin 78) :
    extractStridedSlice S8x78 ![0, 0] v7 slices_S8x128_o0_0_S8x78 (ix2 p j)
      = v7 (ix2 p ⟨j.val, by have := j.isLt; omega⟩) :=
  slice2_axis1_apply 0 v7 slices_S8x128_o0_0_S8x78 p j ⟨j.val, by have := j.isLt; omega⟩ (Nat.zero_add _).symm

/-- The first bias, a vector of 39 entries laid as one row and repeated over the eight rows. -/
theorem bias_first_apply (v4 : Vec Ideal S39 .f32) (p : Fin 8) (k : Fin 39) :
    broadcastTo S8x39 (shapeCast S1x39 v4 shapeCasts_S39_S1x39) broadcasts_S1x39_S8x39 (ix2 p k) = v4 (ix1 k) :=
  (broadcastTo_1b_ab_apply _ broadcasts_S1x39_S8x39 p k).trans (shapeCast_a_1a_apply v4 shapeCasts_S39_S1x39 0 k)

/-- The second bias, a vector of 26 entries laid as one row and repeated over the eight rows. -/
theorem bias_second_apply (v5 : Vec Ideal S26 .f32) (p : Fin 8) (c : Fin 26) :
    broadcastTo S8x26 (shapeCast S1x26 v5 shapeCasts_S26_S1x26) broadcasts_S1x26_S8x26 (ix2 p c) = v5 (ix1 c) :=
  (broadcastTo_1b_ab_apply _ broadcasts_S1x26_S8x26 p c).trans (shapeCast_a_1a_apply v5 shapeCasts_S26_S1x26 0 c)

/-- A row of 26 lanes followed by a row of 102: a lane below 26 is the first piece's. -/
theorem pad_apply_left (y : S8x26.Idx → EReal) (z : S8x102.Idx → EReal) (p : Fin 8) (n : Fin 128) (h : n.val < 26) :
    concatenate S8x128 1 [⟨S8x26, y⟩, ⟨S8x102, z⟩] concatenates_S8x26_S8x102_S8x128_d1 (ix2 p n) = y (ix2 p ⟨n.val, h⟩) :=
  concatenate_pair_apply_left (1 : Fin S8x128.rank) y z concatenates_S8x26_S8x102_S8x128_d1 (ix2 p n) rfl (ix2 p ⟨n.val, h⟩)
    (fun b => by
      match b with
      | ⟨0, _⟩ => rfl
      | ⟨1, _⟩ => rfl)

/-- A lane from 26 on is the second piece's, 26 lanes earlier. -/
theorem pad_apply_right (y : S8x26.Idx → EReal) (z : S8x102.Idx → EReal) (p : Fin 8) (n : Fin 128) (h : ¬ n.val < 26) :
    concatenate S8x128 1 [⟨S8x26, y⟩, ⟨S8x102, z⟩] concatenates_S8x26_S8x102_S8x128_d1 (ix2 p n)
      = z (ix2 p ⟨n.val - 26, by have := n.isLt; omega⟩) :=
  concatenate_pair_apply_right (1 : Fin S8x128.rank) y z concatenates_S8x26_S8x102_S8x128_d1 (ix2 p n) rfl rfl
    (ix2 p ⟨n.val - 26, by have := n.isLt; omega⟩)
    (fun b hb => by
      match b, hb with
      | ⟨0, _⟩, _ => rfl
      | ⟨1, _⟩, hb => exact absurd rfl hb)
    (by show n.val - 26 + 26 = n.val; omega)

/-! ## The payload at an index -/

/-- Lane `n` of row `p` of the payload: the perceptron's output `n` on the row's 78 features for `n < 26`, zero padding after. -/
theorem mlp_apply (v0 : Vec Ideal S78x39 .f32) (v2 : Vec Ideal S39x26 .f32) (v4 : Vec Ideal S39 .f32) (v5 : Vec Ideal S26 .f32) (v7 : Vec Ideal S8x128 .f32) (p : Fin 8) (n : Fin 128) :
    k0_pay2 (F := Ideal) v0 v2 v4 v5 v7 (ix2 p n)
      = if h : n.val < 26 then
          (∑ k : Fin 39, max ((∑ j : Fin 78, v7 (ix2 p ⟨j.val, by have := j.isLt; omega⟩) * v0 (ix2 j k)) + v4 (ix1 k)) 0 * v2 (ix2 k ⟨n.val, h⟩)) + v5 (ix1 ⟨n.val, h⟩)
        else 0 := by
  by_cases h : n.val < 26
  · rw [dif_pos h]
    unfold k0_pay2
    -- the first piece of the padded row: the second layer's output plus its bias
    refine (pad_apply_left _ _ p n h).trans ?_
    refine (addf_apply _ _ _).trans ?_
    refine congrArg₂ (· + ·) ?_ (bias_second_apply v5 p ⟨n.val, h⟩)
    refine (matmul_second_apply _ _ p ⟨n.val, h⟩).trans ?_
    refine Finset.sum_congr rfl fun k _ => ?_
    refine congrArg₂ (· * ·) ?_ rfl
    -- the hidden unit `k`: the rectifier of the first layer's output plus its bias
    refine (maximumf_apply _ _ _).trans ?_
    refine congrArg₂ max ?_ Ideal.ofBits_zero_f32
    refine (addf_apply _ _ _).trans ?_
    refine congrArg₂ (· + ·) ?_ (bias_first_apply v4 p k)
    refine (matmul_first_apply _ _ p k).trans ?_
    refine Finset.sum_congr rfl fun j _ => ?_
    exact congrArg₂ (· * ·) (features_apply v7 p j) rfl
  · rw [dif_neg h]
    unfold k0_pay2
    -- the second piece of the padded row: zeros
    exact (pad_apply_right _ _ p n h).trans Ideal.ofBits_zero_f32

end Cert.PayMlp

end
-- ==== Proof.Spec.lean ====
/-
  What the head computes, as ONE function of the fourteen argument arrays, index by index.

  For a batch row `b` and a channel `c`, each of the four feature maps (side 128, 64, 32, 16) is read at the
  eight centres of that row — centre `s` of map `i` is the point (row `y`, column `x`) with
  `x = centers_i[b, s, 0]`, `y = centers_i[b, s, 1]` — and the eight values are averaged; the four
  averages are averaged again.  The 26 pooled channels, the 26 entries of `out_pc` and the 26 of
  `out_context` make a row of 78 features; a dense layer to 39 units, a rectifier, and a dense layer to 26
  units follow.  A centre's coordinate is taken modulo the map's side, so that the function is total;
  on the domain `Dom` (every coordinate already below the side) the reduction is the identity.
-/
import Idealize.ShloMosaic.PureOps.Ideal
import Idealize.ShloMosaic.Lib.ValueIdx

noncomputable section

namespace Cert.Spec

open Idealize.ShloMosaic Idealize.ShloMosaic.ValueIdx

/-- The table of centres of one feature map: `[64, 8, 2]` words, `(b, s, 0)` the column, `(b, s, 1)` the row. -/
abbrev Tab : Type := (⟨3, ![64, 8, 2]⟩ : Shape).Idx → BitVec 32

/-- A centre word as a coordinate along an axis of extent `r`. -/
def coord (r : Nat) [NeZero r] (w : BitVec 32) : Fin r := ⟨w.toNat % r, Nat.mod_lt _ (NeZero.pos r)⟩

theorem coord_val_of_lt (r : Nat) [NeZero r] (w : BitVec 32) (h : w.toNat < r) : (coord r w).val = w.toNat :=
  Nat.mod_eq_of_lt h

/-- The mean, over the eight centres of row `b`, of channel `c` of a feature map of side `r`. -/
def pool (r : Nat) [NeZero r] (a : (⟨4, ![64, 26, r, r]⟩ : Shape).Idx → EReal) (cen : Tab) (b : Fin 64) (c : Fin 26) : EReal :=
  (∑ s : Fin 8, a (ix4 b c (coord r (cen (ix3 b s 1))) (coord r (cen (ix3 b s 0))))) * ((1 / 8 : ℝ) : EReal)

section
variable (a0 : (⟨4, ![64, 26, 128, 128]⟩ : Shape).Idx → EReal) (a1 : (⟨4, ![64, 26, 64, 64]⟩ : Shape).Idx → EReal)
  (a2 : (⟨4, ![64, 26, 32, 32]⟩ : Shape).Idx → EReal) (a3 : (⟨4, ![64, 26, 16, 16]⟩ : Shape).Idx → EReal)
  (a4 a5 : (⟨2, ![64, 26]⟩ : Shape).Idx → EReal) (a6 a7 a8 a9 : Tab)
  (a10 : (⟨2, ![78, 39]⟩ : Shape).Idx → EReal) (a11 : (⟨1, ![39]⟩ : Shape).Idx → EReal)
  (a12 : (⟨2, ![39, 26]⟩ : Shape).Idx → EReal) (a13 : (⟨1, ![26]⟩ : Shape).Idx → EReal)

/-- The four maps' means, averaged. -/
def bu (b : Fin 64) (c : Fin 26) : EReal :=
  (pool 128 a0 a6 b c + pool 64 a1 a7 b c + pool 32 a2 a8 b c + pool 16 a3 a9 b c) * ((1 / 4 : ℝ) : EReal)

/-- The row of 78 features: the pooled channels, then `out_pc`'s row, then `out_context`'s. -/
def feat (b : Fin 64) (j : Fin 78) : EReal :=
  if h : j.val < 26 then bu a0 a1 a2 a3 a6 a7 a8 a9 b ⟨j.val, h⟩
  else if h2 : j.val < 52 then a4 (ix2 b ⟨j.val - 26, by omega⟩)
  else a5 (ix2 b ⟨j.val - 52, by have := j.isLt; omega⟩)

/-- The hidden layer: `max (x · W1 + b1) 0`. -/
def hid (b : Fin 64) (k : Fin 39) : EReal :=
  max ((∑ j : Fin 78, feat a0 a1 a2 a3 a4 a5 a6 a7 a8 a9 b j * a10 (ix2 j k)) + a11 (ix1 k)) 0

/-- The result: `h · W2 + b2`. -/
def out (i : (⟨2, ![64, 26]⟩ : Shape).Idx) : EReal :=
  (∑ k : Fin 39, hid a0 a1 a2 a3 a4 a5 a6 a7 a8 a9 a10 a11 (i 0) k * a12 (ix2 k (i 1))) + a13 (ix1 (i 1))

/-- The domain on which the two programs are compared: every float entry a real number, every centre coordinate
    inside its map (as an unsigned word below the side: the word is then also non-negative as a signed one). -/
structure Dom : Prop where
  f0 : ∀ i, ∃ x : ℝ, a0 i = (x : EReal)
  f1 : ∀ i, ∃ x : ℝ, a1 i = (x : EReal)
  f2 : ∀ i, ∃ x : ℝ, a2 i = (x : EReal)
  f3 : ∀ i, ∃ x : ℝ, a3 i = (x : EReal)
  f4 : ∀ i, ∃ x : ℝ, a4 i = (x : EReal)
  f5 : ∀ i, ∃ x : ℝ, a5 i = (x : EReal)
  f10 : ∀ i, ∃ x : ℝ, a10 i = (x : EReal)
  f11 : ∀ i, ∃ x : ℝ, a11 i = (x : EReal)
  f12 : ∀ i, ∃ x : ℝ, a12 i = (x : EReal)
  f13 : ∀ i, ∃ x : ℝ, a13 i = (x : EReal)
  r6 : ∀ i, (a6 i).toNat < 128
  r7 : ∀ i, (a7 i).toNat < 64
  r8 : ∀ i, (a8 i).toNat < 32
  r9 : ∀ i, (a9 i).toNat < 16

end

end Cert.Spec

end
-- ==== Proof.KRow.lean ====
/-
  One trip's row of the scratch, at the ideal instance, is the specification's row of 78 features padded with zeros.

  Trip `k` of the loop at grid point `i` works on batch row `8·i + k`.  Centre `s` of that row in a map's table (a
  flat list of 1024 words, sixteen per batch row: column then row of each of the eight centres) is the pair of words at
  `128·i + 16·k + 2·s` and `… + 1`.  For each of the four maps the trip adds, to a running 26-vector that starts at
  zero, the mean over the eight centres of the block's slab `k` at the centre; the sum is scaled by a quarter and
  followed in the row by the slab-`k` rows of the two staged 26-vector blocks and by fifty zeros.
-/
import proofs.«414461_j46188078301471_3_alg».proof.Proof.KBody
import proofs.«414461_j46188078301471_3_alg».proof.Proof.PayPool128
import proofs.«414461_j46188078301471_3_alg».proof.Proof.PayPool64
import proofs.«414461_j46188078301471_3_alg».proof.Proof.PayPool32
import proofs.«414461_j46188078301471_3_alg».proof.Proof.PayPool16
import proofs.«414461_j46188078301471_3_alg».proof.Proof.PayMlp
import proofs.«414461_j46188078301471_3_alg».proof.Proof.Spec

set_option maxRecDepth 16384

noncomputable section

namespace Cert.KRow

open Cert.KernelIdeal Cert.KernelIdeal.Gen Cert.KernelIdeal.Hand
open Idealize.ShloMosaic Idealize.ShloMosaic.ValueIdx

/-- The trip's row index as a slab of a block of eight. -/
def slab (k : Fin k0_t1_loop.trips) : Fin 8 := ⟨k.val, by rw [← trips_eq]; exact k.isLt⟩

/-- The word of centre `s`, component `e` (0 the column, 1 the row), of the trip's batch row in a table. -/
def wordAt (i : grid0.Coords) (k : Fin k0_t1_loop.trips) (T : Vec Ideal S1024 .i32) (s : Fin 8) (e : Fin 2) : BitVec 32 :=
  T (ix1 ⟨128 * (i 0).val + 16 * k.val + 2 * s.val + e.val, by
    have hi : (i 0).val < 8 := (i 0).isLt
    have hk : k.val < 8 := by rw [← trips_eq]; exact k.isLt
    have hs := s.isLt; have he := e.isLt
    show _ < 1024
    omega⟩)

/-- The mean over the eight centres of channel `c` of slab `k` of a block of side `r`, the centres read off the table. -/
def poolB (r : Nat) (x : (⟨4, ![8, 26, r, r]⟩ : Shape).Idx → EReal) (T : Vec Ideal S1024 .i32) (hT : ∀ j, (T j).toNat < r)
    (i : grid0.Coords) (k : Fin k0_t1_loop.trips) (c : Fin 26) : EReal :=
  (∑ s : Fin 8, x (ix4 (slab k) c ⟨(wordAt i k T s 1).toNat, hT _⟩ ⟨(wordAt i k T s 0).toNat, hT _⟩)) * ((1 / 8 : ℝ) : EReal)

/-! ## What the loads read -/

/-- A load through a whole memref whose contents read `X` reads `X` at the rectangle's indices. -/
theorem readAt_unread {κ : Kind} {sp : Space} {s : Shape} {e : EltTy} (m : Memref sig κ sp s e) (hm : m.IsWhole)
    (X : s.Idx → Elt Ideal e) (r : Rect s) (x : r.shape.Idx) :
    View.readAt (Elt Ideal) m.view r.toLoadRect (hm.unread X) x = X (r.idx x) := by
  show m.view.read (Elt Ideal) (hm.unread X) (r.idx x) = _
  rw [hm.read_unread]

/-- The word a table load reads: centre `s`, component `e` of the trip's batch row (the two offset words given with
    what they are, so that a literal word matches). -/
theorem word_read (i : grid0.Coords) (k : Fin k0_t1_loop.trips) (arg : Memref sig .tc .smem S1024 .i32) (harg : arg.IsWhole)
    (T : Vec Ideal S1024 .i32) (s : Fin 8) (e : Fin 2) (a b : BitVec 32)
    (ha : a = BitVec.ofNat 32 (2 * s.val)) (hb : b = BitVec.ofNat 32 e.val)
    (inb : ∀ ax, (k0_off2 i k a b) ax + S1.size ax ≤ S1024.size ax)
    (hf : 0 < (Rect.unit (s := S1024) (k0_off2 i k a b) S1.size inb).toLoadRect.shape.numel) :
    View.readAt (Elt Ideal) arg.view (Rect.unit (s := S1024) (k0_off2 i k a b) S1.size inb).toLoadRect
        (harg.unread T) (Shape.Idx.first hf)
      = wordAt i k T s e := by
  subst ha hb
  refine (readAt_unread arg harg T _ _).trans ?_
  unfold wordAt
  refine congrArg T (funext fun ax => Fin.ext ?_)
  match ax with
  | ⟨0, _⟩ =>
    show (k0_off2 i k (BitVec.ofNat 32 (2 * s.val)) (BitVec.ofNat 32 e.val)) 0 + 1 * 0 = _
    rw [k0_off2_eq i k s e]
    show 128 * (i 0).val + 16 * k.val + 2 * s.val + e.val + 1 * 0 = 128 * (i 0).val + 16 * k.val + 2 * s.val + e.val
    omega

/-- A block load reads slab `k` of the staged block. -/
theorem slab_read {r : Nat} (m : Memref sig .tc .vmem ⟨4, ![8, 26, r, r]⟩ .f32) (hm : m.IsWhole)
    (X : (⟨4, ![8, 26, r, r]⟩ : Shape).Idx → EReal) (k : Fin k0_t1_loop.trips) (off : Fin 4 → Nat)
    (hoff : off = ![k.val, 0, 0, 0])
    (inb : ∀ a, off a + (⟨4, ![1, 26, r, r]⟩ : Shape).size a ≤ (⟨4, ![8, 26, r, r]⟩ : Shape).size a)
    (c : Fin 26) (h w : Fin r) :
    View.readAt (Elt Ideal) m.view (Rect.unit (s := ⟨4, ![8, 26, r, r]⟩) off (⟨4, ![1, 26, r, r]⟩ : Shape).size inb).toLoadRect
        (hm.unread X) (ix4 (0 : Fin 1) c h w)
      = X (ix4 (slab k) c h w) := by
  refine (readAt_unread m hm X _ _).trans ?_
  subst hoff
  refine congrArg X (funext fun a => Fin.ext ?_)
  match a with
  | ⟨0, _⟩ => show k.val + 1 * 0 = k.val; omega
  | ⟨1, _⟩ => show 0 + 1 * c.val = c.val; omega
  | ⟨2, _⟩ => show 0 + 1 * h.val = h.val; omega
  | ⟨3, _⟩ => show 0 + 1 * w.val = w.val; omega

/-- A load of a staged 26-vector block reads its row `k`. -/
theorem vec_read (m : Memref sig .tc .vmem S8x1x26 .f32) (hm : m.IsWhole) (X : Vec Ideal S8x1x26 .f32)
    (k : Fin k0_t1_loop.trips) (c : Fin 26) :
    View.readAt (Elt Ideal) m.view (Rect.unit (s := S8x1x26) (k0_off6 k) S1x1x26.size (k0_off6_inb k)).toLoadRect
        (hm.unread X) (ix3 (0 : Fin 1) (0 : Fin 1) c)
      = X (ix3 (slab k) (0 : Fin 1) c) := by
  refine (readAt_unread m hm X _ _).trans ?_
  refine congrArg X (funext fun a => Fin.ext ?_)
  match a with
  | ⟨0, _⟩ => show k0_off6 k 0 + 1 * 0 = k.val; rw [k0_off6_eq]; show k.val + 1 * 0 = k.val; omega
  | ⟨1, _⟩ => show k0_off6 k 1 + 1 * 0 = 0; rw [k0_off6_eq]; rfl
  | ⟨2, _⟩ => show k0_off6 k 2 + 1 * c.val = c.val; rw [k0_off6_eq]; show 0 + 1 * c.val = c.val; omega

/-! ## From the loads to the specification's mean -/

/-- The mean over the eight points, the block and the points given by what the loads read. -/
theorem poolB_of_reads {r : Nat} (m : Memref sig .tc .vmem ⟨4, ![8, 26, r, r]⟩ .f32) (hm : m.IsWhole)
    (x : (⟨4, ![8, 26, r, r]⟩ : Shape).Idx → EReal) (T : Vec Ideal S1024 .i32) (hT : ∀ j, (T j).toNat < r)
    (i : grid0.Coords) (k : Fin k0_t1_loop.trips) (off : Fin 4 → Nat) (hoff : off = ![k.val, 0, 0, 0])
    (inb : ∀ a, off a + (⟨4, ![1, 26, r, r]⟩ : Shape).size a ≤ (⟨4, ![8, 26, r, r]⟩ : Shape).size a)
    (X Y : Fin 8 → BitVec 32) (hX : ∀ s, X s = wordAt i k T s 0) (hY : ∀ s, Y s = wordAt i k T s 1)
    (hx : ∀ s, (X s).toNat < r) (hy : ∀ s, (Y s).toNat < r) (c : Fin 26) :
    (∑ s : Fin 8, View.readAt (Elt Ideal) m.view
        (Rect.unit (s := ⟨4, ![8, 26, r, r]⟩) off (⟨4, ![1, 26, r, r]⟩ : Shape).size inb).toLoadRect (hm.unread x)
        (ix4 (0 : Fin 1) c ⟨(Y s).toNat, hy s⟩ ⟨(X s).toNat, hx s⟩)) * ((1 / 8 : ℝ) : EReal)
      = poolB r x T hT i k c := by
  unfold poolB
  refine congrArg (· * ((1 / 8 : ℝ) : EReal)) (Finset.sum_congr rfl fun s _ => ?_)
  refine (slab_read m hm x k off hoff inb c _ _).trans ?_
  refine congrArg x (congrArg₂ (ix4 (slab k) c) (Fin.ext ?_) (Fin.ext ?_))
  · show (Y s).toNat = (wordAt i k T s 1).toNat
    rw [hY s]
  · show (X s).toNat = (wordAt i k T s 0).toNat
    rw [hX s]

/-- What a load reads of real contents is real. -/
theorem real_read {κ : Kind} {sp : Space} {s : Shape} (m : Memref sig κ sp s .f32) (hm : m.IsWhole)
    (X : s.Idx → EReal) (hX : ∀ j, ∃ t : ℝ, X j = (t : EReal)) (r : Rect s) (x : r.shape.Idx) :
    ∃ t : ℝ, View.readAt (Elt Ideal) m.view r.toLoadRect (hm.unread (e := .f32) X) x = (t : EReal) := by
  rw [readAt_unread m hm X r x]
  exact hX _

/-! ## The sixteen words of each table, as the trip reads them

For each of the four tables: the eight column words and the eight row words the trip loads, in the order of the
centres; each is the table's word of that centre and component. -/

section Words
variable (i : grid0.Coords) (arg : Memref sig .tc .smem S1024 .i32) (U : BufTy.Contents (Elt Ideal) arg.view.ty)
  (k : Fin k0_t1_loop.trips)

/-- Table 1: the column words. -/
def colW1 : Fin 8 → BitVec 32 :=
  ![tripH.sl.r i arg U k, tripH.sl.r_2 i arg U k, tripH.sl.r_6 i arg U k, tripH.sl.r_8 i arg U k,
    tripH.sl.r_10 i arg U k, tripH.sl.r_13 i arg U k, tripH.sl.r_15 i arg U k, tripH.sl.r_17 i arg U k]
/-- Table 1: the row words. -/
def rowW1 : Fin 8 → BitVec 32 :=
  ![tripH.sl.r_1 i arg U k, tripH.sl.r_3 i arg U k, tripH.sl.r_7 i arg U k, tripH.sl.r_9 i arg U k,
    tripH.sl.r_11 i arg U k, tripH.sl.r_14 i arg U k, tripH.sl.r_16 i arg U k, tripH.sl.r_18 i arg U k]
/-- Table 2: the column words. -/
def colW2 : Fin 8 → BitVec 32 :=
  ![tripH.sl.r_20 i arg U k, tripH.sl.r_22 i arg U k, tripH.sl.r_27 i arg U k, tripH.sl.r_29 i arg U k,
    tripH.sl.r_31 i arg U k, tripH.sl.r_34 i arg U k, tripH.sl.r_36 i arg U k, tripH.sl.r_38 i arg U k]
/-- Table 2: the row words. -/
def rowW2 : Fin 8 → BitVec 32 :=
  ![tripH.sl.r_21 i arg U k, tripH.sl.r_23 i arg U k, tripH.sl.r_28 i arg U k, tripH.sl.r_30 i arg U k,
    tripH.sl.r_32 i arg U k, tripH.sl.r_35 i arg U k, tripH.sl.r_37 i arg U k, tripH.sl.r_39 i arg U k]
/-- Table 3: the column words. -/
def colW3 : Fin 8 → BitVec 32 :=
  ![tripH.sl.r_41 i arg U k, tripH.sl.r_43 i arg U k, tripH.sl.r_48 i arg U k, tripH.sl.r_50 i arg U k,
    tripH.sl.r_52 i arg U k, tripH.sl.r_55 i arg U k, tripH.sl.r_57 i arg U k, tripH.sl.r_59 i arg U k]
/-- Table 3: the row words. -/
def rowW3 : Fin 8 → BitVec 32 :=
  ![tripH.sl.r_42 i arg U k, tripH.sl.r_44 i arg U k, tripH.sl.r_49 i arg U k, tripH.sl.r_51 i arg U k,
    tripH.sl.r_53 i arg U k, tripH.sl.r_56 i arg U k, tripH.sl.r_58 i arg U k, tripH.sl.r_60 i arg U k]
/-- Table 4: the column words. -/
def colW4 : Fin 8 → BitVec 32 :=
  ![tripH.sl.r_62 i arg U k, tripH.sl.r_64 i arg U k, tripH.sl.r_69 i arg U k, tripH.sl.r_71 i arg U k,
    tripH.sl.r_73 i arg U k, tripH.sl.r_76 i arg U k, tripH.sl.r_78 i arg U k, tripH.sl.r_80 i arg U k]
/-- Table 4: the row words. -/
def rowW4 : Fin 8 → BitVec 32 :=
  ![tripH.sl.r_63 i arg U k, tripH.sl.r_65 i arg U k, tripH.sl.r_70 i arg U k, tripH.sl.r_72 i arg U k,
    tripH.sl.r_74 i arg U k, tripH.sl.r_77 i arg U k, tripH.sl.r_79 i arg U k, tripH.sl.r_81 i arg U k]

end Words

section WordsAt
variable (i : grid0.Coords) (arg : Memref sig .tc .smem S1024 .i32) (harg : arg.IsWhole) (T : Vec Ideal S1024 .i32)
  (k : Fin k0_t1_loop.trips)

theorem colW1_eq : ∀ s : Fin 8, colW1 i arg (harg.unread T) k s = wordAt i k T s 0
  | ⟨0, _⟩ => word_read i k arg harg T 0 0 0#32 0#32 rfl rfl _ _
  | ⟨1, _⟩ => word_read i k arg harg T 1 0 2#32 0#32 rfl rfl _ _
  | ⟨2, _⟩ => word_read i k arg harg T 2 0 4#32 0#32 rfl rfl _ _
  | ⟨3, _⟩ => word_read i k arg harg T 3 0 6#32 0#32 rfl rfl _ _
  | ⟨4, _⟩ => word_read i k arg harg T 4 0 8#32 0#32 rfl rfl _ _
  | ⟨5, _⟩ => word_read i k arg harg T 5 0 10#32 0#32 rfl rfl _ _
  | ⟨6, _⟩ => word_read i k arg harg T 6 0 12#32 0#32 rfl rfl _ _
  | ⟨7, _⟩ => word_read i k arg harg T 7 0 14#32 0#32 rfl rfl _ _

theorem rowW1_eq : ∀ s : Fin 8, rowW1 i arg (harg.unread T) k s = wordAt i k T s 1
  | ⟨0, _⟩ => word_read i k arg harg T 0 1 0#32 1#32 rfl rfl _ _
  | ⟨1, _⟩ => word_read i k arg harg T 1 1 2#32 1#32 rfl rfl _ _
  | ⟨2, _⟩ => word_read i k arg harg T 2 1 4#32 1#32 rfl rfl _ _
  | ⟨3, _⟩ => word_read i k arg harg T 3 1 6#32 1#32 rfl rfl _ _
  | ⟨4, _⟩ => word_read i k arg harg T 4 1 8#32 1#32 rfl rfl _ _
  | ⟨5, _⟩ => word_read i k arg harg T 5 1 10#32 1#32 rfl rfl _ _
  | ⟨6, _⟩ => word_read i k arg harg T 6 1 12#32 1#32 rfl rfl _ _
  | ⟨7, _⟩ => word_read i k arg harg T 7 1 14#32 1#32 rfl rfl _ _

theorem colW2_eq : ∀ s : Fin 8, colW2 i arg (harg.unread T) k s = wordAt i k T s 0
  | ⟨0, _⟩ => word_read i k arg harg T 0 0 0#32 0#32 rfl rfl _ _
  | ⟨1, _⟩ => word_read i k arg harg T 1 0 2#32 0#32 rfl rfl _ _
  | ⟨2, _⟩ => word_read i k arg harg T 2 0 4#32 0#32 rfl rfl _ _
  | ⟨3, _⟩ => word_read i k arg harg T 3 0 6#32 0#32 rfl rfl _ _
  | ⟨4, _⟩ => word_read i k arg harg T 4 0 8#32 0#32 rfl rfl _ _
  | ⟨5, _⟩ => word_read i k arg harg T 5 0 10#32 0#32 rfl rfl _ _
  | ⟨6, _⟩ => word_read i k arg harg T 6 0 12#32 0#32 rfl rfl _ _
  | ⟨7, _⟩ => word_read i k arg harg T 7 0 14#32 0#32 rfl rfl _ _

theorem rowW2_eq : ∀ s : Fin 8, rowW2 i arg (harg.unread T) k s = wordAt i k T s 1
  | ⟨0, _⟩ => word_read i k arg harg T 0 1 0#32 1#32 rfl rfl _ _
  | ⟨1, _⟩ => word_read i k arg harg T 1 1 2#32 1#32 rfl rfl _ _
  | ⟨2, _⟩ => word_read i k arg harg T 2 1 4#32 1#32 rfl rfl _ _
  | ⟨3, _⟩ => word_read i k arg harg T 3 1 6#32 1#32 rfl rfl _ _
  | ⟨4, _⟩ => word_read i k arg harg T 4 1 8#32 1#32 rfl rfl _ _
  | ⟨5, _⟩ => word_read i k arg harg T 5 1 10#32 1#32 rfl rfl _ _
  | ⟨6, _⟩ => word_read i k arg harg T 6 1 12#32 1#32 rfl rfl _ _
  | ⟨7, _⟩ => word_read i k arg harg T 7 1 14#32 1#32 rfl rfl _ _

theorem colW3_eq : ∀ s : Fin 8, colW3 i arg (harg.unread T) k s = wordAt i k T s 0
  | ⟨0, _⟩ => word_read i k arg harg T 0 0 0#32 0#32 rfl rfl _ _
  | ⟨1, _⟩ => word_read i k arg harg T 1 0 2#32 0#32 rfl rfl _ _
  | ⟨2, _⟩ => word_read i k arg harg T 2 0 4#32 0#32 rfl rfl _ _
  | ⟨3, _⟩ => word_read i k arg harg T 3 0 6#32 0#32 rfl rfl _ _
  | ⟨4, _⟩ => word_read i k arg harg T 4 0 8#32 0#32 rfl rfl _ _
  | ⟨5, _⟩ => word_read i k arg harg T 5 0 10#32 0#32 rfl rfl _ _
  | ⟨6, _⟩ => word_read i k arg harg T 6 0 12#32 0#32 rfl rfl _ _
  | ⟨7, _⟩ => word_read i k arg harg T 7 0 14#32 0#32 rfl rfl _ _

theorem rowW3_eq : ∀ s : Fin 8, rowW3 i arg (harg.unread T) k s = wordAt i k T s 1
  | ⟨0, _⟩ => word_read i k arg harg T 0 1 0#32 1#32 rfl rfl _ _
  | ⟨1, _⟩ => word_read i k arg harg T 1 1 2#32 1#32 rfl rfl _ _
  | ⟨2, _⟩ => word_read i k arg harg T 2 1 4#32 1#32 rfl rfl _ _
  | ⟨3, _⟩ => word_read i k arg harg T 3 1 6#32 1#32 rfl rfl _ _
  | ⟨4, _⟩ => word_read i k arg harg T 4 1 8#32 1#32 rfl rfl _ _
  | ⟨5, _⟩ => word_read i k arg harg T 5 1 10#32 1#32 rfl rfl _ _
  | ⟨6, _⟩ => word_read i k arg harg T 6 1 12#32 1#32 rfl rfl _ _
  | ⟨7, _⟩ => word_read i k arg harg T 7 1 14#32 1#32 rfl rfl _ _

theorem colW4_eq : ∀ s : Fin 8, colW4 i arg (harg.unread T) k s = wordAt i k T s 0
  | ⟨0, _⟩ => word_read i k arg harg T 0 0 0#32 0#32 rfl rfl _ _
  | ⟨1, _⟩ => word_read i k arg harg T 1 0 2#32 0#32 rfl rfl _ _
  | ⟨2, _⟩ => word_read i k arg harg T 2 0 4#32 0#32 rfl rfl _ _
  | ⟨3, _⟩ => word_read i k arg harg T 3 0 6#32 0#32 rfl rfl _ _
  | ⟨4, _⟩ => word_read i k arg harg T 4 0 8#32 0#32 rfl rfl _ _
  | ⟨5, _⟩ => word_read i k arg harg T 5 0 10#32 0#32 rfl rfl _ _
  | ⟨6, _⟩ => word_read i k arg harg T 6 0 12#32 0#32 rfl rfl _ _
  | ⟨7, _⟩ => word_read i k arg harg T 7 0 14#32 0#32 rfl rfl _ _

theorem rowW4_eq : ∀ s : Fin 8, rowW4 i arg (harg.unread T) k s = wordAt i k T s 1
  | ⟨0, _⟩ => word_read i k arg harg T 0 1 0#32 1#32 rfl rfl _ _
  | ⟨1, _⟩ => word_read i k arg harg T 1 1 2#32 1#32 rfl rfl _ _
  | ⟨2, _⟩ => word_read i k arg harg T 2 1 4#32 1#32 rfl rfl _ _
  | ⟨3, _⟩ => word_read i k arg harg T 3 1 6#32 1#32 rfl rfl _ _
  | ⟨4, _⟩ => word_read i k arg harg T 4 1 8#32 1#32 rfl rfl _ _
  | ⟨5, _⟩ => word_read i k arg harg T 5 1 10#32 1#32 rfl rfl _ _
  | ⟨6, _⟩ => word_read i k arg harg T 6 1 12#32 1#32 rfl rfl _ _
  | ⟨7, _⟩ => word_read i k arg harg T 7 1 14#32 1#32 rfl rfl _ _

end WordsAt

/-! ## The four maps in turn -/

section Stages
variable (i : grid0.Coords) (k : Fin k0_t1_loop.trips)
  (arg1 arg2 arg3 arg4 : Memref sig .tc .smem S1024 .i32)
  (harg1 : arg1.IsWhole) (harg2 : arg2.IsWhole) (harg3 : arg3.IsWhole) (harg4 : arg4.IsWhole)
  (arg5 : Memref sig .tc .vmem S8x26x128x128 .f32) (harg5 : arg5.IsWhole)
  (arg6 : Memref sig .tc .vmem S8x26x64x64 .f32) (harg6 : arg6.IsWhole)
  (arg7 : Memref sig .tc .vmem S8x26x32x32 .f32) (harg7 : arg7.IsWhole)
  (T1 T2 T3 T4 : Vec Ideal S1024 .i32)
  (x5 : Vec Ideal S8x26x128x128 .f32) (x6 : Vec Ideal S8x26x64x64 .f32) (x7 : Vec Ideal S8x26x32x32 .f32)
  (hT1 : ∀ j, (T1 j).toNat < 128) (hT2 : ∀ j, (T2 j).toNat < 64) (hT3 : ∀ j, (T3 j).toNat < 32)
  (h5 : ∀ j, ∃ t : ℝ, x5 j = (t : EReal)) (h6 : ∀ j, ∃ t : ℝ, x6 j = (t : EReal)) (h7 : ∀ j, ∃ t : ℝ, x7 j = (t : EReal))

include h5 in
/-- After the map of side 128: its mean. -/
theorem stage128 (c : Fin 26) :
    tripH.sl.r_24 (F := Ideal) i arg1 arg5 (harg1.unread T1) (harg5.unread x5) k (ix1 c) = poolB 128 x5 T1 hT1 i k c := by
  have hX := colW1_eq i arg1 harg1 T1 k
  have hY := rowW1_eq i arg1 harg1 T1 k
  have hx : ∀ s, (colW1 i arg1 (harg1.unread T1) k s).toNat < 128 := fun s => by rw [hX s]; exact hT1 _
  have hy : ∀ s, (rowW1 i arg1 (harg1.unread T1) k s).toNat < 128 := fun s => by rw [hY s]; exact hT1 _
  refine (PayPool128.pool128_apply (k0_pay3 (F := Ideal))
    (View.readAt (Elt Ideal) arg5.view (Rect.unit (s := S8x26x128x128) (k0_off1 k) S1x26x128x128.size (k0_off1_inb k)).toLoadRect
      (harg5.unread x5))
    tripH.sl.v30 tripH.sl.v31 PayPool128.iotaH_apply PayPool128.iotaW_apply _ _ hx hy
    (fun j => real_read arg5 harg5 x5 h5 (Rect.unit (s := S8x26x128x128) (k0_off1 k) S1x26x128x128.size (k0_off1_inb k)) j) c).trans ?_
  rw [show k0_pay3 (F := Ideal) (ix1 c) = 0 from Ideal.ofBits_zero_f32, zero_add]
  exact poolB_of_reads arg5 harg5 x5 T1 hT1 i k (k0_off1 k) (k0_off1_eq k) (k0_off1_inb k) _ _ hX hY hx hy c

include h5 h6 in
/-- After the map of side 64: the two means added. -/
theorem stage64 (c : Fin 26) :
    tripH.sl.r_45 (F := Ideal) i arg1 arg2 arg5 arg6 (harg1.unread T1) (harg2.unread T2) (harg5.unread x5) (harg6.unread x6) k (ix1 c)
      = poolB 128 x5 T1 hT1 i k c + poolB 64 x6 T2 hT2 i k c := by
  have hX := colW2_eq i arg2 harg2 T2 k
  have hY := rowW2_eq i arg2 harg2 T2 k
  have hx : ∀ s, (colW2 i arg2 (harg2.unread T2) k s).toNat < 64 := fun s => by rw [hX s]; exact hT2 _
  have hy : ∀ s, (rowW2 i arg2 (harg2.unread T2) k s).toNat < 64 := fun s => by rw [hY s]; exact hT2 _
  refine (PayPool64.pool64_apply (tripH.sl.r_24 (F := Ideal) i arg1 arg5 (harg1.unread T1) (harg5.unread x5) k)
    (View.readAt (Elt Ideal) arg6.view (Rect.unit (s := S8x26x64x64) (k0_off3 k) S1x26x64x64.size (k0_off3_inb k)).toLoadRect
      (harg6.unread x6))
    tripH.sl.v172 tripH.sl.v173 PayPool64.iotaH_apply PayPool64.iotaW_apply _ _ hx hy
    (fun j => real_read arg6 harg6 x6 h6 (Rect.unit (s := S8x26x64x64) (k0_off3 k) S1x26x64x64.size (k0_off3_inb k)) j) c).trans ?_
  rw [stage128 i k arg1 harg1 arg5 harg5 T1 x5 hT1 h5 c]
  refine congrArg (poolB 128 x5 T1 hT1 i k c + ·) ?_
  exact poolB_of_reads arg6 harg6 x6 T2 hT2 i k (k0_off3 k) (k0_off3_eq k) (k0_off3_inb k) _ _ hX hY hx hy c

include h5 h6 h7 in
/-- After the map of side 32: the three means added. -/
theorem stage32 (c : Fin 26) :
    tripH.sl.r_66 (F := Ideal) i arg1 arg2 arg3 arg5 arg6 arg7 (harg1.unread T1) (harg2.unread T2) (harg3.unread T3)
        (harg5.unread x5) (harg6.unread x6) (harg7.unread x7) k (ix1 c)
      = poolB 128 x5 T1 hT1 i k c + poolB 64 x6 T2 hT2 i k c + poolB 32 x7 T3 hT3 i k c := by
  have hX := colW3_eq i arg3 harg3 T3 k
  have hY := rowW3_eq i arg3 harg3 T3 k
  have hx : ∀ s, (colW3 i arg3 (harg3.unread T3) k s).toNat < 32 := fun s => by rw [hX s]; exact hT3 _
  have hy : ∀ s, (rowW3 i arg3 (harg3.unread T3) k s).toNat < 32 := fun s => by rw [hY s]; exact hT3 _
  refine (PayPool32.pool32_apply
    (tripH.sl.r_45 (F := Ideal) i arg1 arg2 arg5 arg6 (harg1.unread T1) (harg2.unread T2) (harg5.unread x5) (harg6.unread x6) k)
    (View.readAt (Elt Ideal) arg7.view (Rect.unit (s := S8x26x32x32) (k0_off4 k) S1x26x32x32.size (k0_off4_inb k)).toLoadRect
      (harg7.unread x7))
    tripH.sl.v314 tripH.sl.v315 PayPool32.iotaH_apply PayPool32.iotaW_apply _ _ hx hy
    (fun j => real_read arg7 harg7 x7 h7 (Rect.unit (s := S8x26x32x32) (k0_off4 k) S1x26x32x32.size (k0_off4_inb k)) j) c).trans ?_
  rw [stage64 i k arg1 arg2 harg1 harg2 arg5 harg5 arg6 harg6 T1 T2 x5 x6 hT1 hT2 h5 h6 c]
  refine congrArg (poolB 128 x5 T1 hT1 i k c + poolB 64 x6 T2 hT2 i k c + ·) ?_
  exact poolB_of_reads arg7 harg7 x7 T3 hT3 i k (k0_off4 k) (k0_off4_eq k) (k0_off4_inb k) _ _ hX hY hx hy c

end Stages

/-- The row trip `k` stores, lane by lane. -/
theorem row_apply (i : grid0.Coords) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (arg0 : BitVec 32) (T1 T2 T3 T4 : Vec Ideal S1024 .i32) (x5 : Vec Ideal S8x26x128x128 .f32) (x6 : Vec Ideal S8x26x64x64 .f32) (x7 : Vec Ideal S8x26x32x32 .f32) (x8 : Vec Ideal S8x26x16x16 .f32) (x9 x10 : Vec Ideal S8x1x26 .f32)
    (hT1 : ∀ j, (T1 j).toNat < 128) (hT2 : ∀ j, (T2 j).toNat < 64) (hT3 : ∀ j, (T3 j).toNat < 32) (hT4 : ∀ j, (T4 j).toNat < 16)
    (h5 : ∀ j, ∃ t : ℝ, x5 j = (t : EReal)) (h6 : ∀ j, ∃ t : ℝ, x6 j = (t : EReal)) (h7 : ∀ j, ∃ t : ℝ, x7 j = (t : EReal)) (h8 : ∀ j, ∃ t : ℝ, x8 j = (t : EReal))
    (k : Fin k0_t1_loop.trips) (n : Fin 128) :
    rowPay (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 (Memref.IsWhole.unread harg1 T1) (Memref.IsWhole.unread harg2 T2) (Memref.IsWhole.unread harg3 T3) (Memref.IsWhole.unread harg4 T4) (Memref.IsWhole.unread harg5 x5) (Memref.IsWhole.unread harg6 x6) (Memref.IsWhole.unread harg7 x7) (Memref.IsWhole.unread harg8 x8) (Memref.IsWhole.unread harg9 x9) (Memref.IsWhole.unread harg10 x10) k (ix2 (0 : Fin 1) n)
      = if h : n.val < 26 then
          (poolB 128 x5 T1 hT1 i k ⟨n.val, h⟩ + poolB 64 x6 T2 hT2 i k ⟨n.val, h⟩ + poolB 32 x7 T3 hT3 i k ⟨n.val, h⟩
            + poolB 16 x8 T4 hT4 i k ⟨n.val, h⟩) * ((1 / 4 : ℝ) : EReal)
        else if h2 : n.val < 52 then x9 (ix3 (slab k) (0 : Fin 1) ⟨n.val - 26, by omega⟩)
        else if h3 : n.val < 78 then x10 (ix3 (slab k) (0 : Fin 1) ⟨n.val - 52, by omega⟩)
        else 0 := by
  have hX := colW4_eq i arg4 harg4 T4 k
  have hY := rowW4_eq i arg4 harg4 T4 k
  have hx : ∀ s, (colW4 i arg4 (harg4.unread T4) k s).toNat < 16 := fun s => by rw [hX s]; exact hT4 _
  have hy : ∀ s, (rowW4 i arg4 (harg4.unread T4) k s).toNat < 16 := fun s => by rw [hY s]; exact hT4 _
  unfold rowPay
  refine (PayPool16.row16_apply
    (tripH.sl.r_66 (F := Ideal) i arg1 arg2 arg3 arg5 arg6 arg7 (harg1.unread T1) (harg2.unread T2) (harg3.unread T3)
      (harg5.unread x5) (harg6.unread x6) (harg7.unread x7) k)
    (View.readAt (Elt Ideal) arg8.view (Rect.unit (s := S8x26x16x16) (k0_off5 k) S1x26x16x16.size (k0_off5_inb k)).toLoadRect
      (harg8.unread x8))
    tripH.sl.v456 tripH.sl.v457 PayPool16.iotaH_apply PayPool16.iotaW_apply _ _ hx hy
    (fun j => real_read arg8 harg8 x8 h8 (Rect.unit (s := S8x26x16x16) (k0_off5 k) S1x26x16x16.size (k0_off5_inb k)) j)
    (tripH.sl.cst_161 (F := Ideal)) LibMaskPool.ofBits_eighth
    (View.readAt (Elt Ideal) arg9.view (Rect.unit (s := S8x1x26) (k0_off6 k) S1x1x26.size (k0_off6_inb k)).toLoadRect
      (harg9.unread x9))
    (View.readAt (Elt Ideal) arg10.view (Rect.unit (s := S8x1x26) (k0_off6 k) S1x1x26.size (k0_off6_inb k)).toLoadRect
      (harg10.unread x10))
    n).trans ?_
  by_cases h : n.val < 26
  · rw [dif_pos h, dif_pos h]
    refine congrArg (· * ((1 / 4 : ℝ) : EReal)) ?_
    rw [stage32 i k arg1 arg2 arg3 harg1 harg2 harg3 arg5 harg5 arg6 harg6 arg7 harg7 T1 T2 T3 x5 x6 x7 hT1 hT2 hT3 h5 h6 h7
      ⟨n.val, h⟩]
    refine congrArg
      (poolB 128 x5 T1 hT1 i k ⟨n.val, h⟩ + poolB 64 x6 T2 hT2 i k ⟨n.val, h⟩ + poolB 32 x7 T3 hT3 i k ⟨n.val, h⟩ + ·) ?_
    exact poolB_of_reads arg8 harg8 x8 T4 hT4 i k (k0_off5 k) (k0_off5_eq k) (k0_off5_inb k) _ _ hX hY hx hy ⟨n.val, h⟩
  · rw [dif_neg h, dif_neg h]
    by_cases h2 : n.val < 52
    · rw [dif_pos h2, dif_pos h2]
      exact vec_read arg9 harg9 x9 k _
    · rw [dif_neg h2, dif_neg h2]
      by_cases h3 : n.val < 78
      · rw [dif_pos h3, dif_pos h3]
        exact vec_read arg10 harg10 x10 k _
      · rw [dif_neg h3, dif_neg h3]

/-! ## The output block at a point is the specification on the block's batch rows -/

/-! ## From one grid point's blocks to the launch arrays -/

/-- A table's word is below the side when the launch table's words are: every flat index is `16·b + 2·s + e`. -/
theorem table_lt (r : Nat) (T : Vec Ideal S1024 .i32) (cen : Cert.Spec.Tab)
    (hT : ∀ (b : Fin 64) (s : Fin 8) (e : Fin 2) (hlt : 16 * b.val + 2 * s.val + e.val < 1024),
      T (ix1 ⟨16 * b.val + 2 * s.val + e.val, hlt⟩) = cen (ix3 b s e))
    (hr : ∀ j, (cen j).toNat < r) (j : S1024.Idx) : (T j).toNat < r := by
  have hj : (j 0).val < 1024 := (j 0).isLt
  have h1 := hT ⟨(j 0).val / 16, by omega⟩ ⟨(j 0).val % 16 / 2, by omega⟩ ⟨(j 0).val % 2, by omega⟩
    (by show 16 * ((j 0).val / 16) + 2 * ((j 0).val % 16 / 2) + (j 0).val % 2 < 1024; omega)
  have e : j = ix1 ⟨16 * ((j 0).val / 16) + 2 * ((j 0).val % 16 / 2) + (j 0).val % 2, by omega⟩ := by
    funext d
    match d with
    | ⟨0, _⟩ =>
      exact Fin.ext (by show (j 0).val = 16 * ((j 0).val / 16) + 2 * ((j 0).val % 16 / 2) + (j 0).val % 2; omega)
  rw [e]
  exact lt_of_eq_of_lt (congrArg BitVec.toNat h1) (hr _)

/-- A staged block's entries are real when the launch array's are. -/
theorem real_of_block {r : Nat} (x : (⟨4, ![8, 26, r, r]⟩ : Shape).Idx → EReal) (a : (⟨4, ![64, 26, r, r]⟩ : Shape).Idx → EReal)
    (tt : Fin 8)
    (hx : ∀ (kk : Fin 8) (ch : Fin 26) (h w : Fin r) (hlt : 8 * tt.val + kk.val < 64),
      x (ix4 kk ch h w) = a (ix4 ⟨8 * tt.val + kk.val, hlt⟩ ch h w))
    (ha : ∀ j, ∃ t : ℝ, a j = (t : EReal)) (j : (⟨4, ![8, 26, r, r]⟩ : Shape).Idx) : ∃ t : ℝ, x j = (t : EReal) := by
  have hlt : 8 * tt.val + (j 0).val < 64 := by have := tt.isLt; have : (j 0).val < 8 := (j 0).isLt; omega
  obtain ⟨t, ht⟩ := ha (ix4 ⟨8 * tt.val + (j 0).val, hlt⟩ (j 1) (j 2) (j 3))
  exact ⟨t, (congrArg x (eq_ix4 j)).trans ((hx (j 0) (j 1) (j 2) (j 3) hlt).trans ht)⟩

/-- The trip's mean over a staged block is the specification's mean over the launch array, at the trip's batch row. -/
theorem poolB_eq_pool (r : Nat) [NeZero r] (x : (⟨4, ![8, 26, r, r]⟩ : Shape).Idx → EReal)
    (a : (⟨4, ![64, 26, r, r]⟩ : Shape).Idx → EReal) (T : Vec Ideal S1024 .i32) (cen : Cert.Spec.Tab)
    (hTr : ∀ j, (T j).toNat < r) (i : grid0.Coords) (tt : Fin 8) (hi : (i 0).val = tt.val)
    (k : Fin k0_t1_loop.trips) (B : Fin 64) (hB : B.val = 8 * tt.val + k.val)
    (hx : ∀ (kk : Fin 8) (ch : Fin 26) (h w : Fin r) (hlt : 8 * tt.val + kk.val < 64),
      x (ix4 kk ch h w) = a (ix4 ⟨8 * tt.val + kk.val, hlt⟩ ch h w))
    (hT : ∀ (b : Fin 64) (s : Fin 8) (e : Fin 2) (hlt : 16 * b.val + 2 * s.val + e.val < 1024),
      T (ix1 ⟨16 * b.val + 2 * s.val + e.val, hlt⟩) = cen (ix3 b s e))
    (c : Fin 26) :
    poolB r x T hTr i k c = Cert.Spec.pool r a cen B c := by
  have hw : ∀ (s : Fin 8) (e : Fin 2), wordAt i k T s e = cen (ix3 B s e) := fun s e => by
    unfold wordAt
    refine (congrArg T (congrArg ix1 (Fin.ext ?_))).trans
      (hT B s e (by have := B.isLt; have := s.isLt; have := e.isLt; omega))
    show 128 * (i 0).val + 16 * k.val + 2 * s.val + e.val = 16 * B.val + 2 * s.val + e.val
    rw [hi, hB]; omega
  have hc : ∀ (s : Fin 8) (e : Fin 2) (hlt : (wordAt i k T s e).toNat < r),
      (⟨(wordAt i k T s e).toNat, hlt⟩ : Fin r) = Cert.Spec.coord r (cen (ix3 B s e)) := fun s e hlt =>
    Fin.ext (by
      show (wordAt i k T s e).toNat = (Cert.Spec.coord r (cen (ix3 B s e))).val
      rw [Cert.Spec.coord_val_of_lt r _ (by rw [← hw s e]; exact hlt), hw s e])
  have hlt0 : 8 * tt.val + (slab k).val < 64 := by
    have := B.isLt; show 8 * tt.val + k.val < 64; omega
  unfold poolB Cert.Spec.pool
  refine congrArg (· * ((1 / 8 : ℝ) : EReal)) (Finset.sum_congr rfl fun s _ => ?_)
  refine (hx (slab k) c _ _ hlt0).trans ?_
  refine congrArg a (funext fun d => ?_)
  match d with
  | ⟨0, _⟩ => exact Fin.ext hB.symm
  | ⟨1, _⟩ => rfl
  | ⟨2, _⟩ => exact hc s 1 _
  | ⟨3, _⟩ => exact hc s 0 _

/-- Row `p` of the scratch, in its first 78 lanes, is the specification's row of features of batch row `8·tt + p`. -/
theorem feat_eq (i : grid0.Coords) (tt : Fin 8) (hi : (i 0).val = tt.val) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (T1 T2 T3 T4 : Vec Ideal S1024 .i32) (x5 : Vec Ideal S8x26x128x128 .f32) (x6 : Vec Ideal S8x26x64x64 .f32) (x7 : Vec Ideal S8x26x32x32 .f32) (x8 : Vec Ideal S8x26x16x16 .f32) (x9 x10 : Vec Ideal S8x1x26 .f32)
    (x11 : Vec Ideal S78x39 .f32) (x12 : Vec Ideal S39 .f32) (x13 : Vec Ideal S39x26 .f32) (x14 : Vec Ideal S26 .f32)
    (a0 : FVec Ideal S64x26x128x128 .f32) (a1 : FVec Ideal S64x26x64x64 .f32) (a2 : FVec Ideal S64x26x32x32 .f32) (a3 : FVec Ideal S64x26x16x16 .f32) (a4 a5 : FVec Ideal S64x26 .f32) (a6 a7 a8 a9 : IVec S64x8x2 32) (a10 : FVec Ideal S78x39 .f32) (a11 : FVec Ideal S39 .f32) (a12 : FVec Ideal S39x26 .f32) (a13 : FVec Ideal S26 .f32)
    (hx5 : ∀ (k : Fin 8) (ch : Fin 26) (h w : Fin 128), x5 (ix4 k ch h w) = a0 (ix4 ⟨8 * tt.val + k.val, by omega⟩ ch h w))
    (hx6 : ∀ (k : Fin 8) (ch : Fin 26) (h w : Fin 64), x6 (ix4 k ch h w) = a1 (ix4 ⟨8 * tt.val + k.val, by omega⟩ ch h w))
    (hx7 : ∀ (k : Fin 8) (ch : Fin 26) (h w : Fin 32), x7 (ix4 k ch h w) = a2 (ix4 ⟨8 * tt.val + k.val, by omega⟩ ch h w))
    (hx8 : ∀ (k : Fin 8) (ch : Fin 26) (h w : Fin 16), x8 (ix4 k ch h w) = a3 (ix4 ⟨8 * tt.val + k.val, by omega⟩ ch h w))
    (hx9 : ∀ (k : Fin 8) (j : Fin 26), x9 (ix3 k (0 : Fin 1) j) = a4 (ix2 ⟨8 * tt.val + k.val, by omega⟩ j))
    (hx10 : ∀ (k : Fin 8) (j : Fin 26), x10 (ix3 k (0 : Fin 1) j) = a5 (ix2 ⟨8 * tt.val + k.val, by omega⟩ j))
    (hx11 : x11 = a10) (hx12 : x12 = a11) (hx13 : x13 = a12) (hx14 : x14 = a13)
    (hT1 : ∀ (b : Fin 64) (s : Fin 8) (e : Fin 2), T1 (ix1 ⟨16 * b.val + 2 * s.val + e.val, by omega⟩) = a6 (ix3 b s e))
    (hT2 : ∀ (b : Fin 64) (s : Fin 8) (e : Fin 2), T2 (ix1 ⟨16 * b.val + 2 * s.val + e.val, by omega⟩) = a7 (ix3 b s e))
    (hT3 : ∀ (b : Fin 64) (s : Fin 8) (e : Fin 2), T3 (ix1 ⟨16 * b.val + 2 * s.val + e.val, by omega⟩) = a8 (ix3 b s e))
    (hT4 : ∀ (b : Fin 64) (s : Fin 8) (e : Fin 2), T4 (ix1 ⟨16 * b.val + 2 * s.val + e.val, by omega⟩) = a9 (ix3 b s e))
    (hd : Cert.Spec.Dom a0 a1 a2 a3 a4 a5 a6 a7 a8 a9 a10 a11 a12 a13) (p : Fin 8) (j : Fin 78) :
    scrX (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 T1 T2 T3 T4 x5 x6 x7 x8 x9 x10 (ix2 p ⟨j.val, by have := j.isLt; omega⟩)
      = Cert.Spec.feat a0 a1 a2 a3 a4 a5 a6 a7 a8 a9 ⟨8 * tt.val + p.val, by omega⟩ j := by
  have hT1' := table_lt 128 T1 a6 (fun b s e _ => hT1 b s e) hd.r6
  have hT2' := table_lt 64 T2 a7 (fun b s e _ => hT2 b s e) hd.r7
  have hT3' := table_lt 32 T3 a8 (fun b s e _ => hT3 b s e) hd.r8
  have hT4' := table_lt 16 T4 a9 (fun b s e _ => hT4 b s e) hd.r9
  have h5' := real_of_block x5 a0 tt (fun kk ch h w _ => hx5 kk ch h w) hd.f0
  have h6' := real_of_block x6 a1 tt (fun kk ch h w _ => hx6 kk ch h w) hd.f1
  have h7' := real_of_block x7 a2 tt (fun kk ch h w _ => hx7 kk ch h w) hd.f2
  have h8' := real_of_block x8 a3 tt (fun kk ch h w _ => hx8 kk ch h w) hd.f3
  have hk : p.val < k0_t1_loop.trips := by rw [trips_eq]; exact p.isLt
  have hB : 8 * tt.val + p.val < 64 := by omega
  unfold scrX scrG
  refine (row_apply i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) T1 T2 T3 T4 x5 x6 x7 x8 x9 x10
    hT1' hT2' hT3' hT4' h5' h6' h7' h8' ⟨p.val, hk⟩ ⟨j.val, by have := j.isLt; omega⟩).trans ?_
  unfold Cert.Spec.feat
  by_cases h : j.val < 26
  · rw [dif_pos h, dif_pos h]
    unfold Cert.Spec.bu
    refine congrArg (· * ((1 / 4 : ℝ) : EReal)) ?_
    refine congrArg₂ (· + ·) (congrArg₂ (· + ·) (congrArg₂ (· + ·) ?_ ?_) ?_) ?_
    · exact poolB_eq_pool 128 x5 a0 T1 a6 hT1' i tt hi ⟨p.val, hk⟩ ⟨8 * tt.val + p.val, hB⟩ rfl
        (fun kk ch h w _ => hx5 kk ch h w) (fun b s e _ => hT1 b s e) ⟨j.val, h⟩
    · exact poolB_eq_pool 64 x6 a1 T2 a7 hT2' i tt hi ⟨p.val, hk⟩ ⟨8 * tt.val + p.val, hB⟩ rfl
        (fun kk ch h w _ => hx6 kk ch h w) (fun b s e _ => hT2 b s e) ⟨j.val, h⟩
    · exact poolB_eq_pool 32 x7 a2 T3 a8 hT3' i tt hi ⟨p.val, hk⟩ ⟨8 * tt.val + p.val, hB⟩ rfl
        (fun kk ch h w _ => hx7 kk ch h w) (fun b s e _ => hT3 b s e) ⟨j.val, h⟩
    · exact poolB_eq_pool 16 x8 a3 T4 a9 hT4' i tt hi ⟨p.val, hk⟩ ⟨8 * tt.val + p.val, hB⟩ rfl
        (fun kk ch h w _ => hx8 kk ch h w) (fun b s e _ => hT4 b s e) ⟨j.val, h⟩
  · rw [dif_neg h, dif_neg h]
    by_cases h2 : j.val < 52
    · rw [dif_pos h2, dif_pos h2]
      exact hx9 p ⟨j.val - 26, by omega⟩
    · rw [dif_neg h2, dif_neg h2]
      have h3 : j.val < 78 := j.isLt
      rw [dif_pos h3]
      exact hx10 p ⟨j.val - 52, by omega⟩

/-- The output block the body leaves at grid point `i` (batch rows `8·tt … 8·tt + 7`), lane by lane: the specification's
    result in the first 26 lanes, zero in the rest — given what the staged blocks and the tables read of the launch
    arrays, on the domain. -/
theorem point_value (i : grid0.Coords) (tt : Fin 8) (hi : (i 0).val = tt.val) (arg1 : Memref sig .tc .smem S1024 .i32) (harg1 : arg1.IsWhole) (arg2 : Memref sig .tc .smem S1024 .i32) (harg2 : arg2.IsWhole) (arg3 : Memref sig .tc .smem S1024 .i32) (harg3 : arg3.IsWhole) (arg4 : Memref sig .tc .smem S1024 .i32) (harg4 : arg4.IsWhole) (arg5 : Memref sig .tc .vmem S8x26x128x128 .f32) (harg5 : arg5.IsWhole) (arg6 : Memref sig .tc .vmem S8x26x64x64 .f32) (harg6 : arg6.IsWhole) (arg7 : Memref sig .tc .vmem S8x26x32x32 .f32) (harg7 : arg7.IsWhole) (arg8 : Memref sig .tc .vmem S8x26x16x16 .f32) (harg8 : arg8.IsWhole) (arg9 : Memref sig .tc .vmem S8x1x26 .f32) (harg9 : arg9.IsWhole) (arg10 : Memref sig .tc .vmem S8x1x26 .f32) (harg10 : arg10.IsWhole) (arg11 : Memref sig .tc .vmem S78x39 .f32) (harg11 : arg11.IsWhole) (arg12 : Memref sig .tc .vmem S39 .f32) (harg12 : arg12.IsWhole) (arg13 : Memref sig .tc .vmem S39x26 .f32) (harg13 : arg13.IsWhole) (arg14 : Memref sig .tc .vmem S26 .f32) (harg14 : arg14.IsWhole) (arg15 : Memref sig .tc .vmem S8x128 .f32) (harg15 : arg15.IsWhole) (arg16 : Memref sig .tc .vmem S8x128 .f32) (harg16 : arg16.IsWhole) (T1 T2 T3 T4 : Vec Ideal S1024 .i32) (x5 : Vec Ideal S8x26x128x128 .f32) (x6 : Vec Ideal S8x26x64x64 .f32) (x7 : Vec Ideal S8x26x32x32 .f32) (x8 : Vec Ideal S8x26x16x16 .f32) (x9 x10 : Vec Ideal S8x1x26 .f32)
    (x11 : Vec Ideal S78x39 .f32) (x12 : Vec Ideal S39 .f32) (x13 : Vec Ideal S39x26 .f32) (x14 : Vec Ideal S26 .f32)
    (a0 : FVec Ideal S64x26x128x128 .f32) (a1 : FVec Ideal S64x26x64x64 .f32) (a2 : FVec Ideal S64x26x32x32 .f32) (a3 : FVec Ideal S64x26x16x16 .f32) (a4 a5 : FVec Ideal S64x26 .f32) (a6 a7 a8 a9 : IVec S64x8x2 32) (a10 : FVec Ideal S78x39 .f32) (a11 : FVec Ideal S39 .f32) (a12 : FVec Ideal S39x26 .f32) (a13 : FVec Ideal S26 .f32)
    (hx5 : ∀ (k : Fin 8) (ch : Fin 26) (h w : Fin 128), x5 (ix4 k ch h w) = a0 (ix4 ⟨8 * tt.val + k.val, by omega⟩ ch h w))
    (hx6 : ∀ (k : Fin 8) (ch : Fin 26) (h w : Fin 64), x6 (ix4 k ch h w) = a1 (ix4 ⟨8 * tt.val + k.val, by omega⟩ ch h w))
    (hx7 : ∀ (k : Fin 8) (ch : Fin 26) (h w : Fin 32), x7 (ix4 k ch h w) = a2 (ix4 ⟨8 * tt.val + k.val, by omega⟩ ch h w))
    (hx8 : ∀ (k : Fin 8) (ch : Fin 26) (h w : Fin 16), x8 (ix4 k ch h w) = a3 (ix4 ⟨8 * tt.val + k.val, by omega⟩ ch h w))
    (hx9 : ∀ (k : Fin 8) (j : Fin 26), x9 (ix3 k (0 : Fin 1) j) = a4 (ix2 ⟨8 * tt.val + k.val, by omega⟩ j))
    (hx10 : ∀ (k : Fin 8) (j : Fin 26), x10 (ix3 k (0 : Fin 1) j) = a5 (ix2 ⟨8 * tt.val + k.val, by omega⟩ j))
    (hx11 : x11 = a10) (hx12 : x12 = a11) (hx13 : x13 = a12) (hx14 : x14 = a13)
    (hT1 : ∀ (b : Fin 64) (s : Fin 8) (e : Fin 2), T1 (ix1 ⟨16 * b.val + 2 * s.val + e.val, by omega⟩) = a6 (ix3 b s e))
    (hT2 : ∀ (b : Fin 64) (s : Fin 8) (e : Fin 2), T2 (ix1 ⟨16 * b.val + 2 * s.val + e.val, by omega⟩) = a7 (ix3 b s e))
    (hT3 : ∀ (b : Fin 64) (s : Fin 8) (e : Fin 2), T3 (ix1 ⟨16 * b.val + 2 * s.val + e.val, by omega⟩) = a8 (ix3 b s e))
    (hT4 : ∀ (b : Fin 64) (s : Fin 8) (e : Fin 2), T4 (ix1 ⟨16 * b.val + 2 * s.val + e.val, by omega⟩) = a9 (ix3 b s e))
    (hd : Cert.Spec.Dom a0 a1 a2 a3 a4 a5 a6 a7 a8 a9 a10 a11 a12 a13) (p : Fin 8) (n : Fin 128) :
    outBlk (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 T1 T2 T3 T4 x5 x6 x7 x8 x9 x10 x11 x12 x13 x14 (ix2 p n)
      = if h : n.val < 26 then Cert.Spec.out a0 a1 a2 a3 a4 a5 a6 a7 a8 a9 a10 a11 a12 a13 (ix2 ⟨8 * tt.val + p.val, by omega⟩ ⟨n.val, h⟩)
        else 0 := by
  have hz2 : (![0, 0] : Fin 2 → Nat) = fun _ => 0 := funext fun a => match a with | ⟨0, _⟩ => rfl | ⟨1, _⟩ => rfl
  have hz1 : (![0] : Fin 1 → Nat) = fun _ => 0 := funext fun a => match a with | ⟨0, _⟩ => rfl
  unfold outBlk
  rw [View.canon_unit_zero hz2]
  simp only [View.ld_unit_zero (S := S78x39) hz2, View.ld_unit_zero (S := S39x26) hz2, View.ld_unit_zero (S := S39) hz1,
    View.ld_unit_zero (S := S26) hz1, View.ld_unit_zero (S := S8x128) hz2]
  refine (Cert.PayMlp.mlp_apply x11 x13 x12 x14 _ p n).trans ?_
  by_cases h : n.val < 26
  · rw [dif_pos h, dif_pos h, hx11, hx12, hx13, hx14]
    unfold Cert.Spec.out Cert.Spec.hid
    refine congrArg₂ (· + ·) (Finset.sum_congr rfl fun kk _ => congrArg₂ (· * ·) (congrArg (max · 0)
      (congrArg (· + a11 (ix1 kk)) (Finset.sum_congr rfl fun j _ => congrArg (· * a10 (ix2 j kk)) ?_))) rfl) rfl
    exact feat_eq i tt hi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 T1 T2 T3 T4 x5 x6 x7 x8 x9 x10 x11 x12 x13 x14
      a0 a1 a2 a3 a4 a5 a6 a7 a8 a9 a10 a11 a12 a13 hx5 hx6 hx7 hx8 hx9 hx10 hx11 hx12 hx13 hx14 hT1 hT2 hT3 hT4 hd p j
  · rw [dif_neg h, dif_neg h]

end Cert.KRow

end
-- ==== Proof.KValue.lean ====
/-
  What the idealized kernel's result array holds after the run: the specification's `out` of the launch arrays, on the
  domain.

  The region's output array is [64, 128]: block `t` of eight rows is what the body left at point `t`, and that is, lane by
  lane, the specification's result on batch rows `8·t … 8·t + 7` in the first 26 lanes and zero in the rest.  The eight blocks
  tile the array, so after the run it holds that function; the slice after the region keeps the first 26 lanes.
-/
import proofs.«414461_j46188078301471_3_alg».proof.Proof.KFrame
import proofs.«414461_j46188078301471_3_alg».proof.Proof.KBlocks
import proofs.«414461_j46188078301471_3_alg».proof.Proof.KRow
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)

/-- The specification at core `c`'s launch arrays. -/
abbrev specOut (c : Dev nD) : S64x26.Idx → EReal :=
  Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The domain at core `c`'s launch arrays. -/
abbrev DomAt (c : Dev nD) : Prop :=
  Cert.Spec.Dom (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- What the region's output array ends holding: the specification in the first 26 lanes of each row, zero in the rest. -/
def Gout (c : Dev nD) : S64x128.Idx → EReal := fun j =>
  if h : (j 1).val < 26 then specOut m c (ix2 (j 0) ⟨(j 1).val, h⟩) else 0

/-- Grid point `t` has coordinate `t`. -/
theorem coords_val (t : Fin (cfg0 (adm (F := Ideal) m 0)).N) : ((grid0.coords t) 0).val = t.val := by
  obtain rfl | rfl | rfl | rfl | rfl | rfl | rfl | rfl := fin_N0 t <;> rfl

/-- WHAT POINT `t` WRITES BACK is block `t` of `Gout`: the body's output block is the specification on the block's batch
    rows (the per-point value, fed with what the staged blocks and the tables read of the launch arrays). -/
theorem flushed10_eq (c : Dev nD) (hd : DomAt m c) (t : Fin (cfg0 (adm (F := Ideal) m 0)).N) :
    (dats m 0 c).flushed 10 t = (((cfg0 (adm (F := Ideal) m 0)).win 10).blk t).view.read (Elt Ideal) (Gout m c) := by
  obtain rfl : c = 0 := Subsingleton.elim _ _
  show ((cfg0 (adm (F := Ideal) m 0)).win 10).cut ((cfg0 (adm (F := Ideal) m 0)).grid.coords t) ((dats m 0 0).after 10 t) = _
  rw [after_10]
  refine funext fun (y : S8x128.Idx) => ?_
  obtain ⟨p, n, rfl⟩ : ∃ (p : Fin 8) (n : Fin 128), y = ix2 p n := ⟨y 0, y 1, eq_ix2 y⟩
  rw [blk10_read m 0]
  show outAt m 0 t (ix2 p n) = _
  unfold outAt
  refine (Cert.KRow.point_value (grid0.coords t) ⟨t.val, pt_lt m t⟩ (coords_val m t) (Memref.whole main_v2) (Memref.isWhole_whole _) (Memref.whole main_v3) (Memref.isWhole_whole _) (Memref.whole main_v4) (Memref.isWhole_whole _) (Memref.whole main_v5) (Memref.isWhole_whole _) (spec0_0.stage ((cfg0 (adm (F := Ideal) m 0)).slots t 0)) (hstage0_0 (((cfg0 (adm (F := Ideal) m 0)).slots t 0).cast nbuf0_0)) (spec0_1.stage ((cfg0 (adm (F := Ideal) m 0)).slots t 1)) (hstage0_1 (((cfg0 (adm (F := Ideal) m 0)).slots t 1).cast nbuf0_1)) (spec0_2.stage ((cfg0 (adm (F := Ideal) m 0)).slots t 2)) (hstage0_2 (((cfg0 (adm (F := Ideal) m 0)).slots t 2).cast nbuf0_2)) (spec0_3.stage ((cfg0 (adm (F := Ideal) m 0)).slots t 3)) (hstage0_3 (((cfg0 (adm (F := Ideal) m 0)).slots t 3).cast nbuf0_3)) (spec0_4.stage ((cfg0 (adm (F := Ideal) m 0)).slots t 4)) (hstage0_4 (((cfg0 (adm (F := Ideal) m 0)).slots t 4).cast nbuf0_4)) (spec0_5.stage ((cfg0 (adm (F := Ideal) m 0)).slots t 5)) (hstage0_5 (((cfg0 (adm (F := Ideal) m 0)).slots t 5).cast nbuf0_5)) (spec0_6.stage ((cfg0 (adm (F := Ideal) m 0)).slots t 6)) (hstage0_6 (((cfg0 (adm (F := Ideal) m 0)).slots t 6).cast nbuf0_6)) (spec0_7.stage ((cfg0 (adm (F := Ideal) m 0)).slots t 7)) (hstage0_7 (((cfg0 (adm (F := Ideal) m 0)).slots t 7).cast nbuf0_7)) (spec0_8.stage ((cfg0 (adm (F := Ideal) m 0)).slots t 8)) (hstage0_8 (((cfg0 (adm (F := Ideal) m 0)).slots t 8).cast nbuf0_8)) (spec0_9.stage ((cfg0 (adm (F := Ideal) m 0)).slots t 9)) (hstage0_9 (((cfg0 (adm (F := Ideal) m 0)).slots t 9).cast nbuf0_9)) (spec0_10.stage ((cfg0 (adm (F := Ideal) m 0)).slots t 10)) (hstage0_10 (((cfg0 (adm (F := Ideal) m 0)).slots t 10).cast nbuf0_10)) (Memref.whole cc0_scratch0) (Memref.isWhole_whole _)
    (tbl0 (F := Ideal) m) (tbl1 (F := Ideal) m) (tbl2 (F := Ideal) m) (tbl3 (F := Ideal) m)
    (iblk (F := Ideal) m 0 0 t) (iblk (F := Ideal) m 0 1 t) (iblk (F := Ideal) m 0 2 t) (iblk (F := Ideal) m 0 3 t) (iblk (F := Ideal) m 0 4 t) (iblk (F := Ideal) m 0 5 t)
    (iblk (F := Ideal) m 0 6 t) (iblk (F := Ideal) m 0 7 t) (iblk (F := Ideal) m 0 8 t) (iblk (F := Ideal) m 0 9 t)
    (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (m (((0 : Dev nD) : Thread nD τ).loc main_arg6)) (m (((0 : Dev nD) : Thread nD τ).loc main_arg7)) (m (((0 : Dev nD) : Thread nD τ).loc main_arg8)) (m (((0 : Dev nD) : Thread nD τ).loc main_arg9)) (m (((0 : Dev nD) : Thread nD τ).loc main_arg10)) (m (((0 : Dev nD) : Thread nD τ).loc main_arg11)) (m (((0 : Dev nD) : Thread nD τ).loc main_arg12)) (m (((0 : Dev nD) : Thread nD τ).loc main_arg13))
    (fun k ch h w => (iblk0_apply m 0 t k ch h w).trans (congrFun (V_main_arg0 m 0) _))
    (fun k ch h w => (iblk1_apply m 0 t k ch h w).trans (congrFun (V_main_arg1 m 0) _))
    (fun k ch h w => (iblk2_apply m 0 t k ch h w).trans (congrFun (V_main_arg2 m 0) _))
    (fun k ch h w => (iblk3_apply m 0 t k ch h w).trans (congrFun (V_main_arg3 m 0) _))
    (fun k j => (iblk4_apply m 0 t k j).trans (V_main_v0_apply m 0 _ j))
    (fun k j => (iblk5_apply m 0 t k j).trans (V_main_v1_apply m 0 _ j))
    ((iblk6_eq m 0 t).trans (V_main_arg10 m 0)) ((iblk7_eq m 0 t).trans (V_main_arg11 m 0))
    ((iblk8_eq m 0 t).trans (V_main_arg12 m 0)) ((iblk9_eq m 0 t).trans (V_main_arg13 m 0))
    (fun b s e => tbl0_apply m b s e) (fun b s e => tbl1_apply m b s e) (fun b s e => tbl2_apply m b s e) (fun b s e => tbl3_apply m b s e)
    hd p n).trans ?_
  unfold Gout specOut
  rfl

/-- THE OUTPUT ARRAY after the run. -/
theorem final10 (c : Dev nD) (hd : DomAt m c) :
    (dats m 0 c).arrAt 10 (cfg0 (adm (F := Ideal) m 0)).N = Gout m c :=
  (dats m 0 c).arrAt_eq_of_cover 10 (Gout m c) (fun t _ => flushed10_eq m c hd t) (cover10 m c)

/-- The slice after the region leaves, in its result, the first 26 lanes of the region's output array as the run left it. -/
theorem tail_v7 (c : Dev nD) :
    Pipeline.afterTail (pcfgs (F := Ideal)) (adm m) (dats m) 0 (V0 m) [hostOps1] c main_v7
      = ((extractStridedSlice S64x26 ![0, 0] · Cert.KernelIdeal.Gen.slices_S64x128_S64x26_0_0) : (⟨S64x128, .f32⟩ : BufTy).Contents (Elt Ideal) → (⟨S64x26, .f32⟩ : BufTy).Contents (Elt Ideal))
          ((dats m 0 c).arrAt 10 (cfg0 (adm (F := Ideal) m 0)).N) := by
  unfold Pipeline.afterTail
  show StableHlo.after (hostOps1 (F := Ideal)) _ (Proc.devRef .tc main_v7) = _
  after_results
  rw [Pipeline.withArrays_arr spec0 (launch0 (F := Ideal)).win.arr_inj c _ _ 10]

/-- The result array after the run is the specification's `out`. -/
theorem value_v7 (c : Dev nD) (hd : DomAt m c) :
    (Pipeline.afterTail (pcfgs (F := Ideal)) (adm m) (dats m) 0 (V0 m) [hostOps1] c main_v7 : S64x26.Idx → EReal) = specOut m c := by
  rw [tail_v7, final10 m c hd]
  refine funext fun (i : S64x26.Idx) => ?_
  have h26 : (i 1).val < 26 := (i 1).isLt
  refine (extractStridedSlice_apply (t := S64x26) ![0, 0] (Gout m c) Cert.KernelIdeal.Gen.slices_S64x128_S64x26_0_0 i
    (ix2 (i 0) ⟨(i 1).val, by omega⟩) (fun a => by
      match a with
      | ⟨0, _⟩ => show (i 0).val = 0 + (i 0).val; omega
      | ⟨1, _⟩ => show (i 1).val = 0 + (i 1).val; omega)).trans ?_
  unfold Gout
  rw [dif_pos (show ((ix2 (i 0) (⟨(i 1).val, by omega⟩ : Fin 128) : S64x128.Idx) 1).val < 26 from h26)]
  exact congrArg (specOut m c) (funext fun a => by match a with | ⟨0, _⟩ => rfl | ⟨1, _⟩ => rfl)

theorem rest_ne_v7 : ∀ w : Fin 11, (spec0 w).arr.view.ref ≠ main_v7 := by decide

/-- THE VALUE RUN: on the domain, every weakly fair execution of @main terminates with the result array at the
    specification's `out` of the launch arrays and the fourteen arguments as launched. -/
theorem value_run (hd : ∀ c, DomAt m c) : θ_run defs (onTc (τ := τ) (main (F := Ideal))) ⟨m, fun _ => 0, ρ⟩ (fun r => ∀ c : Dev nD,
      r.2.mem ((c.tc : Thread nD τ).loc main_v7) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨((h c).2 main_v7 (Pipeline.mem_restRefs_of main_v7 rfl rest_ne_v7)).trans (value_v7 m c (hd c)), args_kept m r h c⟩) (run_main m ρ)

end Cert.KernelIdeal.Hand

end
-- ==== Proof.PreDom.lean ====
/-
  The printed precondition, read back.  It is a conjunction of fourteen reductions by `and` over whole arrays:
  for each of the ten float arguments the test |x| < +∞ at every entry, and for each of the four tables of centres
  the test 0 ≤ w ∧ w < side (side 128, 64, 32, 16) at every word, the comparisons signed.  When the conjunction is
  one, every float entry is a real number (an extended real whose absolute value is below +∞ is neither infinity)
  and every table word is, as a natural number, below its side (a 32-bit word that is non-negative as a signed
  integer has its top bit clear, so its signed and unsigned readings agree).
-/
import proofs.«414461_j46188078301471_3_alg».proof.Pre_finite_inputs
import proofs.«414461_j46188078301471_3_alg».proof.Proof.Spec
import Idealize.ShloMosaic.Lib.ReduceAll
import Idealize.ShloMosaic.Lib.ValueIdx

noncomputable section

namespace Cert.PreDom

open Idealize.ShloMosaic Idealize.ShloMosaic.ValueIdx
open Cert.Pre_finite_inputs

/-- The result of a reduction over every axis has one index. -/
local instance : Subsingleton S_.Idx := ⟨fun _ _ => funext fun d => d.elim0⟩

/-! ## One element -/

theorem ofBool_eq_one (b : Bool) : BitVec.ofBool b = 1#1 ↔ b = true := by cases b <;> decide

/-- The pattern `0x7F800000` (sign 0, exponent all ones, fraction 0) denotes +∞. -/
theorem inf_bits : Ideal.ofBits .f32 0x7F800000#32 = (⊤ : EReal) := by
  simp [Ideal.ofBits, Ideal.ieee]

/-- An extended real whose absolute value `max x (-x)` is below +∞ is a real: at ⊥ the maximum is -⊥ = ⊤, at ⊤ it is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- A word with 0 ≤ w and w < n as signed integers, n < 2³¹, has w.toNat < n: from 0 ≤ w.toInt the top bit is clear,
    so w.toInt = w.toNat. -/
theorem toNat_lt_of_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt] at h1
  have e0 : (0#32 : BitVec 32).toInt = 0 := by decide
  have en : (BitVec.ofNat 32 n).toInt = n := by
    rw [BitVec.toInt_eq_toNat_cond, BitVec.toNat_ofNat, Nat.mod_eq_of_lt (by omega)]
    split <;> omega
  have hc := BitVec.toInt_eq_toNat_cond w
  have hl := w.isLt
  split at hc <;> omega

/-! ## One conjunct: a reduction by `and` over all axes that is one gives its test at every index -/

variable {s : Shape} {axes : List (Fin s.rank)}

/-- `all (|a| < +∞) = 1`: every entry of `a` is a real. -/
theorem real_of_all (a : FVec Ideal s .f32) (hb : S_.BroadcastsInDim s (![] : Fin 0 → Fin s.rank)) (hr : s.ReducesTo axes S_)
    (hu : 0 < S_.numel)
    (e : Host.reduce IntOp.andi (cmpf .olt (Host.absf a) (broadcastInDim s ![] hb (constant S_ .f32 0x7F800000#32)))
      (constantI S_ 1 1#1) hr hu ix0 = 1#1) (i : s.Idx) : ∃ r : ℝ, a i = (r : EReal) := by
  have hi := Host.reduce_andi_all _ _ hr hu ix0 e i
  change BitVec.ofBool (decide (max (a i) (-(a i)) < Ideal.ofBits .f32 0x7F800000#32)) = 1#1 at hi
  rw [inf_bits, ofBool_eq_one, decide_eq_true_eq] at hi
  exact real_of_abs_lt_top _ hi

/-- `all (0 ≤ a ∧ a < n) = 1`, signed: every word of `a` is below `n` as a natural number. -/
theorem range_of_all (n : Nat) (hn : n < 2 ^ 31) (a : IVec s 32) (hb hb' : S_.BroadcastsInDim s (![] : Fin 0 → Fin s.rank))
    (hr : s.ReducesTo axes S_) (hu : 0 < S_.numel)
    (e : Host.reduce IntOp.andi
      (andi (cmpi .sge a (broadcastInDim s ![] hb (constantI S_ 32 0#32)))
        (cmpi .slt a (broadcastInDim s ![] hb' (constantI S_ 32 (BitVec.ofNat 32 n)))))
      (constantI S_ 1 1#1) hr hu ix0 = 1#1) (i : s.Idx) : (a i).toNat < n := by
  have hi := Host.reduce_andi_all _ _ hr hu ix0 e i
  change IntOp.andi (IntOp.cmpi .sge (a i) 0#32) (IntOp.cmpi .slt (a i) (BitVec.ofNat 32 n)) = 1#1 at hi
  obtain ⟨h0, h1⟩ := IntOp.andi_eq_one.1 hi
  exact toNat_lt_of_range _ n hn h0 h1

/-- A conjunction of two `i1` scalars read at their one index. -/
theorem andi_one {t : Shape} (x y : IVec t 1) (j : t.Idx) : andi x y j = 1#1 ↔ x j = 1#1 ∧ y j = 1#1 :=
  IntOp.andi_eq_one

/-! ## The precondition -/

variable [Facts]

/-- The precondition at all ones puts the arguments in the specification's domain. -/
theorem dom_of_pre (a0 : FVec Ideal S64x26x128x128 .f32) (a1 : FVec Ideal S64x26x64x64 .f32) (a2 : FVec Ideal S64x26x32x32 .f32) (a3 : FVec Ideal S64x26x16x16 .f32) (a4 a5 : FVec Ideal S64x26 .f32) (a6 a7 a8 a9 : IVec S64x8x2 32) (a10 : FVec Ideal S78x39 .f32) (a11 : FVec Ideal S39 .f32) (a12 : FVec Ideal S39x26 .f32) (a13 : FVec Ideal S26 .f32)
    (h : Cert.Pre_finite_inputs.fn (F := Ideal) a0 a1 a2 a3 a4 a5 a6 a7 a8 a9 a10 a11 a12 a13 = fun _ => 1#1) :
    Cert.Spec.Dom a0 a1 a2 a3 a4 a5 a6 a7 a8 a9 a10 a11 a12 a13 := by
  have e := congrFun h ix0
  dsimp only [fn, fn_part1, fn_part2, fn_part3, fn_part4] at e
  simp only [andi_one] at e
  obtain ⟨⟨⟨⟨⟨⟨⟨⟨⟨⟨⟨⟨⟨h0, h1⟩, h2⟩, h3⟩, h4⟩, h5⟩, h10⟩, h11⟩, h12⟩, h13⟩, h6⟩, h7⟩, h8⟩, h9⟩ := e
  exact
    { f0 := real_of_all a0 _ _ _ h0
      f1 := real_of_all a1 _ _ _ h1
      f2 := real_of_all a2 _ _ _ h2
      f3 := real_of_all a3 _ _ _ h3
      f4 := real_of_all a4 _ _ _ h4
      f5 := real_of_all a5 _ _ _ h5
      f10 := real_of_all a10 _ _ _ h10
      f11 := real_of_all a11 _ _ _ h11
      f12 := real_of_all a12 _ _ _ h12
      f13 := real_of_all a13 _ _ _ h13
      r6 := range_of_all 128 (by decide) a6 _ _ _ _ h6
      r7 := range_of_all 64 (by decide) a7 _ _ _ _ h7
      r8 := range_of_all 32 (by decide) a8 _ _ _ _ h8
      r9 := range_of_all 16 (by decide) a9 _ _ _ _ h9 }

end Cert.PreDom

end
-- ==== Proof.RefValue.lean ====
/-
  The reference's result, index by index, is the specification's `out` on the domain.

  Each feature map is read by a gather of one point per start index: the start index of `(b, s)` is the triple
  (batch row, row word, column word), each component clamped into its axis.  On the domain every word is below the
  map's side, so the select that would add the side to a negative word keeps it, the clamp is the identity, and the
  element read is the map's at the centre the specification names.  The sum over the eight centres from zero,
  divided by eight, is the mean; the four means added from zero and divided by four, joined with the two other
  rows of 26, feed the two dense layers, which are plain sums at the extended reals.
-/
import proofs.«414461_j46188078301471_3_alg».proof.Proof.RefRead
import proofs.«414461_j46188078301471_3_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.RefValue

open Idealize.ShloMosaic Idealize.ShloMosaic.ValueIdx

/-! ## A gather of one point per start index, read at an index -/

section Gather
variable {α : Type}

/-- The dimension numbers of the gather that reads one point `(b, y, x)` of a map `[64, r, r, 26]` per start index and
    keeps the 26 channels: start indices `[64, 8, 3]`, result `[64, 8, 26]`. -/
abbrev pointDims (r : Nat)
    (wf : GatherDims.WF ⟨4, ![64, r, r, 26]⟩ ⟨3, ![64, 8, 3]⟩ ⟨3, ![64, 8, 26]⟩ [2] [0, 1, 2] [] [0, 1, 2] [] 2 ![1, 1, 1, 26]) :
    GatherDims ⟨4, ![64, r, r, 26]⟩ ⟨3, ![64, 8, 3]⟩ ⟨3, ![64, 8, 26]⟩ where
  offsetDims := [2]
  collapsedSliceDims := [0, 1, 2]
  operandBatchingDims := []
  startIndicesBatchingDims := []
  startIndexMap := [0, 1, 2]
  indexVectorDim := 2
  sliceSizes := ![1, 1, 1, 26]
  wf := wf

/-- On the batch axis the operand index of `(b, s, c)` is component 0 of the start index of `(b, s)`, read signed and
    clamped into `[0, 63]`: the axis is collapsed and has no batching or offset part. -/
theorem point_coord0 {w : Nat} (r : Nat) (wf : GatherDims.WF ⟨4, ![64, r, r, 26]⟩ ⟨3, ![64, 8, 3]⟩ ⟨3, ![64, 8, 26]⟩ [2] [0, 1, 2] [] [0, 1, 2] [] 2 ![1, 1, 1, 26])
    (idx : IVec ⟨3, ![64, 8, 3]⟩ w) (b : Fin 64) (s : Fin 8) (c : Fin 26) :
    ((pointDims r wf).operandIdx (ix3 b s c) idx 0).val = min (idx (ix3 b s 0)).toInt.toNat (64 - 1) := by
  have m : (0 : Fin 4) ∈ ([0, 1, 2] : List (Fin 4)) := by decide
  show (pointDims r wf).start (ix3 b s c) idx 0 + (pointDims r wf).batchCoord (ix3 b s c) 0
    + (pointDims r wf).offCoord (ix3 b s c) 0 = _
  rw [GatherDims.batchCoord_eq_zero _ _ _ List.not_mem_nil, Nat.add_zero,
    GatherDims.offCoord_eq_zero _ _ _ (fun h => ((GatherDims.mem_sKept _ _).mp h).1 m), Nat.add_zero]
  unfold GatherDims.start
  rw [dif_pos m]
  congr 4
  funext d; refine Fin.ext ?_
  match d with
  | ⟨0, _⟩ => rfl
  | ⟨1, _⟩ => rfl
  | ⟨2, _⟩ => rfl

/-- On the row axis it is component 1 of the start index, read signed and clamped into `[0, r − 1]`. -/
theorem point_coord1 {w : Nat} (r : Nat) (wf : GatherDims.WF ⟨4, ![64, r, r, 26]⟩ ⟨3, ![64, 8, 3]⟩ ⟨3, ![64, 8, 26]⟩ [2] [0, 1, 2] [] [0, 1, 2] [] 2 ![1, 1, 1, 26])
    (idx : IVec ⟨3, ![64, 8, 3]⟩ w) (b : Fin 64) (s : Fin 8) (c : Fin 26) :
    ((pointDims r wf).operandIdx (ix3 b s c) idx 1).val = min (idx (ix3 b s 1)).toInt.toNat (r - 1) := by
  have m : (1 : Fin 4) ∈ ([0, 1, 2] : List (Fin 4)) := by decide
  show (pointDims r wf).start (ix3 b s c) idx 1 + (pointDims r wf).batchCoord (ix3 b s c) 1
    + (pointDims r wf).offCoord (ix3 b s c) 1 = _
  rw [GatherDims.batchCoord_eq_zero _ _ _ List.not_mem_nil, Nat.add_zero,
    GatherDims.offCoord_eq_zero _ _ _ (fun h => ((GatherDims.mem_sKept _ _).mp h).1 m), Nat.add_zero]
  unfold GatherDims.start
  rw [dif_pos m]
  congr 4
  funext d; refine Fin.ext ?_
  match d with
  | ⟨0, _⟩ => rfl
  | ⟨1, _⟩ => rfl
  | ⟨2, _⟩ => rfl

/-- On the column axis it is component 2 of the start index, read signed and clamped into `[0, r − 1]`. -/
theorem point_coord2 {w : Nat} (r : Nat) (wf : GatherDims.WF ⟨4, ![64, r, r, 26]⟩ ⟨3, ![64, 8, 3]⟩ ⟨3, ![64, 8, 26]⟩ [2] [0, 1, 2] [] [0, 1, 2] [] 2 ![1, 1, 1, 26])
    (idx : IVec ⟨3, ![64, 8, 3]⟩ w) (b : Fin 64) (s : Fin 8) (c : Fin 26) :
    ((pointDims r wf).operandIdx (ix3 b s c) idx 2).val = min (idx (ix3 b s 2)).toInt.toNat (r - 1) := by
  have m : (2 : Fin 4) ∈ ([0, 1, 2] : List (Fin 4)) := by decide
  show (pointDims r wf).start (ix3 b s c) idx 2 + (pointDims r wf).batchCoord (ix3 b s c) 2
    + (pointDims r wf).offCoord (ix3 b s c) 2 = _
  rw [GatherDims.batchCoord_eq_zero _ _ _ List.not_mem_nil, Nat.add_zero,
    GatherDims.offCoord_eq_zero _ _ _ (fun h => ((GatherDims.mem_sKept _ _).mp h).1 m), Nat.add_zero]
  unfold GatherDims.start
  rw [dif_pos m]
  congr 4
  funext d; refine Fin.ext ?_
  match d with
  | ⟨0, _⟩ => rfl
  | ⟨1, _⟩ => rfl
  | ⟨2, _⟩ => rfl

/-- On the channel axis, which no start index names, it is the result's own channel coordinate. -/
theorem point_coord3 {w : Nat} (r : Nat) (wf : GatherDims.WF ⟨4, ![64, r, r, 26]⟩ ⟨3, ![64, 8, 3]⟩ ⟨3, ![64, 8, 26]⟩ [2] [0, 1, 2] [] [0, 1, 2] [] 2 ![1, 1, 1, 26])
    (idx : IVec ⟨3, ![64, 8, 3]⟩ w) (b : Fin 64) (s : Fin 8) (c : Fin 26) :
    ((pointDims r wf).operandIdx (ix3 b s c) idx 3).val = c.val := by
  have m : (3 : Fin 4) ∉ ([0, 1, 2] : List (Fin 4)) := by decide
  show (pointDims r wf).start (ix3 b s c) idx 3 + (pointDims r wf).batchCoord (ix3 b s c) 3
    + (pointDims r wf).offCoord (ix3 b s c) 3 = _
  rw [GatherDims.batchCoord_eq_zero _ _ _ List.not_mem_nil, Nat.add_zero]
  unfold GatherDims.start
  rw [dif_neg m, Nat.zero_add]
  unfold GatherDims.offCoord
  rw [dif_pos ((GatherDims.mem_sKept _ _).mpr ⟨m, List.not_mem_nil⟩)]
  rfl

/-- THE GATHER READ AT `(b, s, c)`: the operand at the three clamped components of the start index of `(b, s)` and
    channel `c`; the caller names the three coordinates. -/
theorem gather_point_apply {w : Nat} (r : Nat) (wf : GatherDims.WF ⟨4, ![64, r, r, 26]⟩ ⟨3, ![64, 8, 3]⟩ ⟨3, ![64, 8, 26]⟩ [2] [0, 1, 2] [] [0, 1, 2] [] 2 ![1, 1, 1, 26])
    (x : (⟨4, ![64, r, r, 26]⟩ : Shape).Idx → α) (idx : IVec ⟨3, ![64, 8, 3]⟩ w)
    (b : Fin 64) (s : Fin 8) (c : Fin 26) (p : Fin 64) (y z : Fin r)
    (h0 : min (idx (ix3 b s 0)).toInt.toNat (64 - 1) = p.val)
    (h1 : min (idx (ix3 b s 1)).toInt.toNat (r - 1) = y.val)
    (h2 : min (idx (ix3 b s 2)).toInt.toNat (r - 1) = z.val) :
    Host.gather (pointDims r wf) x idx (ix3 b s c) = x (ix4 p y z c) := by
  unfold Host.gather
  congr 1
  funext a
  refine Fin.ext ?_
  match a with
  | ⟨0, _⟩ => exact (point_coord0 r wf idx b s c).trans h0
  | ⟨1, _⟩ => exact (point_coord1 r wf idx b s c).trans h1
  | ⟨2, _⟩ => exact (point_coord2 r wf idx b s c).trans h2
  | ⟨3, _⟩ => exact point_coord3 r wf idx b s c

end Gather

/-! ## Words -/

section Words

/-- A word below 2³¹ is not negative as a signed one, so the select that would add the side to a negative index keeps
    the word. -/
theorem select_neg_keep (w R : BitVec 32) (hw : w.toNat < 2 ^ 31) :
    Scalar.select (IntOp.cmpi .slt w 0#32) (IntOp.addi w R) w = w := by
  unfold Scalar.select
  refine if_neg fun h => ?_
  have h' := (StableHlo.Predicate.slt_iff_toNat hw (by decide)).mp h
  exact absurd h' (Nat.not_lt_zero _)

/-- A word below `n ≤ 2³¹`, read signed and clamped into `[0, n − 1]`, is its own value. -/
theorem clamp_keep (w : BitVec 32) (n : Nat) (hn : n ≤ 2 ^ 31) (hw : w.toNat < n) :
    min w.toInt.toNat (n - 1) = w.toNat := by
  rw [StableHlo.Predicate.toInt_eq_toNat_of_lt (by omega), Int.toNat_natCast]
  omega

/-- A batch row as a 32-bit word has the row as its value. -/
theorem toNat_ofNat_fin64 (b : Fin 64) : (BitVec.ofNat 32 b.val).toNat = b.val := by
  rw [BitVec.toNat_ofNat]; exact Nat.mod_eq_of_lt (by have := b.isLt; omega)

end Words

/-! ## The two literals -/

/-- The f32 pattern `0x41000000` is the real 8. -/
theorem ofBits_eight : Ideal.ofBits .f32 0x41000000#32 = ((8 : ℝ) : EReal) := by
  simp [Ideal.ofBits, Ideal.ieee, -EReal.coe_mul]; norm_num

/-- The f32 pattern `0x40800000` is the real 4. -/
theorem ofBits_four : Ideal.ofBits .f32 0x40800000#32 = ((4 : ℝ) : EReal) := by
  simp [Ideal.ofBits, Ideal.ieee, -EReal.coe_mul]; norm_num

/-! ## The gather of one map, read at an index -/

section Read

/-- The gather at `(b, s, c)`: if the operand is the map with its channel axis moved last, and the start index of
    `(b, s)` is `(b, row word, column word)` with both words below the side, the element is the map's at channel `c`
    of the centre `(row, column)`. -/
theorem gather_read (r : Nat) [NeZero r] (hr : r ≤ 128) (wf : GatherDims.WF ⟨4, ![64, r, r, 26]⟩ ⟨3, ![64, 8, 3]⟩ ⟨3, ![64, 8, 26]⟩ [2] [0, 1, 2] [] [0, 1, 2] [] 2 ![1, 1, 1, 26])
    (a : (⟨4, ![64, 26, r, r]⟩ : Shape).Idx → EReal) (cen : Spec.Tab) (hc : ∀ i, (cen i).toNat < r)
    (t : (⟨4, ![64, r, r, 26]⟩ : Shape).Idx → EReal) (st : IVec ⟨3, ![64, 8, 3]⟩ 32)
    (ht : ∀ (b : Fin 64) (y z : Fin r) (c : Fin 26), t (ix4 b y z c) = a (ix4 b c y z))
    (h0 : ∀ (b : Fin 64) (s : Fin 8), st (ix3 b s 0) = BitVec.ofNat 32 b.val)
    (h1 : ∀ (b : Fin 64) (s : Fin 8), st (ix3 b s 1) = cen (ix3 b s 1))
    (h2 : ∀ (b : Fin 64) (s : Fin 8), st (ix3 b s 2) = cen (ix3 b s 0))
    (b : Fin 64) (s : Fin 8) (c : Fin 26) :
    Host.gather (pointDims r wf) t st (ix3 b s c)
      = a (ix4 b c (Spec.coord r (cen (ix3 b s 1))) (Spec.coord r (cen (ix3 b s 0)))) := by
  rw [gather_point_apply r wf t st b s c b (Spec.coord r (cen (ix3 b s 1))) (Spec.coord r (cen (ix3 b s 0))), ht]
  · rw [h0, clamp_keep _ 64 (by norm_num) (by rw [toNat_ofNat_fin64]; exact b.isLt), toNat_ofNat_fin64]
  · rw [h1, clamp_keep _ r (by omega) (hc _), Spec.coord_val_of_lt r _ (hc _)]
  · rw [h2, clamp_keep _ r (by omega) (hc _), Spec.coord_val_of_lt r _ (hc _)]

end Read

/-! ## Three pieces joined along the last axis, read at an index -/

section Concat
variable {α : Type}

/-- Three `[64, 8, 1]` pieces joined along axis 2: component `k` of `(b, s)` is piece `k` at `(b, s, 0)`. -/
theorem concat3_apply (x0 x1 x2 : (⟨3, ![64, 8, 1]⟩ : Shape).Idx → α)
    (h : Shape.Concatenates [(⟨3, ![64, 8, 1]⟩ : Shape), ⟨3, ![64, 8, 1]⟩, ⟨3, ![64, 8, 1]⟩] ⟨3, ![64, 8, 3]⟩ 2)
    (b : Fin 64) (s : Fin 8) :
    concatenate (⟨3, ![64, 8, 3]⟩ : Shape) 2 [⟨⟨3, ![64, 8, 1]⟩, x0⟩, ⟨⟨3, ![64, 8, 1]⟩, x1⟩, ⟨⟨3, ![64, 8, 1]⟩, x2⟩] h (ix3 b s 0) = x0 (ix3 b s 0)
    ∧ concatenate (⟨3, ![64, 8, 3]⟩ : Shape) 2 [⟨⟨3, ![64, 8, 1]⟩, x0⟩, ⟨⟨3, ![64, 8, 1]⟩, x1⟩, ⟨⟨3, ![64, 8, 1]⟩, x2⟩] h (ix3 b s 1) = x1 (ix3 b s 0)
    ∧ concatenate (⟨3, ![64, 8, 3]⟩ : Shape) 2 [⟨⟨3, ![64, 8, 1]⟩, x0⟩, ⟨⟨3, ![64, 8, 1]⟩, x1⟩, ⟨⟨3, ![64, 8, 1]⟩, x2⟩] h (ix3 b s 2) = x2 (ix3 b s 0) := by
  refine ⟨?_, ?_, ?_⟩
  · refine concatenate_apply_piece (t := ⟨3, ![64, 8, 3]⟩) 2
      [⟨⟨3, ![64, 8, 1]⟩, x0⟩, ⟨⟨3, ![64, 8, 1]⟩, x1⟩, ⟨⟨3, ![64, 8, 1]⟩, x2⟩] h (ix3 b s 0) 0 (by simp) ⟨3, ![64, 8, 1]⟩ x0 rfl rfl 0 rfl
      (ix3 b s 0) (fun d hd => ?_) rfl
    match d with
    | ⟨0, _⟩ => rfl
    | ⟨1, _⟩ => rfl
    | ⟨2, _⟩ => exact absurd rfl hd
  · refine concatenate_apply_piece (t := ⟨3, ![64, 8, 3]⟩) 2
      [⟨⟨3, ![64, 8, 1]⟩, x0⟩, ⟨⟨3, ![64, 8, 1]⟩, x1⟩, ⟨⟨3, ![64, 8, 1]⟩, x2⟩] h (ix3 b s 1) 1 (by simp) ⟨3, ![64, 8, 1]⟩ x1 rfl rfl 1 rfl
      (ix3 b s 0) (fun d hd => ?_) rfl
    match d with
    | ⟨0, _⟩ => rfl
    | ⟨1, _⟩ => rfl
    | ⟨2, _⟩ => exact absurd rfl hd
  · refine concatenate_apply_piece (t := ⟨3, ![64, 8, 3]⟩) 2
      [⟨⟨3, ![64, 8, 1]⟩, x0⟩, ⟨⟨3, ![64, 8, 1]⟩, x1⟩, ⟨⟨3, ![64, 8, 1]⟩, x2⟩] h (ix3 b s 2) 2 (by simp) ⟨3, ![64, 8, 1]⟩ x2 rfl rfl 2 rfl
      (ix3 b s 0) (fun d hd => ?_) rfl
    match d with
    | ⟨0, _⟩ => rfl
    | ⟨1, _⟩ => rfl
    | ⟨2, _⟩ => exact absurd rfl hd

/-- Three `[64, 26]` pieces joined along axis 1: column `j` of row `b` is the first piece's below 26, the second's at
    `j − 26` below 52, the third's at `j − 52` from there on. -/
theorem concat78_apply (x0 x1 x2 : (⟨2, ![64, 26]⟩ : Shape).Idx → α)
    (h : Shape.Concatenates [(⟨2, ![64, 26]⟩ : Shape), ⟨2, ![64, 26]⟩, ⟨2, ![64, 26]⟩] ⟨2, ![64, 78]⟩ 1)
    (b : Fin 64) (j : Fin 78) :
    concatenate (⟨2, ![64, 78]⟩ : Shape) 1 [⟨⟨2, ![64, 26]⟩, x0⟩, ⟨⟨2, ![64, 26]⟩, x1⟩, ⟨⟨2, ![64, 26]⟩, x2⟩] h (ix2 b j)
      = if h1 : j.val < 26 then x0 (ix2 b ⟨j.val, h1⟩)
        else if h2 : j.val < 52 then x1 (ix2 b ⟨j.val - 26, by omega⟩)
        else x2 (ix2 b ⟨j.val - 52, by have := j.isLt; omega⟩) := by
  by_cases h1 : j.val < 26
  · rw [dif_pos h1]
    refine concatenate_apply_piece (t := ⟨2, ![64, 78]⟩) 1
      [⟨⟨2, ![64, 26]⟩, x0⟩, ⟨⟨2, ![64, 26]⟩, x1⟩, ⟨⟨2, ![64, 26]⟩, x2⟩] h (ix2 b j) 0 (by simp) ⟨2, ![64, 26]⟩ x0 rfl rfl 0 rfl
      (ix2 b ⟨j.val, h1⟩) (fun d hd => ?_) (Nat.zero_add _)
    match d with
    | ⟨0, _⟩ => rfl
    | ⟨1, _⟩ => exact absurd rfl hd
  · rw [dif_neg h1]
    by_cases h2 : j.val < 52
    · rw [dif_pos h2]
      refine concatenate_apply_piece (t := ⟨2, ![64, 78]⟩) 1
        [⟨⟨2, ![64, 26]⟩, x0⟩, ⟨⟨2, ![64, 26]⟩, x1⟩, ⟨⟨2, ![64, 26]⟩, x2⟩] h (ix2 b j) 1 (by simp) ⟨2, ![64, 26]⟩ x1 rfl rfl 26 rfl
        (ix2 b ⟨j.val - 26, by omega⟩) (fun d hd => ?_) (by show 26 + (j.val - 26) = j.val; omega)
      match d with
      | ⟨0, _⟩ => rfl
      | ⟨1, _⟩ => exact absurd rfl hd
    · rw [dif_neg h2]
      refine concatenate_apply_piece (t := ⟨2, ![64, 78]⟩) 1
        [⟨⟨2, ![64, 26]⟩, x0⟩, ⟨⟨2, ![64, 26]⟩, x1⟩, ⟨⟨2, ![64, 26]⟩, x2⟩] h (ix2 b j) 2 (by simp) ⟨2, ![64, 26]⟩ x2 rfl rfl 52 rfl
        (ix2 b ⟨j.val - 52, by have := j.isLt; omega⟩) (fun d hd => ?_) (by show 52 + (j.val - 52) = j.val; omega)
      match d with
      | ⟨0, _⟩ => rfl
      | ⟨1, _⟩ => exact absurd rfl hd

end Concat

/-! ## The four maps -/

section Maps

open Cert.ReferenceIdeal Cert.ReferenceIdeal.Gen Cert.RefRead

/-- An index of a `[64, 8, 2]` table from its coordinates' values, as a sliced and reshaped read spells them. -/
theorem tab_idx (J : (⟨3, ![64, 8, 2]⟩ : Shape).Idx) (b : Fin 64) (s : Fin 8) (k : Fin 2)
    (h0 : (J 0).val = (b.val * 8 + s.val) / 8) (h1 : (J 1).val = (b.val * 8 + s.val) / 1 % 8) (h2 : (J 2).val = k.val) :
    J = ix3 b s k := by
  funext a; refine Fin.ext ?_
  match a with
  | ⟨0, _⟩ => have := b.isLt; have := s.isLt; show (J 0).val = b.val; omega
  | ⟨1, _⟩ => have := b.isLt; have := s.isLt; show (J 1).val = s.val; omega
  | ⟨2, _⟩ => exact h2

/-- A batch row as a 32-bit word is below 2³¹. -/
theorem ofNat_fin64_lt (b : Fin 64) : (BitVec.ofNat 32 b.val).toNat < 2 ^ 31 := by
  rw [toNat_ofNat_fin64]; have := b.isLt; omega

/-- The mean of a gathered array over its eight centres, as the reference spells it: the sum from the zero literal,
    divided by the literal eight. -/
theorem pool_of_gather (r : Nat) [NeZero r] (a : (⟨4, ![64, 26, r, r]⟩ : Shape).Idx → EReal) (cen : Spec.Tab)
    (g : (⟨3, ![64, 8, 26]⟩ : Shape).Idx → EReal)
    (hg : ∀ (b : Fin 64) (s : Fin 8) (c : Fin 26),
      g (ix3 b s c) = a (ix4 b c (Spec.coord r (cen (ix3 b s 1))) (Spec.coord r (cen (ix3 b s 0)))))
    (b : Fin 64) (c : Fin 26) (J : Fin 8 → (⟨3, ![64, 8, 26]⟩ : Shape).Idx) (hJ : ∀ k, J k = ix3 b k c) :
    Ideal.div (Ideal.ofBits .f32 0x00000000#32 + ∑ k : Fin 8, g (J k)) (Ideal.ofBits .f32 0x41000000#32)
      = Spec.pool r a cen b c := by
  rw [Ideal.ofBits_zero_f32, zero_add, ofBits_eight, Ideal.div_coe (by norm_num)]
  unfold Spec.pool
  refine congrArg (· * _) (Finset.sum_congr rfl fun k _ => ?_)
  rw [hJ k, hg]

/-- Map 0 (side 128): the gathered array at an index. -/
theorem v27_apply (x0 : FVec Ideal S64x26x128x128 .f32) (x6 : IVec S64x8x2 32) (h6 : ∀ i, (x6 i).toNat < 128)
    (b : Fin 64) (s : Fin 8) (c : Fin 26) :
    val_main_v27 (F := Ideal) x0 x6 (ix3 b s c)
      = x0 (ix4 b c (Spec.coord 128 (x6 (ix3 b s 1))) (Spec.coord 128 (x6 (ix3 b s 0)))) := by
  unfold val_main_v27
  refine gather_read 128 (by norm_num) _ x0 x6 h6 _ _ (fun b y z c => ?_) (fun b s => ?_) (fun b s => ?_)
    (fun b s => ?_) b s c
  · rw [val_main_v0_apply]
    exact congrArg x0 (funext fun a => by
      match a with
      | ⟨0, _⟩ => rfl
      | ⟨1, _⟩ => rfl
      | ⟨2, _⟩ => rfl
      | ⟨3, _⟩ => rfl)
  · unfold val_main_v26
    rw [(concat3_apply _ _ _ _ b s).1, val_main_v23_apply, val_main_v22_apply, val_main_v11_apply, val_main_v8_apply,
      val_main_v10_apply, val_main_v6_apply, val_main_v5_apply, val_main_v7_apply, val_main_c_apply]
    exact select_neg_keep (BitVec.ofNat 32 b.val) _ (ofNat_fin64_lt b)
  · unfold val_main_v26
    rw [(concat3_apply _ _ _ _ b s).2.1, val_main_v24_apply, val_main_v16_apply, val_main_v13_apply, val_main_v15_apply,
      val_main_v4_apply, val_main_v3_apply, val_main_v12_apply, val_main_c_1_apply,
      tab_idx (idx_main_v3 (idx_main_v4 (idx_main_v24 (ix3 b s 0)))) b s 1 rfl rfl rfl]
    exact select_neg_keep _ _ (by have := h6 (ix3 b s 1); omega)
  · unfold val_main_v26
    rw [(concat3_apply _ _ _ _ b s).2.2, val_main_v25_apply, val_main_v21_apply, val_main_v18_apply, val_main_v20_apply,
      val_main_v2_apply, val_main_v1_apply, val_main_v17_apply, val_main_c_3_apply,
      tab_idx (idx_main_v1 (idx_main_v2 (idx_main_v25 (ix3 b s 0)))) b s 0 rfl rfl rfl]
    exact select_neg_keep _ _ (by have := h6 (ix3 b s 0); omega)

/-- Map 0: its mean over the eight centres. -/
theorem v30_apply (x0 : FVec Ideal S64x26x128x128 .f32) (x6 : IVec S64x8x2 32) (h6 : ∀ i, (x6 i).toNat < 128)
    (b : Fin 64) (c : Fin 26) :
    val_main_v30 (F := Ideal) x0 x6 (ix2 b c) = Spec.pool 128 x0 x6 b c := by
  rw [val_main_v30_apply, val_main_v28_apply, val_main_v29_apply, val_main_cst_5_apply, val_main_cst_apply]
  exact pool_of_gather 128 x0 x6 _ (v27_apply x0 x6 h6) b c _ (fun k => funext fun a => by
    match a with
    | ⟨0, _⟩ => rfl
    | ⟨1, _⟩ => rfl
    | ⟨2, _⟩ => rfl)

/-- Map 1 (side 64): the gathered array at an index. -/
theorem v60_apply (x1 : FVec Ideal S64x26x64x64 .f32) (x7 : IVec S64x8x2 32) (h7 : ∀ i, (x7 i).toNat < 64)
    (b : Fin 64) (s : Fin 8) (c : Fin 26) :
    val_main_v60 (F := Ideal) x1 x7 (ix3 b s c)
      = x1 (ix4 b c (Spec.coord 64 (x7 (ix3 b s 1))) (Spec.coord 64 (x7 (ix3 b s 0)))) := by
  unfold val_main_v60
  refine gather_read 64 (by norm_num) _ x1 x7 h7 _ _ (fun b y z c => ?_) (fun b s => ?_) (fun b s => ?_)
    (fun b s => ?_) b s c
  · rw [val_main_v33_apply]
    exact congrArg x1 (funext fun a => by
      match a with
      | ⟨0, _⟩ => rfl
      | ⟨1, _⟩ => rfl
      | ⟨2, _⟩ => rfl
      | ⟨3, _⟩ => rfl)
  · unfold val_main_v59
    rw [(concat3_apply _ _ _ _ b s).1, val_main_v56_apply, val_main_v55_apply, val_main_v44_apply, val_main_v41_apply,
      val_main_v43_apply, val_main_v39_apply, val_main_v38_apply, val_main_v40_apply, val_main_c_7_apply]
    exact select_neg_keep (BitVec.ofNat 32 b.val) _ (ofNat_fin64_lt b)
  · unfold val_main_v59
    rw [(concat3_apply _ _ _ _ b s).2.1, val_main_v57_apply, val_main_v49_apply, val_main_v46_apply, val_main_v48_apply,
      val_main_v37_apply, val_main_v36_apply, val_main_v45_apply, val_main_c_9_apply,
      tab_idx (idx_main_v36 (idx_main_v37 (idx_main_v57 (ix3 b s 0)))) b s 1 rfl rfl rfl]
    exact select_neg_keep _ _ (by have := h7 (ix3 b s 1); omega)
  · unfold val_main_v59
    rw [(concat3_apply _ _ _ _ b s).2.2, val_main_v58_apply, val_main_v54_apply, val_main_v51_apply, val_main_v53_apply,
      val_main_v35_apply, val_main_v34_apply, val_main_v50_apply, val_main_c_11_apply,
      tab_idx (idx_main_v34 (idx_main_v35 (idx_main_v58 (ix3 b s 0)))) b s 0 rfl rfl rfl]
    exact select_neg_keep _ _ (by have := h7 (ix3 b s 0); omega)

/-- Map 1: its mean over the eight centres. -/
theorem v63_apply (x1 : FVec Ideal S64x26x64x64 .f32) (x7 : IVec S64x8x2 32) (h7 : ∀ i, (x7 i).toNat < 64)
    (b : Fin 64) (c : Fin 26) :
    val_main_v63 (F := Ideal) x1 x7 (ix2 b c) = Spec.pool 64 x1 x7 b c := by
  rw [val_main_v63_apply, val_main_v61_apply, val_main_v62_apply, val_main_cst_14_apply, val_main_cst_13_apply]
  exact pool_of_gather 64 x1 x7 _ (v60_apply x1 x7 h7) b c _ (fun k => funext fun a => by
    match a with
    | ⟨0, _⟩ => rfl
    | ⟨1, _⟩ => rfl
    | ⟨2, _⟩ => rfl)

/-- Map 2 (side 32): the gathered array at an index. -/
theorem v92_apply (x2 : FVec Ideal S64x26x32x32 .f32) (x8 : IVec S64x8x2 32) (h8 : ∀ i, (x8 i).toNat < 32)
    (b : Fin 64) (s : Fin 8) (c : Fin 26) :
    val_main_v92 (F := Ideal) x2 x8 (ix3 b s c)
      = x2 (ix4 b c (Spec.coord 32 (x8 (ix3 b s 1))) (Spec.coord 32 (x8 (ix3 b s 0)))) := by
  unfold val_main_v92
  refine gather_read 32 (by norm_num) _ x2 x8 h8 _ _ (fun b y z c => ?_) (fun b s => ?_) (fun b s => ?_)
    (fun b s => ?_) b s c
  · rw [val_main_v65_apply]
    exact congrArg x2 (funext fun a => by
      match a with
      | ⟨0, _⟩ => rfl
      | ⟨1, _⟩ => rfl
      | ⟨2, _⟩ => rfl
      | ⟨3, _⟩ => rfl)
  · unfold val_main_v91
    rw [(concat3_apply _ _ _ _ b s).1, val_main_v88_apply, val_main_v87_apply, val_main_v76_apply, val_main_v73_apply,
      val_main_v75_apply, val_main_v71_apply, val_main_v70_apply, val_main_v72_apply, val_main_c_15_apply]
    exact select_neg_keep (BitVec.ofNat 32 b.val) _ (ofNat_fin64_lt b)
  · unfold val_main_v91
    rw [(concat3_apply _ _ _ _ b s).2.1, val_main_v89_apply, val_main_v81_apply, val_main_v78_apply, val_main_v80_apply,
      val_main_v69_apply, val_main_v68_apply, val_main_v77_apply, val_main_c_17_apply,
      tab_idx (idx_main_v68 (idx_main_v69 (idx_main_v89 (ix3 b s 0)))) b s 1 rfl rfl rfl]
    exact select_neg_keep _ _ (by have := h8 (ix3 b s 1); omega)
  · unfold val_main_v91
    rw [(concat3_apply _ _ _ _ b s).2.2, val_main_v90_apply, val_main_v86_apply, val_main_v83_apply, val_main_v85_apply,
      val_main_v67_apply, val_main_v66_apply, val_main_v82_apply, val_main_c_19_apply,
      tab_idx (idx_main_v66 (idx_main_v67 (idx_main_v90 (ix3 b s 0)))) b s 0 rfl rfl rfl]
    exact select_neg_keep _ _ (by have := h8 (ix3 b s 0); omega)

/-- Map 2: its mean over the eight centres. -/
theorem v95_apply (x2 : FVec Ideal S64x26x32x32 .f32) (x8 : IVec S64x8x2 32) (h8 : ∀ i, (x8 i).toNat < 32)
    (b : Fin 64) (c : Fin 26) :
    val_main_v95 (F := Ideal) x2 x8 (ix2 b c) = Spec.pool 32 x2 x8 b c := by
  rw [val_main_v95_apply, val_main_v93_apply, val_main_v94_apply, val_main_cst_22_apply, val_main_cst_21_apply]
  exact pool_of_gather 32 x2 x8 _ (v92_apply x2 x8 h8) b c _ (fun k => funext fun a => by
    match a with
    | ⟨0, _⟩ => rfl
    | ⟨1, _⟩ => rfl
    | ⟨2, _⟩ => rfl)

/-- Map 3 (side 16): the gathered array at an index. -/
theorem v124_apply (x3 : FVec Ideal S64x26x16x16 .f32) (x9 : IVec S64x8x2 32) (h9 : ∀ i, (x9 i).toNat < 16)
    (b : Fin 64) (s : Fin 8) (c : Fin 26) :
    val_main_v124 (F := Ideal) x3 x9 (ix3 b s c)
      = x3 (ix4 b c (Spec.coord 16 (x9 (ix3 b s 1))) (Spec.coord 16 (x9 (ix3 b s 0)))) := by
  unfold val_main_v124
  refine gather_read 16 (by norm_num) _ x3 x9 h9 _ _ (fun b y z c => ?_) (fun b s => ?_) (fun b s => ?_)
    (fun b s => ?_) b s c
  · rw [val_main_v97_apply]
    exact congrArg x3 (funext fun a => by
      match a with
      | ⟨0, _⟩ => rfl
      | ⟨1, _⟩ => rfl
      | ⟨2, _⟩ => rfl
      | ⟨3, _⟩ => rfl)
  · unfold val_main_v123
    rw [(concat3_apply _ _ _ _ b s).1, val_main_v120_apply, val_main_v119_apply, val_main_v108_apply,
      val_main_v105_apply, val_main_v107_apply, val_main_v103_apply, val_main_v102_apply, val_main_v104_apply,
      val_main_c_23_apply]
    exact select_neg_keep (BitVec.ofNat 32 b.val) _ (ofNat_fin64_lt b)
  · unfold val_main_v123
    rw [(concat3_apply _ _ _ _ b s).2.1, val_main_v121_apply, val_main_v113_apply, val_main_v110_apply,
      val_main_v112_apply, val_main_v101_apply, val_main_v100_apply, val_main_v109_apply, val_main_c_25_apply,
      tab_idx (idx_main_v100 (idx_main_v101 (idx_main_v121 (ix3 b s 0)))) b s 1 rfl rfl rfl]
    exact select_neg_keep _ _ (by have := h9 (ix3 b s 1); omega)
  · unfold val_main_v123
    rw [(concat3_apply _ _ _ _ b s).2.2, val_main_v122_apply, val_main_v118_apply, val_main_v115_apply,
      val_main_v117_apply, val_main_v99_apply, val_main_v98_apply, val_main_v114_apply, val_main_c_27_apply,
      tab_idx (idx_main_v98 (idx_main_v99 (idx_main_v122 (ix3 b s 0)))) b s 0 rfl rfl rfl]
    exact select_neg_keep _ _ (by have := h9 (ix3 b s 0); omega)

/-- Map 3: its mean over the eight centres. -/
theorem v127_apply (x3 : FVec Ideal S64x26x16x16 .f32) (x9 : IVec S64x8x2 32) (h9 : ∀ i, (x9 i).toNat < 16)
    (b : Fin 64) (c : Fin 26) :
    val_main_v127 (F := Ideal) x3 x9 (ix2 b c) = Spec.pool 16 x3 x9 b c := by
  rw [val_main_v127_apply, val_main_v125_apply, val_main_v126_apply, val_main_cst_30_apply, val_main_cst_29_apply]
  exact pool_of_gather 16 x3 x9 _ (v124_apply x3 x9 h9) b c _ (fun k => funext fun a => by
    match a with
    | ⟨0, _⟩ => rfl
    | ⟨1, _⟩ => rfl
    | ⟨2, _⟩ => rfl)

end Maps

/-! ## The four means averaged, the feature row, the two dense layers -/

section Head

open Cert.ReferenceIdeal Cert.ReferenceIdeal.Gen Cert.RefRead

variable (a0 : FVec Ideal S64x26x128x128 .f32) (a1 : FVec Ideal S64x26x64x64 .f32)
  (a2 : FVec Ideal S64x26x32x32 .f32) (a3 : FVec Ideal S64x26x16x16 .f32) (a4 a5 : FVec Ideal S64x26 .f32)
  (a6 a7 a8 a9 : IVec S64x8x2 32) (a10 : FVec Ideal S78x39 .f32) (a11 : FVec Ideal S39 .f32)
  (a12 : FVec Ideal S39x26 .f32) (a13 : FVec Ideal S26 .f32)

/-- The sum of the four means from zero, divided by the literal four. -/
theorem v130_apply (h6 : ∀ i, (a6 i).toNat < 128) (h7 : ∀ i, (a7 i).toNat < 64) (h8 : ∀ i, (a8 i).toNat < 32)
    (h9 : ∀ i, (a9 i).toNat < 16) (b : Fin 64) (c : Fin 26) :
    val_main_v130 (F := Ideal) a0 a1 a2 a3 a6 a7 a8 a9 (ix2 b c) = Spec.bu a0 a1 a2 a3 a6 a7 a8 a9 b c := by
  rw [val_main_v130_apply, val_main_v128_apply, val_main_v96_apply, val_main_v64_apply, val_main_v32_apply,
    val_main_v31_apply, val_main_cst_6_apply, val_main_v129_apply, val_main_cst_31_apply,
    v30_apply a0 a6 h6, v63_apply a1 a7 h7, v95_apply a2 a8 h8, v127_apply a3 a9 h9]
  simp only [Ideal.ofBits_def, Ideal.hostDivf_def, Ideal.addf_def, ofBits_four, Ideal.ofBits_zero_f32, zero_add]
  rw [Ideal.div_coe (by norm_num)]
  rfl

/-- The feature row. -/
theorem v131_apply (h6 : ∀ i, (a6 i).toNat < 128) (h7 : ∀ i, (a7 i).toNat < 64) (h8 : ∀ i, (a8 i).toNat < 32)
    (h9 : ∀ i, (a9 i).toNat < 16) (b : Fin 64) (j : Fin 78) :
    val_main_v131 (F := Ideal) a0 a1 a2 a3 a4 a5 a6 a7 a8 a9 (ix2 b j)
      = Spec.feat a0 a1 a2 a3 a4 a5 a6 a7 a8 a9 b j := by
  unfold val_main_v131 Spec.feat
  rw [concat78_apply]
  by_cases h1 : j.val < 26
  · rw [dif_pos h1, dif_pos h1, v130_apply a0 a1 a2 a3 a6 a7 a8 a9 h6 h7 h8 h9]
  · rw [dif_neg h1, dif_neg h1]

/-- The hidden layer. -/
theorem v136_apply (h6 : ∀ i, (a6 i).toNat < 128) (h7 : ∀ i, (a7 i).toNat < 64) (h8 : ∀ i, (a8 i).toNat < 32)
    (h9 : ∀ i, (a9 i).toNat < 16) (b : Fin 64) (k : Fin 39) :
    val_main_v136 (F := Ideal) a0 a1 a2 a3 a4 a5 a6 a7 a8 a9 a10 a11 (ix2 b k)
      = Spec.hid a0 a1 a2 a3 a4 a5 a6 a7 a8 a9 a10 a11 b k := by
  rw [val_main_v136_apply, val_main_v135_apply, val_main_v132_apply, val_main_v134_apply, val_main_v133_apply,
    val_main_call0_v0_apply, val_main_call0_cst_apply]
  simp only [Ideal.ofBits_def, Ideal.maximumf_def, Ideal.addf_def, Ideal.ofBits_zero_f32]
  unfold Spec.hid
  refine congrArg (max · 0) (congrArg₂ (· + ·) (Finset.sum_congr rfl fun j _ => ?_) (congrArg a11 ?_))
  · rw [show lidx_main_v132 (ix2 b k) j = ix2 b j from funext fun a => by
        match a with
        | ⟨0, _⟩ => rfl
        | ⟨1, _⟩ => rfl,
      show ridx_main_v132 (ix2 b k) j = ix2 j k from funext fun a => by
        match a with
        | ⟨0, _⟩ => rfl
        | ⟨1, _⟩ => rfl,
      v131_apply a0 a1 a2 a3 a4 a5 a6 a7 a8 a9 h6 h7 h8 h9]
  · funext a
    match a with
    | ⟨0, _⟩ => rfl

end Head

/-- The reference's result is the specification's, on the domain. -/
theorem ref_eq (a0 : FVec Ideal Cert.ReferenceIdeal.S64x26x128x128 .f32) (a1 : FVec Ideal Cert.ReferenceIdeal.S64x26x64x64 .f32)
    (a2 : FVec Ideal Cert.ReferenceIdeal.S64x26x32x32 .f32) (a3 : FVec Ideal Cert.ReferenceIdeal.S64x26x16x16 .f32)
    (a4 a5 : FVec Ideal Cert.ReferenceIdeal.S64x26 .f32) (a6 a7 a8 a9 : IVec Cert.ReferenceIdeal.S64x8x2 32)
    (a10 : FVec Ideal Cert.ReferenceIdeal.S78x39 .f32) (a11 : FVec Ideal Cert.ReferenceIdeal.S39 .f32)
    (a12 : FVec Ideal Cert.ReferenceIdeal.S39x26 .f32) (a13 : FVec Ideal Cert.ReferenceIdeal.S26 .f32)
    (hd : Cert.Spec.Dom a0 a1 a2 a3 a4 a5 a6 a7 a8 a9 a10 a11 a12 a13) :
    Cert.RefRead.val_main_v140 (F := Ideal) a0 a1 a2 a3 a4 a5 a6 a7 a8 a9 a10 a11 a12 a13
      = Cert.Spec.out a0 a1 a2 a3 a4 a5 a6 a7 a8 a9 a10 a11 a12 a13 := by
  funext i
  obtain ⟨b, c, rfl⟩ : ∃ (b : Fin 64) (c : Fin 26), i = ix2 b c := ⟨i 0, i 1, eq_ix2 i⟩
  rw [Cert.RefRead.val_main_v140_apply, Cert.RefRead.val_main_v137_apply,
    Cert.RefRead.val_main_v139_apply, Cert.RefRead.val_main_v138_apply]
  simp only [Ideal.addf_def]
  show _ = (∑ k : Fin 39, Cert.Spec.hid a0 a1 a2 a3 a4 a5 a6 a7 a8 a9 a10 a11 b k * a12 (ix2 k c)) + a13 (ix1 c)
  refine congrArg₂ (· + ·) (Finset.sum_congr rfl fun k _ => ?_) (congrArg a13 ?_)
  · rw [show Cert.RefRead.lidx_main_v137 (ix2 b c) k = ix2 b k from funext fun a => by
        match a with
        | ⟨0, _⟩ => rfl
        | ⟨1, _⟩ => rfl,
      show Cert.RefRead.ridx_main_v137 (ix2 b c) k = ix2 k c from funext fun a => by
        match a with
        | ⟨0, _⟩ => rfl
        | ⟨1, _⟩ => rfl,
      v136_apply a0 a1 a2 a3 a4 a5 a6 a7 a8 a9 a10 a11 hd.r6 hd.r7 hd.r8 hd.r9]
  · funext a
    match a with
    | ⟨0, _⟩ => rfl

end Cert.RefValue

end
-- ==== Proof.RefRun.lean ====
/-
  The reference's run.  @main is a straight line of 177 host operations.  The line is cut into ten stretches, at the
  two places where the program's own three windows meet and before each concatenation, so that a concatenation's
  operands are buffers the stretch starts from.  For each stretch: its operations; that they touch TensorCore
  references only and allocate nothing; the references they write (every other reference keeps its contents); and
  what the buffers later stretches read hold after it, as the reference's stage functions of what the stretch
  started from.  The whole line is the ten stretches in order, so the result buffer ends at the last stage of the
  fourteen arguments and every argument is unchanged; the run follows from the library's statement for a line.
-/
import proofs.«414461_j46188078301471_3_alg».proof.Proof.RefRead
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## Tools: what a stretch of operations leaves alone -/

/-- An operation that writes the one reference `y` writes inside any list holding `y`. -/
theorem writes_sub {op : HloOp τ sig (Elt F)} (y : Ref sig .tc) (h : op.writes = {Proc.devRef .tc y})
    {W : List (Ref sig .tc)} (hy : y ∈ W) : op.writes ⊆ (W.map (Proc.devRef (τ := τ) .tc)).toFinset := by
  rw [h, Finset.singleton_subset_iff, List.mem_toFinset]
  exact List.mem_map.mpr ⟨y, hy, rfl⟩

/-- Two stretches run one after the other: the fold of the second over the fold of the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Stretch 0: operations 0 … 31 -/

/-- Operations 0 … 31 of @main. -/
abbrev c0 : List (HloOp τ sig (Elt F)) :=
  [ unary main_arg0 main_v0 ((transpose S64x128x128x26 [0, 2, 3, 1] · transposes_S64x26x128x128_S64x128x128x26_0_2_3_1) : (⟨S64x26x128x128, .f32⟩ : BufTy).Contents (Elt F) → (⟨S64x128x128x26, .f32⟩ : BufTy).Contents (Elt F)),
    unary main_arg6 main_v1 ((extractStridedSlice S64x8x1 ![0, 0, 0] · slices_S64x8x2_S64x8x1_0_0_0) : (⟨S64x8x2, .i32⟩ : BufTy).Contents (Elt F) → (⟨S64x8x1, .i32⟩ : BufTy).Contents (Elt F)),
    reshape main_v1 main_v2 rfl shapeCasts_S64x8x1_S64x8,
    unary main_arg6 main_v3 ((extractStridedSlice S64x8x1 ![0, 0, 1] · slices_S64x8x2_S64x8x1_0_0_1) : (⟨S64x8x2, .i32⟩ : BufTy).Contents (Elt F) → (⟨S64x8x1, .i32⟩ : BufTy).Contents (Elt F)),
    reshape main_v3 main_v4 rfl shapeCasts_S64x8x1_S64x8,
    nullary main_v5 (iotaInDim S64 32 0),
    unary main_v5 main_v6 (broadcastInDim S64x1 ![0] bcast_S64_S64x1_0 : (⟨S64, .i32⟩ : BufTy).Contents (Elt F) → (⟨S64x1, .i32⟩ : BufTy).Contents (Elt F)),
    nullary main_c (constantI S_ 32 0#32),
    unary main_c main_v7 (broadcastInDim S64x1 ![] bcast_S_S64x1 : (⟨S_, .i32⟩ : BufTy).Contents (Elt F) → (⟨S64x1, .i32⟩ : BufTy).Contents (Elt F)),
    binary main_v6 main_v7 main_v8 (cmpi .slt : (⟨S64x1, .i32⟩ : BufTy).Contents (Elt F) → (⟨S64x1, .i32⟩ : BufTy).Contents (Elt F) → (⟨S64x1, .i1⟩ : BufTy).Contents (Elt F)),
    nullary main_c_0 (constantI S_ 32 64#32),
    unary main_c_0 main_v9 (broadcastInDim S64x1 ![] bcast_S_S64x1 : (⟨S_, .i32⟩ : BufTy).Contents (Elt F) → (⟨S64x1, .i32⟩ : BufTy).Contents (Elt F)),
    binary main_v6 main_v9 main_v10 (addi : (⟨S64x1, .i32⟩ : BufTy).Contents (Elt F) → (⟨S64x1, .i32⟩ : BufTy).Contents (Elt F) → (⟨S64x1, .i32⟩ : BufTy).Contents (Elt F)),
    ternary main_v8 main_v10 main_v6 main_v11 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_1 (constantI S_ 32 0#32),
    unary main_c_1 main_v12 (broadcastInDim S64x8 ![] bcast_S_S64x8 : (⟨S_, .i32⟩ : BufTy).Contents (Elt F) → (⟨S64x8, .i32⟩ : BufTy).Contents (Elt F)),
    binary main_v4 main_v12 main_v13 (cmpi .slt : (⟨S64x8, .i32⟩ : BufTy).Contents (Elt F) → (⟨S64x8, .i32⟩ : BufTy).Contents (Elt F) → (⟨S64x8, .i1⟩ : BufTy).Contents (Elt F)),
    nullary main_c_2 (constantI S_ 32 128#32),
    unary main_c_2 main_v14 (broadcastInDim S64x8 ![] bcast_S_S64x8 : (⟨S_, .i32⟩ : BufTy).Contents (Elt F) → (⟨S64x8, .i32⟩ : BufTy).Contents (Elt F)),
    binary main_v4 main_v14 main_v15 (addi : (⟨S64x8, .i32⟩ : BufTy).Contents (Elt F) → (⟨S64x8, .i32⟩ : BufTy).Contents (Elt F) → (⟨S64x8, .i32⟩ : BufTy).Contents (Elt F)),
    ternary main_v13 main_v15 main_v4 main_v16 (select : (⟨S64x8, .i1⟩ : BufTy).Contents (Elt F) → (⟨S64x8, .i32⟩ : BufTy).Contents (Elt F) → (⟨S64x8, .i32⟩ : BufTy).Contents (Elt F) → (⟨S64x8, .i32⟩ : BufTy).Contents (Elt F)),
    nullary main_c_3 (constantI S_ 32 0#32),
    unary main_c_3 main_v17 (broadcastInDim S64x8 ![] bcast_S_S64x8 : (⟨S_, .i32⟩ : BufTy).Contents (Elt F) → (⟨S64x8, .i32⟩ : BufTy).Contents (Elt F)),
    binary main_v2 main_v17 main_v18 (cmpi .slt : (⟨S64x8, .i32⟩ : BufTy).Contents (Elt F) → (⟨S64x8, .i32⟩ : BufTy).Contents (Elt F) → (⟨S64x8, .i1⟩ : BufTy).Contents (Elt F)),
    nullary main_c_4 (constantI S_ 32 128#32),
    unary main_c_4 main_v19 (broadcastInDim S64x8 ![] bcast_S_S64x8 : (⟨S_, .i32⟩ : BufTy).Contents (Elt F) → (⟨S64x8, .i32⟩ : BufTy).Contents (Elt F)),
    binary main_v2 main_v19 main_v20 (addi : (⟨S64x8, .i32⟩ : BufTy).Contents (Elt F) → (⟨S64x8, .i32⟩ : BufTy).Contents (Elt F) → (⟨S64x8, .i32⟩ : BufTy).Contents (Elt F)),
    ternary main_v18 main_v20 main_v2 main_v21 (select : (⟨S64x8, .i1⟩ : BufTy).Contents (Elt F) → (⟨S64x8, .i32⟩ : BufTy).Contents (Elt F) → (⟨S64x8, .i32⟩ : BufTy).Contents (Elt F) → (⟨S64x8, .i32⟩ : BufTy).Contents (Elt F)),
    unary main_v11 main_v22 (broadcastInDim S64x8 ![0, 1] bcast_S64x1_S64x8_0_1 : (⟨S64x1, .i32⟩ : BufTy).Contents (Elt F) → (⟨S64x8, .i32⟩ : BufTy).Contents (Elt F)),
    unary main_v22 main_v23 (broadcastInDim S64x8x1 ![0, 1] bcast_S64x8_S64x8x1_0_1 : (⟨S64x8, .i32⟩ : BufTy).Contents (Elt F) → (⟨S64x8x1, .i32⟩ : BufTy).Contents (Elt F)),
    unary main_v16 main_v24 (broadcastInDim S64x8x1 ![0, 1] bcast_S64x8_S64x8x1_0_1 : (⟨S64x8, .i32⟩ : BufTy).Contents (Elt F) → (⟨S64x8x1, .i32⟩ : BufTy).Contents (Elt F)),
    unary main_v21 main_v25 (broadcastInDim S64x8x1 ![0, 1] bcast_S64x8_S64x8x1_0_1 : (⟨S64x8, .i32⟩ : BufTy).Contents (Elt F) → (⟨S64x8x1, .i32⟩ : BufTy).Contents (Elt F)) ]

/-- What they write. -/
abbrev W0 : List (Ref sig .tc) :=
  [main_v0, main_v1, main_v2, main_v3, main_v4, main_v5, main_v6, main_c, main_v7, main_v8, main_c_0, main_v9, main_v10, main_v11, main_c_1, main_v12, main_v13, main_c_2, main_v14, main_v15, main_v16, main_c_3, main_v17, main_v18, main_c_4, main_v19, main_v20, main_v21, main_v22, main_v23, main_v24, main_v25]

theorem c0_sub : (c0 : List (HloOp τ sig (Elt F))).Forall fun op => op.bufs ⊆ tcRefs τ sig :=
  ⟨unary_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub ..⟩

theorem c0_writes : (c0 : List (HloOp τ sig (Elt F))).Forall fun op => op.writes ⊆ (W0.map (Proc.devRef (τ := τ) .tc)).toFinset :=
  ⟨writes_sub main_v0 rfl (by decide), writes_sub main_v1 rfl (by decide), writes_sub main_v2 rfl (by decide), writes_sub main_v3 rfl (by decide), writes_sub main_v4 rfl (by decide), writes_sub main_v5 rfl (by decide), writes_sub main_v6 rfl (by decide), writes_sub main_c rfl (by decide), writes_sub main_v7 rfl (by decide), writes_sub main_v8 rfl (by decide), writes_sub main_c_0 rfl (by decide), writes_sub main_v9 rfl (by decide), writes_sub main_v10 rfl (by decide), writes_sub main_v11 rfl (by decide), writes_sub main_c_1 rfl (by decide), writes_sub main_v12 rfl (by decide), writes_sub main_v13 rfl (by decide), writes_sub main_c_2 rfl (by decide), writes_sub main_v14 rfl (by decide), writes_sub main_v15 rfl (by decide), writes_sub main_v16 rfl (by decide), writes_sub main_c_3 rfl (by decide), writes_sub main_v17 rfl (by decide), writes_sub main_v18 rfl (by decide), writes_sub main_c_4 rfl (by decide), writes_sub main_v19 rfl (by decide), writes_sub main_v20 rfl (by decide), writes_sub main_v21 rfl (by decide), writes_sub main_v22 rfl (by decide), writes_sub main_v23 rfl (by decide), writes_sub main_v24 rfl (by decide), writes_sub main_v25 rfl (by decide)⟩

theorem c0_fresh : ∀ op ∈ (c0 : List (HloOp τ sig (Elt F))), op.fresh = ∅ := by
  intro _ h; (repeat (cases h with | head => rfl | tail _ h => ?_)); exact nomatch h

/-- A reference the stretch does not write keeps its contents. -/
theorem c0_keep (V : Valuation τ sig (Elt F)) (r : Ref sig .tc) (hr : r ∉ W0) :
    after c0 V (Proc.devRef .tc r) = V (Proc.devRef .tc r) :=
  after_of_writes_sub c0 V c0_writes hr

section
open Cert.RefRead

theorem c0_v0 (V : Valuation τ sig (Elt F)) (x0 : (⟨S64x26x128x128, .f32⟩ : BufTy).Contents (Elt F))
    (h0 : V (Proc.devRef .tc main_arg0) = x0) :
    after c0 V (Proc.devRef .tc main_v0) = val_main_v0 (F := F) x0 := by
  after_results_simp
  rw [h0]
  rfl

theorem c0_v23 (V : Valuation τ sig (Elt F)) :
    after c0 V (Proc.devRef .tc main_v23) = val_main_v23 (F := F) := by
  after_results_simp <;> rfl

theorem c0_v24 (V : Valuation τ sig (Elt F)) (x6 : (⟨S64x8x2, .i32⟩ : BufTy).Contents (Elt F))
    (h0 : V (Proc.devRef .tc main_arg6) = x6) :
    after c0 V (Proc.devRef .tc main_v24) = val_main_v24 (F := F) x6 := by
  after_results_simp
  rw [h0]
  rfl

theorem c0_v25 (V : Valuation τ sig (Elt F)) (x6 : (⟨S64x8x2, .i32⟩ : BufTy).Contents (Elt F))
    (h0 : V (Proc.devRef .tc main_arg6) = x6) :
    after c0 V (Proc.devRef .tc main_v25) = val_main_v25 (F := F) x6 := by
  after_results_simp
  rw [h0]
  rfl

end

/-! ## Stretch 1: operations 32 … 41 -/

/-- Operations 32 … 41 of @main. -/
abbrev c1 : List (HloOp τ sig (Elt F)) :=
  [ nary ![main_v23, main_v24, main_v25] main_v26 (fun u => concatenate S64x8x3 2 [⟨S64x8x1, u 0⟩, ⟨S64x8x1, u 1⟩, ⟨S64x8x1, u 2⟩] concatenates_S64x8x1_S64x8x1_S64x8x1_S64x8x3_d2),
    binary main_v0 main_v26 main_v27 ((fun x i => Host.gather gather_S64x128x128x26_S64x8x3_S64x8x26_2_012_n_n_012_2_11126 x i) : (⟨S64x128x128x26, .f32⟩ : BufTy).Contents (Elt F) → (⟨S64x8x3, .i32⟩ : BufTy).Contents (Elt F) → (⟨S64x8x26, .f32⟩ : BufTy).Contents (Elt F)),
    nullary main_cst (constant S_ .f32 0x00000000#32),
    binary main_v27 main_cst main_v28 ((fun x v => Host.reduceAdd x v reducesTo_S64x8x26_S64x26_d1 h_S_) : (⟨S64x8x26, .f32⟩ : BufTy).Contents (Elt F) → (⟨S_, .f32⟩ : BufTy).Contents (Elt F) → (⟨S64x26, .f32⟩ : BufTy).Contents (Elt F)),
    nullary main_cst_5 (constant S_ .f32 0x41000000#32),
    unary main_cst_5 main_v29 (broadcastInDim S64x26 ![] bcast_S_S64x26 : (⟨S_, .f32⟩ : BufTy).Contents (Elt F) → (⟨S64x26, .f32⟩ : BufTy).Contents (Elt F)),
    binary main_v28 main_v29 main_v30 (Host.divf : (⟨S64x26, .f32⟩ : BufTy).Contents (Elt F) → (⟨S64x26, .f32⟩ : BufTy).Contents (Elt F) → (⟨S64x26, .f32⟩ : BufTy).Contents (Elt F)),
    nullary main_cst_6 (constant S_ .f32 0x00000000#32),
    unary main_cst_6 main_v31 (broadcastInDim S64x26 ![] bcast_S_S64x26 : (⟨S_, .f32⟩ : BufTy).Contents (Elt F) → (⟨S64x26, .f32⟩ : BufTy).Contents (Elt F)),
    binary main_v31 main_v30 main_v32 (addf : (⟨S64x26, .f32⟩ : BufTy).Contents (Elt F) → (⟨S64x26, .f32⟩ : BufTy).Contents (Elt F) → (⟨S64x26, .f32⟩ : BufTy).Contents (Elt F)) ]

/-- What they write. -/
abbrev W1 : List (Ref sig .tc) :=
  [main_v26, main_v27, main_cst, main_v28, main_cst_5, main_v29, main_v30, main_cst_6, main_v31, main_v32]

theorem c1_sub : (c1 : List (HloOp τ sig (Elt F))).Forall fun op => op.bufs ⊆ tcRefs τ sig :=
  ⟨nary_bufs_sub .., binary_bufs_sub .., nullary_bufs_sub .., binary_bufs_sub .., nullary_bufs_sub .., unary_bufs_sub .., binary_bufs_sub .., nullary_bufs_sub .., unary_bufs_sub .., binary_bufs_sub ..⟩

theorem c1_writes : (c1 : List (HloOp τ sig (Elt F))).Forall fun op => op.writes ⊆ (W1.map (Proc.devRef (τ := τ) .tc)).toFinset :=
  ⟨writes_sub main_v26 rfl (by decide), writes_sub main_v27 rfl (by decide), writes_sub main_cst rfl (by decide), writes_sub main_v28 rfl (by decide), writes_sub main_cst_5 rfl (by decide), writes_sub main_v29 rfl (by decide), writes_sub main_v30 rfl (by decide), writes_sub main_cst_6 rfl (by decide), writes_sub main_v31 rfl (by decide), writes_sub main_v32 rfl (by decide)⟩

theorem c1_fresh : ∀ op ∈ (c1 : List (HloOp τ sig (Elt F))), op.fresh = ∅ := by
  intro _ h; (repeat (cases h with | head => rfl | tail _ h => ?_)); exact nomatch h

/-- A reference the stretch does not write keeps its contents. -/
theorem c1_keep (V : Valuation τ sig (Elt F)) (r : Ref sig .tc) (hr : r ∉ W1) :
    after c1 V (Proc.devRef .tc r) = V (Proc.devRef .tc r) :=
  after_of_writes_sub c1 V c1_writes hr

section
open Cert.RefRead

theorem c1_v32 (V : Valuation τ sig (Elt F)) (x0 : (⟨S64x26x128x128, .f32⟩ : BufTy).Contents (Elt F)) (x6 : (⟨S64x8x2, .i32⟩ : BufTy).Contents (Elt F))
    (h0 : V (Proc.devRef .tc main_v0) = val_main_v0 (F := F) x0)
    (h1 : V (Proc.devRef .tc main_v23) = val_main_v23 (F := F))
    (h2 : V (Proc.devRef .tc main_v24) = val_main_v24 (F := F) x6)
    (h3 : V (Proc.devRef .tc main_v25) = val_main_v25 (F := F) x6) :
    after c1 V (Proc.devRef .tc main_v32) = val_main_v32 (F := F) x0 x6 := by
  after_results_simp
  change addf _ (Host.divf (Host.reduceAdd (Host.gather _ (V (Proc.devRef .tc main_v0)) (concatenate S64x8x3 2 [⟨S64x8x1, V (Proc.devRef .tc main_v23)⟩, ⟨S64x8x1, V (Proc.devRef .tc main_v24)⟩, ⟨S64x8x1, V (Proc.devRef .tc main_v25)⟩] _)) _ _ _) _) = _
  rw [h0, h1, h2, h3]
  rfl

end

/-! ## Stretch 2: operations 42 … 59 -/

/-- Operations 42 … 59 of @main. -/
abbrev c2 : List (HloOp τ sig (Elt F)) :=
  [ unary main_arg1 main_v33 ((transpose S64x64x64x26 [0, 2, 3, 1] · transposes_S64x26x64x64_S64x64x64x26_0_2_3_1) : (⟨S64x26x64x64, .f32⟩ : BufTy).Contents (Elt F) → (⟨S64x64x64x26, .f32⟩ : BufTy).Contents (Elt F)),
    unary main_arg7 main_v34 ((extractStridedSlice S64x8x1 ![0, 0, 0] · slices_S64x8x2_S64x8x1_0_0_0) : (⟨S64x8x2, .i32⟩ : BufTy).Contents (Elt F) → (⟨S64x8x1, .i32⟩ : BufTy).Contents (Elt F)),
    reshape main_v34 main_v35 rfl shapeCasts_S64x8x1_S64x8,
    unary main_arg7 main_v36 ((extractStridedSlice S64x8x1 ![0, 0, 1] · slices_S64x8x2_S64x8x1_0_0_1) : (⟨S64x8x2, .i32⟩ : BufTy).Contents (Elt F) → (⟨S64x8x1, .i32⟩ : BufTy).Contents (Elt F)),
    reshape main_v36 main_v37 rfl shapeCasts_S64x8x1_S64x8,
    nullary main_v38 (iotaInDim S64 32 0),
    unary main_v38 main_v39 (broadcastInDim S64x1 ![0] bcast_S64_S64x1_0 : (⟨S64, .i32⟩ : BufTy).Contents (Elt F) → (⟨S64x1, .i32⟩ : BufTy).Contents (Elt F)),
    nullary main_c_7 (constantI S_ 32 0#32),
    unary main_c_7 main_v40 (broadcastInDim S64x1 ![] bcast_S_S64x1 : (⟨S_, .i32⟩ : BufTy).Contents (Elt F) → (⟨S64x1, .i32⟩ : BufTy).Contents (Elt F)),
    binary main_v39 main_v40 main_v41 (cmpi .slt : (⟨S64x1, .i32⟩ : BufTy).Contents (Elt F) → (⟨S64x1, .i32⟩ : BufTy).Contents (Elt F) → (⟨S64x1, .i1⟩ : BufTy).Contents (Elt F)),
    nullary main_c_8 (constantI S_ 32 64#32),
    unary main_c_8 main_v42 (broadcastInDim S64x1 ![] bcast_S_S64x1 : (⟨S_, .i32⟩ : BufTy).Contents (Elt F) → (⟨S64x1, .i32⟩ : BufTy).Contents (Elt F)),
    binary main_v39 main_v42 main_v43 (addi : (⟨S64x1, .i32⟩ : BufTy).Contents (Elt F) → (⟨S64x1, .i32⟩ : BufTy).Contents (Elt F) → (⟨S64x1, .i32⟩ : BufTy).Contents (Elt F)),
    ternary main_v41 main_v43 main_v39 main_v44 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_9 (constantI S_ 32 0#32),
    unary main_c_9 main_v45 (broadcastInDim S64x8 ![] bcast_S_S64x8 : (⟨S_, .i32⟩ : BufTy).Contents (Elt F) → (⟨S64x8, .i32⟩ : BufTy).Contents (Elt F)),
    binary main_v37 main_v45 main_v46 (cmpi .slt : (⟨S64x8, .i32⟩ : BufTy).Contents (Elt F) → (⟨S64x8, .i32⟩ : BufTy).Contents (Elt F) → (⟨S64x8, .i1⟩ : BufTy).Contents (Elt F)),
    nullary main_c_10 (constantI S_ 32 64#32) ]

/-- What they write. -/
abbrev W2 : List (Ref sig .tc) :=
  [main_v33, main_v34, main_v35, main_v36, main_v37, main_v38, main_v39, main_c_7, main_v40, main_v41, main_c_8, main_v42, main_v43, main_v44, main_c_9, main_v45, main_v46, main_c_10]

theorem c2_sub : (c2 : List (HloOp τ sig (Elt F))).Forall fun op => op.bufs ⊆ tcRefs τ sig :=
  ⟨unary_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

theorem c2_writes : (c2 : List (HloOp τ sig (Elt F))).Forall fun op => op.writes ⊆ (W2.map (Proc.devRef (τ := τ) .tc)).toFinset :=
  ⟨writes_sub main_v33 rfl (by decide), writes_sub main_v34 rfl (by decide), writes_sub main_v35 rfl (by decide), writes_sub main_v36 rfl (by decide), writes_sub main_v37 rfl (by decide), writes_sub main_v38 rfl (by decide), writes_sub main_v39 rfl (by decide), writes_sub main_c_7 rfl (by decide), writes_sub main_v40 rfl (by decide), writes_sub main_v41 rfl (by decide), writes_sub main_c_8 rfl (by decide), writes_sub main_v42 rfl (by decide), writes_sub main_v43 rfl (by decide), writes_sub main_v44 rfl (by decide), writes_sub main_c_9 rfl (by decide), writes_sub main_v45 rfl (by decide), writes_sub main_v46 rfl (by decide), writes_sub main_c_10 rfl (by decide)⟩

theorem c2_fresh : ∀ op ∈ (c2 : List (HloOp τ sig (Elt F))), op.fresh = ∅ := by
  intro _ h; (repeat (cases h with | head => rfl | tail _ h => ?_)); exact nomatch h

/-- A reference the stretch does not write keeps its contents. -/
theorem c2_keep (V : Valuation τ sig (Elt F)) (r : Ref sig .tc) (hr : r ∉ W2) :
    after c2 V (Proc.devRef .tc r) = V (Proc.devRef .tc r) :=
  after_of_writes_sub c2 V c2_writes hr

section
open Cert.RefRead

theorem c2_v33 (V : Valuation τ sig (Elt F)) (x1 : (⟨S64x26x64x64, .f32⟩ : BufTy).Contents (Elt F))
    (h0 : V (Proc.devRef .tc main_arg1) = x1) :
    after c2 V (Proc.devRef .tc main_v33) = val_main_v33 (F := F) x1 := by
  after_results_simp
  rw [h0]
  rfl

theorem c2_v35 (V : Valuation τ sig (Elt F)) (x7 : (⟨S64x8x2, .i32⟩ : BufTy).Contents (Elt F))
    (h0 : V (Proc.devRef .tc main_arg7) = x7) :
    after c2 V (Proc.devRef .tc main_v35) = val_main_v35 (F := F) x7 := by
  after_results_simp
  rw [h0]
  rfl

theorem c2_v37 (V : Valuation τ sig (Elt F)) (x7 : (⟨S64x8x2, .i32⟩ : BufTy).Contents (Elt F))
    (h0 : V (Proc.devRef .tc main_arg7) = x7) :
    after c2 V (Proc.devRef .tc main_v37) = val_main_v37 (F := F) x7 := by
  after_results_simp
  rw [h0]
  rfl

theorem c2_v44 (V : Valuation τ sig (Elt F)) :
    after c2 V (Proc.devRef .tc main_v44) = val_main_v44 (F := F) := by
  after_results_simp <;> rfl

theorem c2_v46 (V : Valuation τ sig (Elt F)) (x7 : (⟨S64x8x2, .i32⟩ : BufTy).Contents (Elt F))
    (h0 : V (Proc.devRef .tc main_arg7) = x7) :
    after c2 V (Proc.devRef .tc main_v46) = val_main_v46 (F := F) x7 := by
  after_results_simp
  rw [h0]
  rfl

theorem c2_c_10 (V : Valuation τ sig (Elt F)) :
    after c2 V (Proc.devRef .tc main_c_10) = val_main_c_10 (F := F) := by
  after_results_simp <;> rfl

end

/-! ## Stretch 3: operations 60 … 73 -/

/-- Operations 60 … 73 of @main. -/
abbrev c3 : List (HloOp τ sig (Elt F)) :=
  [ unary main_c_10 main_v47 (broadcastInDim S64x8 ![] bcast_S_S64x8 : (⟨S_, .i32⟩ : BufTy).Contents (Elt F) → (⟨S64x8, .i32⟩ : BufTy).Contents (Elt F)),
    binary main_v37 main_v47 main_v48 (addi : (⟨S64x8, .i32⟩ : BufTy).Contents (Elt F) → (⟨S64x8, .i32⟩ : BufTy).Contents (Elt F) → (⟨S64x8, .i32⟩ : BufTy).Contents (Elt F)),
    ternary main_v46 main_v48 main_v37 main_v49 (select : (⟨S64x8, .i1⟩ : BufTy).Contents (Elt F) → (⟨S64x8, .i32⟩ : BufTy).Contents (Elt F) → (⟨S64x8, .i32⟩ : BufTy).Contents (Elt F) → (⟨S64x8, .i32⟩ : BufTy).Contents (Elt F)),
    nullary main_c_11 (constantI S_ 32 0#32),
    unary main_c_11 main_v50 (broadcastInDim S64x8 ![] bcast_S_S64x8 : (⟨S_, .i32⟩ : BufTy).Contents (Elt F) → (⟨S64x8, .i32⟩ : BufTy).Contents (Elt F)),
    binary main_v35 main_v50 main_v51 (cmpi .slt : (⟨S64x8, .i32⟩ : BufTy).Contents (Elt F) → (⟨S64x8, .i32⟩ : BufTy).Contents (Elt F) → (⟨S64x8, .i1⟩ : BufTy).Contents (Elt F)),
    nullary main_c_12 (constantI S_ 32 64#32),
    unary main_c_12 main_v52 (broadcastInDim S64x8 ![] bcast_S_S64x8 : (⟨S_, .i32⟩ : BufTy).Contents (Elt F) → (⟨S64x8, .i32⟩ : BufTy).Contents (Elt F)),
    binary main_v35 main_v52 main_v53 (addi : (⟨S64x8, .i32⟩ : BufTy).Contents (Elt F) → (⟨S64x8, .i32⟩ : BufTy).Contents (Elt F) → (⟨S64x8, .i32⟩ : BufTy).Contents (Elt F)),
    ternary main_v51 main_v53 main_v35 main_v54 (select : (⟨S64x8, .i1⟩ : BufTy).Contents (Elt F) → (⟨S64x8, .i32⟩ : BufTy).Contents (Elt F) → (⟨S64x8, .i32⟩ : BufTy).Contents (Elt F) → (⟨S64x8, .i32⟩ : BufTy).Contents (Elt F)),
    unary main_v44 main_v55 (broadcastInDim S64x8 ![0, 1] bcast_S64x1_S64x8_0_1 : (⟨S64x1, .i32⟩ : BufTy).Contents (Elt F) → (⟨S64x8, .i32⟩ : BufTy).Contents (Elt F)),
    unary main_v55 main_v56 (broadcastInDim S64x8x1 ![0, 1] bcast_S64x8_S64x8x1_0_1 : (⟨S64x8, .i32⟩ : BufTy).Contents (Elt F) → (⟨S64x8x1, .i32⟩ : BufTy).Contents (Elt F)),
    unary main_v49 main_v57 (broadcastInDim S64x8x1 ![0, 1] bcast_S64x8_S64x8x1_0_1 : (⟨S64x8, .i32⟩ : BufTy).Contents (Elt F) → (⟨S64x8x1, .i32⟩ : BufTy).Contents (Elt F)),
    unary main_v54 main_v58 (broadcastInDim S64x8x1 ![0, 1] bcast_S64x8_S64x8x1_0_1 : (⟨S64x8, .i32⟩ : BufTy).Contents (Elt F) → (⟨S64x8x1, .i32⟩ : BufTy).Contents (Elt F)) ]

/-- What they write. -/
abbrev W3 : List (Ref sig .tc) :=
  [main_v47, main_v48, main_v49, main_c_11, main_v50, main_v51, main_c_12, main_v52, main_v53, main_v54, main_v55, main_v56, main_v57, main_v58]

theorem c3_sub : (c3 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub ..⟩

theorem c3_writes : (c3 : List (HloOp τ sig (Elt F))).Forall fun op => op.writes ⊆ (W3.map (Proc.devRef (τ := τ) .tc)).toFinset :=
  ⟨writes_sub main_v47 rfl (by decide), writes_sub main_v48 rfl (by decide), writes_sub main_v49 rfl (by decide), writes_sub main_c_11 rfl (by decide), writes_sub main_v50 rfl (by decide), writes_sub main_v51 rfl (by decide), writes_sub main_c_12 rfl (by decide), writes_sub main_v52 rfl (by decide), writes_sub main_v53 rfl (by decide), writes_sub main_v54 rfl (by decide), writes_sub main_v55 rfl (by decide), writes_sub main_v56 rfl (by decide), writes_sub main_v57 rfl (by decide), writes_sub main_v58 rfl (by decide)⟩

theorem c3_fresh : ∀ op ∈ (c3 : List (HloOp τ sig (Elt F))), op.fresh = ∅ := by
  intro _ h; (repeat (cases h with | head => rfl | tail _ h => ?_)); exact nomatch h

/-- A reference the stretch does not write keeps its contents. -/
theorem c3_keep (V : Valuation τ sig (Elt F)) (r : Ref sig .tc) (hr : r ∉ W3) :
    after c3 V (Proc.devRef .tc r) = V (Proc.devRef .tc r) :=
  after_of_writes_sub c3 V c3_writes hr

section
open Cert.RefRead

theorem c3_v56 (V : Valuation τ sig (Elt F))
    (h0 : V (Proc.devRef .tc main_v44) = val_main_v44 (F := F)) :
    after c3 V (Proc.devRef .tc main_v56) = val_main_v56 (F := F) := by
  after_results_simp
  rw [h0]
  rfl

theorem c3_v57 (V : Valuation τ sig (Elt F)) (x7 : (⟨S64x8x2, .i32⟩ : BufTy).Contents (Elt F))
    (h0 : V (Proc.devRef .tc main_v46) = val_main_v46 (F := F) x7)
    (h1 : V (Proc.devRef .tc main_v37) = val_main_v37 (F := F) x7)
    (h2 : V (Proc.devRef .tc main_c_10) = val_main_c_10 (F := F)) :
    after c3 V (Proc.devRef .tc main_v57) = val_main_v57 (F := F) x7 := by
  after_results_simp
  rw [h0, h1, h2]
  rfl

theorem c3_v58 (V : Valuation τ sig (Elt F)) (x7 : (⟨S64x8x2, .i32⟩ : BufTy).Contents (Elt F))
    (h0 : V (Proc.devRef .tc main_v35) = val_main_v35 (F := F) x7) :
    after c3 V (Proc.devRef .tc main_v58) = val_main_v58 (F := F) x7 := by
  after_results_simp
  rw [h0]
  rfl

end

/-! ## Stretch 4: operations 74 … 81 -/

/-- Operations 74 … 81 of @main. -/
abbrev c4 : List (HloOp τ sig (Elt F)) :=
  [ nary ![main_v56, main_v57, main_v58] main_v59 (fun u => concatenate S64x8x3 2 [⟨S64x8x1, u 0⟩, ⟨S64x8x1, u 1⟩, ⟨S64x8x1, u 2⟩] concatenates_S64x8x1_S64x8x1_S64x8x1_S64x8x3_d2),
    binary main_v33 main_v59 main_v60 ((fun x i => Host.gather gather_S64x64x64x26_S64x8x3_S64x8x26_2_012_n_n_012_2_11126 x i) : (⟨S64x64x64x26, .f32⟩ : BufTy).Contents (Elt F) → (⟨S64x8x3, .i32⟩ : BufTy).Contents (Elt F) → (⟨S64x8x26, .f32⟩ : BufTy).Contents (Elt F)),
    nullary main_cst_13 (constant S_ .f32 0x00000000#32),
    binary main_v60 main_cst_13 main_v61 ((fun x v => Host.reduceAdd x v reducesTo_S64x8x26_S64x26_d1 h_S_) : (⟨S64x8x26, .f32⟩ : BufTy).Contents (Elt F) → (⟨S_, .f32⟩ : BufTy).Contents (Elt F) → (⟨S64x26, .f32⟩ : BufTy).Contents (Elt F)),
    nullary main_cst_14 (constant S_ .f32 0x41000000#32),
    unary main_cst_14 main_v62 (broadcastInDim S64x26 ![] bcast_S_S64x26 : (⟨S_, .f32⟩ : BufTy).Contents (Elt F) → (⟨S64x26, .f32⟩ : BufTy).Contents (Elt F)),
    binary main_v61 main_v62 main_v63 (Host.divf : (⟨S64x26, .f32⟩ : BufTy).Contents (Elt F) → (⟨S64x26, .f32⟩ : BufTy).Contents (Elt F) → (⟨S64x26, .f32⟩ : BufTy).Contents (Elt F)),
    binary main_v32 main_v63 main_v64 (addf : (⟨S64x26, .f32⟩ : BufTy).Contents (Elt F) → (⟨S64x26, .f32⟩ : BufTy).Contents (Elt F) → (⟨S64x26, .f32⟩ : BufTy).Contents (Elt F)) ]

/-- What they write. -/
abbrev W4 : List (Ref sig .tc) :=
  [main_v59, main_v60, main_cst_13, main_v61, main_cst_14, main_v62, main_v63, main_v64]

theorem c4_sub : (c4 : List (HloOp τ sig (Elt F))).Forall fun op => op.bufs ⊆ tcRefs τ sig :=
  ⟨nary_bufs_sub .., binary_bufs_sub .., nullary_bufs_sub .., binary_bufs_sub .., nullary_bufs_sub .., unary_bufs_sub .., binary_bufs_sub .., binary_bufs_sub ..⟩

theorem c4_writes : (c4 : List (HloOp τ sig (Elt F))).Forall fun op => op.writes ⊆ (W4.map (Proc.devRef (τ := τ) .tc)).toFinset :=
  ⟨writes_sub main_v59 rfl (by decide), writes_sub main_v60 rfl (by decide), writes_sub main_cst_13 rfl (by decide), writes_sub main_v61 rfl (by decide), writes_sub main_cst_14 rfl (by decide), writes_sub main_v62 rfl (by decide), writes_sub main_v63 rfl (by decide), writes_sub main_v64 rfl (by decide)⟩

theorem c4_fresh : ∀ op ∈ (c4 : List (HloOp τ sig (Elt F))), op.fresh = ∅ := by
  intro _ h; (repeat (cases h with | head => rfl | tail _ h => ?_)); exact nomatch h

/-- A reference the stretch does not write keeps its contents. -/
theorem c4_keep (V : Valuation τ sig (Elt F)) (r : Ref sig .tc) (hr : r ∉ W4) :
    after c4 V (Proc.devRef .tc r) = V (Proc.devRef .tc r) :=
  after_of_writes_sub c4 V c4_writes hr

section
open Cert.RefRead

theorem c4_v64 (V : Valuation τ sig (Elt F)) (x0 : (⟨S64x26x128x128, .f32⟩ : BufTy).Contents (Elt F)) (x1 : (⟨S64x26x64x64, .f32⟩ : BufTy).Contents (Elt F)) (x6 : (⟨S64x8x2, .i32⟩ : BufTy).Contents (Elt F)) (x7 : (⟨S64x8x2, .i32⟩ : BufTy).Contents (Elt F))
    (h0 : V (Proc.devRef .tc main_v32) = val_main_v32 (F := F) x0 x6)
    (h1 : V (Proc.devRef .tc main_v33) = val_main_v33 (F := F) x1)
    (h2 : V (Proc.devRef .tc main_v56) = val_main_v56 (F := F))
    (h3 : V (Proc.devRef .tc main_v57) = val_main_v57 (F := F) x7)
    (h4 : V (Proc.devRef .tc main_v58) = val_main_v58 (F := F) x7) :
    after c4 V (Proc.devRef .tc main_v64) = val_main_v64 (F := F) x0 x1 x6 x7 := by
  after_results_simp
  change addf (V (Proc.devRef .tc main_v32)) (Host.divf (Host.reduceAdd (Host.gather _ (V (Proc.devRef .tc main_v33)) (concatenate S64x8x3 2 [⟨S64x8x1, V (Proc.devRef .tc main_v56)⟩, ⟨S64x8x1, V (Proc.devRef .tc main_v57)⟩, ⟨S64x8x1, V (Proc.devRef .tc main_v58)⟩] _)) _ _ _) _) = _
  rw [h0, h1, h2, h3, h4]
  rfl

end

/-! ## Stretch 5: operations 82 … 113 -/

/-- Operations 82 … 113 of @main. -/
abbrev c5 : List (HloOp τ sig (Elt F)) :=
  [ unary main_arg2 main_v65 ((transpose S64x32x32x26 [0, 2, 3, 1] · transposes_S64x26x32x32_S64x32x32x26_0_2_3_1) : (⟨S64x26x32x32, .f32⟩ : BufTy).Contents (Elt F) → (⟨S64x32x32x26, .f32⟩ : BufTy).Contents (Elt F)),
    unary main_arg8 main_v66 ((extractStridedSlice S64x8x1 ![0, 0, 0] · slices_S64x8x2_S64x8x1_0_0_0) : (⟨S64x8x2, .i32⟩ : BufTy).Contents (Elt F) → (⟨S64x8x1, .i32⟩ : BufTy).Contents (Elt F)),
    reshape main_v66 main_v67 rfl shapeCasts_S64x8x1_S64x8,
    unary main_arg8 main_v68 ((extractStridedSlice S64x8x1 ![0, 0, 1] · slices_S64x8x2_S64x8x1_0_0_1) : (⟨S64x8x2, .i32⟩ : BufTy).Contents (Elt F) → (⟨S64x8x1, .i32⟩ : BufTy).Contents (Elt F)),
    reshape main_v68 main_v69 rfl shapeCasts_S64x8x1_S64x8,
    nullary main_v70 (iotaInDim S64 32 0),
    unary main_v70 main_v71 (broadcastInDim S64x1 ![0] bcast_S64_S64x1_0 : (⟨S64, .i32⟩ : BufTy).Contents (Elt F) → (⟨S64x1, .i32⟩ : BufTy).Contents (Elt F)),
    nullary main_c_15 (constantI S_ 32 0#32),
    unary main_c_15 main_v72 (broadcastInDim S64x1 ![] bcast_S_S64x1 : (⟨S_, .i32⟩ : BufTy).Contents (Elt F) → (⟨S64x1, .i32⟩ : BufTy).Contents (Elt F)),
    binary main_v71 main_v72 main_v73 (cmpi .slt : (⟨S64x1, .i32⟩ : BufTy).Contents (Elt F) → (⟨S64x1, .i32⟩ : BufTy).Contents (Elt F) → (⟨S64x1, .i1⟩ : BufTy).Contents (Elt F)),
    nullary main_c_16 (constantI S_ 32 64#32),
    unary main_c_16 main_v74 (broadcastInDim S64x1 ![] bcast_S_S64x1 : (⟨S_, .i32⟩ : BufTy).Contents (Elt F) → (⟨S64x1, .i32⟩ : BufTy).Contents (Elt F)),
    binary main_v71 main_v74 main_v75 (addi : (⟨S64x1, .i32⟩ : BufTy).Contents (Elt F) → (⟨S64x1, .i32⟩ : BufTy).Contents (Elt F) → (⟨S64x1, .i32⟩ : BufTy).Contents (Elt F)),
    ternary main_v73 main_v75 main_v71 main_v76 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_17 (constantI S_ 32 0#32),
    unary main_c_17 main_v77 (broadcastInDim S64x8 ![] bcast_S_S64x8 : (⟨S_, .i32⟩ : BufTy).Contents (Elt F) → (⟨S64x8, .i32⟩ : BufTy).Contents (Elt F)),
    binary main_v69 main_v77 main_v78 (cmpi .slt : (⟨S64x8, .i32⟩ : BufTy).Contents (Elt F) → (⟨S64x8, .i32⟩ : BufTy).Contents (Elt F) → (⟨S64x8, .i1⟩ : BufTy).Contents (Elt F)),
    nullary main_c_18 (constantI S_ 32 32#32),
    unary main_c_18 main_v79 (broadcastInDim S64x8 ![] bcast_S_S64x8 : (⟨S_, .i32⟩ : BufTy).Contents (Elt F) → (⟨S64x8, .i32⟩ : BufTy).Contents (Elt F)),
    binary main_v69 main_v79 main_v80 (addi : (⟨S64x8, .i32⟩ : BufTy).Contents (Elt F) → (⟨S64x8, .i32⟩ : BufTy).Contents (Elt F) → (⟨S64x8, .i32⟩ : BufTy).Contents (Elt F)),
    ternary main_v78 main_v80 main_v69 main_v81 (select : (⟨S64x8, .i1⟩ : BufTy).Contents (Elt F) → (⟨S64x8, .i32⟩ : BufTy).Contents (Elt F) → (⟨S64x8, .i32⟩ : BufTy).Contents (Elt F) → (⟨S64x8, .i32⟩ : BufTy).Contents (Elt F)),
    nullary main_c_19 (constantI S_ 32 0#32),
    unary main_c_19 main_v82 (broadcastInDim S64x8 ![] bcast_S_S64x8 : (⟨S_, .i32⟩ : BufTy).Contents (Elt F) → (⟨S64x8, .i32⟩ : BufTy).Contents (Elt F)),
    binary main_v67 main_v82 main_v83 (cmpi .slt : (⟨S64x8, .i32⟩ : BufTy).Contents (Elt F) → (⟨S64x8, .i32⟩ : BufTy).Contents (Elt F) → (⟨S64x8, .i1⟩ : BufTy).Contents (Elt F)),
    nullary main_c_20 (constantI S_ 32 32#32),
    unary main_c_20 main_v84 (broadcastInDim S64x8 ![] bcast_S_S64x8 : (⟨S_, .i32⟩ : BufTy).Contents (Elt F) → (⟨S64x8, .i32⟩ : BufTy).Contents (Elt F)),
    binary main_v67 main_v84 main_v85 (addi : (⟨S64x8, .i32⟩ : BufTy).Contents (Elt F) → (⟨S64x8, .i32⟩ : BufTy).Contents (Elt F) → (⟨S64x8, .i32⟩ : BufTy).Contents (Elt F)),
    ternary main_v83 main_v85 main_v67 main_v86 (select : (⟨S64x8, .i1⟩ : BufTy).Contents (Elt F) → (⟨S64x8, .i32⟩ : BufTy).Contents (Elt F) → (⟨S64x8, .i32⟩ : BufTy).Contents (Elt F) → (⟨S64x8, .i32⟩ : BufTy).Contents (Elt F)),
    unary main_v76 main_v87 (broadcastInDim S64x8 ![0, 1] bcast_S64x1_S64x8_0_1 : (⟨S64x1, .i32⟩ : BufTy).Contents (Elt F) → (⟨S64x8, .i32⟩ : BufTy).Contents (Elt F)),
    unary main_v87 main_v88 (broadcastInDim S64x8x1 ![0, 1] bcast_S64x8_S64x8x1_0_1 : (⟨S64x8, .i32⟩ : BufTy).Contents (Elt F) → (⟨S64x8x1, .i32⟩ : BufTy).Contents (Elt F)),
    unary main_v81 main_v89 (broadcastInDim S64x8x1 ![0, 1] bcast_S64x8_S64x8x1_0_1 : (⟨S64x8, .i32⟩ : BufTy).Contents (Elt F) → (⟨S64x8x1, .i32⟩ : BufTy).Contents (Elt F)),
    unary main_v86 main_v90 (broadcastInDim S64x8x1 ![0, 1] bcast_S64x8_S64x8x1_0_1 : (⟨S64x8, .i32⟩ : BufTy).Contents (Elt F) → (⟨S64x8x1, .i32⟩ : BufTy).Contents (Elt F)) ]

/-- What they write. -/
abbrev W5 : List (Ref sig .tc) :=
  [main_v65, main_v66, main_v67, main_v68, main_v69, main_v70, main_v71, main_c_15, main_v72, main_v73, main_c_16, main_v74, main_v75, main_v76, main_c_17, main_v77, main_v78, main_c_18, main_v79, main_v80, main_v81, main_c_19, main_v82, main_v83, main_c_20, main_v84, main_v85, main_v86, main_v87, main_v88, main_v89, main_v90]

theorem c5_sub : (c5 : List (HloOp τ sig (Elt F))).Forall fun op => op.bufs ⊆ tcRefs τ sig :=
  ⟨unary_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub ..⟩

theorem c5_writes : (c5 : List (HloOp τ sig (Elt F))).Forall fun op => op.writes ⊆ (W5.map (Proc.devRef (τ := τ) .tc)).toFinset :=
  ⟨writes_sub main_v65 rfl (by decide), writes_sub main_v66 rfl (by decide), writes_sub main_v67 rfl (by decide), writes_sub main_v68 rfl (by decide), writes_sub main_v69 rfl (by decide), writes_sub main_v70 rfl (by decide), writes_sub main_v71 rfl (by decide), writes_sub main_c_15 rfl (by decide), writes_sub main_v72 rfl (by decide), writes_sub main_v73 rfl (by decide), writes_sub main_c_16 rfl (by decide), writes_sub main_v74 rfl (by decide), writes_sub main_v75 rfl (by decide), writes_sub main_v76 rfl (by decide), writes_sub main_c_17 rfl (by decide), writes_sub main_v77 rfl (by decide), writes_sub main_v78 rfl (by decide), writes_sub main_c_18 rfl (by decide), writes_sub main_v79 rfl (by decide), writes_sub main_v80 rfl (by decide), writes_sub main_v81 rfl (by decide), writes_sub main_c_19 rfl (by decide), writes_sub main_v82 rfl (by decide), writes_sub main_v83 rfl (by decide), writes_sub main_c_20 rfl (by decide), writes_sub main_v84 rfl (by decide), writes_sub main_v85 rfl (by decide), writes_sub main_v86 rfl (by decide), writes_sub main_v87 rfl (by decide), writes_sub main_v88 rfl (by decide), writes_sub main_v89 rfl (by decide), writes_sub main_v90 rfl (by decide)⟩

theorem c5_fresh : ∀ op ∈ (c5 : List (HloOp τ sig (Elt F))), op.fresh = ∅ := by
  intro _ h; (repeat (cases h with | head => rfl | tail _ h => ?_)); exact nomatch h

/-- A reference the stretch does not write keeps its contents. -/
theorem c5_keep (V : Valuation τ sig (Elt F)) (r : Ref sig .tc) (hr : r ∉ W5) :
    after c5 V (Proc.devRef .tc r) = V (Proc.devRef .tc r) :=
  after_of_writes_sub c5 V c5_writes hr

section
open Cert.RefRead

theorem c5_v65 (V : Valuation τ sig (Elt F)) (x2 : (⟨S64x26x32x32, .f32⟩ : BufTy).Contents (Elt F))
    (h0 : V (Proc.devRef .tc main_arg2) = x2) :
    after c5 V (Proc.devRef .tc main_v65) = val_main_v65 (F := F) x2 := by
  after_results_simp
  rw [h0]
  rfl

theorem c5_v88 (V : Valuation τ sig (Elt F)) :
    after c5 V (Proc.devRef .tc main_v88) = val_main_v88 (F := F) := by
  after_results_simp <;> rfl

theorem c5_v89 (V : Valuation τ sig (Elt F)) (x8 : (⟨S64x8x2, .i32⟩ : BufTy).Contents (Elt F))
    (h0 : V (Proc.devRef .tc main_arg8) = x8) :
    after c5 V (Proc.devRef .tc main_v89) = val_main_v89 (F := F) x8 := by
  after_results_simp
  rw [h0]
  rfl

theorem c5_v90 (V : Valuation τ sig (Elt F)) (x8 : (⟨S64x8x2, .i32⟩ : BufTy).Contents (Elt F))
    (h0 : V (Proc.devRef .tc main_arg8) = x8) :
    after c5 V (Proc.devRef .tc main_v90) = val_main_v90 (F := F) x8 := by
  after_results_simp
  rw [h0]
  rfl

end

/-! ## Stretch 6: operations 114 … 119 -/

/-- Operations 114 … 119 of @main. -/
abbrev c6 : List (HloOp τ sig (Elt F)) :=
  [ nary ![main_v88, main_v89, main_v90] main_v91 (fun u => concatenate S64x8x3 2 [⟨S64x8x1, u 0⟩, ⟨S64x8x1, u 1⟩, ⟨S64x8x1, u 2⟩] concatenates_S64x8x1_S64x8x1_S64x8x1_S64x8x3_d2),
    binary main_v65 main_v91 main_v92 ((fun x i => Host.gather gather_S64x32x32x26_S64x8x3_S64x8x26_2_012_n_n_012_2_11126 x i) : (⟨S64x32x32x26, .f32⟩ : BufTy).Contents (Elt F) → (⟨S64x8x3, .i32⟩ : BufTy).Contents (Elt F) → (⟨S64x8x26, .f32⟩ : BufTy).Contents (Elt F)),
    nullary main_cst_21 (constant S_ .f32 0x00000000#32),
    binary main_v92 main_cst_21 main_v93 ((fun x v => Host.reduceAdd x v reducesTo_S64x8x26_S64x26_d1 h_S_) : (⟨S64x8x26, .f32⟩ : BufTy).Contents (Elt F) → (⟨S_, .f32⟩ : BufTy).Contents (Elt F) → (⟨S64x26, .f32⟩ : BufTy).Contents (Elt F)),
    nullary main_cst_22 (constant S_ .f32 0x41000000#32),
    unary main_cst_22 main_v94 (broadcastInDim S64x26 ![] bcast_S_S64x26 : (⟨S_, .f32⟩ : BufTy).Contents (Elt F) → (⟨S64x26, .f32⟩ : BufTy).Contents (Elt F)) ]

/-- What they write. -/
abbrev W6 : List (Ref sig .tc) :=
  [main_v91, main_v92, main_cst_21, main_v93, main_cst_22, main_v94]

theorem c6_sub : (c6 : List (HloOp τ sig (Elt F))).Forall fun op => op.bufs ⊆ tcRefs τ sig :=
  ⟨nary_bufs_sub .., binary_bufs_sub .., nullary_bufs_sub .., binary_bufs_sub .., nullary_bufs_sub .., unary_bufs_sub ..⟩

theorem c6_writes : (c6 : List (HloOp τ sig (Elt F))).Forall fun op => op.writes ⊆ (W6.map (Proc.devRef (τ := τ) .tc)).toFinset :=
  ⟨writes_sub main_v91 rfl (by decide), writes_sub main_v92 rfl (by decide), writes_sub main_cst_21 rfl (by decide), writes_sub main_v93 rfl (by decide), writes_sub main_cst_22 rfl (by decide), writes_sub main_v94 rfl (by decide)⟩

theorem c6_fresh : ∀ op ∈ (c6 : List (HloOp τ sig (Elt F))), op.fresh = ∅ := by
  intro _ h; (repeat (cases h with | head => rfl | tail _ h => ?_)); exact nomatch h

/-- A reference the stretch does not write keeps its contents. -/
theorem c6_keep (V : Valuation τ sig (Elt F)) (r : Ref sig .tc) (hr : r ∉ W6) :
    after c6 V (Proc.devRef .tc r) = V (Proc.devRef .tc r) :=
  after_of_writes_sub c6 V c6_writes hr

section
open Cert.RefRead

theorem c6_v93 (V : Valuation τ sig (Elt F)) (x2 : (⟨S64x26x32x32, .f32⟩ : BufTy).Contents (Elt F)) (x8 : (⟨S64x8x2, .i32⟩ : BufTy).Contents (Elt F))
    (h0 : V (Proc.devRef .tc main_v65) = val_main_v65 (F := F) x2)
    (h1 : V (Proc.devRef .tc main_v88) = val_main_v88 (F := F))
    (h2 : V (Proc.devRef .tc main_v89) = val_main_v89 (F := F) x8)
    (h3 : V (Proc.devRef .tc main_v90) = val_main_v90 (F := F) x8) :
    after c6 V (Proc.devRef .tc main_v93) = val_main_v93 (F := F) x2 x8 := by
  after_results_simp
  change Host.reduceAdd (Host.gather _ (V (Proc.devRef .tc main_v65)) (concatenate S64x8x3 2 [⟨S64x8x1, V (Proc.devRef .tc main_v88)⟩, ⟨S64x8x1, V (Proc.devRef .tc main_v89)⟩, ⟨S64x8x1, V (Proc.devRef .tc main_v90)⟩] _)) _ _ _ = _
  rw [h0, h1, h2, h3]
  rfl

theorem c6_v94 (V : Valuation τ sig (Elt F)) :
    after c6 V (Proc.devRef .tc main_v94) = val_main_v94 (F := F) := by
  after_results_simp <;> rfl

end

/-! ## Stretch 7: operations 120 … 153 -/

/-- Operations 120 … 153 of @main. -/
abbrev c7 : List (HloOp τ sig (Elt F)) :=
  [ binary main_v93 main_v94 main_v95 (Host.divf : (⟨S64x26, .f32⟩ : BufTy).Contents (Elt F) → (⟨S64x26, .f32⟩ : BufTy).Contents (Elt F) → (⟨S64x26, .f32⟩ : BufTy).Contents (Elt F)),
    binary main_v64 main_v95 main_v96 (addf : (⟨S64x26, .f32⟩ : BufTy).Contents (Elt F) → (⟨S64x26, .f32⟩ : BufTy).Contents (Elt F) → (⟨S64x26, .f32⟩ : BufTy).Contents (Elt F)),
    unary main_arg3 main_v97 ((transpose S64x16x16x26 [0, 2, 3, 1] · transposes_S64x26x16x16_S64x16x16x26_0_2_3_1) : (⟨S64x26x16x16, .f32⟩ : BufTy).Contents (Elt F) → (⟨S64x16x16x26, .f32⟩ : BufTy).Contents (Elt F)),
    unary main_arg9 main_v98 ((extractStridedSlice S64x8x1 ![0, 0, 0] · slices_S64x8x2_S64x8x1_0_0_0) : (⟨S64x8x2, .i32⟩ : BufTy).Contents (Elt F) → (⟨S64x8x1, .i32⟩ : BufTy).Contents (Elt F)),
    reshape main_v98 main_v99 rfl shapeCasts_S64x8x1_S64x8,
    unary main_arg9 main_v100 ((extractStridedSlice S64x8x1 ![0, 0, 1] · slices_S64x8x2_S64x8x1_0_0_1) : (⟨S64x8x2, .i32⟩ : BufTy).Contents (Elt F) → (⟨S64x8x1, .i32⟩ : BufTy).Contents (Elt F)),
    reshape main_v100 main_v101 rfl shapeCasts_S64x8x1_S64x8,
    nullary main_v102 (iotaInDim S64 32 0),
    unary main_v102 main_v103 (broadcastInDim S64x1 ![0] bcast_S64_S64x1_0 : (⟨S64, .i32⟩ : BufTy).Contents (Elt F) → (⟨S64x1, .i32⟩ : BufTy).Contents (Elt F)),
    nullary main_c_23 (constantI S_ 32 0#32),
    unary main_c_23 main_v104 (broadcastInDim S64x1 ![] bcast_S_S64x1 : (⟨S_, .i32⟩ : BufTy).Contents (Elt F) → (⟨S64x1, .i32⟩ : BufTy).Contents (Elt F)),
    binary main_v103 main_v104 main_v105 (cmpi .slt : (⟨S64x1, .i32⟩ : BufTy).Contents (Elt F) → (⟨S64x1, .i32⟩ : BufTy).Contents (Elt F) → (⟨S64x1, .i1⟩ : BufTy).Contents (Elt F)),
    nullary main_c_24 (constantI S_ 32 64#32),
    unary main_c_24 main_v106 (broadcastInDim S64x1 ![] bcast_S_S64x1 : (⟨S_, .i32⟩ : BufTy).Contents (Elt F) → (⟨S64x1, .i32⟩ : BufTy).Contents (Elt F)),
    binary main_v103 main_v106 main_v107 (addi : (⟨S64x1, .i32⟩ : BufTy).Contents (Elt F) → (⟨S64x1, .i32⟩ : BufTy).Contents (Elt F) → (⟨S64x1, .i32⟩ : BufTy).Contents (Elt F)),
    ternary main_v105 main_v107 main_v103 main_v108 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_25 (constantI S_ 32 0#32),
    unary main_c_25 main_v109 (broadcastInDim S64x8 ![] bcast_S_S64x8 : (⟨S_, .i32⟩ : BufTy).Contents (Elt F) → (⟨S64x8, .i32⟩ : BufTy).Contents (Elt F)),
    binary main_v101 main_v109 main_v110 (cmpi .slt : (⟨S64x8, .i32⟩ : BufTy).Contents (Elt F) → (⟨S64x8, .i32⟩ : BufTy).Contents (Elt F) → (⟨S64x8, .i1⟩ : BufTy).Contents (Elt F)),
    nullary main_c_26 (constantI S_ 32 16#32),
    unary main_c_26 main_v111 (broadcastInDim S64x8 ![] bcast_S_S64x8 : (⟨S_, .i32⟩ : BufTy).Contents (Elt F) → (⟨S64x8, .i32⟩ : BufTy).Contents (Elt F)),
    binary main_v101 main_v111 main_v112 (addi : (⟨S64x8, .i32⟩ : BufTy).Contents (Elt F) → (⟨S64x8, .i32⟩ : BufTy).Contents (Elt F) → (⟨S64x8, .i32⟩ : BufTy).Contents (Elt F)),
    ternary main_v110 main_v112 main_v101 main_v113 (select : (⟨S64x8, .i1⟩ : BufTy).Contents (Elt F) → (⟨S64x8, .i32⟩ : BufTy).Contents (Elt F) → (⟨S64x8, .i32⟩ : BufTy).Contents (Elt F) → (⟨S64x8, .i32⟩ : BufTy).Contents (Elt F)),
    nullary main_c_27 (constantI S_ 32 0#32),
    unary main_c_27 main_v114 (broadcastInDim S64x8 ![] bcast_S_S64x8 : (⟨S_, .i32⟩ : BufTy).Contents (Elt F) → (⟨S64x8, .i32⟩ : BufTy).Contents (Elt F)),
    binary main_v99 main_v114 main_v115 (cmpi .slt : (⟨S64x8, .i32⟩ : BufTy).Contents (Elt F) → (⟨S64x8, .i32⟩ : BufTy).Contents (Elt F) → (⟨S64x8, .i1⟩ : BufTy).Contents (Elt F)),
    nullary main_c_28 (constantI S_ 32 16#32),
    unary main_c_28 main_v116 (broadcastInDim S64x8 ![] bcast_S_S64x8 : (⟨S_, .i32⟩ : BufTy).Contents (Elt F) → (⟨S64x8, .i32⟩ : BufTy).Contents (Elt F)),
    binary main_v99 main_v116 main_v117 (addi : (⟨S64x8, .i32⟩ : BufTy).Contents (Elt F) → (⟨S64x8, .i32⟩ : BufTy).Contents (Elt F) → (⟨S64x8, .i32⟩ : BufTy).Contents (Elt F)),
    ternary main_v115 main_v117 main_v99 main_v118 (select : (⟨S64x8, .i1⟩ : BufTy).Contents (Elt F) → (⟨S64x8, .i32⟩ : BufTy).Contents (Elt F) → (⟨S64x8, .i32⟩ : BufTy).Contents (Elt F) → (⟨S64x8, .i32⟩ : BufTy).Contents (Elt F)),
    unary main_v108 main_v119 (broadcastInDim S64x8 ![0, 1] bcast_S64x1_S64x8_0_1 : (⟨S64x1, .i32⟩ : BufTy).Contents (Elt F) → (⟨S64x8, .i32⟩ : BufTy).Contents (Elt F)),
    unary main_v119 main_v120 (broadcastInDim S64x8x1 ![0, 1] bcast_S64x8_S64x8x1_0_1 : (⟨S64x8, .i32⟩ : BufTy).Contents (Elt F) → (⟨S64x8x1, .i32⟩ : BufTy).Contents (Elt F)),
    unary main_v113 main_v121 (broadcastInDim S64x8x1 ![0, 1] bcast_S64x8_S64x8x1_0_1 : (⟨S64x8, .i32⟩ : BufTy).Contents (Elt F) → (⟨S64x8x1, .i32⟩ : BufTy).Contents (Elt F)),
    unary main_v118 main_v122 (broadcastInDim S64x8x1 ![0, 1] bcast_S64x8_S64x8x1_0_1 : (⟨S64x8, .i32⟩ : BufTy).Contents (Elt F) → (⟨S64x8x1, .i32⟩ : BufTy).Contents (Elt F)) ]

/-- What they write. -/
abbrev W7 : List (Ref sig .tc) :=
  [main_v95, main_v96, main_v97, main_v98, main_v99, main_v100, main_v101, main_v102, main_v103, main_c_23, main_v104, main_v105, main_c_24, main_v106, main_v107, main_v108, main_c_25, main_v109, main_v110, main_c_26, main_v111, main_v112, main_v113, main_c_27, main_v114, main_v115, main_c_28, main_v116, main_v117, main_v118, main_v119, main_v120, main_v121, main_v122]

theorem c7_sub : (c7 : List (HloOp τ sig (Elt F))).Forall fun op => op.bufs ⊆ tcRefs τ sig :=
  ⟨binary_bufs_sub .., binary_bufs_sub .., unary_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub ..⟩

theorem c7_writes : (c7 : List (HloOp τ sig (Elt F))).Forall fun op => op.writes ⊆ (W7.map (Proc.devRef (τ := τ) .tc)).toFinset :=
  ⟨writes_sub main_v95 rfl (by decide), writes_sub main_v96 rfl (by decide), writes_sub main_v97 rfl (by decide), writes_sub main_v98 rfl (by decide), writes_sub main_v99 rfl (by decide), writes_sub main_v100 rfl (by decide), writes_sub main_v101 rfl (by decide), writes_sub main_v102 rfl (by decide), writes_sub main_v103 rfl (by decide), writes_sub main_c_23 rfl (by decide), writes_sub main_v104 rfl (by decide), writes_sub main_v105 rfl (by decide), writes_sub main_c_24 rfl (by decide), writes_sub main_v106 rfl (by decide), writes_sub main_v107 rfl (by decide), writes_sub main_v108 rfl (by decide), writes_sub main_c_25 rfl (by decide), writes_sub main_v109 rfl (by decide), writes_sub main_v110 rfl (by decide), writes_sub main_c_26 rfl (by decide), writes_sub main_v111 rfl (by decide), writes_sub main_v112 rfl (by decide), writes_sub main_v113 rfl (by decide), writes_sub main_c_27 rfl (by decide), writes_sub main_v114 rfl (by decide), writes_sub main_v115 rfl (by decide), writes_sub main_c_28 rfl (by decide), writes_sub main_v116 rfl (by decide), writes_sub main_v117 rfl (by decide), writes_sub main_v118 rfl (by decide), writes_sub main_v119 rfl (by decide), writes_sub main_v120 rfl (by decide), writes_sub main_v121 rfl (by decide), writes_sub main_v122 rfl (by decide)⟩

theorem c7_fresh : ∀ op ∈ (c7 : List (HloOp τ sig (Elt F))), op.fresh = ∅ := by
  intro _ h; (repeat (cases h with | head => rfl | tail _ h => ?_)); exact nomatch h

/-- A reference the stretch does not write keeps its contents. -/
theorem c7_keep (V : Valuation τ sig (Elt F)) (r : Ref sig .tc) (hr : r ∉ W7) :
    after c7 V (Proc.devRef .tc r) = V (Proc.devRef .tc r) :=
  after_of_writes_sub c7 V c7_writes hr

section
open Cert.RefRead

theorem c7_v96 (V : Valuation τ sig (Elt F)) (x0 : (⟨S64x26x128x128, .f32⟩ : BufTy).Contents (Elt F)) (x1 : (⟨S64x26x64x64, .f32⟩ : BufTy).Contents (Elt F)) (x2 : (⟨S64x26x32x32, .f32⟩ : BufTy).Contents (Elt F)) (x6 : (⟨S64x8x2, .i32⟩ : BufTy).Contents (Elt F)) (x7 : (⟨S64x8x2, .i32⟩ : BufTy).Contents (Elt F)) (x8 : (⟨S64x8x2, .i32⟩ : BufTy).Contents (Elt F))
    (h0 : V (Proc.devRef .tc main_v64) = val_main_v64 (F := F) x0 x1 x6 x7)
    (h1 : V (Proc.devRef .tc main_v93) = val_main_v93 (F := F) x2 x8)
    (h2 : V (Proc.devRef .tc main_v94) = val_main_v94 (F := F)) :
    after c7 V (Proc.devRef .tc main_v96) = val_main_v96 (F := F) x0 x1 x2 x6 x7 x8 := by
  after_results_simp
  rw [h0, h1, h2]
  rfl

theorem c7_v97 (V : Valuation τ sig (Elt F)) (x3 : (⟨S64x26x16x16, .f32⟩ : BufTy).Contents (Elt F))
    (h0 : V (Proc.devRef .tc main_arg3) = x3) :
    after c7 V (Proc.devRef .tc main_v97) = val_main_v97 (F := F) x3 := by
  after_results_simp
  rw [h0]
  rfl

theorem c7_v120 (V : Valuation τ sig (Elt F)) :
    after c7 V (Proc.devRef .tc main_v120) = val_main_v120 (F := F) := by
  after_results_simp <;> rfl

theorem c7_v121 (V : Valuation τ sig (Elt F)) (x9 : (⟨S64x8x2, .i32⟩ : BufTy).Contents (Elt F))
    (h0 : V (Proc.devRef .tc main_arg9) = x9) :
    after c7 V (Proc.devRef .tc main_v121) = val_main_v121 (F := F) x9 := by
  after_results_simp
  rw [h0]
  rfl

theorem c7_v122 (V : Valuation τ sig (Elt F)) (x9 : (⟨S64x8x2, .i32⟩ : BufTy).Contents (Elt F))
    (h0 : V (Proc.devRef .tc main_arg9) = x9) :
    after c7 V (Proc.devRef .tc main_v122) = val_main_v122 (F := F) x9 := by
  after_results_simp
  rw [h0]
  rfl

end

/-! ## Stretch 8: operations 154 … 164 -/

/-- Operations 154 … 164 of @main. -/
abbrev c8 : List (HloOp τ sig (Elt F)) :=
  [ nary ![main_v120, main_v121, main_v122] main_v123 (fun u => concatenate S64x8x3 2 [⟨S64x8x1, u 0⟩, ⟨S64x8x1, u 1⟩, ⟨S64x8x1, u 2⟩] concatenates_S64x8x1_S64x8x1_S64x8x1_S64x8x3_d2),
    binary main_v97 main_v123 main_v124 ((fun x i => Host.gather gather_S64x16x16x26_S64x8x3_S64x8x26_2_012_n_n_012_2_11126 x i) : (⟨S64x16x16x26, .f32⟩ : BufTy).Contents (Elt F) → (⟨S64x8x3, .i32⟩ : BufTy).Contents (Elt F) → (⟨S64x8x26, .f32⟩ : BufTy).Contents (Elt F)),
    nullary main_cst_29 (constant S_ .f32 0x00000000#32),
    binary main_v124 main_cst_29 main_v125 ((fun x v => Host.reduceAdd x v reducesTo_S64x8x26_S64x26_d1 h_S_) : (⟨S64x8x26, .f32⟩ : BufTy).Contents (Elt F) → (⟨S_, .f32⟩ : BufTy).Contents (Elt F) → (⟨S64x26, .f32⟩ : BufTy).Contents (Elt F)),
    nullary main_cst_30 (constant S_ .f32 0x41000000#32),
    unary main_cst_30 main_v126 (broadcastInDim S64x26 ![] bcast_S_S64x26 : (⟨S_, .f32⟩ : BufTy).Contents (Elt F) → (⟨S64x26, .f32⟩ : BufTy).Contents (Elt F)),
    binary main_v125 main_v126 main_v127 (Host.divf : (⟨S64x26, .f32⟩ : BufTy).Contents (Elt F) → (⟨S64x26, .f32⟩ : BufTy).Contents (Elt F) → (⟨S64x26, .f32⟩ : BufTy).Contents (Elt F)),
    binary main_v96 main_v127 main_v128 (addf : (⟨S64x26, .f32⟩ : BufTy).Contents (Elt F) → (⟨S64x26, .f32⟩ : BufTy).Contents (Elt F) → (⟨S64x26, .f32⟩ : BufTy).Contents (Elt F)),
    nullary main_cst_31 (constant S_ .f32 0x40800000#32),
    unary main_cst_31 main_v129 (broadcastInDim S64x26 ![] bcast_S_S64x26 : (⟨S_, .f32⟩ : BufTy).Contents (Elt F) → (⟨S64x26, .f32⟩ : BufTy).Contents (Elt F)),
    binary main_v128 main_v129 main_v130 (Host.divf : (⟨S64x26, .f32⟩ : BufTy).Contents (Elt F) → (⟨S64x26, .f32⟩ : BufTy).Contents (Elt F) → (⟨S64x26, .f32⟩ : BufTy).Contents (Elt F)) ]

/-- What they write. -/
abbrev W8 : List (Ref sig .tc) :=
  [main_v123, main_v124, main_cst_29, main_v125, main_cst_30, main_v126, main_v127, main_v128, main_cst_31, main_v129, main_v130]

theorem c8_sub : (c8 : List (HloOp τ sig (Elt F))).Forall fun op => op.bufs ⊆ tcRefs τ sig :=
  ⟨nary_bufs_sub .., binary_bufs_sub .., nullary_bufs_sub .., binary_bufs_sub .., nullary_bufs_sub .., unary_bufs_sub .., binary_bufs_sub .., binary_bufs_sub .., nullary_bufs_sub .., unary_bufs_sub .., binary_bufs_sub ..⟩

theorem c8_writes : (c8 : List (HloOp τ sig (Elt F))).Forall fun op => op.writes ⊆ (W8.map (Proc.devRef (τ := τ) .tc)).toFinset :=
  ⟨writes_sub main_v123 rfl (by decide), writes_sub main_v124 rfl (by decide), writes_sub main_cst_29 rfl (by decide), writes_sub main_v125 rfl (by decide), writes_sub main_cst_30 rfl (by decide), writes_sub main_v126 rfl (by decide), writes_sub main_v127 rfl (by decide), writes_sub main_v128 rfl (by decide), writes_sub main_cst_31 rfl (by decide), writes_sub main_v129 rfl (by decide), writes_sub main_v130 rfl (by decide)⟩

theorem c8_fresh : ∀ op ∈ (c8 : List (HloOp τ sig (Elt F))), op.fresh = ∅ := by
  intro _ h; (repeat (cases h with | head => rfl | tail _ h => ?_)); exact nomatch h

/-- A reference the stretch does not write keeps its contents. -/
theorem c8_keep (V : Valuation τ sig (Elt F)) (r : Ref sig .tc) (hr : r ∉ W8) :
    after c8 V (Proc.devRef .tc r) = V (Proc.devRef .tc r) :=
  after_of_writes_sub c8 V c8_writes hr

section
open Cert.RefRead

theorem c8_v130 (V : Valuation τ sig (Elt F)) (x0 : (⟨S64x26x128x128, .f32⟩ : BufTy).Contents (Elt F)) (x1 : (⟨S64x26x64x64, .f32⟩ : BufTy).Contents (Elt F)) (x2 : (⟨S64x26x32x32, .f32⟩ : BufTy).Contents (Elt F)) (x3 : (⟨S64x26x16x16, .f32⟩ : BufTy).Contents (Elt F)) (x6 : (⟨S64x8x2, .i32⟩ : BufTy).Contents (Elt F)) (x7 : (⟨S64x8x2, .i32⟩ : BufTy).Contents (Elt F)) (x8 : (⟨S64x8x2, .i32⟩ : BufTy).Contents (Elt F)) (x9 : (⟨S64x8x2, .i32⟩ : BufTy).Contents (Elt F))
    (h0 : V (Proc.devRef .tc main_v96) = val_main_v96 (F := F) x0 x1 x2 x6 x7 x8)
    (h1 : V (Proc.devRef .tc main_v97) = val_main_v97 (F := F) x3)
    (h2 : V (Proc.devRef .tc main_v120) = val_main_v120 (F := F))
    (h3 : V (Proc.devRef .tc main_v121) = val_main_v121 (F := F) x9)
    (h4 : V (Proc.devRef .tc main_v122) = val_main_v122 (F := F) x9) :
    after c8 V (Proc.devRef .tc main_v130) = val_main_v130 (F := F) x0 x1 x2 x3 x6 x7 x8 x9 := by
  after_results_simp
  change Host.divf (addf (V (Proc.devRef .tc main_v96)) (Host.divf (Host.reduceAdd (Host.gather _ (V (Proc.devRef .tc main_v97)) (concatenate S64x8x3 2 [⟨S64x8x1, V (Proc.devRef .tc main_v120)⟩, ⟨S64x8x1, V (Proc.devRef .tc main_v121)⟩, ⟨S64x8x1, V (Proc.devRef .tc main_v122)⟩] _)) _ _ _) _)) _ = _
  rw [h0, h1, h2, h3, h4]
  rfl

end

/-! ## Stretch 9: operations 165 … 176 -/

/-- Operations 165 … 176 of @main. -/
abbrev c9 : List (HloOp τ sig (Elt F)) :=
  [ nary ![main_v130, main_arg4, main_arg5] main_v131 (fun u => concatenate S64x78 1 [⟨S64x26, u 0⟩, ⟨S64x26, u 1⟩, ⟨S64x26, u 2⟩] concatenates_S64x26_S64x26_S64x26_S64x78_d1),
    binary main_v131 main_arg10 main_v132 ((fun l r => Host.dotGeneral dot_S64x78_S78x39_S64x39_1_0_0_1_n_n none l r) : (⟨S64x78, .f32⟩ : BufTy).Contents (Elt F) → (⟨S78x39, .f32⟩ : BufTy).Contents (Elt F) → (⟨S64x39, .f32⟩ : BufTy).Contents (Elt F)),
    unary main_arg11 main_v133 (broadcastInDim S1x39 ![1] bcast_S39_S1x39_1 : (⟨S39, .f32⟩ : BufTy).Contents (Elt F) → (⟨S1x39, .f32⟩ : BufTy).Contents (Elt F)),
    unary main_v133 main_v134 (broadcastInDim S64x39 ![0, 1] bcast_S1x39_S64x39_0_1 : (⟨S1x39, .f32⟩ : BufTy).Contents (Elt F) → (⟨S64x39, .f32⟩ : BufTy).Contents (Elt F)),
    binary main_v132 main_v134 main_v135 (addf : (⟨S64x39, .f32⟩ : BufTy).Contents (Elt F) → (⟨S64x39, .f32⟩ : BufTy).Contents (Elt F) → (⟨S64x39, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S64x39, .f32⟩) main_call0_v0) (broadcastInDim S64x39 ![] bcast_S_S64x39),
    TRef.binary (TRef.of (T := ⟨S64x39, .f32⟩) main_v135) (TRef.of (T := ⟨S64x39, .f32⟩) main_call0_v0) (TRef.of (T := ⟨S64x39, .f32⟩) main_v136) maximumf,
    binary main_v136 main_arg12 main_v137 ((fun l r => Host.dotGeneral dot_S64x39_S39x26_S64x26_1_0_0_1_n_n none l r) : (⟨S64x39, .f32⟩ : BufTy).Contents (Elt F) → (⟨S39x26, .f32⟩ : BufTy).Contents (Elt F) → (⟨S64x26, .f32⟩ : BufTy).Contents (Elt F)),
    unary main_arg13 main_v138 (broadcastInDim S1x26 ![1] bcast_S26_S1x26_1 : (⟨S26, .f32⟩ : BufTy).Contents (Elt F) → (⟨S1x26, .f32⟩ : BufTy).Contents (Elt F)),
    unary main_v138 main_v139 (broadcastInDim S64x26 ![0, 1] bcast_S1x26_S64x26_0_1 : (⟨S1x26, .f32⟩ : BufTy).Contents (Elt F) → (⟨S64x26, .f32⟩ : BufTy).Contents (Elt F)),
    binary main_v137 main_v139 main_v140 (addf : (⟨S64x26, .f32⟩ : BufTy).Contents (Elt F) → (⟨S64x26, .f32⟩ : BufTy).Contents (Elt F) → (⟨S64x26, .f32⟩ : BufTy).Contents (Elt F)) ]

/-- What they write. -/
abbrev W9 : List (Ref sig .tc) :=
  [main_v131, main_v132, main_v133, main_v134, main_v135, main_call0_cst, main_call0_v0, main_v136, main_v137, main_v138, main_v139, main_v140]

theorem c9_sub : (c9 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem c9_writes : (c9 : List (HloOp τ sig (Elt F))).Forall fun op => op.writes ⊆ (W9.map (Proc.devRef (τ := τ) .tc)).toFinset :=
  ⟨writes_sub main_v131 rfl (by decide), writes_sub main_v132 rfl (by decide), writes_sub main_v133 rfl (by decide), writes_sub main_v134 rfl (by decide), writes_sub main_v135 rfl (by decide), writes_sub main_call0_cst rfl (by decide), writes_sub main_call0_v0 rfl (by decide), writes_sub main_v136 rfl (by decide), writes_sub main_v137 rfl (by decide), writes_sub main_v138 rfl (by decide), writes_sub main_v139 rfl (by decide), writes_sub main_v140 rfl (by decide)⟩

theorem c9_fresh : ∀ op ∈ (c9 : List (HloOp τ sig (Elt F))), op.fresh = ∅ := by
  intro _ h; (repeat (cases h with | head => rfl | tail _ h => ?_)); exact nomatch h

/-- A reference the stretch does not write keeps its contents. -/
theorem c9_keep (V : Valuation τ sig (Elt F)) (r : Ref sig .tc) (hr : r ∉ W9) :
    after c9 V (Proc.devRef .tc r) = V (Proc.devRef .tc r) :=
  after_of_writes_sub c9 V c9_writes hr

section
open Cert.RefRead

theorem c9_v140 (V : Valuation τ sig (Elt F)) (x0 : (⟨S64x26x128x128, .f32⟩ : BufTy).Contents (Elt F)) (x1 : (⟨S64x26x64x64, .f32⟩ : BufTy).Contents (Elt F)) (x2 : (⟨S64x26x32x32, .f32⟩ : BufTy).Contents (Elt F)) (x3 : (⟨S64x26x16x16, .f32⟩ : BufTy).Contents (Elt F)) (x4 : (⟨S64x26, .f32⟩ : BufTy).Contents (Elt F)) (x5 : (⟨S64x26, .f32⟩ : BufTy).Contents (Elt F)) (x6 : (⟨S64x8x2, .i32⟩ : BufTy).Contents (Elt F)) (x7 : (⟨S64x8x2, .i32⟩ : BufTy).Contents (Elt F)) (x8 : (⟨S64x8x2, .i32⟩ : BufTy).Contents (Elt F)) (x9 : (⟨S64x8x2, .i32⟩ : BufTy).Contents (Elt F)) (x10 : (⟨S78x39, .f32⟩ : BufTy).Contents (Elt F)) (x11 : (⟨S39, .f32⟩ : BufTy).Contents (Elt F)) (x12 : (⟨S39x26, .f32⟩ : BufTy).Contents (Elt F)) (x13 : (⟨S26, .f32⟩ : BufTy).Contents (Elt F))
    (h0 : V (Proc.devRef .tc main_v130) = val_main_v130 (F := F) x0 x1 x2 x3 x6 x7 x8 x9)
    (h1 : V (Proc.devRef .tc main_arg4) = x4)
    (h2 : V (Proc.devRef .tc main_arg5) = x5)
    (h3 : V (Proc.devRef .tc main_arg10) = x10)
    (h4 : V (Proc.devRef .tc main_arg11) = x11)
    (h5 : V (Proc.devRef .tc main_arg12) = x12)
    (h6 : V (Proc.devRef .tc main_arg13) = x13) :
    after c9 V (Proc.devRef .tc main_v140) = val_main_v140 (F := F) x0 x1 x2 x3 x4 x5 x6 x7 x8 x9 x10 x11 x12 x13 := by
  after_results_simp
  change addf (Host.dotGeneral _ none (maximumf (addf (Host.dotGeneral _ none (concatenate S64x78 1 [⟨S64x26, V (Proc.devRef .tc main_v130)⟩, ⟨S64x26, V (Proc.devRef .tc main_arg4)⟩, ⟨S64x26, V (Proc.devRef .tc main_arg5)⟩] _) (V (Proc.devRef .tc main_arg10))) (broadcastInDim _ _ _ (broadcastInDim _ _ _ (V (Proc.devRef .tc main_arg11))))) _) (V (Proc.devRef .tc main_arg12))) (broadcastInDim _ _ _ (broadcastInDim _ _ _ (V (Proc.devRef .tc main_arg13)))) = _
  rw [h0, h1, h2, h3, h4, h5, h6]
  rfl

end

/-! ## The whole line -/

/-- The three windows of @main, each the concatenation of its stretches, and @main's whole line. -/
abbrev w0 : List (HloOp τ sig (Elt F)) := c0 ++ (c1 ++ c2)
abbrev w1 : List (HloOp τ sig (Elt F)) := c3 ++ (c4 ++ (c5 ++ c6))
abbrev w2 : List (HloOp τ sig (Elt F)) := c7 ++ (c8 ++ c9)
abbrev ops : List (HloOp τ sig (Elt F)) := w0 ++ (w1 ++ w2)

set_option maxRecDepth 8192 in
set_option maxHeartbeats 4000000 in
theorem main_part0_eq (c : Dev nD) : main_part0 (F := F) c = seq w0 := rfl
set_option maxRecDepth 8192 in
set_option maxHeartbeats 4000000 in
theorem main_part1_eq (c : Dev nD) : main_part1 (F := F) c = seq w1 := rfl
set_option maxRecDepth 8192 in
set_option maxHeartbeats 4000000 in
theorem main_part2_eq (c : Dev nD) : main_part2 (F := F) c = seq w2 := rfl

/-- @main is the line: its three windows in order. -/
theorem main_eq (c : Dev nD) : main (F := F) c = seq ops := by
  rw [show (ops : List (HloOp τ sig (Elt F))) = w0 ++ (w1 ++ w2) from rfl, seq_append w0 (w1 ++ w2), seq_append w1 w2,
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
theorem forall_mem_app {α : Type} {p : α → Prop} {l₁ l₂ : List α} (h₁ : ∀ x ∈ l₁, p x) (h₂ : ∀ x ∈ l₂, p x) :
    ∀ x ∈ l₁ ++ l₂, p x := fun x hx => (List.mem_append.mp hx).elim (h₁ x) (h₂ x)

theorem ops_sub : (ops : List (HloOp τ sig (Elt F))).Forall fun op => op.bufs ⊆ tcRefs τ sig :=
  List.forall_iff_forall_mem.mpr
    (forall_mem_app
      (forall_mem_app (List.forall_iff_forall_mem.mp c0_sub)
        (forall_mem_app (List.forall_iff_forall_mem.mp c1_sub) (List.forall_iff_forall_mem.mp c2_sub)))
      (forall_mem_app
        (forall_mem_app (List.forall_iff_forall_mem.mp c3_sub)
          (forall_mem_app (List.forall_iff_forall_mem.mp c4_sub)
            (forall_mem_app (List.forall_iff_forall_mem.mp c5_sub) (List.forall_iff_forall_mem.mp c6_sub))))
        (forall_mem_app (List.forall_iff_forall_mem.mp c7_sub)
          (forall_mem_app (List.forall_iff_forall_mem.mp c8_sub) (List.forall_iff_forall_mem.mp c9_sub)))))

theorem ops_fresh : ∀ op ∈ (ops : List (HloOp τ sig (Elt F))), op.fresh = ∅ :=
  forall_mem_app
    (forall_mem_app c0_fresh (forall_mem_app c1_fresh c2_fresh))
    (forall_mem_app
      (forall_mem_app c3_fresh (forall_mem_app c4_fresh (forall_mem_app c5_fresh c6_fresh)))
      (forall_mem_app c7_fresh (forall_mem_app c8_fresh c9_fresh)))

/-- The fold of the whole line is the fold of the ten stretches in order. -/
theorem after_ops (V : Valuation τ sig (Elt F)) :
    after ops V = after c9 (after c8 (after c7 (after c6 (after c5 (after c4 (after c3 (after c2 (after c1 (after c0 V))))))))) := by
  simp only [ops, w0, w1, w2, after_app]

/-- @main's fourteen arguments. -/
abbrev Args : List (Ref sig .tc) :=
  [main_arg0, main_arg1, main_arg2, main_arg3, main_arg4, main_arg5, main_arg6, main_arg7, main_arg8, main_arg9, main_arg10, main_arg11, main_arg12, main_arg13]

/-- No stretch writes an argument, so the whole line leaves each argument as it was. -/
theorem ops_arg (V : Valuation τ sig (Elt F)) (r : Ref sig .tc) (hr : r ∈ Args) :
    after ops V (Proc.devRef .tc r) = V (Proc.devRef .tc r) := by
  have d0 : ∀ r ∈ Args, r ∉ W0 := by decide
  have d1 : ∀ r ∈ Args, r ∉ W1 := by decide
  have d2 : ∀ r ∈ Args, r ∉ W2 := by decide
  have d3 : ∀ r ∈ Args, r ∉ W3 := by decide
  have d4 : ∀ r ∈ Args, r ∉ W4 := by decide
  have d5 : ∀ r ∈ Args, r ∉ W5 := by decide
  have d6 : ∀ r ∈ Args, r ∉ W6 := by decide
  have d7 : ∀ r ∈ Args, r ∉ W7 := by decide
  have d8 : ∀ r ∈ Args, r ∉ W8 := by decide
  have d9 : ∀ r ∈ Args, r ∉ W9 := by decide
  rw [after_ops, c9_keep _ r (d9 r hr), c8_keep _ r (d8 r hr), c7_keep _ r (d7 r hr), c6_keep _ r (d6 r hr),
    c5_keep _ r (d5 r hr), c4_keep _ r (d4 r hr), c3_keep _ r (d3 r hr), c2_keep _ r (d2 r hr), c1_keep _ r (d1 r hr),
    c0_keep _ r (d0 r hr)]

section
open Cert.RefRead

/-- The result buffer after the whole line: the last stage of the reference, as a function of the arguments. -/
theorem ops_v140 (V : Valuation τ sig (Elt F)) :
    after ops V (Proc.devRef .tc main_v140)
      = val_main_v140 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  obtain ⟨V1, e1⟩ : ∃ V1, V1 = after c0 V := ⟨_, rfl⟩
  obtain ⟨V2, e2⟩ : ∃ V2, V2 = after c1 V1 := ⟨_, rfl⟩
  obtain ⟨V3, e3⟩ : ∃ V3, V3 = after c2 V2 := ⟨_, rfl⟩
  obtain ⟨V4, e4⟩ : ∃ V4, V4 = after c3 V3 := ⟨_, rfl⟩
  obtain ⟨V5, e5⟩ : ∃ V5, V5 = after c4 V4 := ⟨_, rfl⟩
  obtain ⟨V6, e6⟩ : ∃ V6, V6 = after c5 V5 := ⟨_, rfl⟩
  obtain ⟨V7, e7⟩ : ∃ V7, V7 = after c6 V6 := ⟨_, rfl⟩
  obtain ⟨V8, e8⟩ : ∃ V8, V8 = after c7 V7 := ⟨_, rfl⟩
  obtain ⟨V9, e9⟩ : ∃ V9, V9 = after c8 V8 := ⟨_, rfl⟩
  rw [← e1, ← e2, ← e3, ← e4, ← e5, ← e6, ← e7, ← e8, ← e9]
  -- the arguments are unchanged after each stretch
  have a1 : ∀ r ∈ Args, V1 (Proc.devRef .tc r) = V (Proc.devRef .tc r) := fun r hr => by
    rw [e1]; exact c0_keep V r ((by decide : ∀ r ∈ Args, r ∉ W0) r hr)
  have a2 : ∀ r ∈ Args, V2 (Proc.devRef .tc r) = V (Proc.devRef .tc r) := fun r hr => by
    rw [e2]; exact (c1_keep V1 r ((by decide : ∀ r ∈ Args, r ∉ W1) r hr)).trans (a1 r hr)
  have a3 : ∀ r ∈ Args, V3 (Proc.devRef .tc r) = V (Proc.devRef .tc r) := fun r hr => by
    rw [e3]; exact (c2_keep V2 r ((by decide : ∀ r ∈ Args, r ∉ W2) r hr)).trans (a2 r hr)
  have a4 : ∀ r ∈ Args, V4 (Proc.devRef .tc r) = V (Proc.devRef .tc r) := fun r hr => by
    rw [e4]; exact (c3_keep V3 r ((by decide : ∀ r ∈ Args, r ∉ W3) r hr)).trans (a3 r hr)
  have a5 : ∀ r ∈ Args, V5 (Proc.devRef .tc r) = V (Proc.devRef .tc r) := fun r hr => by
    rw [e5]; exact (c4_keep V4 r ((by decide : ∀ r ∈ Args, r ∉ W4) r hr)).trans (a4 r hr)
  have a6 : ∀ r ∈ Args, V6 (Proc.devRef .tc r) = V (Proc.devRef .tc r) := fun r hr => by
    rw [e6]; exact (c5_keep V5 r ((by decide : ∀ r ∈ Args, r ∉ W5) r hr)).trans (a5 r hr)
  have a7 : ∀ r ∈ Args, V7 (Proc.devRef .tc r) = V (Proc.devRef .tc r) := fun r hr => by
    rw [e7]; exact (c6_keep V6 r ((by decide : ∀ r ∈ Args, r ∉ W6) r hr)).trans (a6 r hr)
  have a8 : ∀ r ∈ Args, V8 (Proc.devRef .tc r) = V (Proc.devRef .tc r) := fun r hr => by
    rw [e8]; exact (c7_keep V7 r ((by decide : ∀ r ∈ Args, r ∉ W7) r hr)).trans (a7 r hr)
  have a9 : ∀ r ∈ Args, V9 (Proc.devRef .tc r) = V (Proc.devRef .tc r) := fun r hr => by
    rw [e9]; exact (c8_keep V8 r ((by decide : ∀ r ∈ Args, r ∉ W8) r hr)).trans (a8 r hr)
  -- stretch 0: the first map's transposed copy and the three components of its start indices
  have f0 : V1 (Proc.devRef .tc main_v0) = val_main_v0 (F := F) (V (Proc.devRef .tc main_arg0)) := by rw [e1]; exact c0_v0 V _ rfl
  have f23 : V1 (Proc.devRef .tc main_v23) = val_main_v23 (F := F) := by rw [e1]; exact c0_v23 V
  have f24 : V1 (Proc.devRef .tc main_v24) = val_main_v24 (F := F) (V (Proc.devRef .tc main_arg6)) := by rw [e1]; exact c0_v24 V _ rfl
  have f25 : V1 (Proc.devRef .tc main_v25) = val_main_v25 (F := F) (V (Proc.devRef .tc main_arg6)) := by rw [e1]; exact c0_v25 V _ rfl
  -- stretch 1: the first map's mean
  have f32 : V2 (Proc.devRef .tc main_v32) = val_main_v32 (F := F) (V (Proc.devRef .tc main_arg0)) (V (Proc.devRef .tc main_arg6)) := by
    rw [e2]; exact c1_v32 V1 _ _ f0 f23 f24 f25
  -- stretches 2 and 3: the second map's transposed copy and start-index components
  have f33 : V3 (Proc.devRef .tc main_v33) = val_main_v33 (F := F) (V (Proc.devRef .tc main_arg1)) := by
    rw [e3]; exact c2_v33 V2 _ (a2 main_arg1 (by decide))
  have f35 : V3 (Proc.devRef .tc main_v35) = val_main_v35 (F := F) (V (Proc.devRef .tc main_arg7)) := by
    rw [e3]; exact c2_v35 V2 _ (a2 main_arg7 (by decide))
  have f37 : V3 (Proc.devRef .tc main_v37) = val_main_v37 (F := F) (V (Proc.devRef .tc main_arg7)) := by
    rw [e3]; exact c2_v37 V2 _ (a2 main_arg7 (by decide))
  have f44 : V3 (Proc.devRef .tc main_v44) = val_main_v44 (F := F) := by rw [e3]; exact c2_v44 V2
  have f46 : V3 (Proc.devRef .tc main_v46) = val_main_v46 (F := F) (V (Proc.devRef .tc main_arg7)) := by
    rw [e3]; exact c2_v46 V2 _ (a2 main_arg7 (by decide))
  have fc10 : V3 (Proc.devRef .tc main_c_10) = val_main_c_10 (F := F) := by rw [e3]; exact c2_c_10 V2
  have g32 : V3 (Proc.devRef .tc main_v32) = val_main_v32 (F := F) (V (Proc.devRef .tc main_arg0)) (V (Proc.devRef .tc main_arg6)) := by
    rw [e3]; exact (c2_keep V2 main_v32 (by decide)).trans f32
  have f56 : V4 (Proc.devRef .tc main_v56) = val_main_v56 (F := F) := by rw [e4]; exact c3_v56 V3 f44
  have f57 : V4 (Proc.devRef .tc main_v57) = val_main_v57 (F := F) (V (Proc.devRef .tc main_arg7)) := by rw [e4]; exact c3_v57 V3 _ f46 f37 fc10
  have f58 : V4 (Proc.devRef .tc main_v58) = val_main_v58 (F := F) (V (Proc.devRef .tc main_arg7)) := by rw [e4]; exact c3_v58 V3 _ f35
  have h32 : V4 (Proc.devRef .tc main_v32) = val_main_v32 (F := F) (V (Proc.devRef .tc main_arg0)) (V (Proc.devRef .tc main_arg6)) := by
    rw [e4]; exact (c3_keep V3 main_v32 (by decide)).trans g32
  have h33 : V4 (Proc.devRef .tc main_v33) = val_main_v33 (F := F) (V (Proc.devRef .tc main_arg1)) := by
    rw [e4]; exact (c3_keep V3 main_v33 (by decide)).trans f33
  -- stretch 4: the second map's mean, added
  have f64 : V5 (Proc.devRef .tc main_v64) = val_main_v64 (F := F) (V (Proc.devRef .tc main_arg0)) (V (Proc.devRef .tc main_arg1)) (V (Proc.devRef .tc main_arg6)) (V (Proc.devRef .tc main_arg7)) := by
    rw [e5]; exact c4_v64 V4 _ _ _ _ h32 h33 f56 f57 f58
  -- stretches 5 and 6: the third map
  have f65 : V6 (Proc.devRef .tc main_v65) = val_main_v65 (F := F) (V (Proc.devRef .tc main_arg2)) := by
    rw [e6]; exact c5_v65 V5 _ (a5 main_arg2 (by decide))
  have f88 : V6 (Proc.devRef .tc main_v88) = val_main_v88 (F := F) := by rw [e6]; exact c5_v88 V5
  have f89 : V6 (Proc.devRef .tc main_v89) = val_main_v89 (F := F) (V (Proc.devRef .tc main_arg8)) := by
    rw [e6]; exact c5_v89 V5 _ (a5 main_arg8 (by decide))
  have f90 : V6 (Proc.devRef .tc main_v90) = val_main_v90 (F := F) (V (Proc.devRef .tc main_arg8)) := by
    rw [e6]; exact c5_v90 V5 _ (a5 main_arg8 (by decide))
  have g64 : V6 (Proc.devRef .tc main_v64) = val_main_v64 (F := F) (V (Proc.devRef .tc main_arg0)) (V (Proc.devRef .tc main_arg1)) (V (Proc.devRef .tc main_arg6)) (V (Proc.devRef .tc main_arg7)) := by
    rw [e6]; exact (c5_keep V5 main_v64 (by decide)).trans f64
  have f93 : V7 (Proc.devRef .tc main_v93) = val_main_v93 (F := F) (V (Proc.devRef .tc main_arg2)) (V (Proc.devRef .tc main_arg8)) := by
    rw [e7]; exact c6_v93 V6 _ _ f65 f88 f89 f90
  have f94 : V7 (Proc.devRef .tc main_v94) = val_main_v94 (F := F) := by rw [e7]; exact c6_v94 V6
  have h64 : V7 (Proc.devRef .tc main_v64) = val_main_v64 (F := F) (V (Proc.devRef .tc main_arg0)) (V (Proc.devRef .tc main_arg1)) (V (Proc.devRef .tc main_arg6)) (V (Proc.devRef .tc main_arg7)) := by
    rw [e7]; exact (c6_keep V6 main_v64 (by decide)).trans g64
  -- stretch 7: the third map's mean, added; the fourth map's transposed copy and start-index components
  have f96 : V8 (Proc.devRef .tc main_v96) = val_main_v96 (F := F) (V (Proc.devRef .tc main_arg0)) (V (Proc.devRef .tc main_arg1)) (V (Proc.devRef .tc main_arg2)) (V (Proc.devRef .tc main_arg6)) (V (Proc.devRef .tc main_arg7)) (V (Proc.devRef .tc main_arg8)) := by
    rw [e8]; exact c7_v96 V7 _ _ _ _ _ _ h64 f93 f94
  have f97 : V8 (Proc.devRef .tc main_v97) = val_main_v97 (F := F) (V (Proc.devRef .tc main_arg3)) := by
    rw [e8]; exact c7_v97 V7 _ (a7 main_arg3 (by decide))
  have f120 : V8 (Proc.devRef .tc main_v120) = val_main_v120 (F := F) := by rw [e8]; exact c7_v120 V7
  have f121 : V8 (Proc.devRef .tc main_v121) = val_main_v121 (F := F) (V (Proc.devRef .tc main_arg9)) := by
    rw [e8]; exact c7_v121 V7 _ (a7 main_arg9 (by decide))
  have f122 : V8 (Proc.devRef .tc main_v122) = val_main_v122 (F := F) (V (Proc.devRef .tc main_arg9)) := by
    rw [e8]; exact c7_v122 V7 _ (a7 main_arg9 (by decide))
  -- stretch 8: the four means averaged
  have f130 : V9 (Proc.devRef .tc main_v130)
      = val_main_v130 (F := F) (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)) := by
    rw [e9]; exact c8_v130 V8 _ _ _ _ _ _ _ _ f96 f97 f120 f121 f122
  -- stretch 9: the feature row and the two dense layers
  exact c9_v140 V9 _ _ _ _ _ _ _ _ _ _ _ _ _ _ f130 (a9 main_arg4 (by decide)) (a9 main_arg5 (by decide)) (a9 main_arg10 (by decide))
    (a9 main_arg11 (by decide)) (a9 main_arg12 (by decide)) (a9 main_arg13 (by decide))

end

/-- On every device, for any float values, from any memory with zero counters: every weakly fair execution of @main
    terminates with the result buffer at the reference's last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v140) = Cert.RefRead.val_main_v140 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v140).trans (ops_v140 (launchContents m c)),
      (h c main_arg0).trans (ops_arg (launchContents m c) main_arg0 (by decide)),
      (h c main_arg1).trans (ops_arg (launchContents m c) main_arg1 (by decide)),
      (h c main_arg2).trans (ops_arg (launchContents m c) main_arg2 (by decide)),
      (h c main_arg3).trans (ops_arg (launchContents m c) main_arg3 (by decide)),
      (h c main_arg4).trans (ops_arg (launchContents m c) main_arg4 (by decide)),
      (h c main_arg5).trans (ops_arg (launchContents m c) main_arg5 (by decide)),
      (h c main_arg6).trans (ops_arg (launchContents m c) main_arg6 (by decide)),
      (h c main_arg7).trans (ops_arg (launchContents m c) main_arg7 (by decide)),
      (h c main_arg8).trans (ops_arg (launchContents m c) main_arg8 (by decide)),
      (h c main_arg9).trans (ops_arg (launchContents m c) main_arg9 (by decide)),
      (h c main_arg10).trans (ops_arg (launchContents m c) main_arg10 (by decide)),
      (h c main_arg11).trans (ops_arg (launchContents m c) main_arg11 (by decide)),
      (h c main_arg12).trans (ops_arg (launchContents m c) main_arg12 (by decide)),
      (h c main_arg13).trans (ops_arg (launchContents m c) main_arg13 (by decide))⟩)
    (run_seq scopedRefs_eq scopedSems_eq defs main (fun _ => ops) main_eq (fun _ => ops_sub) m ρ (fun _ => ops_fresh))

end Cert.RefRun

end
-- ==== Proof.lean ====
/-
  The certificate of the pooling head: a mask-and-reduce Pallas kernel against the gather-and-mean reference, over
  the extended reals, on the domain "every float input finite, every centre coordinate inside its feature map".

  * The two kernel programs (the printed one at the word level, its idealization at the extended reals) run to the end
    and leave their arguments unchanged: one launch of the region between six reshapes and a slice, with a hand-written
    body (a loop over the eight batch rows of a block that fills a scratch row by row, then a two-layer perceptron of its
    rows).
  * The reference runs to the end likewise; its result, read operation by operation, is the specification's `out`.
  * The idealized kernel's result is the specification's `out` as well: a row's pooled channel is the sum over the whole
    map of the map times a count of the centres at each position, times 1/8, which is the mean of the map at the eight
    centres once every centre is inside the map and every entry is a real number; the rest is the same perceptron.
  * The idealization pass rewrote nothing, so the `preserves` conjunct is trivial.
-/
import proofs.«414461_j46188078301471_3_alg».proof.Defs
import proofs.«414461_j46188078301471_3_alg».proof.Proof.Gen.Kernel
import proofs.«414461_j46188078301471_3_alg».proof.Proof.Gen.KernelIdeal
import proofs.«414461_j46188078301471_3_alg».proof.Proof.Gen.ReferenceIdeal
import proofs.«414461_j46188078301471_3_alg».proof.Proof.Gen.Pre_finite_inputs
import proofs.«414461_j46188078301471_3_alg».proof.Proof.BFrame
import proofs.«414461_j46188078301471_3_alg».proof.Proof.KValue
import proofs.«414461_j46188078301471_3_alg».proof.Proof.PreDom
import proofs.«414461_j46188078301471_3_alg».proof.Proof.RefValue
import proofs.«414461_j46188078301471_3_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame_args m ρ

theorem frame_ki : Cert.frame_KernelIdeal := fun m ρ _ => Cert.KernelIdeal.Hand.frame_args m ρ

theorem frame_ri : Cert.frame_ReferenceIdeal := fun m ρ _ =>
  (θ_run Cert.ReferenceIdeal.defs _ _).mono (fun _ h c => (h c).2) (Cert.RefRun.run (F := Ideal) m ρ)

/-- The precondition gives the domain at every core's launch arrays. -/
theorem dom_of (m : (ℓ : Loc Cert.KernelIdeal.nD Cert.KernelIdeal.τ Cert.KernelIdeal.sig) → Buf (Elt Ideal) ℓ) (hpre : Cert.Pre_KernelIdeal m)
    (c : Dev Cert.KernelIdeal.nD) : Cert.KernelIdeal.Hand.DomAt m c :=
  Cert.PreDom.dom_of_pre _ _ _ _ _ _ _ _ _ _ _ _ _ _ (hpre c)

/-- Both idealized programs end at the specification's `out` of the arguments. -/
theorem algebraic : Cert.algebraic_KernelIdeal_ReferenceIdeal := by
  intro m ρ m' ρ' hpre hagree
  refine ⟨fun c => Cert.KernelIdeal.Hand.specOut m c, Cert.KernelIdeal.Hand.value_run m ρ (dom_of m hpre), ?_⟩
  refine (θ_run Cert.ReferenceIdeal.defs _ _).mono (fun _ h c => ⟨(h c).1.trans ?_, (h c).2⟩) (Cert.RefRun.run (F := Ideal) m' ρ')
  obtain ⟨e0, e1, e2, e3, e4, e5, e6, e7, e8, e9, e10, e11, e12, e13⟩ := hagree c
  rw [e0, e1, e2, e3, e4, e5, e6, e7, e8, e9, e10, e11, e12, e13]
  exact Cert.RefValue.ref_eq _ _ _ _ _ _ _ _ _ _ _ _ _ _ (dom_of m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
